-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S1 .f32) (main_v83 : IVec S_ 1) (main_v84 : FVec F S16x1 .f32) (main_cst_32 : FVec F S_ .f32) : IVec S_ 1 :=
  let main_v85 : FVec F S16x1 .f32 := broadcastInDim S16x1 ![] bcast_S_S16x1 main_cst_32
  let main_v86 : IVec S16x1 1 := cmpf .olt main_v84 main_v85
  let main_c_33 : IVec S_ 1 := constantI S_ 1 1#1
  let main_v87 : IVec S_ 1 := (fun x v => Host.reduce IntOp.andi x v reducesTo_S16x1_S_d0_1 h_S_) main_v86 main_c_33
  let main_v88 : IVec S_ 1 := andi main_v83 main_v87
  let main_v89 : FVec F S1 .f32 := Host.absf main_arg20
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg16 : FVec F S32 .f32) (main_arg17 : FVec F S32x16 .f32) (main_arg18 : FVec F S16 .f32) (main_arg19 : FVec F S16x1 .f32) (main_arg20 : FVec F S1 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x16 .f32 := Host.absf main_arg17
  let main_cst_28 : FVec F S_ .f32 := constant S_ .f32 0x7F800000#32
  let main_v75 : FVec F S32x16 .f32 := broadcastInDim S32x16 ![] bcast_S_S32x16 main_cst_28
  let main_v76 : IVec S32x16 1 := cmpf .olt main_v74 main_v75
  let main_c_29 : IVec S_ 1 := constantI S_ 1 1#1
  let main_v77 : IVec S_ 1 := (fun x v => Host.reduce IntOp.andi x v reducesTo_S32x16_S_d0_1 h_S_) main_v76 main_c_29
  let main_v78 : IVec S_ 1 := andi main_v73 main_v77
  let main_v79 : FVec F S16 .f32 := Host.absf main_arg18
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16x1 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S128x64 .f32) (main_arg14 : FVec F S64 .f32) (main_arg15 : FVec F S64x32 .f32) (main_arg16 : FVec F S32 .f32) (main_arg17 : FVec F S32x16 .f32) (main_arg18 : FVec F S16 .f32) (main_arg19 : FVec F S16x1 .f32) (main_arg20 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg15
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg16 main_arg17 main_arg18 main_arg19 main_arg20 main_v63 main_v67

def fn_part2 {F : FTy → Type} [FloatOps F] (main_arg9 : FVec F S64 .f32) (main_arg10 : FVec F S64 .f32) (main_arg11 : FVec F S64x128 .f32) (main_arg12 : FVec F S128 .f32) (main_arg13 : FVec F S128x64 .f32) (main_arg14 : FVec F S64 .f32) (main_arg15 : FVec F S64x32 .f32) (main_arg16 : FVec F S32 .f32) (main_arg17 : FVec F S32x16 .f32) (main_arg18 : FVec F S16 .f32) (main_arg19 : FVec F S16x1 .f32) (main_arg20 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_v48 main_v49 main_v50

def fn_part1 {F : FTy → Type} [FloatOps F] (main_arg6 : FVec F S64 .f32) (main_arg7 : FVec F S64 .f32) (main_arg8 : FVec F S64 .f32) (main_arg9 : FVec F S64 .f32) (main_arg10 : FVec F S64 .f32) (main_arg11 : FVec F S64x128 .f32) (main_arg12 : FVec F S128 .f32) (main_arg13 : FVec F S128x64 .f32) (main_arg14 : FVec F S64 .f32) (main_arg15 : FVec F S64x32 .f32) (main_arg16 : FVec F S32 .f32) (main_arg17 : FVec F S32x16 .f32) (main_arg18 : FVec F S16 .f32) (main_arg19 : FVec F S16x1 .f32) (main_arg20 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64 .f32) (main_arg8 : FVec F S64 .f32) (main_arg9 : FVec F S64 .f32) (main_arg10 : FVec F S64 .f32) (main_arg11 : FVec F S64x128 .f32) (main_arg12 : FVec F S128 .f32) (main_arg13 : FVec F S128x64 .f32) (main_arg14 : FVec F S64 .f32) (main_arg15 : FVec F S64x32 .f32) (main_arg16 : FVec F S32 .f32) (main_arg17 : FVec F S32x16 .f32) (main_arg18 : FVec F S16 .f32) (main_arg19 : FVec F S16x1 .f32) (main_arg20 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S2x1x64 : Shape := ⟨3, ![2, 1, 64]⟩
abbrev S5000x1 : Shape := ⟨2, ![5000, 1]⟩
abbrev S1x1x64 : Shape := ⟨3, ![1, 1, 64]⟩
abbrev S2x64x64 : Shape := ⟨3, ![2, 64, 64]⟩
abbrev S1x64x64 : Shape := ⟨3, ![1, 64, 64]⟩
abbrev S64x1 : Shape := ⟨2, ![64, 1]⟩
abbrev S1x128 : Shape := ⟨2, ![1, 128]⟩
abbrev S1x32 : Shape := ⟨2, ![1, 32]⟩
abbrev S64x16 : Shape := ⟨2, ![64, 16]⟩
abbrev S1x16 : Shape := ⟨2, ![1, 16]⟩
abbrev S1x1 : Shape := ⟨2, ![1, 1]⟩

abbrev nBuf : Space → Nat
  | .hbm => 165
  | .vmem => 46
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64, .f32⟩
  | 8 => ⟨S64, .f32⟩
  | 9 => ⟨S64, .f32⟩
  | 10 => ⟨S64, .f32⟩
  | 11 => ⟨S64x128, .f32⟩
  | 12 => ⟨S128, .f32⟩
  | 13 => ⟨S128x64, .f32⟩
  | 14 => ⟨S64, .f32⟩
  | 15 => ⟨S64x32, .f32⟩
  | 16 => ⟨S32, .f32⟩
  | 17 => ⟨S32x16, .f32⟩
  | 18 => ⟨S16, .f32⟩
  | 19 => ⟨S16x1, .f32⟩
  | 20 => ⟨S1, .f32⟩
  | 21 => ⟨S1x1600000, .i32⟩
  | 22 => ⟨S1600000, .i32⟩
  | 23 => ⟨S1x1600000, .i32⟩
  | 24 => ⟨S1600000, .i32⟩
  | 25 => ⟨S_, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S100000x1, .f32⟩
  | 36 => ⟨S100000x64, .f32⟩
  | 37 => ⟨S100000x64, .f32⟩
  | 38 => ⟨S100000x64, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x64, .f32⟩
  | 48 => ⟨S_, .f32⟩
  | 49 => ⟨S100000x64, .f32⟩
  | 50 => ⟨S1600000x1, .i32⟩
  | 51 => ⟨S100000x64, .f32⟩
  | 52 => ⟨S100000x64, .f32⟩
  | 53 => ⟨S1x64, .f32⟩
  | 54 => ⟨S100000x64, .f32⟩
  | 55 => ⟨S2x1x64, .f32⟩
  | 56 => ⟨S2x1x64, .f32⟩
  | 57 => ⟨S_, .f32⟩
  | 58 => ⟨S1x64, .f32⟩
  | 59 => ⟨S_, .f32⟩
  | 60 => ⟨S1x64, .f32⟩
  | 61 => ⟨S_, .f32⟩
  | 62 => ⟨S1x64, .f32⟩
  | 63 => ⟨S1x64, .f32⟩
  | 64 => ⟨S_, .f32⟩
  | 65 => ⟨S1x64, .f32⟩
  | 66 => ⟨S1x64, .f32⟩
  | 67 => ⟨S1x64, .f32⟩
  | 68 => ⟨S1x64, .f32⟩
  | 69 => ⟨S_, .f32⟩
  | 70 => ⟨S1x64, .f32⟩
  | 71 => ⟨S1x64, .f32⟩
  | 72 => ⟨S1x64, .f32⟩
  | 73 => ⟨S1x64, .f32⟩
  | 74 => ⟨S100000x64, .f32⟩
  | 75 => ⟨S100000x64, .f32⟩
  | 76 => ⟨S100000x64, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x64, .f32⟩
  | 86 => ⟨S_, .f32⟩
  | 87 => ⟨S100000x64, .f32⟩
  | 88 => ⟨S1600000x1, .i32⟩
  | 89 => ⟨S100000x64, .f32⟩
  | 90 => ⟨S100000x64, .f32⟩
  | 91 => ⟨S1x64, .f32⟩
  | 92 => ⟨S100000x64, .f32⟩
  | 93 => ⟨S2x1x64, .f32⟩
  | 94 => ⟨S2x1x64, .f32⟩
  | 95 => ⟨S_, .f32⟩
  | 96 => ⟨S1x64, .f32⟩
  | 97 => ⟨S_, .f32⟩
  | 98 => ⟨S1x64, .f32⟩
  | 99 => ⟨S_, .f32⟩
  | 100 => ⟨S1x64, .f32⟩
  | 101 => ⟨S1x64, .f32⟩
  | 102 => ⟨S_, .f32⟩
  | 103 => ⟨S1x64, .f32⟩
  | 104 => ⟨S1x64, .f32⟩
  | 105 => ⟨S1x64, .f32⟩
  | 106 => ⟨S1x64, .f32⟩
  | 107 => ⟨S_, .f32⟩
  | 108 => ⟨S1x64, .f32⟩
  | 109 => ⟨S1x64, .f32⟩
  | 110 => ⟨S100000x1, .i32⟩
  | 111 => ⟨S1x64, .i32⟩
  | 112 => ⟨S100000x64, .i32⟩
  | 113 => ⟨S100000x64, .i32⟩
  | 114 => ⟨S100000x64, .i1⟩
  | 115 => ⟨S100000x64, .bf16⟩
  | 116 => ⟨S_, .f32⟩
  | 117 => ⟨S100000, .f32⟩
  | 118 => ⟨S_, .f32⟩
  | 119 => ⟨S64, .f32⟩
  | 120 => ⟨S100000x1, .i32⟩
  | 121 => ⟨S64, .f32⟩
  | 122 => ⟨S1x64, .f32⟩
  | 123 => ⟨S1x64, .f32⟩
  | 124 => ⟨S2x64x64, .f32⟩
  | 125 => ⟨S_, .f32⟩
  | 126 => ⟨S64x64, .f32⟩
  | 127 => ⟨S_, .f32⟩
  | _ => ⟨S100000x128, .f32⟩

abbrev hbmTy0_1 (i : Nat) : BufTy := match i % 128 with
  | 0 => ⟨S64, .f32⟩
  | 1 => ⟨S64, .f32⟩
  | 2 => ⟨S64x1, .f32⟩
  | 3 => ⟨S64x64, .f32⟩
  | 4 => ⟨S64x64, .f32⟩
  | 5 => ⟨S64x128, .f32⟩
  | 6 => ⟨S1x128, .f32⟩
  | 7 => ⟨S64x128, .f32⟩
  | 8 => ⟨S64x128, .f32⟩
  | 9 => ⟨S_, .f32⟩
  | 10 => ⟨S64x128, .f32⟩
  | 11 => ⟨S64x128, .f32⟩
  | 12 => ⟨S64x64, .f32⟩
  | 13 => ⟨S1x64, .f32⟩
  | 14 => ⟨S64x64, .f32⟩
  | 15 => ⟨S64x64, .f32⟩
  | 16 => ⟨S_, .f32⟩
  | 17 => ⟨S64x64, .f32⟩
  | 18 => ⟨S64x64, .f32⟩
  | 19 => ⟨S64x32, .f32⟩
  | 20 => ⟨S1x32, .f32⟩
  | 21 => ⟨S64x32, .f32⟩
  | 22 => ⟨S64x32, .f32⟩
  | 23 => ⟨S_, .f32⟩
  | 24 => ⟨S64x32, .f32⟩
  | 25 => ⟨S64x32, .f32⟩
  | 26 => ⟨S64x16, .f32⟩
  | 27 => ⟨S1x16, .f32⟩
  | 28 => ⟨S64x16, .f32⟩
  | 29 => ⟨S64x16, .f32⟩
  | 30 => ⟨S_, .f32⟩
  | 31 => ⟨S64x16, .f32⟩
  | 32 => ⟨S64x16, .f32⟩
  | 33 => ⟨S64x1, .f32⟩
  | 34 => ⟨S1x1, .f32⟩
  | 35 => ⟨S64x1, .f32⟩
  | 36 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S1x1x64, .f32⟩
  | .local _ .vmem, ⟨33, _⟩ => ⟨S1x1x64, .f32⟩
  | .local _ .vmem, ⟨34, _⟩ => ⟨S1x1x64, .f32⟩
  | .local _ .vmem, ⟨35, _⟩ => ⟨S1x1x64, .f32⟩
  | .local _ .vmem, ⟨36, _⟩ => ⟨S5000x64, .bf16⟩
  | .local _ .vmem, ⟨37, _⟩ => ⟨S5000x64, .bf16⟩
  | .local _ .vmem, ⟨38, _⟩ => ⟨S5000x64, .f32⟩
  | .local _ .vmem, ⟨39, _⟩ => ⟨S5000x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S1x64x64, .f32⟩
  | .local _ .vmem, ⟨45, _⟩ => ⟨S1x64x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27_0 : Ref sig .tc := ⟨.hbm, 54, rfl⟩
abbrev main_v27_1 : Ref sig .tc := ⟨.hbm, 55, rfl⟩
abbrev main_v27_2 : Ref sig .tc := ⟨.hbm, 56, rfl⟩
abbrev main_cst_4 : Ref sig .tc := ⟨.hbm, 57, rfl⟩
abbrev main_v28 : Ref sig .tc := ⟨.hbm, 58, rfl⟩
abbrev main_cst_5 : Ref sig .tc := ⟨.hbm, 59, rfl⟩
abbrev main_v29 : Ref sig .tc := ⟨.hbm, 60, rfl⟩
abbrev main_cst_6 : Ref sig .tc := ⟨.hbm, 61, rfl⟩
abbrev main_v30 : Ref sig .tc := ⟨.hbm, 62, rfl⟩
abbrev main_v31 : Ref sig .tc := ⟨.hbm, 63, rfl⟩
abbrev main_cst_7 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_8 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_9 : Ref sig .tc := ⟨.hbm, 77, rfl⟩
abbrev main_v43 : Ref sig .tc := ⟨.hbm, 78, rfl⟩
abbrev main_v44 : Ref sig .tc := ⟨.hbm, 79, rfl⟩
abbrev main_c_10 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_11 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55_0 : Ref sig .tc := ⟨.hbm, 92, rfl⟩
abbrev main_v55_1 : Ref sig .tc := ⟨.hbm, 93, rfl⟩
abbrev main_v55_2 : Ref sig .tc := ⟨.hbm, 94, rfl⟩
abbrev main_cst_12 : Ref sig .tc := ⟨.hbm, 95, rfl⟩
abbrev main_v56 : Ref sig .tc := ⟨.hbm, 96, rfl⟩
abbrev main_cst_13 : Ref sig .tc := ⟨.hbm, 97, rfl⟩
abbrev main_v57 : Ref sig .tc := ⟨.hbm, 98, rfl⟩
abbrev main_cst_14 : Ref sig .tc := ⟨.hbm, 99, rfl⟩
abbrev main_v58 : Ref sig .tc := ⟨.hbm, 100, rfl⟩
abbrev main_v59 : Ref sig .tc := ⟨.hbm, 101, rfl⟩
abbrev main_cst_15 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_16 : Ref sig .tc := ⟨.hbm, 107, rfl⟩
abbrev main_v64 : Ref sig .tc := ⟨.hbm, 108, rfl⟩
abbrev main_v65 : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_v66 : Ref sig .tc := ⟨.hbm, 115, rfl⟩
abbrev main_cst_17 : Ref sig .tc := ⟨.hbm, 116, rfl⟩
abbrev main_v67 : Ref sig .tc := ⟨.hbm, 117, rfl⟩
abbrev main_cst_18 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_19 : Ref sig .tc := ⟨.hbm, 125, rfl⟩
abbrev main_v74 : Ref sig .tc := ⟨.hbm, 126, rfl⟩
abbrev main_cst_20 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_call1_cst : Ref sig .tc := ⟨.hbm, 137, rfl⟩
abbrev main_call1_v0 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_call2_cst : Ref sig .tc := ⟨.hbm, 144, rfl⟩
abbrev main_call2_v0 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_call3_cst : Ref sig .tc := ⟨.hbm, 151, rfl⟩
abbrev main_call3_v0 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_call4_cst : Ref sig .tc := ⟨.hbm, 158, rfl⟩
abbrev main_call4_v0 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![2, 10], ![false, false]⟩

def cc3_transform_0 (i : grid3.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x1x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x1x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨2, ![2, 10], ![false, false]⟩

def cc4_transform_0 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S1x64x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  inb_S1x1x64_S1x1x64_0_0_0 : ∀ a, (![0, 0, 0] : Fin 3 → Nat) a + S1x1x64.size a ≤ S1x1x64.size a
  h_S1x1x64 : 0 < S1x1x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1x1x64_S1x1x64 : S1x1x64.ShapeCasts S1x1x64
  reduces_S5000x64_S64 : S5000x64.Reduces [0] S64
  shapeCasts_S1x64_S1x1x64 : S1x64.ShapeCasts S1x1x64
  reducesTo_S2x1x64_S1x64_d0 : S2x1x64.ReducesTo [0] S1x64
  h_S_ : 0 < S_.numel
  bcast_S_S1x64 : S_.BroadcastsInDim S1x64 (![] : Fin 0 → Fin S1x64.rank)
  inb_S64x64_S64x64_0_0 : ∀ a, (![0, 0] : Fin 2 → Nat) a + S64x64.size a ≤ S64x64.size a
  h_S64x64 : 0 < S64x64.numel
  bcast_S100000_S100000x1_0 : S100000.BroadcastsInDim S100000x1 (![0] : Fin 1 → Fin S100000x1.rank)
  bcast_S1x64_S100000x64_0_1 : S1x64.BroadcastsInDim S100000x64 (![0, 1] : Fin 2 → Fin S100000x64.rank)
  bcast_S_S64 : S_.BroadcastsInDim S64 (![] : Fin 0 → Fin S64.rank)
  inb_S1x64x64_S1x64x64_0_0_0 : ∀ a, (![0, 0, 0] : Fin 3 → Nat) a + S1x64x64.size a ≤ S1x64x64.size a
  h_S1x64x64 : 0 < S1x64x64.numel
  shapeCasts_S1x64x64_S1x64x64 : S1x64x64.ShapeCasts S1x64x64
  shapeCasts_S64x64_S1x64x64 : S64x64.ShapeCasts S1x64x64
  reducesTo_S2x64x64_S64x64_d0 : S2x64x64.ReducesTo [0] S64x64
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S64_S100000x1_S100000_n_0_0_1_wf : ScatterDims.WF S64 S100000x1 S100000 [] [0] [0] 1
  dot_S5000x64_S5000x64_S64x64_0_0_1_1_n_n_wf : DotDims.WF S5000x64 S5000x64 S64x64 [0] [0] [1] [1] [] []
  dot_S64x64_S64x128_S64x128_1_0_0_1_n_n_wf : DotDims.WF S64x64 S64x128 S64x128 [1] [0] [0] [1] [] []
  dot_S64x128_S128x64_S64x64_1_0_0_1_n_n_wf : DotDims.WF S64x128 S128x64 S64x64 [1] [0] [0] [1] [] []
  dot_S64x64_S64x32_S64x32_1_0_0_1_n_n_wf : DotDims.WF S64x64 S64x32 S64x32 [1] [0] [0] [1] [] []
  dot_S64x32_S32x16_S64x16_1_0_0_1_n_n_wf : DotDims.WF S64x32 S32x16 S64x16 [1] [0] [0] [1] [] []
  dot_S64x16_S16x1_S64x1_1_0_0_1_n_n_wf : DotDims.WF S64x16 S16x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x64.size a ≤ S2x1x64.size a
  hwx1_4 : ∀ i : grid1.Coords, EltTy.bits .f32 = 32 ∨ (Rect.block (s := S2x1x64) S1x1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x64.size a ≤ S2x1x64.size a
  hwx1_5 : ∀ i : grid1.Coords, EltTy.bits .f32 = 32 ∨ (Rect.block (s := S2x1x64) S1x1x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x64.size a ≤ S2x1x64.size a
  hwx3_4 : ∀ i : grid3.Coords, EltTy.bits .f32 = 32 ∨ (Rect.block (s := S2x1x64) S1x1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x64.size a ≤ S2x1x64.size a
  hwx3_5 : ∀ i : grid3.Coords, EltTy.bits .f32 = 32 ∨ (Rect.block (s := S2x1x64) S1x1x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .bf16 = 32 ∨ (Rect.block (s := S100000x64) S5000x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x64x64.size a ≤ S2x64x64.size a
  hwx4_6 : ∀ i : grid4.Coords, EltTy.bits .f32 = 32 ∨ (Rect.block (s := S2x64x64) S1x64x64.size (cc4_transform_6 i) (hinb4_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27_1) S1x1x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27_2) S1x1x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v53) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55_0) S5000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v55_1) S1x1x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v55_2) S1x1x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v66) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55_0) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v73) S1x64x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S64x1 : Shape := ⟨2, ![64, 1]⟩
abbrev S1x128 : Shape := ⟨2, ![1, 128]⟩
abbrev S1x32 : Shape := ⟨2, ![1, 32]⟩
abbrev S64x16 : Shape := ⟨2, ![64, 16]⟩
abbrev S1x16 : Shape := ⟨2, ![1, 16]⟩
abbrev S1x1 : Shape := ⟨2, ![1, 1]⟩

abbrev nBuf : Space → Nat
  | .hbm => 237
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64, .f32⟩
  | 8 => ⟨S64, .f32⟩
  | 9 => ⟨S64, .f32⟩
  | 10 => ⟨S64, .f32⟩
  | 11 => ⟨S64x128, .f32⟩
  | 12 => ⟨S128, .f32⟩
  | 13 => ⟨S128x64, .f32⟩
  | 14 => ⟨S64, .f32⟩
  | 15 => ⟨S64x32, .f32⟩
  | 16 => ⟨S32, .f32⟩
  | 17 => ⟨S32x16, .f32⟩
  | 18 => ⟨S16, .f32⟩
  | 19 => ⟨S16x1, .f32⟩
  | 20 => ⟨S1, .f32⟩
  | 21 => ⟨S1x1600000, .i32⟩
  | 22 => ⟨S1600000, .i32⟩
  | 23 => ⟨S1x1600000, .i32⟩
  | 24 => ⟨S1600000, .i32⟩
  | 25 => ⟨S100000x64, .f32⟩
  | 26 => ⟨S100000, .i32⟩
  | 27 => ⟨S1700000, .i32⟩
  | 28 => ⟨S1700000, .i32⟩
  | 29 => ⟨S_, .f32⟩
  | 30 => ⟨S1700000, .f32⟩
  | 31 => ⟨S_, .f32⟩
  | 32 => ⟨S100000, .f32⟩
  | 33 => ⟨S1700000x1, .i32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S1700000x1, .i32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S_, .f32⟩
  | 78 => ⟨S64, .f32⟩
  | 79 => ⟨S_, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S100000x64, .f32⟩
  | 86 => ⟨S_, .f32⟩
  | 87 => ⟨S64, .f32⟩
  | 88 => ⟨S_, .f32⟩
  | 89 => ⟨S64, .f32⟩
  | 90 => ⟨S64, .f32⟩
  | 91 => ⟨S1x64, .f32⟩
  | 92 => ⟨S100000x64, .f32⟩
  | 93 => ⟨S100000x64, .f32⟩
  | 94 => ⟨S_, .f32⟩
  | 95 => ⟨S64, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S100000x64, .f32⟩
  | 108 => ⟨S100000, .i32⟩
  | 109 => ⟨S1700000, .i32⟩
  | 110 => ⟨S1700000, .i32⟩
  | 111 => ⟨S_, .f32⟩
  | 112 => ⟨S1700000, .f32⟩
  | 113 => ⟨S_, .f32⟩
  | 114 => ⟨S100000, .f32⟩
  | 115 => ⟨S1700000x1, .i32⟩
  | 116 => ⟨S100000, .f32⟩
  | 117 => ⟨S100000, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000, .f32⟩
  | 127 => ⟨S_, .i32⟩
  | _ => ⟨S100000x128, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000, .f32⟩
  | 8 => ⟨S1700000, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S1700000x64, .f32⟩
  | 18 => ⟨S1700000x1, .f32⟩
  | 19 => ⟨S1700000x64, .f32⟩
  | 20 => ⟨S1700000x64, .f32⟩
  | 21 => ⟨S_, .f32⟩
  | 22 => ⟨S100000x64, .f32⟩
  | 23 => ⟨S1700000x1, .i32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S_, .f32⟩
  | 32 => ⟨S64, .f32⟩
  | 33 => ⟨S_, .f32⟩
  | 34 => ⟨S64, .f32⟩
  | 35 => ⟨S64, .f32⟩
  | 36 => ⟨S1x64, .f32⟩
  | 37 => ⟨S100000x64, .f32⟩
  | 38 => ⟨S100000x64, .f32⟩
  | 39 => ⟨S100000x64, .f32⟩
  | 40 => ⟨S_, .f32⟩
  | 41 => ⟨S64, .f32⟩
  | 42 => ⟨S_, .f32⟩
  | 43 => ⟨S64, .f32⟩
  | 44 => ⟨S64, .f32⟩
  | 45 => ⟨S1x64, .f32⟩
  | 46 => ⟨S100000x64, .f32⟩
  | 47 => ⟨S100000x64, .f32⟩
  | 48 => ⟨S_, .f32⟩
  | 49 => ⟨S64, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S1x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S64x64, .f32⟩
  | 63 => ⟨S100000x1, .i32⟩
  | 64 => ⟨S64x64, .f32⟩
  | 65 => ⟨S_, .f32⟩
  | 66 => ⟨S100000, .f32⟩
  | 67 => ⟨S_, .f32⟩
  | 68 => ⟨S64, .f32⟩
  | 69 => ⟨S100000x1, .i32⟩
  | 70 => ⟨S64, .f32⟩
  | 71 => ⟨S_, .f32⟩
  | 72 => ⟨S64, .f32⟩
  | 73 => ⟨S64, .f32⟩
  | 74 => ⟨S64x1, .f32⟩
  | 75 => ⟨S64x64, .f32⟩
  | 76 => ⟨S64x64, .f32⟩
  | 77 => ⟨S64x128, .f32⟩
  | 78 => ⟨S1x128, .f32⟩
  | 79 => ⟨S64x128, .f32⟩
  | 80 => ⟨S64x128, .f32⟩
  | 81 => ⟨S_, .f32⟩
  | 82 => ⟨S64x128, .f32⟩
  | 83 => ⟨S64x128, .f32⟩
  | 84 => ⟨S64x64, .f32⟩
  | 85 => ⟨S1x64, .f32⟩
  | 86 => ⟨S64x64, .f32⟩
  | 87 => ⟨S64x64, .f32⟩
  | 88 => ⟨S_, .f32⟩
  | 89 => ⟨S64x64, .f32⟩
  | 90 => ⟨S64x64, .f32⟩
  | 91 => ⟨S64x32, .f32⟩
  | 92 => ⟨S1x32, .f32⟩
  | 93 => ⟨S64x32, .f32⟩
  | 94 => ⟨S64x32, .f32⟩
  | 95 => ⟨S_, .f32⟩
  | 96 => ⟨S64x32, .f32⟩
  | 97 => ⟨S64x32, .f32⟩
  | 98 => ⟨S64x16, .f32⟩
  | 99 => ⟨S1x16, .f32⟩
  | 100 => ⟨S64x16, .f32⟩
  | 101 => ⟨S64x16, .f32⟩
  | 102 => ⟨S_, .f32⟩
  | 103 => ⟨S64x16, .f32⟩
  | 104 => ⟨S64x16, .f32⟩
  | 105 => ⟨S64x1, .f32⟩
  | 106 => ⟨S1x1, .f32⟩
  | 107 => ⟨S64x1, .f32⟩
  | 108 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_v28 : Ref sig .tc := ⟨.hbm, 56, rfl⟩
abbrev main_v29 : Ref sig .tc := ⟨.hbm, 57, rfl⟩
abbrev main_c_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call0_cst : Ref sig .tc := ⟨.hbm, 74, rfl⟩
abbrev main_call0_v0 : Ref sig .tc := ⟨.hbm, 75, rfl⟩
abbrev main_v44 : Ref sig .tc := ⟨.hbm, 76, rfl⟩
abbrev main_cst_7 : Ref sig .tc := ⟨.hbm, 77, rfl⟩
abbrev main_v45 : Ref sig .tc := ⟨.hbm, 78, rfl⟩
abbrev main_cst_8 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_9 : Ref sig .tc := ⟨.hbm, 86, rfl⟩
abbrev main_v52 : Ref sig .tc := ⟨.hbm, 87, rfl⟩
abbrev main_cst_10 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_11 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_12 : Ref sig .tc := ⟨.hbm, 111, rfl⟩
abbrev main_v74 : Ref sig .tc := ⟨.hbm, 112, rfl⟩
abbrev main_cst_13 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_14 : Ref sig .tc := ⟨.hbm, 118, rfl⟩
abbrev main_v79 : Ref sig .tc := ⟨.hbm, 119, rfl⟩
abbrev main_v80 : Ref sig .tc := ⟨.hbm, 120, rfl⟩
abbrev main_c_15 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_16 : Ref sig .tc := ⟨.hbm, 127, rfl⟩
abbrev main_v86 : Ref sig .tc := ⟨.hbm, 128, rfl⟩
abbrev main_v87 : Ref sig .tc := ⟨.hbm, 129, rfl⟩
abbrev main_c_17 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_18 : Ref sig .tc := ⟨.hbm, 137, rfl⟩
abbrev main_v94 : Ref sig .tc := ⟨.hbm, 138, rfl⟩
abbrev main_v95 : Ref sig .tc := ⟨.hbm, 139, rfl⟩
abbrev main_c_19 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_20 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_call1_cst : Ref sig .tc := ⟨.hbm, 156, rfl⟩
abbrev main_call1_v0 : Ref sig .tc := ⟨.hbm, 157, rfl⟩
abbrev main_v110 : Ref sig .tc := ⟨.hbm, 158, rfl⟩
abbrev main_cst_21 : Ref sig .tc := ⟨.hbm, 159, rfl⟩
abbrev main_v111 : Ref sig .tc := ⟨.hbm, 160, rfl⟩
abbrev main_cst_22 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_23 : Ref sig .tc := ⟨.hbm, 168, rfl⟩
abbrev main_v118 : Ref sig .tc := ⟨.hbm, 169, rfl⟩
abbrev main_cst_24 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_25 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_26 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_27 : Ref sig .tc := ⟨.hbm, 193, rfl⟩
abbrev main_v139 : Ref sig .tc := ⟨.hbm, 194, rfl⟩
abbrev main_cst_28 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_29 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_call2_cst : Ref sig .tc := ⟨.hbm, 209, rfl⟩
abbrev main_call2_v0 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_call3_cst : Ref sig .tc := ⟨.hbm, 216, rfl⟩
abbrev main_call3_v0 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_call4_cst : Ref sig .tc := ⟨.hbm, 223, rfl⟩
abbrev main_call4_v0 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_call5_cst : Ref sig .tc := ⟨.hbm, 230, rfl⟩
abbrev main_call5_v0 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S1x64_S64x64_0_1 : S1x64.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x128_S64x128_1_0_0_1_n_n_wf : DotDims.WF S64x64 S64x128 S64x128 [1] [0] [0] [1] [] []
  dot_S64x128_S128x64_S64x64_1_0_0_1_n_n_wf : DotDims.WF S64x128 S128x64 S64x64 [1] [0] [0] [1] [] []
  dot_S64x64_S64x32_S64x32_1_0_0_1_n_n_wf : DotDims.WF S64x64 S64x32 S64x32 [1] [0] [0] [1] [] []
  dot_S64x32_S32x16_S64x16_1_0_0_1_n_n_wf : DotDims.WF S64x32 S32x16 S64x16 [1] [0] [0] [1] [] []
  dot_S64x16_S16x1_S64x1_1_0_0_1_n_n_wf : DotDims.WF S64x16 S16x1 S64x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x128_S64x128_1_0_0_1_n_n : DotDims S64x64 S64x128 S64x128 where
  lhsContracting := [1]
  rhsContracting := [0]
  lhsNonContracting := [0]
  rhsNonContracting := [1]
  lhsBatch := []
  rhsBatch := []
  wf := dot_S64x64_S64x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x16_S64x16_1_0_0_1_n_n : DotDims S64x32 S32x16 S64x16 where
  lhsContracting := [1]
  rhsContracting := [0]
  lhsNonContracting := [0]
  rhsNonContracting := [1]
  lhsBatch := []
  rhsBatch := []
  wf := dot_S64x32_S32x16_S64x16_1_0_0_1_n_n_wf
def dot_S64x16_S16x1_S64x1_1_0_0_1_n_n : DotDims S64x16 S16x1 S64x1 where
  lhsContracting := [1]
  rhsContracting := [0]
  lhsNonContracting := [0]
  rhsNonContracting := [1]
  lhsBatch := []
  rhsBatch := []
  wf := dot_S64x16_S16x1_S64x1_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# The two programs as functions of their arguments

A two-layer graph convolution network with batch normalisation, mean pooling over graphs and a small dense tail,
written twice at the ideal values, index by index.

The first form follows the tiled program: the degree normalisation is split as `dinv[src] * dinv[dst]`, the factor of
the source applied to the projected rows before the edge gather, the factor of the destination after the scatter sum,
the self loop added as one more term; the column sums of batch normalisation are taken tile by tile on two cores, the
variance as the mean of squares less the squared mean, capped below at zero; the pooling is a product with the one-hot
matrix of the graph labels, again tile by tile.

The second form follows the plain program: the self loops are appended to the edge list, each message is scaled by
the product of the two factors, the variance is the mean of the squared deviations, the pooling a scatter sum.
-/

noncomputable section

namespace Cert.Spec

open Idealize.ShloMosaic

abbrev NN : ℕ := 100000
abbrev EE : ℕ := 1600000

/-- The four float words the programs carry: zero, one, the number of nodes, and the variance's epsilon. -/
abbrev c0 : EReal := Ideal.ofBits .f32 0x00000000#32
abbrev c1 : EReal := Ideal.ofBits .f32 0x3F800000#32
abbrev cN : EReal := Ideal.ofBits .f32 0x47C35000#32
abbrev ceps : EReal := Ideal.ofBits .f32 0x3727C5AC#32

/-- The arguments, each array as a function of its coordinates; the integer arrays as their words. -/
structure Args where
  x : Fin NN → Fin 128 → EReal
  src : Fin EE → BitVec 32
  dst : Fin EE → BitVec 32
  batch : Fin NN → BitVec 32
  W1 : Fin 128 → Fin 64 → EReal
  b1 : Fin 64 → EReal
  W2 : Fin 64 → Fin 64 → EReal
  b2 : Fin 64 → EReal
  gamma1 : Fin 64 → EReal
  beta1 : Fin 64 → EReal
  gamma2 : Fin 64 → EReal
  beta2 : Fin 64 → EReal
  fW1 : Fin 64 → Fin 128 → EReal
  fb1 : Fin 128 → EReal
  fW2 : Fin 128 → Fin 64 → EReal
  fb2 : Fin 64 → EReal
  fW3 : Fin 64 → Fin 32 → EReal
  fb3 : Fin 32 → EReal
  fW4 : Fin 32 → Fin 16 → EReal
  fb4 : Fin 16 → EReal
  oW : Fin 16 → Fin 1 → EReal
  ob : Fin 1 → EReal

/-- An extended real that is a real number. -/
def IsR (v : EReal) : Prop := ∃ r : ℝ, v = (r : EReal)

/-- Every float argument holds real numbers. -/
structure Args.Finite (a : Args) : Prop where
  x : ∀ n k, IsR (a.x n k)
  W1 : ∀ k j, IsR (a.W1 k j)
  b1 : ∀ j, IsR (a.b1 j)
  W2 : ∀ k j, IsR (a.W2 k j)
  b2 : ∀ j, IsR (a.b2 j)
  gamma1 : ∀ j, IsR (a.gamma1 j)
  beta1 : ∀ j, IsR (a.beta1 j)
  gamma2 : ∀ j, IsR (a.gamma2 j)
  beta2 : ∀ j, IsR (a.beta2 j)

/-- A node index as the programs normalise it before a gather: a negative word has the number of nodes added. -/
def nrm (b : BitVec 32) : BitVec 32 := Scalar.select (IntOp.cmpi .slt b 0#32) (IntOp.addi b 100000#32) b

/-- The row a gather reads for the index word `b`: the normalised word, read signed and clamped into the table. -/
def gix (b : BitVec 32) : Fin NN :=
  ⟨min (nrm b).toInt.toNat (NN - 1), Nat.lt_of_le_of_lt (Nat.min_le_right _ _) (by decide)⟩

/-- Rows of `X` against the columns of `W`. -/
def proj {K M : ℕ} (X : Fin NN → Fin K → EReal) (W : Fin K → Fin M → EReal) (n : Fin NN) (j : Fin M) : EReal :=
  ∑ k : Fin K, X n k * W k j

/-- Batch normalisation of column `j` at row `n` from a given mean and variance. -/
def bn (h : Fin NN → Fin 64 → EReal) (mu var gamma beta : Fin 64 → EReal) (n : Fin NN) (j : Fin 64) : EReal :=
  (h n j - mu j) * Ideal.rsqrt (var j + ceps) * gamma j + beta j

/-! ## The tiled form -/

/-- In-degree plus the self loop. -/
def degK (a : Args) (i : Fin NN) : EReal :=
  (c0 + ∑ e : Fin EE, if (a.dst e).toInt = (i.val : Int) then c1 else 0) + c1

def dinvK (a : Args) (i : Fin NN) : EReal := Ideal.rsqrt (degK a i)

/-- The scaled rows gathered along the edges and summed at their destinations, plus the node's own scaled row. -/
def aggK (a : Args) (P : Fin NN → Fin 64 → EReal) (i : Fin NN) (j : Fin 64) : EReal :=
  (c0 + ∑ e : Fin EE, if (a.dst e).toInt = (i.val : Int) then P (gix (a.src e)) j * dinvK a (gix (a.src e)) else 0)
    + P i j * dinvK a i

/-- The layer's activation: the aggregate scaled by the destination's factor, plus the bias, positive part. -/
def actK (a : Args) (P : Fin NN → Fin 64 → EReal) (b : Fin 64 → EReal) (i : Fin NN) (j : Fin 64) : EReal :=
  max (aggK a P i j * dinvK a i + b j) c0

/-- Row `r` of tile `k` of core `c`: twenty tiles of five thousand rows, ten to a core. -/
def rowOf (c : Fin 2) (k : Fin 10) (r : Fin 5000) : Fin NN :=
  ⟨(c.val * 10 + k.val) * 5000 + r.val, by have := c.isLt; have := k.isLt; have := r.isLt; show _ < 100000; omega⟩

def sumPartK (h : Fin NN → Fin 64 → EReal) (c : Fin 2) (j : Fin 64) : EReal :=
  ∑ k : Fin 10, ∑ r : Fin 5000, h (rowOf c k r) j

def sqPartK (h : Fin NN → Fin 64 → EReal) (c : Fin 2) (j : Fin 64) : EReal :=
  ∑ k : Fin 10, ∑ r : Fin 5000, h (rowOf c k r) j * h (rowOf c k r) j

def muK (h : Fin NN → Fin 64 → EReal) (j : Fin 64) : EReal :=
  Ideal.div (c0 + ∑ c : Fin 2, sumPartK h c j) cN

def varK (h : Fin NN → Fin 64 → EReal) (j : Fin 64) : EReal :=
  max (Ideal.div (c0 + ∑ c : Fin 2, sqPartK h c j) cN - muK h j * muK h j) c0

def h1K (a : Args) : Fin NN → Fin 64 → EReal := actK a (proj a.x a.W1) a.b1
def bn1K (a : Args) : Fin NN → Fin 64 → EReal := bn (h1K a) (muK (h1K a)) (varK (h1K a)) a.gamma1 a.beta1
def p2K (a : Args) : Fin NN → Fin 64 → EReal := proj (bn1K a) a.W2
def h2K (a : Args) : Fin NN → Fin 64 → EReal := actK a (p2K a) a.b2
def bn2K (a : Args) : Fin NN → Fin 64 → EReal := bn (h2K a) (muK (h2K a)) (varK (h2K a)) a.gamma2 a.beta2

/-- The one-hot matrix of the graph labels. -/
def ohS (a : Args) (n : Fin NN) (g : Fin 64) : EReal := if a.batch n = BitVec.ofNat 32 g.val then 1 else 0

def poolPartK (a : Args) (c : Fin 2) (g j : Fin 64) : EReal :=
  ∑ k : Fin 10, ∑ r : Fin 5000, ohS a (rowOf c k r) g * bn2K a (rowOf c k r) j

def poolK (a : Args) (g j : Fin 64) : EReal := c0 + ∑ c : Fin 2, poolPartK a c g j

/-! ## The plain form -/

/-- The edge list with the self loops appended: sources, destinations. -/
def sR (a : Args) (e : Fin (EE + NN)) : BitVec 32 :=
  if h : e.val < EE then a.src ⟨e.val, h⟩ else BitVec.ofNat 32 (e.val - EE)
def dR (a : Args) (e : Fin (EE + NN)) : BitVec 32 :=
  if h : e.val < EE then a.dst ⟨e.val, h⟩ else BitVec.ofNat 32 (e.val - EE)

def degR (a : Args) (i : Fin NN) : EReal :=
  c0 + ∑ e : Fin (EE + NN), if (dR a e).toInt = (i.val : Int) then c1 else 0

def dinvR (a : Args) (i : Fin NN) : EReal := Ideal.rsqrt (degR a i)

def actR (a : Args) (P : Fin NN → Fin 64 → EReal) (b : Fin 64 → EReal) (i : Fin NN) (j : Fin 64) : EReal :=
  max ((c0 + ∑ e : Fin (EE + NN), if (dR a e).toInt = (i.val : Int)
      then P (gix (sR a e)) j * (dinvR a (gix (sR a e)) * dinvR a (gix (dR a e))) else 0) + b j) c0

def muR (h : Fin NN → Fin 64 → EReal) (j : Fin 64) : EReal := Ideal.div (c0 + ∑ n : Fin NN, h n j) cN

def varR (h : Fin NN → Fin 64 → EReal) (j : Fin 64) : EReal :=
  Ideal.div (c0 + ∑ n : Fin NN, (h n j - muR h j) * (h n j - muR h j)) cN

def h1R (a : Args) : Fin NN → Fin 64 → EReal := actR a (proj a.x a.W1) a.b1
def bn1R (a : Args) : Fin NN → Fin 64 → EReal := bn (h1R a) (muR (h1R a)) (varR (h1R a)) a.gamma1 a.beta1
def p2R (a : Args) : Fin NN → Fin 64 → EReal := proj (bn1R a) a.W2
def h2R (a : Args) : Fin NN → Fin 64 → EReal := actR a (p2R a) a.b2
def bn2R (a : Args) : Fin NN → Fin 64 → EReal := bn (h2R a) (muR (h2R a)) (varR (h2R a)) a.gamma2 a.beta2

def poolR (a : Args) (g j : Fin 64) : EReal :=
  c0 + ∑ n : Fin NN, if (a.batch n).toInt = (g.val : Int) then bn2R a n j else 0

/-! ## The shared tail: mean over each graph, four dense layers with positive part, one output column -/

def cntS (a : Args) (g : Fin 64) : EReal :=
  c0 + ∑ n : Fin NN, if (a.batch n).toInt = (g.val : Int) then c1 else 0

def dense {M K : ℕ} (X : Fin 64 → Fin M → EReal) (W : Fin M → Fin K → EReal) (b : Fin K → EReal)
    (g : Fin 64) (c : Fin K) : EReal := (∑ k : Fin M, X g k * W k c) + b c

/-- The mean over each graph: the pooled sum over the count, the count capped below at one. -/
def t0F (pool : Fin 64 → Fin 64 → EReal) (cnt : Fin 64 → EReal) (g k : Fin 64) : EReal :=
  Ideal.div (pool g k) (max (cnt g) c1)

/-- A dense layer with positive part. -/
def layer {M K : ℕ} (X : Fin 64 → Fin M → EReal) (W : Fin M → Fin K → EReal) (b : Fin K → EReal)
    (g : Fin 64) (c : Fin K) : EReal := max (dense X W b g c) c0

/-- The tail from explicit weights, pooled sums and counts. -/
def tailF (fW1 : Fin 64 → Fin 128 → EReal) (fb1 : Fin 128 → EReal) (fW2 : Fin 128 → Fin 64 → EReal) (fb2 : Fin 64 → EReal)
    (fW3 : Fin 64 → Fin 32 → EReal) (fb3 : Fin 32 → EReal) (fW4 : Fin 32 → Fin 16 → EReal) (fb4 : Fin 16 → EReal)
    (oW : Fin 16 → Fin 1 → EReal) (ob : Fin 1 → EReal) (pool : Fin 64 → Fin 64 → EReal) (cnt : Fin 64 → EReal)
    (g : Fin 64) : EReal :=
  dense (layer (layer (layer (layer (t0F pool cnt) fW1 fb1) fW2 fb2) fW3 fb3) fW4 fb4) oW ob g 0

def tail (a : Args) (pool : Fin 64 → Fin 64 → EReal) (g : Fin 64) : EReal :=
  tailF a.fW1 a.fb1 a.fW2 a.fb2 a.fW3 a.fb3 a.fW4 a.fb4 a.oW a.ob pool (cntS a) g

def KSpec (a : Args) (g : Fin 64) : EReal := tail a (poolK a) g
def RSpec (a : Args) (g : Fin 64) : EReal := tail a (poolR a) g

end Cert.Spec

end
-- ==== Proof.KArgs.lean ====
import proofs.«412438_j20864951124557_2_alg».proof.KernelIdeal
import proofs.«412438_j20864951124557_2_alg».proof.Proof.Spec

/-! The arguments of the program's run, read off the launch memory coordinate by coordinate. -/

noncomputable section

namespace Cert.KernelIdeal

open Idealize.ShloMosaic Idealize.ShloMosaic.TcCoe Idealize.ShloMosaic.ValueIdx Idealize.SL.Sem

/-- The argument arrays on core `c` as functions of their coordinates. -/
def argsK (m : (ℓ : Loc nD τ sig) → Buf (Elt Ideal) ℓ) (c : Dev nD) : Cert.Spec.Args where
  x := fun n k => (m ((c.tc : Thread nD τ).loc main_arg0) : S100000x128.Idx → EReal) (ix2 n k)
  src := fun e => (m ((c.tc : Thread nD τ).loc main_arg1) : S2x1600000.Idx → BitVec 32) (ix2 (0 : Fin 2) e)
  dst := fun e => (m ((c.tc : Thread nD τ).loc main_arg1) : S2x1600000.Idx → BitVec 32) (ix2 (1 : Fin 2) e)
  batch := fun n => (m ((c.tc : Thread nD τ).loc main_arg2) : S100000.Idx → BitVec 32) (ix1 n)
  W1 := fun k j => (m ((c.tc : Thread nD τ).loc main_arg3) : S128x64.Idx → EReal) (ix2 k j)
  b1 := fun j => (m ((c.tc : Thread nD τ).loc main_arg4) : S64.Idx → EReal) (ix1 j)
  W2 := fun k j => (m ((c.tc : Thread nD τ).loc main_arg5) : S64x64.Idx → EReal) (ix2 k j)
  b2 := fun j => (m ((c.tc : Thread nD τ).loc main_arg6) : S64.Idx → EReal) (ix1 j)
  gamma1 := fun j => (m ((c.tc : Thread nD τ).loc main_arg7) : S64.Idx → EReal) (ix1 j)
  beta1 := fun j => (m ((c.tc : Thread nD τ).loc main_arg8) : S64.Idx → EReal) (ix1 j)
  gamma2 := fun j => (m ((c.tc : Thread nD τ).loc main_arg9) : S64.Idx → EReal) (ix1 j)
  beta2 := fun j => (m ((c.tc : Thread nD τ).loc main_arg10) : S64.Idx → EReal) (ix1 j)
  fW1 := fun k j => (m ((c.tc : Thread nD τ).loc main_arg11) : S64x128.Idx → EReal) (ix2 k j)
  fb1 := fun j => (m ((c.tc : Thread nD τ).loc main_arg12) : S128.Idx → EReal) (ix1 j)
  fW2 := fun k j => (m ((c.tc : Thread nD τ).loc main_arg13) : S128x64.Idx → EReal) (ix2 k j)
  fb2 := fun j => (m ((c.tc : Thread nD τ).loc main_arg14) : S64.Idx → EReal) (ix1 j)
  fW3 := fun k j => (m ((c.tc : Thread nD τ).loc main_arg15) : S64x32.Idx → EReal) (ix2 k j)
  fb3 := fun j => (m ((c.tc : Thread nD τ).loc main_arg16) : S32.Idx → EReal) (ix1 j)
  fW4 := fun k j => (m ((c.tc : Thread nD τ).loc main_arg17) : S32x16.Idx → EReal) (ix2 k j)
  fb4 := fun j => (m ((c.tc : Thread nD τ).loc main_arg18) : S16.Idx → EReal) (ix1 j)
  oW := fun k j => (m ((c.tc : Thread nD τ).loc main_arg19) : S16x1.Idx → EReal) (ix2 k j)
  ob := fun j => (m ((c.tc : Thread nD τ).loc main_arg20) : S1.Idx → EReal) (ix1 j)

end Cert.KernelIdeal

end
-- ==== Proof.KKeep.lean ====
import proofs.«412438_j20864951124557_2_alg».proof.Proof.Gen.KernelIdeal.Frame

/-!
# Buffers a segment of the run does not write

Each buffer that a later host stretch or pallas_call reads holds, at the boundary where it is read, what it held at
the boundary where it was last written (for an argument: at launch): no operation of the stretches between writes it,
and a pallas_call between either does not touch it or reads it through an input window.
-/

set_option maxRecDepth 16384

noncomputable section

namespace Cert.KernelIdeal.KVal

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W2_v11 (c : Dev nD) : W2 m ρ c (Proc.devRef .tc main_v11) = W1 m ρ c (Proc.devRef .tc main_v11) :=
  calc W2 m ρ c (Proc.devRef .tc main_v11)
    _ = W1 m ρ c (Proc.devRef .tc main_v11) := W2_of_ne m ρ c main_v11 (by decide)
theorem W2_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)
theorem W2_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)
theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_v11 (c : Dev nD) : W3 m ρ c (Proc.devRef .tc main_v11) = W1 m ρ c (Proc.devRef .tc main_v11) :=
  calc W3 m ρ c (Proc.devRef .tc main_v11)
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := W2_of_ne m ρ c main_v11 (by decide)
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W5_v27_0 (c : Dev nD) : W5 m ρ c (Proc.devRef .tc main_v27_0) = W4 m ρ c (Proc.devRef .tc main_v27_0) :=
  calc W5 m ρ c (Proc.devRef .tc main_v27_0)
    _ = W4 m ρ c (Proc.devRef .tc main_v27_0) := StableHlo.after_of_forall_not_mem (b := Proc.devRef .tc main_v27_0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W6_v11 (c : Dev nD) : W6 m ρ c (Proc.devRef .tc main_v11) = W1 m ρ c (Proc.devRef .tc main_v11) :=
  calc W6 m ρ c (Proc.devRef .tc main_v11)
    _ = W5 m ρ c (Proc.devRef .tc main_v11) := W6_of_ne m ρ c main_v11 (by decide)
    _ = W4 m ρ c (Proc.devRef .tc main_v11) := StableHlo.after_of_forall_not_mem (b := Proc.devRef .tc main_v11) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v11) := (W4_arr m ρ c 1).trans (((dat1 (V3 m ρ) c).arrAt_in 1 rfl _).trans (A_eq1 (V3 m ρ) c 1))
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := W2_of_ne m ρ c main_v11 (by decide)
theorem W6_v1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)
theorem W6_v3 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W7_v11 (c : Dev nD) : W7 m ρ c (Proc.devRef .tc main_v11) = W1 m ρ c (Proc.devRef .tc main_v11) :=
  calc W7 m ρ c (Proc.devRef .tc main_v11)
    _ = W6 m ρ c (Proc.devRef .tc main_v11) := StableHlo.after_of_forall_not_mem (b := Proc.devRef .tc main_v11) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v11) := W6_of_ne m ρ c main_v11 (by decide)
    _ = W4 m ρ c (Proc.devRef .tc main_v11) := StableHlo.after_of_forall_not_mem (b := Proc.devRef .tc main_v11) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v11) := (W4_arr m ρ c 1).trans (((dat1 (V3 m ρ) c).arrAt_in 1 rfl _).trans (A_eq1 (V3 m ρ) c 1))
    _ = W2 m ρ c (Proc.devRef .tc main_v11) := StableHlo.after_of_forall_not_mem (b := Proc.devRef .tc main_v11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v11) := W2_of_ne m ρ c main_v11 (by decide)
theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W8_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W8_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem W11_v55_0 (c : Dev nD) : W11 m ρ c (Proc.devRef .tc main_v55_0) = W8 m ρ c (Proc.devRef .tc main_v55_0) :=
  calc W11 m ρ c (Proc.devRef .tc main_v55_0)
    _ = W10 m ρ c (Proc.devRef .tc main_v55_0) := StableHlo.after_of_forall_not_mem (b := Proc.devRef .tc main_v55_0) _ _ (List.forall_iff_forall_mem.mp (by
          simp only [hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v55_0) := StableHlo.after_of_forall_not_mem (b := Proc.devRef .tc main_v55_0) _ _ (List.forall_iff_forall_mem.mp (by
          simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v55_0) := StableHlo.after_of_forall_not_mem (b := Proc.devRef .tc main_v55_0) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W12_v70 (c : Dev nD) : W12 m ρ c (Proc.devRef .tc main_v70) = W11 m ρ c (Proc.devRef .tc main_v70) :=
  calc W12 m ρ c (Proc.devRef .tc main_v70)
    _ = W11 m ρ c (Proc.devRef .tc main_v70) := W12_of_ne m ρ c main_v70 (by decide)
theorem W12_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := StableHlo.after_of_forall_not_mem (b := Proc.devRef .tc main_arg11) _ _ (List.forall_iff_forall_mem.mp (by
          simp only [hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg11) := StableHlo.after_of_forall_not_mem (b := Proc.devRef .tc main_arg11) _ _ (List.forall_iff_forall_mem.mp (by
          simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg11) := StableHlo.after_of_forall_not_mem (b := Proc.devRef .tc main_arg11) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
theorem W12_arg12 (c : Dev nD) : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := StableHlo.after_of_forall_not_mem (b := Proc.devRef .tc main_arg12) _ _ (List.forall_iff_forall_mem.mp (by
          simp only [hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg12) := StableHlo.after_of_forall_not_mem (b := Proc.devRef .tc main_arg12) _ _ (List.forall_iff_forall_mem.mp (by
          simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg12) := StableHlo.after_of_forall_not_mem (b := Proc.devRef .tc main_arg12) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl
theorem W12_arg13 (c : Dev nD) : W12 m ρ c (Proc.devRef .tc main_arg13) = m ((c : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := StableHlo.after_of_forall_not_mem (b := Proc.devRef .tc main_arg13) _ _ (List.forall_iff_forall_mem.mp (by
          simp only [hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg13) := StableHlo.after_of_forall_not_mem (b := Proc.devRef .tc main_arg13) _ _ (List.forall_iff_forall_mem.mp (by
          simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl
theorem W12_arg14 (c : Dev nD) : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := StableHlo.after_of_forall_not_mem (b := Proc.devRef .tc main_arg14) _ _ (List.forall_iff_forall_mem.mp (by
          simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl
theorem W12_arg15 (c : Dev nD) : W12 m ρ c (Proc.devRef .tc main_arg15) = m ((c : Thread nD τ).loc main_arg15) :=
  calc W12 m ρ c (Proc.devRef .tc main_arg15)
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg15) := StableHlo.after_of_forall_not_mem (b := Proc.devRef .tc main_arg15) _ _ (List.forall_iff_forall_mem.mp (by
          simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl
theorem W12_arg16 (c : Dev nD) : W12 m ρ c (Proc.devRef .tc main_arg16) = m ((c : Thread nD τ).loc main_arg16) :=
  calc W12 m ρ c (Proc.devRef .tc main_arg16)
    _ = W11 m ρ c (Proc.devRef .tc main_arg16) := W12_of_ne m ρ c main_arg16 (by decide)
    _ = W10 m ρ c (Proc.devRef .tc main_arg16) := StableHlo.after_of_forall_not_mem (b := Proc.devRef .tc main_arg16) _ _ (List.forall_iff_forall_mem.mp (by
          simp only [hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg16) := StableHlo.after_of_forall_not_mem (b := Proc.devRef .tc main_arg16) _ _ (List.forall_iff_forall_mem.mp (by
          simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl
theorem W12_arg17 (c : Dev nD) : W12 m ρ c (Proc.devRef .tc main_arg17) = m ((c : Thread nD τ).loc main_arg17) :=
  calc W12 m ρ c (Proc.devRef .tc main_arg17)
    _ = W11 m ρ c (Proc.devRef .tc main_arg17) := W12_of_ne m ρ c main_arg17 (by decide)
    _ = W10 m ρ c (Proc.devRef .tc main_arg17) := StableHlo.after_of_forall_not_mem (b := Proc.devRef .tc main_arg17) _ _ (List.forall_iff_forall_mem.mp (by
          simp only [hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg17) := StableHlo.after_of_forall_not_mem (b := Proc.devRef .tc main_arg17) _ _ (List.forall_iff_forall_mem.mp (by
          simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl
theorem W12_arg18 (c : Dev nD) : W12 m ρ c (Proc.devRef .tc main_arg18) = m ((c : Thread nD τ).loc main_arg18) :=
  calc W12 m ρ c (Proc.devRef .tc main_arg18)
    _ = W11 m ρ c (Proc.devRef .tc main_arg18) := W12_of_ne m ρ c main_arg18 (by decide)
    _ = W10 m ρ c (Proc.devRef .tc main_arg18) := StableHlo.after_of_forall_not_mem (b := Proc.devRef .tc main_arg18) _ _ (List.forall_iff_forall_mem.mp (by
          simp only [hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg18) := StableHlo.after_of_forall_not_mem (b := Proc.devRef .tc main_arg18) _ _ (List.forall_iff_forall_mem.mp (by
          simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl
theorem W12_arg19 (c : Dev nD) : W12 m ρ c (Proc.devRef .tc main_arg19) = m ((c : Thread nD τ).loc main_arg19) :=
  calc W12 m ρ c (Proc.devRef .tc main_arg19)
    _ = W11 m ρ c (Proc.devRef .tc main_arg19) := W12_of_ne m ρ c main_arg19 (by decide)
    _ = W10 m ρ c (Proc.devRef .tc main_arg19) := StableHlo.after_of_forall_not_mem (b := Proc.devRef .tc main_arg19) _ _ (List.forall_iff_forall_mem.mp (by
          simp only [hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg19) := StableHlo.after_of_forall_not_mem (b := Proc.devRef .tc main_arg19) _ _ (List.forall_iff_forall_mem.mp (by
          simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl
theorem W12_arg20 (c : Dev nD) : W12 m ρ c (Proc.devRef .tc main_arg20) = m ((c : Thread nD τ).loc main_arg20) :=
  calc W12 m ρ c (Proc.devRef .tc main_arg20)
    _ = W11 m ρ c (Proc.devRef .tc main_arg20) := W12_of_ne m ρ c main_arg20 (by decide)
    _ = W10 m ρ c (Proc.devRef .tc main_arg20) := StableHlo.after_of_forall_not_mem (b := Proc.devRef .tc main_arg20) _ _ (List.forall_iff_forall_mem.mp (by
          simp only [hostOps4_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg20) := StableHlo.after_of_forall_not_mem (b := Proc.devRef .tc main_arg20) _ _ (List.forall_iff_forall_mem.mp (by
          simp only [hostOps4_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg20) := StableHlo.after_of_forall_not_mem (b := Proc.devRef .tc main_arg20) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

end Cert.KernelIdeal.KVal

end
-- ==== Proof.LibScatterRows.lean ====
import Idealize.ShloMosaic.PureOps.Ideal
import Idealize.ShloMosaic.Lib.ValueIdx

/-!
# A host scatter-add of rows, read at an index

`out = operand.at[idx].add(updates)` with `operand : [R, C]`, one start row per update row (`idx : [N, 1]`, read
signed) and `updates : [N, C]`: update row `n` is added into operand row `idx n` when that row exists and is dropped
otherwise. At the ideal instance the result at `(r, c)` is the operand's entry plus the sum, over the update rows
`n` whose start row is `r`, of `updates (n, c)`. The same for vectors (`operand : [R]`, `updates : [N]`).
-/

noncomputable section

namespace Idealize.ShloMosaic.ScatterRows

open Idealize.ShloMosaic Idealize.ShloMosaic.ValueIdx

variable {R C N : Nat}

/-- The dimension numbers of a row scatter: window axis 1 of the updates onto axis 1 of the operand, axis 0 inserted
    and addressed by the one index component. -/
abbrev dims2 (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

variable (wf : ScatterDims.WF (⟨2, ![R, C]⟩ : Shape) ⟨2, ![N, 1]⟩ ⟨2, ![N, C]⟩ [1] [0] [0] 1)

theorem start0 {w : Nat} (n : Fin N) (q : Fin C) (idx : IVec ⟨2, ![N, 1]⟩ w) :
    (dims2 wf).start (ix2 n q) idx 0 = (idx (ix2 n 0)).toInt := by
  unfold ScatterDims.start
  rw [dif_pos (show (0 : Fin 2) ∈ [(0 : Fin 2)] by decide)]
  refine congrArg (fun k => (idx k).toInt) (funext fun b => Fin.ext ?_)
  match b with
  | ⟨0, _⟩ => rfl
  | ⟨1, _⟩ => rfl

theorem start1 {w : Nat} (n : Fin N) (q : Fin C) (idx : IVec ⟨2, ![N, 1]⟩ w) :
    (dims2 wf).start (ix2 n q) idx 1 = 0 := by
  unfold ScatterDims.start
  rw [dif_neg (show ¬ (1 : Fin 2) ∈ [(0 : Fin 2)] by decide)]

theorem window0 (n : Fin N) (q : Fin C) : (dims2 wf).window (ix2 n q) 0 = 0 := by
  have h : ¬ (0 : Fin (⟨2, ![R, C]⟩ : Shape).rank) ∈ (dims2 wf).sKept :=
    (show ¬ (0 : Fin 2) ∈ (List.finRange 2).filter (· ∉ [(0 : Fin 2)]) by decide)
  unfold ScatterDims.window
  exact dif_neg h

theorem window1 (n : Fin N) (q : Fin C) : (dims2 wf).window (ix2 n q) 1 = q.val := by
  have h : (1 : Fin (⟨2, ![R, C]⟩ : Shape).rank) ∈ (dims2 wf).sKept :=
    (show (1 : Fin 2) ∈ (List.finRange 2).filter (· ∉ [(0 : Fin 2)]) by decide)
  unfold ScatterDims.window
  exact (dif_pos h).trans rfl

/-- Update `(n, q)` lands on operand entry `(r, c)` exactly when its start row, read signed, is `r` and its column is
    `c`; a start row outside the operand lands nowhere. -/
theorem resultIdx_iff {w : Nat} (n : Fin N) (q : Fin C) (idx : IVec ⟨2, ![N, 1]⟩ w) (r : Fin R) (c : Fin C) :
    (dims2 wf).resultIdx? (ix2 n q) idx = some (ix2 r c) ↔ (idx (ix2 n 0)).toInt = (r.val : Int) ∧ q = c := by
  have hs0 := start0 wf n q idx
  have hs1 := start1 wf n q idx
  have hw0 := window0 wf n q
  have hw1 := window1 wf n q
  have hr := r.isLt
  have hq := q.isLt
  unfold ScatterDims.resultIdx?
  split
  · rename_i h
    rw [Option.some.injEq]
    constructor
    · intro e
      have e0 : ((dims2 wf).start (ix2 n q) idx 0 + ((dims2 wf).window (ix2 n q) 0 : Nat)).toNat = r.val :=
        congrArg (fun f : (⟨2, ![R, C]⟩ : Shape).Idx => (f 0).val) e
      have e1 : ((dims2 wf).start (ix2 n q) idx 1 + ((dims2 wf).window (ix2 n q) 1 : Nat)).toNat = c.val :=
        congrArg (fun f : (⟨2, ![R, C]⟩ : Shape).Idx => (f 1).val) e
      have h0 := (h 0).1
      rw [hs0, hw0] at e0 h0
      rw [hs1, hw1] at e1
      exact ⟨by omega, Fin.ext (by omega)⟩
    · rintro ⟨e0, rfl⟩
      funext a
      apply Fin.ext
      match a with
      | ⟨0, _⟩ =>
        show ((dims2 wf).start (ix2 n q) idx 0 + ((dims2 wf).window (ix2 n q) 0 : Nat)).toNat = r.val
        rw [hs0, hw0, e0]; omega
      | ⟨1, _⟩ =>
        show ((dims2 wf).start (ix2 n q) idx 1 + ((dims2 wf).window (ix2 n q) 1 : Nat)).toNat = q.val
        rw [hs1, hw1]; omega
  · rename_i h
    constructor
    · intro e; cases e
    · rintro ⟨e0, rfl⟩
      refine absurd (fun a => ?_) h
      match a with
      | ⟨0, _⟩ =>
        show (0 : Int) ≤ (dims2 wf).start (ix2 n q) idx 0 + ((dims2 wf).window (ix2 n q) 0 : Nat)
          ∧ (dims2 wf).start (ix2 n q) idx 0 + ((dims2 wf).window (ix2 n q) 0 : Nat) < (R : Nat)
        rw [hs0, hw0, e0]; omega
      | ⟨1, _⟩ =>
        show (0 : Int) ≤ (dims2 wf).start (ix2 n q) idx 1 + ((dims2 wf).window (ix2 n q) 1 : Nat)
          ∧ (dims2 wf).start (ix2 n q) idx 1 + ((dims2 wf).window (ix2 n q) 1 : Nat) < (C : Nat)
        rw [hs1, hw1]; omega

/-- THE ROW SCATTER-ADD AT AN INDEX: the operand's entry plus the sum over the update rows whose start row is `r`
    of their entry in column `c`. -/
theorem scatterAdd_apply {w : Nat} (x : (⟨2, ![R, C]⟩ : Shape).Idx → EReal) (idx : IVec ⟨2, ![N, 1]⟩ w)
    (upd : (⟨2, ![N, C]⟩ : Shape).Idx → EReal) (r : Fin R) (c : Fin C) :
    Ideal.hostScatterAdd (dims2 wf) x idx upd (ix2 r c)
      = x (ix2 r c) + ∑ n : Fin N, if (idx (ix2 n 0)).toInt = (r.val : Int) then upd (ix2 n c) else 0 := by
  unfold Ideal.hostScatterAdd
  refine congrArg (x (ix2 r c) + ·) ?_
  rw [Finset.sum_filter, sum_idx2]
  refine Finset.sum_congr rfl fun n _ => ?_
  simp only [resultIdx_iff wf]
  by_cases hn : (idx (ix2 n 0)).toInt = (r.val : Int)
  · simp only [hn, true_and, if_true]
    rw [Finset.sum_ite_eq' Finset.univ c (fun q => upd (ix2 n q)), if_pos (Finset.mem_univ c)]
  · simp only [hn, false_and, if_false, Finset.sum_const_zero]

/-! ## The same for vectors -/

/-- The dimension numbers of an entry scatter into a vector: no window axis, the operand's one axis inserted and
    addressed by the one index component. -/
abbrev dims1 (wf : ScatterDims.WF (⟨1, ![R]⟩ : Shape) ⟨2, ![N, 1]⟩ ⟨1, ![N]⟩ [] [0] [0] 1) :
    ScatterDims (⟨1, ![R]⟩ : Shape) ⟨2, ![N, 1]⟩ ⟨1, ![N]⟩ where
  updateWindowDims := []
  insertedWindowDims := [0]
  scatterDimsToOperandDims := [0]
  indexVectorDim := 1
  wf := wf

variable (wf1 : ScatterDims.WF (⟨1, ![R]⟩ : Shape) ⟨2, ![N, 1]⟩ ⟨1, ![N]⟩ [] [0] [0] 1)

theorem vstart {w : Nat} (n : Fin N) (idx : IVec ⟨2, ![N, 1]⟩ w) :
    (dims1 wf1).start (ix1 n) idx 0 = (idx (ix2 n 0)).toInt := by
  unfold ScatterDims.start
  rw [dif_pos (show (0 : Fin 1) ∈ [(0 : Fin 1)] by decide)]
  refine congrArg (fun k => (idx k).toInt) (funext fun b => Fin.ext ?_)
  match b with
  | ⟨0, _⟩ => rfl
  | ⟨1, _⟩ => rfl

theorem vwindow (n : Fin N) : (dims1 wf1).window (ix1 n) 0 = 0 := by
  have h : ¬ (0 : Fin (⟨1, ![R]⟩ : Shape).rank) ∈ (dims1 wf1).sKept :=
    (show ¬ (0 : Fin 1) ∈ (List.finRange 1).filter (· ∉ [(0 : Fin 1)]) by decide)
  unfold ScatterDims.window
  exact dif_neg h

/-- Update `n` lands on operand entry `r` exactly when its start, read signed, is `r`. -/
theorem vresultIdx_iff {w : Nat} (n : Fin N) (idx : IVec ⟨2, ![N, 1]⟩ w) (r : Fin R) :
    (dims1 wf1).resultIdx? (ix1 n) idx = some (ix1 r) ↔ (idx (ix2 n 0)).toInt = (r.val : Int) := by
  have hs0 := vstart wf1 n idx
  have hw0 := vwindow wf1 n
  have hr := r.isLt
  unfold ScatterDims.resultIdx?
  split
  · rename_i h
    rw [Option.some.injEq]
    constructor
    · intro e
      have e0 : ((dims1 wf1).start (ix1 n) idx 0 + ((dims1 wf1).window (ix1 n) 0 : Nat)).toNat = r.val :=
        congrArg (fun f : (⟨1, ![R]⟩ : Shape).Idx => (f 0).val) e
      have h0 := (h 0).1
      rw [hs0, hw0] at e0 h0
      omega
    · intro e0
      funext a
      apply Fin.ext
      match a with
      | ⟨0, _⟩ =>
        show ((dims1 wf1).start (ix1 n) idx 0 + ((dims1 wf1).window (ix1 n) 0 : Nat)).toNat = r.val
        rw [hs0, hw0, e0]; omega
  · rename_i h
    constructor
    · intro e; cases e
    · intro e0
      refine absurd (fun a => ?_) h
      match a with
      | ⟨0, _⟩ =>
        show (0 : Int) ≤ (dims1 wf1).start (ix1 n) idx 0 + ((dims1 wf1).window (ix1 n) 0 : Nat)
          ∧ (dims1 wf1).start (ix1 n) idx 0 + ((dims1 wf1).window (ix1 n) 0 : Nat) < (R : Nat)
        rw [hs0, hw0, e0]; omega

/-- A rank-1 index set is its one coordinate range. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE ENTRY SCATTER-ADD AT AN INDEX: the operand's entry plus the sum of the updates whose start is `r`. -/
theorem vscatterAdd_apply {w : Nat} (x : (⟨1, ![R]⟩ : Shape).Idx → EReal) (idx : IVec ⟨2, ![N, 1]⟩ w)
    (upd : (⟨1, ![N]⟩ : Shape).Idx → EReal) (r : Fin R) :
    Ideal.hostScatterAdd (dims1 wf1) x idx upd (ix1 r)
      = x (ix1 r) + ∑ n : Fin N, if (idx (ix2 n 0)).toInt = (r.val : Int) then upd (ix1 n) else 0 := by
  unfold Ideal.hostScatterAdd
  refine congrArg (x (ix1 r) + ·) ?_
  rw [Finset.sum_filter, sum_idx1]
  refine Finset.sum_congr rfl fun n _ => ?_
  simp only [vresultIdx_iff wf1]

end Idealize.ShloMosaic.ScatterRows

end
-- ==== Proof.LibScatterHost.lean ====
import Idealize.ShloMosaic.PureOps.Ideal
import Idealize.ShloMosaic.PureOps.Contract
import Idealize.ShloMosaic.Lib.ValueIdx
import proofs.«412438_j20864951124557_2_alg».proof.Proof.LibScatterRows

/-!
# The host's scatter-add of rows in a program's spelling, read at an index

A program states `out = operand.at[idx].add(updates)` as `Host.scatterAdd` at its dimension numbers. At the ideal
values, for the dimension numbers of a row scatter, the result at `(r, c)` is the operand's entry plus the sum, over
the update rows `n` whose start row is `r`, of `updates (n, c)`. Stated over variable arrays: a use site names its own
arrays as arguments.
-/

noncomputable section

namespace Idealize.ShloMosaic.ScatterRows

open Idealize.ShloMosaic Idealize.ShloMosaic.ValueIdx

variable {R C N : Nat}

/-- THE PROGRAM'S ROW SCATTER-ADD AT AN INDEX. -/
theorem host_scatterAdd_apply (wf : ScatterDims.WF (⟨2, ![R, C]⟩ : Shape) ⟨2, ![N, 1]⟩ ⟨2, ![N, C]⟩ [1] [0] [0] 1) {w : Nat}
    (z : (⟨2, ![R, C]⟩ : Shape).Idx → EReal) (idx : IVec ⟨2, ![N, 1]⟩ w) (upd : (⟨2, ![N, C]⟩ : Shape).Idx → EReal)
    (r : Fin R) (c : Fin C) :
    Host.scatterAdd (F := Ideal) (φ := .f32) (dims2 wf) z idx upd (ix2 r c)
      = z (ix2 r c) + ∑ n : Fin N, if (idx (ix2 n (0 : Fin 1))).toInt = (r.val : Int) then upd (ix2 n c) else 0 :=
  scatterAdd_apply wf z idx upd r c

end Idealize.ShloMosaic.ScatterRows

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KHostA0.lean ====
import proofs.«412438_j20864951124557_2_alg».proof.Proof.Gen.KernelIdeal.Launch
import proofs.«412438_j20864951124557_2_alg».proof.Proof.Spec
import proofs.«412438_j20864951124557_2_alg».proof.Proof.LibScatterHost
import proofs.«412438_j20864951124557_2_alg».proof.Proof.LibKeepdims
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-!
# The host stretch before the first region, read at coordinates

For an arbitrary valuation of the buffers, what the first stretch leaves in the buffers that later segments read, as
a function of the valuation at the edge list. The stretch splits the edge list into its sources and destinations,
counts for every node the edges that end at it, adds one for the self loop and takes the reciprocal square root, as a
column.
-/

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)

variable (W : Valuation τ sig (Elt Ideal))

/-- The edge list: row 0 the sources, row 1 the destinations. -/
abbrev bArg1 : S2x1600000.Idx → BitVec 32 := W (Proc.devRef .tc main_arg1)

/-! The layout steps of the stretch, each read at an index over variable arrays. -/

namespace A0

/-- A row of the edge list, cut out and viewed as a vector, reads the edge list at that row. -/
theorem edgeRow_apply (X : S2x1600000.Idx → BitVec 32) (r : Fin 2)
    (h : S2x1600000.Slices ![r.val, 0] S1x1600000) (e : Fin 1600000) :
    shapeCast S1600000 (extractStridedSlice S1x1600000 ![r.val, 0] X h) shapeCasts_S1x1600000_S1600000 (ix1 e)
      = X (ix2 r e) :=
  (shapeCast_1a_a_apply _ _ e).trans (slice2_axis0_apply r.val X h (0 : Fin 1) e r (Nat.add_zero _).symm)

end A0

open A0

theorem s0_src (e : Fin 1600000) :
    (StableHlo.after hostOps0 W (Proc.devRef .tc main_v1) : S1600000.Idx → BitVec 32) (ix1 e)
      = bArg1 W (ix2 (0 : Fin 2) e) := by
  dsimp only [hostOps0]
  after_results
  exact edgeRow_apply (bArg1 W) 0 _ e

theorem s0_dst (e : Fin 1600000) :
    (StableHlo.after hostOps0 W (Proc.devRef .tc main_v3) : S1600000.Idx → BitVec 32) (ix1 e)
      = bArg1 W (ix2 (1 : Fin 2) e) := by
  dsimp only [hostOps0]
  after_results
  exact edgeRow_apply (bArg1 W) 1 _ e

namespace A0

/-- A vector viewed as a one-column matrix reads, at row `n`, the vector's entry `n`. -/
theorem col_apply (v : S1600000.Idx → BitVec 32) (n : Fin 1600000) :
    broadcastInDim S1600000x1 ![0] bcast_S1600000_S1600000x1_0 v (ix2 n (0 : Fin 1)) = v (ix1 n) :=
  broadcastInDim_apply _ _ v _ _ fun a => by
    match a with
    | ⟨0, _⟩ =>
      show n.val = if (1600000 : ℕ) = 1 then 0 else n.val
      rw [if_neg (by decide)]

/-- A float word spread over a shape reads, everywhere, the extended real the word denotes. -/
theorem splat_apply {t : Shape} (h : S_.BroadcastsInDim t (![] : Fin 0 → Fin t.rank)) (w : BitVec 32) (j : t.Idx) :
    broadcastInDim t ![] h (constant (F := Ideal) S_ .f32 w) j = Ideal.ofBits .f32 w := rfl

/-- The reciprocal square root of an array, read at an index. -/
theorem hostRsqrt_apply {s : Shape} (x : FVec Ideal s .f32) (j : s.Idx) : Host.rsqrt x j = Ideal.rsqrt (x j) := rfl

/-- The scatter sum into a vector of nodes, read at a node: the operand's entry plus the updates of the edges whose
    index word, read signed, is the node. -/
theorem nodeScatter_apply (x : S100000.Idx → EReal) (idx : IVec S1600000x1 32) (upd : S1600000.Idx → EReal) (r : Fin 100000) :
    Host.scatterAdd (F := Ideal) (φ := .f32) scatter_S100000_S1600000x1_S1600000_n_0_0_1 x idx upd (ix1 r)
      = x (ix1 r) + ∑ n : Fin 1600000, if (idx (ix2 n (0 : Fin 1))).toInt = (r.val : Int) then upd (ix1 n) else 0 :=
  ScatterRows.vscatterAdd_apply scatter_S100000_S1600000x1_S1600000_n_0_0_1.wf x idx upd r

/-- Equal index words and equal terms give equal summands. -/
theorem ite_toInt_congr {a b : BitVec 32} (h : a = b) {u v : EReal} (huv : u = v) (k : Int) :
    (if a.toInt = k then u else 0) = if b.toInt = k then v else 0 := by
  subst h; subst huv; rfl

end A0

theorem s0_dinv (i : Fin 100000) :
    (StableHlo.after hostOps0 W (Proc.devRef .tc main_v11) : S100000x1.Idx → EReal) (ix2 i (0 : Fin 1))
      = Ideal.rsqrt ((Cert.Spec.c0 + ∑ e : Fin 1600000,
          if (bArg1 W (ix2 (1 : Fin 2) e)).toInt = (i.val : Int) then Cert.Spec.c1 else 0) + Cert.Spec.c1) := by
  dsimp only [hostOps0]
  after_results
  refine (Cert.Lib.shapeCast_a_a1_apply _ _ i 0).trans ?_
  refine (hostRsqrt_apply _ _).trans ?_
  refine congrArg Ideal.rsqrt ?_
  refine (addf_apply _ _ _).trans ?_
  refine congrArg₂ (· + ·) ?_ (splat_apply _ _ _)
  refine (nodeScatter_apply _ _ _ i).trans ?_
  refine congrArg₂ (· + ·) (splat_apply _ _ _) (Finset.sum_congr rfl fun n _ => ?_)
  exact ite_toInt_congr ((col_apply _ n).trans (edgeRow_apply (bArg1 W) 1 _ n)) (splat_apply _ _ _) _

end Cert.KernelIdeal.KVal

end
-- ==== Proof.LibGather2.lean ====
/-
  `stablehlo.gather` of a rank-2 operand along ONE of its axes at a column [P, 1] of start indices, read at an index:
  what `x[idx]` (rows of an [N, C] table; `gather_rows_apply`) and `jnp.take(x, idx, axis=1)` (columns of a [C, N]
  table; `gather_cols_apply`) lower to.  The gathered axis is collapsed and start-indexed, the other axis is the one
  offset axis with a whole slice, the index vector sits on axis 1 of the start indices, nothing is batched.  The
  result element reads the operand at the start index read as a SIGNED integer and clamped into [0, N − 1], as
  StableHLO's gather clamps every start index.
-/
import Idealize.ShloMosaic.PureOps
import Idealize.ShloMosaic.Lib.ValueIdx

noncomputable section

namespace Cert.LibGather2

open Idealize.ShloMosaic Idealize.ShloMosaic.ValueIdx

variable {α : Type}

/-- Rows of an [N, C] table at a column of start indices: result (p, c) is the table at (clamp idx[p, 0], c). -/
theorem gather_rows_apply {N C P w : Nat} (hN : 0 < N)
    (d : GatherDims ⟨2, ![N, C]⟩ ⟨2, ![P, 1]⟩ ⟨2, ![P, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![P, 1]⟩ w) (p : Fin P) (c : Fin C) :
    Host.gather d x idx (ix2 p c)
      = x (ix2 (⟨min (idx (ix2 p (0 : Fin 1))).toInt.toNat (N - 1), by omega⟩ : Fin N) c) := by
  unfold Host.gather
  congr 1
  funext a
  apply Fin.ext
  -- no operand axis is a batching axis
  have hb : ∀ a : Fin 2, a ∉ d.operandBatchingDims := fun a => by rw [hob]; exact List.not_mem_nil
  match a with
  | ⟨0, _⟩ =>
    -- the gathered axis: collapsed (so not kept: offset coordinate 0), start-indexed, slice size 1
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p c) idx 0 + d.batchCoord (ix2 p c) 0 + d.offCoord (ix2 p c) 0 = min _ (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix2 p (0 : Fin 1))).toInt.toNat (N - 1)
    rw [hsl]
    -- the start index is read at (p, 0)
    congr 3
    congr 1
    funext b
    match b with
    | ⟨0, _⟩ =>
      -- axis 0 of the start indices is read by the result's one batch axis, the one that is not the offset axis
      unfold GatherDims.siIdx
      rw [dif_neg (by rw [hivd]; simp)]
      unfold GatherDims.siCoord
      apply Fin.ext
      simp only [Fin.val_cast]
      have e : ∀ X : Fin 2, X ∈ d.batchDims → ((ix2 p c : (⟨2, ![P, C]⟩ : Shape).Idx) X).val = p.val := fun X hX => by
        have hX1 : X ∉ d.offsetDims := by
          have := (List.mem_filter.1 hX).2
          simpa using this
        rw [hoff] at hX1
        match X with
        | ⟨0, _⟩ => rfl
        | ⟨1, _⟩ => exact absurd (List.mem_singleton.mpr rfl) hX1
      exact e _ (List.getElem_mem _)
    | ⟨1, _⟩ =>
      -- axis 1 is the index vector's: the component of the start index for the gathered axis is component 0
      unfold GatherDims.siIdx
      rw [dif_pos (by rw [hivd])]
      apply Fin.ext
      show List.idxOf (0 : Fin 2) d.startIndexMap = 0
      rw [hsim]; simp
  | ⟨1, _⟩ =>
    -- the offset axis: kept, not start-indexed (start 0), its coordinate the result's on the one offset axis
    have hk : (1 : Fin 2) ∈ d.sKept := by rw [GatherDims.mem_sKept, hcoll, hob]; simp
    have hm : (1 : Fin 2) ∉ d.startIndexMap := by rw [hsim]; simp
    show d.start (ix2 p c) idx 1 + d.batchCoord (ix2 p c) 1 + d.offCoord (ix2 p c) 1 = c.val
    rw [GatherDims.batchCoord_eq_zero _ _ _ (hb 1), Nat.add_zero]
    unfold GatherDims.start GatherDims.offCoord
    rw [dif_neg hm, dif_pos hk, Nat.zero_add]
    have e : ∀ X : Fin 2, X ∈ d.offsetDims → ((ix2 p c : (⟨2, ![P, C]⟩ : Shape).Idx) X).val = c.val := fun X hX => by
      rw [hoff] at hX
      obtain rfl := List.mem_singleton.1 hX
      rfl
    exact e _ (List.getElem_mem _)

/-- Columns of a [C, N] table at a column of start indices: result (c, p) is the table at (c, clamp idx[p, 0]). -/
theorem gather_cols_apply {N C P w : Nat} (hN : 0 < N)
    (d : GatherDims ⟨2, ![C, N]⟩ ⟨2, ![P, 1]⟩ ⟨2, ![C, P]⟩)
    (hoff : d.offsetDims = [0]) (hcoll : d.collapsedSliceDims = [1]) (hob : d.operandBatchingDims = [])
    (hsb : d.startIndicesBatchingDims = []) (hsim : d.startIndexMap = [1]) (hivd : d.indexVectorDim = 1)
    (hss : d.sliceSizes = ![C, 1])
    (x : (⟨2, ![C, N]⟩ : Shape).Idx → α) (idx : IVec ⟨2, ![P, 1]⟩ w) (c : Fin C) (p : Fin P) :
    Host.gather d x idx (ix2 c p)
      = x (ix2 c (⟨min (idx (ix2 p (0 : Fin 1))).toInt.toNat (N - 1), by omega⟩ : Fin N)) := by
  unfold Host.gather
  congr 1
  funext a
  apply Fin.ext
  -- no operand axis is a batching axis
  have hb : ∀ a : Fin 2, a ∉ d.operandBatchingDims := fun a => by rw [hob]; exact List.not_mem_nil
  match a with
  | ⟨0, _⟩ =>
    -- the offset axis: kept, not start-indexed (start 0), its coordinate the result's on the one offset axis
    have hk : (0 : Fin 2) ∈ d.sKept := by rw [GatherDims.mem_sKept, hcoll, hob]; simp
    have hm : (0 : Fin 2) ∉ d.startIndexMap := by rw [hsim]; simp
    show d.start (ix2 c p) idx 0 + d.batchCoord (ix2 c p) 0 + d.offCoord (ix2 c p) 0 = c.val
    rw [GatherDims.batchCoord_eq_zero _ _ _ (hb 0), Nat.add_zero]
    unfold GatherDims.start GatherDims.offCoord
    rw [dif_neg hm, dif_pos hk, Nat.zero_add]
    have e : ∀ X : Fin 2, X ∈ d.offsetDims → ((ix2 c p : (⟨2, ![C, P]⟩ : Shape).Idx) X).val = c.val := fun X hX => by
      rw [hoff] at hX
      obtain rfl := List.mem_singleton.1 hX
      rfl
    exact e _ (List.getElem_mem _)
  | ⟨1, _⟩ =>
    -- the gathered axis: collapsed (so not kept: offset coordinate 0), start-indexed, slice size 1
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 c p) idx 1 + d.batchCoord (ix2 c p) 1 + d.offCoord (ix2 c p) 1 = min _ (N - 1)
    rw [GatherDims.batchCoord_eq_zero _ _ _ (hb 1), GatherDims.offCoord_eq_zero _ _ _ hk, Nat.add_zero]
    unfold GatherDims.start
    rw [dif_pos hm]
    show min (idx _).toInt.toNat (N - d.sliceSizes 1) = min (idx (ix2 p (0 : Fin 1))).toInt.toNat (N - 1)
    rw [hsl]
    -- the start index is read at (p, 0)
    congr 3
    congr 1
    funext b
    match b with
    | ⟨0, _⟩ =>
      -- axis 0 of the start indices is read by the result's one batch axis, the one that is not the offset axis
      unfold GatherDims.siIdx
      rw [dif_neg (by rw [hivd]; simp)]
      unfold GatherDims.siCoord
      apply Fin.ext
      simp only [Fin.val_cast]
      have e : ∀ X : Fin 2, X ∈ d.batchDims → ((ix2 c p : (⟨2, ![C, P]⟩ : Shape).Idx) X).val = p.val := fun X hX => by
        have hX1 : X ∉ d.offsetDims := by
          have := (List.mem_filter.1 hX).2
          simpa using this
        rw [hoff] at hX1
        match X with
        | ⟨0, _⟩ => exact absurd (List.mem_singleton.mpr rfl) hX1
        | ⟨1, _⟩ => rfl
      exact e _ (List.getElem_mem _)
    | ⟨1, _⟩ =>
      -- axis 1 is the index vector's: the component of the start index for the gathered axis is component 0
      unfold GatherDims.siIdx
      rw [dif_pos (by rw [hivd])]
      apply Fin.ext
      show List.idxOf (1 : Fin 2) d.startIndexMap = 0
      rw [hsim]; simp

end Cert.LibGather2

end
-- ==== Proof.KHostA.lean ====
import proofs.«412438_j20864951124557_2_alg».proof.Proof.Gen.KernelIdeal.Launch
import proofs.«412438_j20864951124557_2_alg».proof.Proof.Spec
import proofs.«412438_j20864951124557_2_alg».proof.Proof.LibScatterHost
import proofs.«412438_j20864951124557_2_alg».proof.Proof.LibGather2
import Idealize.ShloMosaic.Lib.StableHlo.Run
import Idealize.ShloMosaic.Lib.Pipeline.Value
import Idealize.ShloMosaic.Lib.ValueIdx

/-!
# The two stretches that aggregate a layer along the edges, read at coordinates

For an arbitrary valuation of the buffers, what each of the two stretches leaves in the buffers that later segments
read, as a function of the valuation at the buffers the stretch reads. Each scales the layer's projected rows by the
degree column, gathers the scaled rows at the normalised sources, sums them at the destinations into zeros, and adds
the node's own scaled row; and views the layer's bias vector as a row. The two stretches are the same operations on
other buffers, so the operations are composed once, over variable arrays, and read at an entry once.
-/

noncomputable section

namespace Cert.KernelIdeal.KVal

open Cert.KernelIdeal Cert.KernelIdeal.Gen Idealize.ShloMosaic Idealize.ShloMosaic.TcCoe Idealize.ShloMosaic.ValueIdx Idealize.SL.Sem

variable (W : Valuation τ sig (Elt Ideal))

/-! The buffers the two stretches read, each as a function of its coordinates. -/

/-- The sources as a vector. -/
abbrev bV1 : S1600000.Idx → BitVec 32 := W (Proc.devRef .tc main_v1)
/-- The destinations as a vector. -/
abbrev bV3 : S1600000.Idx → BitVec 32 := W (Proc.devRef .tc main_v3)
/-- The degree factor as a column. -/
abbrev bV11 : S100000x1.Idx → EReal := W (Proc.devRef .tc main_v11)
/-- The projected rows of the first layer. -/
abbrev bV12 : S100000x64.Idx → EReal := W (Proc.devRef .tc main_v12)
/-- The projected rows of the second layer. -/
abbrev bV40 : S100000x64.Idx → EReal := W (Proc.devRef .tc main_v40)
/-- The two bias vectors. -/
abbrev bArg4 : S64.Idx → EReal := W (Proc.devRef .tc main_arg4)
abbrev bArg6 : S64.Idx → EReal := W (Proc.devRef .tc main_arg6)

/-! ## The layout operations of these stretches, read at coordinates -/

section Pieces

variable {α : Type}

/-- A vector over the edges viewed as a column: the entry of its row. -/
private theorem col_of_vec_apply (v : S1600000.Idx → α)
    (h : S1600000.BroadcastsInDim S1600000x1 (![0] : Fin 1 → Fin S1600000x1.rank)) (e : Fin 1600000) (u : Fin 1) :
    broadcastInDim S1600000x1 ![0] h v (ix2 e u) = v (ix1 e) :=
  broadcastInDim_apply _ h v _ (ix1 e) (fun a => by
    match a with
    | ⟨0, _⟩ => exact (if_neg (show ¬ ((1600000 : ℕ) = 1) by decide)).symm)

/-- One value spread over an array: that value everywhere. -/
private theorem splat_apply {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A column over the nodes spread along rows of sixty-four: the column's entry of the row. -/
private theorem col_spread_apply (v : S100000x1.Idx → α)
    (h : S100000x1.BroadcastsInDim S100000x64 (![0, 1] : Fin 2 → Fin S100000x64.rank)) (i : Fin 100000) (j : Fin 64) :
    broadcastInDim S100000x64 ![0, 1] h v (ix2 i j) = v (ix2 i (0 : Fin 1)) :=
  broadcastInDim_apply _ h v _ (ix2 i (0 : Fin 1)) (fun a => by
    match a with
    | ⟨0, _⟩ => exact (if_neg (show ¬ ((100000 : ℕ) = 1) by decide)).symm
    | ⟨1, _⟩ => exact (if_pos rfl).symm)

/-- A vector of sixty-four viewed as a row. -/
private theorem row_of_vec_apply (v : S64.Idx → α) (h : S64.ShapeCasts S1x64) (u : Fin 1) (j : Fin 64) :
    shapeCast S1x64 v h (ix2 u j) = v (ix1 j) :=
  shapeCast_apply v h _ _ (by
    have hu := u.isLt
    rw [Shape.rowMajor_val_two, Shape.rowMajor_val_one]
    show j.val = u.val * 64 + j.val
    omega)

end Pieces

/-! ## The aggregate of a layer -/

/-- The stretch's operations composed over the projected rows `P`, the degree column `D`, the sources `s` and the
    destinations `d`: the rows scaled by the column, gathered at the normalised sources, summed at the destinations
    into zeros, plus the scaled rows. -/
def aggTerm (P : S100000x64.Idx → EReal) (D : S100000x1.Idx → EReal) (s d : S1600000.Idx → BitVec 32) :
    S100000x64.Idx → EReal :=
  addf
    (Host.scatterAdd (F := Ideal) (φ := .f32) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 d)
      (Host.gather gather_S100000x64_S1600000x1_S1600000x64_1_0_n_n_0_1_164
        (mulf P (broadcastInDim S100000x64 ![0, 1] bcast_S100000x1_S100000x64_0_1 D))
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32)))
            s))))
    (mulf P (broadcastInDim S100000x64 ![0, 1] bcast_S100000x1_S100000x64_0_1 D))

/-- The row scatter's record is the one of a scatter of rows. -/
theorem scatter2_eq : scatter_S100000x64_S1600000x1_S1600000x64_1_0_0_1
    = ScatterRows.dims2 (R := 100000) (C := 64) (N := 1600000) Facts₀.scatter_S100000x64_S1600000x1_S1600000x64_1_0_0_1_wf := rfl

/-- The scaled rows at an entry. -/
theorem scaled_apply (P : S100000x64.Idx → EReal) (D : S100000x1.Idx → EReal) (r : Fin 100000) (j : Fin 64) :
    mulf (F := Ideal) (φ := .f32) P (broadcastInDim S100000x64 ![0, 1] bcast_S100000x1_S100000x64_0_1 D) (ix2 r j)
      = P (ix2 r j) * D (ix2 r (0 : Fin 1)) := by
  rw [mulf_apply, col_spread_apply]

/-- The gather's start indices at an edge: the normalised source. -/
theorem nrm_apply (s : S1600000.Idx → BitVec 32) (e : Fin 1600000) :
    broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32)))
          s) (ix2 e (0 : Fin 1))
      = Cert.Spec.nrm (s (ix1 e)) := by
  rw [col_of_vec_apply]
  show Scalar.select (IntOp.cmpi .slt (s (ix1 e)) (broadcastInDim S1600000 ![] bcast_S_S1600000 (constantI S_ 32 0#32) (ix1 e)))
      (IntOp.addi (s (ix1 e)) (broadcastInDim S1600000 ![] bcast_S_S1600000 (constantI S_ 32 100000#32) (ix1 e))) (s (ix1 e)) = _
  rw [splat_apply, splat_apply]
  rfl

theorem aggTerm_apply (P : S100000x64.Idx → EReal) (D : S100000x1.Idx → EReal) (s d : S1600000.Idx → BitVec 32)
    (i : Fin 100000) (j : Fin 64) :
    aggTerm P D s d (ix2 i j)
      = (Cert.Spec.c0 + ∑ e : Fin 1600000,
          if (d (ix1 e)).toInt = (i.val : Int)
            then P (ix2 (Cert.Spec.gix (s (ix1 e))) j) * D (ix2 (Cert.Spec.gix (s (ix1 e))) (0 : Fin 1))
            else 0)
        + P (ix2 i j) * D (ix2 i (0 : Fin 1)) := by
  unfold aggTerm
  rw [addf_apply, scaled_apply, scatter2_eq, ScatterRows.host_scatterAdd_apply]
  rw [splat_apply, constant_apply]
  refine congrArg (fun z => (Cert.Spec.c0 + z) + P (ix2 i j) * D (ix2 i (0 : Fin 1))) ?_
  refine Finset.sum_congr rfl fun e _ => ?_
  rw [col_of_vec_apply]
  refine congrArg (fun z => if (d (ix1 e)).toInt = (i.val : Int) then z else 0) ?_
  rw [Cert.LibGather2.gather_rows_apply (by decide) _ rfl rfl rfl rfl rfl rfl rfl, scaled_apply]
  have h : ∀ r r' : Fin 100000, r = r' →
      P (ix2 r j) * D (ix2 r (0 : Fin 1)) = P (ix2 r' j) * D (ix2 r' (0 : Fin 1)) := fun _ _ h => h ▸ rfl
  exact h _ _ (Fin.ext (congrArg (fun b : BitVec 32 => min b.toInt.toNat (100000 - 1)) (nrm_apply s e)))

/-! ## The two stretches -/

/-- The first layer's aggregate buffer holds the composed operations over the buffers the stretch reads. -/
theorem hostOps1_agg : (StableHlo.after hostOps1 W (Proc.devRef .tc main_v25) : S100000x64.Idx → EReal)
    = aggTerm (bV12 W) (bV11 W) (bV1 W) (bV3 W) := by
  dsimp only [hostOps1]
  after_results_simp
  rfl

/-- The first layer's bias row is the bias vector viewed as a row. -/
theorem hostOps1_bias : (StableHlo.after hostOps1 W (Proc.devRef .tc main_v26) : S1x64.Idx → EReal)
    = shapeCast S1x64 (bArg4 W) shapeCasts_S64_S1x64 := by
  dsimp only [hostOps1]
  after_results_simp
  rfl

/-- The second layer's aggregate buffer: the same operations over the second layer's projected rows. -/
theorem hostOps3_agg : (StableHlo.after hostOps3 W (Proc.devRef .tc main_v53) : S100000x64.Idx → EReal)
    = aggTerm (bV40 W) (bV11 W) (bV1 W) (bV3 W) := by
  dsimp only [hostOps3]
  after_results_simp
  rfl

/-- The second layer's bias row. -/
theorem hostOps3_bias : (StableHlo.after hostOps3 W (Proc.devRef .tc main_v54) : S1x64.Idx → EReal)
    = shapeCast S1x64 (bArg6 W) shapeCasts_S64_S1x64 := by
  dsimp only [hostOps3]
  after_results_simp
  rfl

/-- The first layer's aggregate at node `i`, column `j`: the sum over the edges that end at `i` of the scaled row of
    the edge's normalised source, plus the node's own scaled row. -/
theorem s1_agg (i : Fin 100000) (j : Fin 64) :
    (StableHlo.after hostOps1 W (Proc.devRef .tc main_v25) : S100000x64.Idx → EReal) (ix2 i j)
      = (Cert.Spec.c0 + ∑ e : Fin 1600000,
          if (bV3 W (ix1 e)).toInt = (i.val : Int)
            then bV12 W (ix2 (Cert.Spec.gix (bV1 W (ix1 e))) j) * bV11 W (ix2 (Cert.Spec.gix (bV1 W (ix1 e))) (0 : Fin 1))
            else 0)
        + bV12 W (ix2 i j) * bV11 W (ix2 i (0 : Fin 1)) :=
  (congrFun (hostOps1_agg W) (ix2 i j)).trans (aggTerm_apply _ _ _ _ i j)

theorem s1_bias (j : Fin 64) :
    (StableHlo.after hostOps1 W (Proc.devRef .tc main_v26) : S1x64.Idx → EReal) (ix2 (0 : Fin 1) j)
      = bArg4 W (ix1 j) :=
  (congrFun (hostOps1_bias W) (ix2 (0 : Fin 1) j)).trans (row_of_vec_apply _ _ _ j)

/-- The second layer's aggregate at node `i`, column `j`. -/
theorem s3_agg (i : Fin 100000) (j : Fin 64) :
    (StableHlo.after hostOps3 W (Proc.devRef .tc main_v53) : S100000x64.Idx → EReal) (ix2 i j)
      = (Cert.Spec.c0 + ∑ e : Fin 1600000,
          if (bV3 W (ix1 e)).toInt = (i.val : Int)
            then bV40 W (ix2 (Cert.Spec.gix (bV1 W (ix1 e))) j) * bV11 W (ix2 (Cert.Spec.gix (bV1 W (ix1 e))) (0 : Fin 1))
            else 0)
        + bV40 W (ix2 i j) * bV11 W (ix2 i (0 : Fin 1)) :=
  (congrFun (hostOps3_agg W) (ix2 i j)).trans (aggTerm_apply _ _ _ _ i j)

theorem s3_bias (j : Fin 64) :
    (StableHlo.after hostOps3 W (Proc.devRef .tc main_v54) : S1x64.Idx → EReal) (ix2 (0 : Fin 1) j)
      = bArg6 W (ix1 j) :=
  (congrFun (hostOps3_bias W) (ix2 (0 : Fin 1) j)).trans (row_of_vec_apply _ _ _ j)

end Cert.KernelIdeal.KVal

end
-- ==== Proof.KHostB4.lean ====
import proofs.«412438_j20864951124557_2_alg».proof.Proof.Gen.KernelIdeal.Launch
import proofs.«412438_j20864951124557_2_alg».proof.Proof.Spec
import proofs.«412438_j20864951124557_2_alg».proof.Proof.LibScatterRows
import Idealize.ShloMosaic.Lib.StableHlo.Run
import Idealize.ShloMosaic.Lib.IdealHost
import Idealize.ShloMosaic.Lib.ValueLayout
import Idealize.ShloMosaic.Lib.Pipeline.Value
import Idealize.ShloMosaic.PureOps.Ideal.Laws

/-!
# What the host stretches before the pooling leave: the one-hot matrix, the counts, the scale and shift rows

The one-hot matrix of the graph labels holds one where the label's word is the column's number; the count of a graph
is the number of nodes carrying its label, summed as ones from zero. The second layer's scale and shift vectors are
viewed as one-row matrices. The second layer's activations are not written by these stretches.
Each statement reads one buffer after the stretches at coordinates, as a function of the buffers the stretches read.
-/

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)

/-- The conversion of an equality test's bit, read unsigned: one where the two words are equal, zero elsewhere. -/
theorem uitofp_cmpi_eq_apply {s : Shape} (a c : IVec s 32) (i : s.Idx) :
    (uitofp (F := Ideal) .bf16 (cmpi .eq a c) : s.Idx → EReal) i = if a i = c i then 1 else 0 := by
  show (((BitVec.ofBool (a i == c i)).toNat : ℝ) : EReal) = _
  by_cases h : a i = c i
  · have hb : (a i == c i) = true := by rw [h]; exact beq_self_eq_true _
    rw [if_pos h, hb]
    show (((1 : ℕ) : ℝ) : EReal) = 1
    rw [Nat.cast_one, EReal.coe_one]
  · have hb : (a i == c i) = false := beq_eq_false_iff_ne.mpr h
    rw [if_neg h, hb]
    show (((0 : ℕ) : ℝ) : EReal) = 0
    rw [Nat.cast_zero, EReal.coe_zero]

/-- The one-hot matrix at `(n, g)`: the label of node `n`, repeated along the columns, against the column's number. -/
theorem onehot_apply (h1 : S100000.BroadcastsInDim S100000x1 ![0]) (h2 : S100000x1.BroadcastsInDim S100000x64 ![0, 1])
    (h3 : S1x64.BroadcastsInDim S100000x64 ![0, 1]) (v : S100000.Idx → BitVec 32) (n : Fin 100000) (g : Fin 64) :
    (uitofp (F := Ideal) .bf16 (cmpi .eq
        (broadcastInDim S100000x64 ![0, 1] h2 (broadcastInDim S100000x1 ![0] h1 v))
        (broadcastInDim S100000x64 ![0, 1] h3 (iotaInDim S1x64 32 1))) : S100000x64.Idx → EReal) (ix2 n g)
      = if v (ix1 n) = BitVec.ofNat 32 g.val then 1 else 0 := by
  have ha : broadcastInDim S100000x64 ![0, 1] h2 (broadcastInDim S100000x1 ![0] h1 v) (ix2 n g) = v (ix1 n) := by
    rw [broadcastInDim_apply _ _ _ (ix2 n g) (ix2 n (0 : Fin 1)) (fun a => match a with | ⟨0, _⟩ => rfl | ⟨1, _⟩ => rfl),
      broadcastInDim_apply _ _ _ (ix2 n (0 : Fin 1)) (ix1 n) (fun a => match a with | ⟨0, _⟩ => rfl)]
  have hc : broadcastInDim S100000x64 ![0, 1] h3 (iotaInDim S1x64 32 1) (ix2 n g) = BitVec.ofNat 32 g.val := by
    rw [broadcastInDim_apply _ _ _ (ix2 n g) (ix2 (0 : Fin 1) g) (fun a => match a with | ⟨0, _⟩ => rfl | ⟨1, _⟩ => rfl)]
    rfl
  rw [uitofp_cmpi_eq_apply, ha, hc]

/-- The counts at `g`: zero plus a one for every node whose label, read signed, is `g`. -/
theorem cnt_apply (h0 : S_.BroadcastsInDim S64 (![] : Fin 0 → Fin S64.rank)) (h1 : S100000.BroadcastsInDim S100000x1 ![0])
    (h2 : S_.BroadcastsInDim S100000 (![] : Fin 0 → Fin S100000.rank)) (v : S100000.Idx → BitVec 32) (g : Fin 64) :
    (Host.scatterAdd (F := Ideal) (φ := .f32) scatter_S64_S100000x1_S100000_n_0_0_1
        (broadcastInDim S64 ![] h0 (constant (F := Ideal) S_ .f32 0x00000000#32))
        (broadcastInDim S100000x1 ![0] h1 v)
        (broadcastInDim S100000 ![] h2 (constant (F := Ideal) S_ .f32 0x3F800000#32)) : S64.Idx → EReal) (ix1 g)
      = Cert.Spec.c0 + ∑ n : Fin 100000, if (v (ix1 n)).toInt = (g.val : Int) then Cert.Spec.c1 else 0 := by
  have hd : scatter_S64_S100000x1_S100000_n_0_0_1
      = ScatterRows.dims1 Facts₀.scatter_S64_S100000x1_S100000_n_0_0_1_wf := rfl
  rw [hd]
  refine (ScatterRows.vscatterAdd_apply _ _ _ _ g).trans ?_
  have hidx : ∀ n : Fin 100000, broadcastInDim S100000x1 ![0] h1 v (ix2 n (0 : Fin 1)) = v (ix1 n) := fun n =>
    broadcastInDim_apply _ _ _ _ (ix1 n) (fun a => match a with | ⟨0, _⟩ => rfl)
  simp only [hidx]
  rfl

variable (W : Valuation τ sig (Elt Ideal))

/-- The buffers after the three stretches between the second aggregation and the pooling. -/
abbrev after4 : Valuation τ sig (Elt Ideal) :=
  StableHlo.after hostOps4_2 (StableHlo.after hostOps4_1 (StableHlo.after hostOps4 W))

/-- The one-hot matrix of the graph labels: one where the node's label word is the column's number. -/
theorem s4_onehot (n : Fin 100000) (g : Fin 64) :
    @Eq EReal ((after4 W (Proc.devRef .tc main_v66) : S100000x64.Idx → EReal) (ix2 n g))
      (if @Eq (BitVec 32) ((W (Proc.devRef .tc main_arg2) : S100000.Idx → BitVec 32) (ix1 n)) (BitVec.ofNat 32 g.val) then (1 : EReal) else 0) := by
  dsimp only [after4, hostOps4, hostOps4_1, hostOps4_2]
  after_results
  exact onehot_apply Facts₀.bcast_S100000_S100000x1_0 Facts₀.bcast_S100000x1_S100000x64_0_1 Facts₀.bcast_S1x64_S100000x64_0_1
    (W (Proc.devRef .tc main_arg2)) n g

/-- The number of nodes of graph `g`, summed as ones from zero over the nodes whose label, read signed, is `g`. -/
theorem s4_cnt (g : Fin 64) :
    @Eq EReal ((after4 W (Proc.devRef .tc main_v70) : S64.Idx → EReal) (ix1 g))
      (Cert.Spec.c0 + Finset.sum (M := EReal) Finset.univ fun n : Fin 100000 =>
          if ((W (Proc.devRef .tc main_arg2) : S100000.Idx → BitVec 32) (ix1 n)).toInt = (g.val : Int) then Cert.Spec.c1 else 0) := by
  dsimp only [after4, hostOps4, hostOps4_1, hostOps4_2]
  after_results
  exact cnt_apply _ _ _ _ g

/-- The second layer's scale vector as a one-row matrix. -/
theorem s4_gamma (j : Fin 64) :
    @Eq EReal ((after4 W (Proc.devRef .tc main_v71) : S1x64.Idx → EReal) (ix2 (0 : Fin 1) j))
      ((W (Proc.devRef .tc main_arg9) : S64.Idx → EReal) (ix1 j)) := by
  dsimp only [after4, hostOps4, hostOps4_1, hostOps4_2]
  after_results
  exact shapeCast_a_1a_apply _ _ (0 : Fin 1) j

/-- The second layer's shift vector as a one-row matrix. -/
theorem s4_beta (j : Fin 64) :
    @Eq EReal ((after4 W (Proc.devRef .tc main_v72) : S1x64.Idx → EReal) (ix2 (0 : Fin 1) j))
      ((W (Proc.devRef .tc main_arg10) : S64.Idx → EReal) (ix1 j)) := by
  dsimp only [after4, hostOps4, hostOps4_1, hostOps4_2]
  after_results
  exact shapeCast_a_1a_apply _ _ (0 : Fin 1) j

/-- The second layer's activations pass through the three stretches untouched. -/
theorem s4_keep_h : after4 W (Proc.devRef .tc main_v55_0) = W (Proc.devRef .tc main_v55_0) := by
  dsimp only [after4, hostOps4, hostOps4_1, hostOps4_2]
  after_results

end Cert.KernelIdeal.KVal

end
-- ==== Proof.KHostB.lean ====
import proofs.«412438_j20864951124557_2_alg».proof.Proof.Gen.KernelIdeal.Launch
import proofs.«412438_j20864951124557_2_alg».proof.Proof.Spec
import proofs.«412438_j20864951124557_2_alg».proof.Proof.KHostB4
import Idealize.ShloMosaic.Lib.StableHlo.Run
import Idealize.ShloMosaic.Lib.IdealHost
import Idealize.ShloMosaic.Lib.ValueLayout
import Idealize.ShloMosaic.Lib.Pipeline.Value
import Idealize.ShloMosaic.PureOps.Ideal.Laws

/-!
# The column statistics the host stretches leave before each batch normalisation

From the two cores' partial column sums and partial column sums of squares: the mean is their total, added from zero,
over the number of nodes; the variance is the mean of squares less the squared mean, capped below at zero. The first
layer's scale and shift vectors are viewed as one-row matrices.
Each statement reads one buffer after the stretch at coordinates, as a function of the buffers the stretch reads.
-/

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)

variable (W : Valuation τ sig (Elt Ideal))

/-- The index over column `j` of the one-row result with core `q` put back on the summed axis. -/
theorem hb_lift_core (h : S2x1x64.Reduces [0] S1x64) (j : Fin 64) (q : Fin 2) :
    h.lift (ix2 (0 : Fin 1) j) q = ix3 q (0 : Fin 1) j := by
  funext c
  match c with
  | ⟨0, _⟩ => exact Fin.ext rfl
  | ⟨1, _⟩ => exact Fin.ext rfl
  | ⟨2, _⟩ => exact Fin.ext rfl

/-- The two cores' partial sums `s` added from zero over the core axis and divided by the number of nodes, at column `j`. -/
theorem hb_mean_apply (s : S2x1x64.Idx → EReal) (j : Fin 64) :
    @Eq EReal
      (Host.divf (F := Ideal) (φ := .f32)
        (Host.reduceAdd (F := Ideal) (φ := .f32) s (constant (F := Ideal) S_ .f32 0x00000000#32) reducesTo_S2x1x64_S1x64_d0 h_S_)
        (broadcastInDim S1x64 ![] bcast_S_S1x64 (constant (F := Ideal) S_ .f32 0x47C35000#32)) (ix2 (0 : Fin 1) j))
      (Ideal.div (Cert.Spec.c0 + Finset.sum (M := EReal) Finset.univ fun q : Fin 2 => s (ix3 q (0 : Fin 1) j)) Cert.Spec.cN) := by
  have hR : S2x1x64.Reduces [0] S1x64 := by decide
  refine (hostDivf_apply _ _ _).trans ?_
  refine congrArg₂ Ideal.div ?_ ?_
  · refine (hostReduceAdd_apply s _ reducesTo_S2x1x64_S1x64_d0 h_S_ _).trans ?_
    refine (Ideal.hostReduceAdd_single reducesTo_S2x1x64_S1x64_d0 hR _ _ _).trans ?_
    exact congrArg₂ (· + ·) rfl (Finset.sum_congr rfl fun q _ => congrArg s (hb_lift_core hR j q))
  · exact broadcastInDim_scalar_apply _ _ _

/-- The mean of squares less the squared mean, capped below at zero, at column `j`, from the means read there. -/
theorem hb_var_apply (a b z : S1x64.Idx → EReal) (j : Fin 64) (A B : EReal)
    (ha : a (ix2 (0 : Fin 1) j) = A) (hb : b (ix2 (0 : Fin 1) j) = B) (hz : z (ix2 (0 : Fin 1) j) = Cert.Spec.c0) :
    @Eq EReal (maximumf (F := Ideal) (φ := .f32) (subf (F := Ideal) (φ := .f32) a (mulf (F := Ideal) (φ := .f32) b b)) z (ix2 (0 : Fin 1) j))
      (max (A - B * B) Cert.Spec.c0) := by
  refine (maximumf_apply _ _ _).trans ?_
  refine congrArg₂ max ?_ hz
  refine (subf_apply _ _ _).trans ?_
  refine congrArg₂ (· - ·) ha ?_
  exact (mulf_apply _ _ _).trans (congrArg₂ (· * ·) hb hb)

/-- A vector viewed as a one-row matrix reads, in its row, the vector's entry of the column. -/
theorem hb_row_apply (x : S64.Idx → EReal) (j : Fin 64) :
    @Eq EReal (shapeCast S1x64 x shapeCasts_S64_S1x64 (ix2 (0 : Fin 1) j)) (x (ix1 j)) :=
  shapeCast_a_1a_apply x shapeCasts_S64_S1x64 0 j

/-- The first layer's mean of column `j`: the two cores' partial sums added from zero, over the number of nodes. -/
theorem s2_mu (j : Fin 64) :
    @Eq EReal ((StableHlo.after hostOps2 W (Proc.devRef .tc main_v31) : S1x64.Idx → EReal) (ix2 (0 : Fin 1) j))
      (Ideal.div (Cert.Spec.c0 + Finset.sum (M := EReal) Finset.univ fun q : Fin 2 => (W (Proc.devRef .tc main_v27_1) : S2x1x64.Idx → EReal) (ix3 q (0 : Fin 1) j)) Cert.Spec.cN) := by
  dsimp only [hostOps2]
  after_results
  exact hb_mean_apply _ j

/-- The first layer's variance of column `j`: the mean of squares less the squared mean, capped below at zero. -/
theorem s2_var (j : Fin 64) :
    @Eq EReal ((StableHlo.after hostOps2 W (Proc.devRef .tc main_v37) : S1x64.Idx → EReal) (ix2 (0 : Fin 1) j))
      (max (Ideal.div (Cert.Spec.c0 + Finset.sum (M := EReal) Finset.univ fun q : Fin 2 => (W (Proc.devRef .tc main_v27_2) : S2x1x64.Idx → EReal) (ix3 q (0 : Fin 1) j)) Cert.Spec.cN
          - Ideal.div (Cert.Spec.c0 + Finset.sum (M := EReal) Finset.univ fun q : Fin 2 => (W (Proc.devRef .tc main_v27_1) : S2x1x64.Idx → EReal) (ix3 q (0 : Fin 1) j)) Cert.Spec.cN
            * Ideal.div (Cert.Spec.c0 + Finset.sum (M := EReal) Finset.univ fun q : Fin 2 => (W (Proc.devRef .tc main_v27_1) : S2x1x64.Idx → EReal) (ix3 q (0 : Fin 1) j)) Cert.Spec.cN)
        Cert.Spec.c0) := by
  dsimp only [hostOps2]
  after_results
  exact hb_var_apply _ _ _ j _ _ (hb_mean_apply _ j) (hb_mean_apply _ j) (broadcastInDim_scalar_apply _ _ _)

/-- The first layer's scale vector as a one-row matrix. -/
theorem s2_gamma (j : Fin 64) :
    @Eq EReal ((StableHlo.after hostOps2 W (Proc.devRef .tc main_v38) : S1x64.Idx → EReal) (ix2 (0 : Fin 1) j))
      ((W (Proc.devRef .tc main_arg7) : S64.Idx → EReal) (ix1 j)) := by
  dsimp only [hostOps2]
  after_results
  exact hb_row_apply _ j

/-- The first layer's shift vector as a one-row matrix. -/
theorem s2_beta (j : Fin 64) :
    @Eq EReal ((StableHlo.after hostOps2 W (Proc.devRef .tc main_v39) : S1x64.Idx → EReal) (ix2 (0 : Fin 1) j))
      ((W (Proc.devRef .tc main_arg8) : S64.Idx → EReal) (ix1 j)) := by
  dsimp only [hostOps2]
  after_results
  exact hb_row_apply _ j

/-- The two later stretches do not write `main_v59`. -/
theorem hb_after4_main_v59 : after4 W (Proc.devRef .tc main_v59) = StableHlo.after hostOps4 W (Proc.devRef .tc main_v59) :=
  (StableHlo.after_of_forall_not_mem (b := Proc.devRef .tc main_v59) hostOps4_2 _ (List.forall_iff_forall_mem.mp (by
      simp only [hostOps4_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
    (StableHlo.after_of_forall_not_mem (b := Proc.devRef .tc main_v59) hostOps4_1 _ (List.forall_iff_forall_mem.mp (by
      simp only [hostOps4_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- The two later stretches do not write `main_v65`. -/
theorem hb_after4_main_v65 : after4 W (Proc.devRef .tc main_v65) = StableHlo.after hostOps4 W (Proc.devRef .tc main_v65) :=
  (StableHlo.after_of_forall_not_mem (b := Proc.devRef .tc main_v65) hostOps4_2 _ (List.forall_iff_forall_mem.mp (by
      simp only [hostOps4_2, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
    (StableHlo.after_of_forall_not_mem (b := Proc.devRef .tc main_v65) hostOps4_1 _ (List.forall_iff_forall_mem.mp (by
      simp only [hostOps4_1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- The second layer's mean of column `j`. -/
theorem s4_mu (j : Fin 64) :
    @Eq EReal ((after4 W (Proc.devRef .tc main_v59) : S1x64.Idx → EReal) (ix2 (0 : Fin 1) j))
      (Ideal.div (Cert.Spec.c0 + Finset.sum (M := EReal) Finset.univ fun q : Fin 2 => (W (Proc.devRef .tc main_v55_1) : S2x1x64.Idx → EReal) (ix3 q (0 : Fin 1) j)) Cert.Spec.cN) := by
  rw [hb_after4_main_v59]
  dsimp only [hostOps4]
  after_results
  exact hb_mean_apply _ j

/-- The second layer's variance of column `j`. -/
theorem s4_var (j : Fin 64) :
    @Eq EReal ((after4 W (Proc.devRef .tc main_v65) : S1x64.Idx → EReal) (ix2 (0 : Fin 1) j))
      (max (Ideal.div (Cert.Spec.c0 + Finset.sum (M := EReal) Finset.univ fun q : Fin 2 => (W (Proc.devRef .tc main_v55_2) : S2x1x64.Idx → EReal) (ix3 q (0 : Fin 1) j)) Cert.Spec.cN
          - Ideal.div (Cert.Spec.c0 + Finset.sum (M := EReal) Finset.univ fun q : Fin 2 => (W (Proc.devRef .tc main_v55_1) : S2x1x64.Idx → EReal) (ix3 q (0 : Fin 1) j)) Cert.Spec.cN
            * Ideal.div (Cert.Spec.c0 + Finset.sum (M := EReal) Finset.univ fun q : Fin 2 => (W (Proc.devRef .tc main_v55_1) : S2x1x64.Idx → EReal) (ix3 q (0 : Fin 1) j)) Cert.Spec.cN)
        Cert.Spec.c0) := by
  rw [hb_after4_main_v65]
  dsimp only [hostOps4]
  after_results
  exact hb_var_apply _ _ _ j _ _ (hb_mean_apply _ j) (hb_mean_apply _ j) (broadcastInDim_scalar_apply _ _ _)

end Cert.KernelIdeal.KVal

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«412438_j20864951124557_2_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.KHostC.lean ====
/-
  The tail of the tiled program read at a graph: from the pooled partial sums and the graph counts to the output column.

  Between the last kernel region and the end of the run the program adds the two cores' partial sums of the pooled
  rows, divides each graph's row by the number of its nodes (capped below at one, so that an empty graph divides by
  one), and applies four dense layers with positive part and a last dense layer of one column. Each step acts entry by
  entry or row by row, so the result at graph `g` is the same composition of row functions the specification writes:
  a sum over the core axis, a quotient, then sums of products along the contracted axis plus a bias, capped below by zero.
-/
import proofs.«412438_j20864951124557_2_alg».proof.Proof.Gen.KernelIdeal.Launch
import proofs.«412438_j20864951124557_2_alg».proof.Proof.Spec
import proofs.«412438_j20864951124557_2_alg».proof.Proof.LibRowOps
import Idealize.ShloMosaic.Lib.StableHlo.Run
import Idealize.ShloMosaic.Lib.IdealHost
import Idealize.ShloMosaic.Lib.Pipeline.Value

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)
open Idealize.ShloMosaic.StableHlo (after)

variable (W : Valuation τ sig (Elt Ideal))

/-! ## The program's steps as functions of whole arrays -/

/-- The mean over each graph as the program spells it: the partial sums added along the core axis from the zero word,
    the counts capped below by the splat of the one word, broadcast to a column and along the rows, then the quotient. -/
def t0Arr (p : FVec Ideal S2x64x64 .f32) (n : FVec Ideal S64 .f32) : FVec Ideal S64x64 .f32 :=
  Host.divf (Host.reduceAdd p (constant (F := Ideal) S_ .f32 0x00000000#32) reducesTo_S2x64x64_S64x64_d0 h_S_)
    (broadcastInDim S64x64 ![0, 1] bcast_S64x1_S64x64_0_1 (broadcastInDim S64x1 ![0] bcast_S64_S64x1_0
      (maximumf n (broadcastInDim S64 ![] bcast_S_S64 (constant (F := Ideal) S_ .f32 0x3F800000#32)))))

/-- A dense layer with positive part as the program spells it: the plain product, the bias broadcast to a row and down
    the rows, the sum capped below by the splat of the zero word. -/
def layerArr {M K : ℕ} (h1 : (⟨2, ![1, K]⟩ : Shape).BroadcastsInDim ⟨2, ![64, K]⟩ ![0, 1])
    (h2 : (⟨1, ![K]⟩ : Shape).BroadcastsInDim ⟨2, ![1, K]⟩ ![1]) (h3 : (⟨0, ![]⟩ : Shape).BroadcastsInDim ⟨2, ![64, K]⟩ ![])
    (x : FVec Ideal ⟨2, ![64, M]⟩ .f32) (w : FVec Ideal ⟨2, ![M, K]⟩ .f32) (b : FVec Ideal ⟨1, ![K]⟩ .f32) :
    FVec Ideal ⟨2, ![64, K]⟩ .f32 :=
  maximumf (addf (Host.dotGeneral (DotDims.plain 64 M K) none x w)
      (broadcastInDim ⟨2, ![64, K]⟩ ![0, 1] h1 (broadcastInDim ⟨2, ![1, K]⟩ ![1] h2 b)))
    (broadcastInDim ⟨2, ![64, K]⟩ ![] h3 (constant (F := Ideal) ⟨0, ![]⟩ .f32 0x00000000#32))

/-- The output layer as the program spells it: the plain product plus the bias broadcast to a row and down the rows. -/
def outArr {M K : ℕ} (h1 : (⟨2, ![1, K]⟩ : Shape).BroadcastsInDim ⟨2, ![64, K]⟩ ![0, 1])
    (h2 : (⟨1, ![K]⟩ : Shape).BroadcastsInDim ⟨2, ![1, K]⟩ ![1])
    (x : FVec Ideal ⟨2, ![64, M]⟩ .f32) (w : FVec Ideal ⟨2, ![M, K]⟩ .f32) (b : FVec Ideal ⟨1, ![K]⟩ .f32) :
    FVec Ideal ⟨2, ![64, K]⟩ .f32 :=
  addf (Host.dotGeneral (DotDims.plain 64 M K) none x w)
    (broadcastInDim ⟨2, ![64, K]⟩ ![0, 1] h1 (broadcastInDim ⟨2, ![1, K]⟩ ![1] h2 b))

/-- What the tail leaves in the output buffer, as these functions of the buffers it reads. -/
theorem tail_buffer :
    (after hostOps5_8 (after hostOps5_7 (after hostOps5_6 (after hostOps5_5 (after hostOps5_4 (after hostOps5_3
        (after hostOps5_2 (after hostOps5_1 (after hostOps5 W)))))))) (Proc.devRef .tc main_v103) : FVec Ideal S64x1 .f32)
      = outArr bcast_S1x1_S64x1_0_1 bcast_S1_S1x1_1
          (layerArr bcast_S1x16_S64x16_0_1 bcast_S16_S1x16_1 bcast_S_S64x16
            (layerArr bcast_S1x32_S64x32_0_1 bcast_S32_S1x32_1 bcast_S_S64x32
              (layerArr bcast_S1x64_S64x64_0_1 bcast_S64_S1x64_1 bcast_S_S64x64
                (layerArr bcast_S1x128_S64x128_0_1 bcast_S128_S1x128_1 bcast_S_S64x128
                  (t0Arr (W (Proc.devRef .tc main_v73)) (W (Proc.devRef .tc main_v70)))
                  (W (Proc.devRef .tc main_arg11)) (W (Proc.devRef .tc main_arg12)))
                (W (Proc.devRef .tc main_arg13)) (W (Proc.devRef .tc main_arg14)))
              (W (Proc.devRef .tc main_arg15)) (W (Proc.devRef .tc main_arg16)))
            (W (Proc.devRef .tc main_arg17)) (W (Proc.devRef .tc main_arg18)))
          (W (Proc.devRef .tc main_arg19)) (W (Proc.devRef .tc main_arg20)) := by
  have d1 : dot_S64x64_S64x128_S64x128_1_0_0_1_n_n = DotDims.plain 64 64 128 := rfl
  have d2 : dot_S64x128_S128x64_S64x64_1_0_0_1_n_n = DotDims.plain 64 128 64 := rfl
  have d3 : dot_S64x64_S64x32_S64x32_1_0_0_1_n_n = DotDims.plain 64 64 32 := rfl
  have d4 : dot_S64x32_S32x16_S64x16_1_0_0_1_n_n = DotDims.plain 64 32 16 := rfl
  have d5 : dot_S64x16_S16x1_S64x1_1_0_0_1_n_n = DotDims.plain 64 16 1 := rfl
  dsimp only [hostOps5, hostOps5_1, hostOps5_2, hostOps5_3, hostOps5_4, hostOps5_5, hostOps5_6, hostOps5_7, hostOps5_8]
  after_results_simp
  simp only [StableHlo.TRef.ofBuf, StableHlo.TRef.toBuf, cast_eq]
  rw [d1, d2, d3, d4, d5]
  unfold outArr layerArr t0Arr
  rfl

/-! ## The same steps read at an index -/

/-- A length-`K` bias broadcast to a `[1, K]` row and then down the rows of an `[R, K]` array reads, at `(r, c)`,
    the bias's entry `c`. -/
theorem bias_apply {α : Type} {R K : ℕ} (h1 : (⟨2, ![1, K]⟩ : Shape).BroadcastsInDim ⟨2, ![R, K]⟩ ![0, 1])
    (h2 : (⟨1, ![K]⟩ : Shape).BroadcastsInDim ⟨2, ![1, K]⟩ ![1]) (b : (⟨1, ![K]⟩ : Shape).Idx → α) (r : Fin R) (c : Fin K) :
    broadcastInDim ⟨2, ![R, K]⟩ ![0, 1] h1 (broadcastInDim ⟨2, ![1, K]⟩ ![1] h2 b) (ix2 r c) = b (ix1 c) := by
  have hc : c.val = if K = 1 then 0 else c.val := by
    split
    · have := c.isLt; omega
    · rfl
  refine (broadcastInDim_apply ![0, 1] h1 _ (ix2 r c) (ix2 (0 : Fin 1) c) fun ax => ?_).trans
    (broadcastInDim_apply ![1] h2 b (ix2 (0 : Fin 1) c) (ix1 c) fun ax => ?_)
  · match ax with
    | ⟨0, _⟩ => rfl
    | ⟨1, _⟩ => exact hc
  · match ax with
    | ⟨0, _⟩ => exact hc

/-- The splat of a float word over any shape reads the word's value. -/
theorem splat_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

/-- A dense layer with positive part at `(g, c)`: the specification's layer over the operands' coordinates. -/
theorem layerArr_apply {M K : ℕ} (h1 : (⟨2, ![1, K]⟩ : Shape).BroadcastsInDim ⟨2, ![64, K]⟩ ![0, 1])
    (h2 : (⟨1, ![K]⟩ : Shape).BroadcastsInDim ⟨2, ![1, K]⟩ ![1]) (h3 : (⟨0, ![]⟩ : Shape).BroadcastsInDim ⟨2, ![64, K]⟩ ![])
    (x : FVec Ideal ⟨2, ![64, M]⟩ .f32) (w : FVec Ideal ⟨2, ![M, K]⟩ .f32) (b : FVec Ideal ⟨1, ![K]⟩ .f32)
    (X : Fin 64 → Fin M → EReal) (hX : ∀ g k, x (ix2 g k) = X g k) (g : Fin 64) (c : Fin K) :
    layerArr h1 h2 h3 x w b (ix2 g c)
      = Cert.Spec.layer X (fun k c => w (ix2 k c)) (fun c => b (ix1 c)) g c := by
  unfold layerArr
  rw [maximumf_apply, addf_apply, bias_apply, splat_apply, Cert.Lib.dotGeneral_rows_apply]
  show max ((∑ k : Fin M, x (ix2 g k) * w (ix2 k c)) + b (ix1 c)) Cert.Spec.c0
    = max ((∑ k : Fin M, X g k * w (ix2 k c)) + b (ix1 c)) Cert.Spec.c0
  simp only [hX]

/-- The output layer at `(g, c)`: the specification's dense layer over the operands' coordinates. -/
theorem outArr_apply {M K : ℕ} (h1 : (⟨2, ![1, K]⟩ : Shape).BroadcastsInDim ⟨2, ![64, K]⟩ ![0, 1])
    (h2 : (⟨1, ![K]⟩ : Shape).BroadcastsInDim ⟨2, ![1, K]⟩ ![1])
    (x : FVec Ideal ⟨2, ![64, M]⟩ .f32) (w : FVec Ideal ⟨2, ![M, K]⟩ .f32) (b : FVec Ideal ⟨1, ![K]⟩ .f32)
    (X : Fin 64 → Fin M → EReal) (hX : ∀ g k, x (ix2 g k) = X g k) (g : Fin 64) (c : Fin K) :
    outArr h1 h2 x w b (ix2 g c)
      = Cert.Spec.dense X (fun k c => w (ix2 k c)) (fun c => b (ix1 c)) g c := by
  unfold outArr
  rw [addf_apply, bias_apply, Cert.Lib.dotGeneral_rows_apply]
  show (∑ k : Fin M, x (ix2 g k) * w (ix2 k c)) + b (ix1 c) = (∑ k : Fin M, X g k * w (ix2 k c)) + b (ix1 c)
  simp only [hX]

/-- The source index over `(g, k)` with core coordinate `q` inserted on the leading axis. -/
theorem lift_core (h : S2x64x64.Reduces [0] S64x64) (g k : Fin 64) (q : Fin 2) :
    h.lift (ix2 g k) q = ix3 q g k := by
  funext ax
  match ax with
  | ⟨0, _⟩ => rfl
  | ⟨1, _⟩ => rfl
  | ⟨2, _⟩ => rfl

/-- The mean over each graph at `(g, k)`: the specification's quotient over the operands' coordinates. -/
theorem t0Arr_apply (p : FVec Ideal S2x64x64 .f32) (n : FVec Ideal S64 .f32) (g k : Fin 64) :
    t0Arr p n (ix2 g k)
      = Cert.Spec.t0F (fun g k => Cert.Spec.c0 + ∑ q : Fin 2, p (ix3 q g k)) (fun g => n (ix1 g)) g k := by
  have hr : S2x64x64.Reduces [0] S64x64 := by decide
  have hden : broadcastInDim S64x64 ![0, 1] bcast_S64x1_S64x64_0_1 (broadcastInDim S64x1 ![0] bcast_S64_S64x1_0
      (maximumf n (broadcastInDim S64 ![] bcast_S_S64 (constant (F := Ideal) S_ .f32 0x3F800000#32)))) (ix2 g k)
      = max (n (ix1 g)) Cert.Spec.c1 := by
    refine (broadcastInDim_apply ![0, 1] bcast_S64x1_S64x64_0_1 _ (ix2 g k) (ix2 g (0 : Fin 1)) fun ax => ?_).trans
      ((broadcastInDim_apply ![0] bcast_S64_S64x1_0 _ (ix2 g (0 : Fin 1)) (ix1 g) fun ax => ?_).trans ?_)
    · match ax with
      | ⟨0, _⟩ => rfl
      | ⟨1, _⟩ => rfl
    · match ax with
      | ⟨0, _⟩ => rfl
    · rw [maximumf_apply, splat_apply]
  unfold t0Arr
  rw [hostDivf_apply, hden, hostReduceAdd_apply, Ideal.hostReduceAdd_single reducesTo_S2x64x64_S64x64_d0 hr]
  show Ideal.div (Cert.Spec.c0 + ∑ q : Fin 2, p (hr.lift (ix2 g k) q)) (max (n (ix1 g)) Cert.Spec.c1) = _
  simp only [lift_core]
  rfl

/-- The tail of the tiled program: the pooled partial sums added over the two cores, each graph's row divided by its
    count capped below at one, four dense layers with positive part and the output column, read at graph `g`. -/
theorem s5_tail (g : Fin 64) :
    (after hostOps5_8 (after hostOps5_7 (after hostOps5_6 (after hostOps5_5 (after hostOps5_4 (after hostOps5_3
        (after hostOps5_2 (after hostOps5_1 (after hostOps5 W)))))))) (Proc.devRef .tc main_v103) : S64x1.Idx → EReal)
        (ix2 g (0 : Fin 1))
      = Cert.Spec.tailF
          (fun k c => (W (Proc.devRef .tc main_arg11) : S64x128.Idx → EReal) (ix2 k c))
          (fun c => (W (Proc.devRef .tc main_arg12) : S128.Idx → EReal) (ix1 c))
          (fun k c => (W (Proc.devRef .tc main_arg13) : S128x64.Idx → EReal) (ix2 k c))
          (fun c => (W (Proc.devRef .tc main_arg14) : S64.Idx → EReal) (ix1 c))
          (fun k c => (W (Proc.devRef .tc main_arg15) : S64x32.Idx → EReal) (ix2 k c))
          (fun c => (W (Proc.devRef .tc main_arg16) : S32.Idx → EReal) (ix1 c))
          (fun k c => (W (Proc.devRef .tc main_arg17) : S32x16.Idx → EReal) (ix2 k c))
          (fun c => (W (Proc.devRef .tc main_arg18) : S16.Idx → EReal) (ix1 c))
          (fun k c => (W (Proc.devRef .tc main_arg19) : S16x1.Idx → EReal) (ix2 k c))
          (fun c => (W (Proc.devRef .tc main_arg20) : S1.Idx → EReal) (ix1 c))
          (fun g k => Cert.Spec.c0 + Finset.sum (M := EReal) Finset.univ fun q : Fin 2 =>
              (W (Proc.devRef .tc main_v73) : S2x64x64.Idx → EReal) (ix3 q g k))
          (fun g => (W (Proc.devRef .tc main_v70) : S64.Idx → EReal) (ix1 g)) g := by
  rw [tail_buffer]
  exact outArr_apply _ _ _ _ _ _ (fun g k => layerArr_apply _ _ _ _ _ _ _ (fun g k => layerArr_apply _ _ _ _ _ _ _
    (fun g k => layerArr_apply _ _ _ _ _ _ _ (fun g k => layerArr_apply _ _ _ _ _ _ _ (fun g k => t0Arr_apply _ _ g k) g k)
      g k) g k) g k) g 0

end Cert.KernelIdeal.KVal

end
-- ==== Proof.KReg0.lean ====
/-
  What the first projection leaves: region 0 multiplies each tile of five thousand rows of the node features
  (an array of shape [100000, 128]) into the weight matrix ([128, 64]) and writes the product to the matching
  tile of the output ([100000, 64]). Entry (n, j) of the output is therefore the sum over k of
  x (n, k) * w (k, j), whatever the arrays hold when the region is entered.

  The steps: the body's stored value at (p, q) of a tile is the sum along the contracted axis of its two loaded
  blocks; the feature block at point t is rows 5000 t … 5000 t + 4999 of the features and the weight block is the
  whole matrix; so what point t writes back is tile t of one array, the product; the twenty tiles cover the output.
-/
import proofs.«412438_j20864951124557_2_alg».proof.Proof.Gen.KernelIdeal.Frame
import proofs.«412438_j20864951124557_2_alg».proof.Proof.LibPlainMatmul
import Idealize.ShloMosaic.Lib.Pipeline.Value
import Idealize.ShloMosaic.Lib.ValueIdx

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Region 0's arrays as the region finds them, at their literal types: the rows, the weights; and the output after
    the run. -/
abbrev arr0_x (c : Dev nD) : S100000x128.Idx → EReal := V c (Pipeline.arrRef spec0 0)
abbrev arr0_w (c : Dev nD) : S128x64.Idx → EReal := V c (Pipeline.arrRef spec0 1)
abbrev arr0_out (c : Dev nD) : S100000x64.Idx → EReal := (dat0 V c).arrAt 2 cfg0.N

/-- The product array: entry (n, j) is row n of the features against column j of the weights. -/
def prod0 (c : Dev nD) : S100000x64.Idx → EReal :=
  fun i => ∑ k : Fin 128, arr0_x V c (ix2 (i 0) k) * arr0_w V c (ix2 k (i 1))

/-- The zero offsets of a whole-block access. -/
theorem off0_zero : (![0, 0] : Fin 2 → Nat) = fun _ => 0 := funext fun a => by fin_cases a <;> rfl

/-- The grid has twenty points. -/
theorem lt20_0 (t : Fin cfg0.N) : t.val < 20 := lt_of_lt_of_eq t.isLt N_0

/-- The block indices at point t: the feature tile and the output tile are tile t along the rows and the only tile
    along the columns; the weights are their one block. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's payload at (p, q): the bf16 casts are the identity on the extended reals and the product into the
    zero accumulator is the sum along the contracted axis. -/
theorem pay0_apply (x0 : FVec Ideal S5000x128 .f32) (x1 : FVec Ideal S128x64 .f32) (p : Fin 5000) (q : Fin 64) :
    k0_pay1 x0 x1 (ix2 p q) = ∑ k : Fin 128, x0 (ix2 p k) * x1 (ix2 k q) := by
  unfold k0_pay1
  exact Cert.Lib.matmul_plain_zero_apply 5000 128 64 none (truncf .bf16 x0 bitsLt_bf16_f32)
    (truncf .bf16 x1 bitsLt_bf16_f32) (ix2 p q)

/-- The input blocks at point t, at their literal types. -/
abbrev blk0_x (c : Dev nD) (t : Fin cfg0.N) : FVec Ideal S5000x128 .f32 := iblk0 V c 0 t
abbrev blk0_w (c : Dev nD) (t : Fin cfg0.N) : FVec Ideal S128x64 .f32 := iblk0 V c 1 t

/-- Row p of the feature tile at point t is row 5000 t + p of the features. -/
theorem blk0_x_apply (c : Dev nD) (t : Fin cfg0.N) (p : Fin 5000) (k : Fin 128) (r : Fin 100000)
    (hr : r.val = t.val * 5000 + p.val) : blk0_x V c t (ix2 p k) = arr0_x V c (ix2 r k) := by
  obtain ⟨e0, e1, -⟩ := index0 t
  show V c (Pipeline.arrRef spec0 0) (((cfg0.win 0).blk t).view.emb (ix2 p k)) = V c (Pipeline.arrRef spec0 0) (ix2 r k)
  refine congrArg _ ?_
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The weight block at every point is the whole weight matrix. -/
theorem blk0_w_apply (c : Dev nD) (t : Fin cfg0.N) (k : Fin 128) (q : Fin 64) (s : Fin 64) (hs : s.val = q.val) :
    blk0_w V c t (ix2 k q) = arr0_w V c (ix2 k s) := by
  obtain ⟨-, -, e0, e1, -⟩ := index0 t
  show V c (Pipeline.arrRef spec0 1) (((cfg0.win 1).blk t).view.emb (ix2 k q)) = V c (Pipeline.arrRef spec0 1) (ix2 k s)
  refine congrArg _ ?_
  funext a
  apply Fin.ext
  match a with
  | ⟨0, _⟩ => show win0_1.index t (0 : Fin 2) * 128 + 1 * k.val = k.val; omega
  | ⟨1, _⟩ => show win0_1.index t (1 : Fin 2) * 64 + 1 * q.val = s.val; omega

/-- What point t writes back is tile t of the product array. -/
theorem flushed0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero off0_zero]
  simp only [View.ld_unit_zero (S := S5000x128) off0_zero, View.ld_unit_zero (S := S128x64) off0_zero]
  obtain ⟨-, -, -, -, e0, e1⟩ := index0 t
  funext y
  obtain ⟨p, q, rfl⟩ : ∃ (p : Fin 5000) (q : Fin 64), y = ix2 p q := ⟨y 0, y 1, eq_ix2 (n0 := 5000) (n1 := 64) y⟩
  show k0_pay1 (F := Ideal) (blk0_x V c t) (blk0_w V c t) (ix2 p q) = prod0 V c (((cfg0.win 2).blk t).view.emb (ix2 p q))
  refine (pay0_apply (blk0_x V c t) (blk0_w V c t) p q).trans ?_
  refine Finset.sum_congr rfl fun k _ => ?_
  rw [blk0_x_apply V c t p k ((((cfg0.win 2).blk t).view.emb (ix2 p q)) 0)
        (by show win0_2.index t (0 : Fin 2) * 5000 + 1 * p.val = _; omega),
    blk0_w_apply V c t k q ((((cfg0.win 2).blk t).view.emb (ix2 p q)) 1)
        (by show win0_2.index t (1 : Fin 2) * 64 + 1 * q.val = _; omega)]

/-- Every row lies in the tile of the point that is its quotient by five thousand. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e0, e1⟩ := index0 t
  refine ⟨t, flush0_2 t, ?_⟩
  show i ∈ ((View.whole main_v12).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The output after the run is the product array. -/
theorem final0 (c : Dev nD) : arr0_out V c = prod0 V c :=
  (dat0 V c).arrAt_eq_of_cover 2 (prod0 V c) (fun t _ => flushed0_eq V c t) cover0

/-- Entry (n, j) of the output is row n of the features against column j of the weights. -/
theorem reg0_value (c : Dev nD) (n : Fin 100000) (j : Fin 64) :
    arr0_out V c (ix2 n j) = ∑ k : Fin 128, arr0_x V c (ix2 n k) * arr0_w V c (ix2 k j) :=
  congrFun (final0 V c) (ix2 n j)

end Cert.KernelIdeal.KVal

end
-- ==== Proof.KReg1.lean ====
import proofs.«412438_j20864951124557_2_alg».proof.Proof.Gen.KernelIdeal.Frame
import proofs.«412438_j20864951124557_2_alg».proof.Proof.Spec
import proofs.«412438_j20864951124557_2_alg».proof.Proof.LibKeepdims
import proofs.«412438_j20864951124557_2_alg».proof.Proof.LibRowOps
import Idealize.ShloMosaic.PureOps.Ideal.Laws
import Idealize.ShloMosaic.Lib.Pipeline.Value
import Idealize.ShloMosaic.Lib.ValueIdx
import Idealize.ShloMosaic.Lib.Tactic

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)

/-- the activation, from the entry arrays -/
def hOf (A : S100000x64.Idx → EReal) (D : S100000x1.Idx → EReal) (B : S1x64.Idx → EReal) (n : Fin 100000) (j : Fin 64) : EReal :=
  max (A (ix2 n j) * D (ix2 n 0) + B (ix2 0 j)) Cert.Spec.c0

namespace Reg1

/-! ## What each case of the body leaves in the three output blocks, as the payloads of the loaded blocks -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a reset point the activation block is the activation of the three input blocks. -/
theorem out_A_3_eq (c : Dev nD) (i : grid1.Coords) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1x64 .f32) (h6 : a6.IsWhole) (a7 : Memref sig .tc .vmem S1x1x64 .f32) (h7 : a7.IsWhole) (hc : cond1_0 i)
    (x0 : Vec F S5000x64 .f32) (x1 : Vec F S5000x1 .f32) (x2 : Vec F S1x64 .f32) :
    out1_A_3 c i a2 h2 a3 h3 a4 h4 a5 h5 a6 h6 a7 h7 hc x0 x1 x2 = k1_pay3 x0 x1 x2 := by
  unfold out1_A_3
  rw [View.read_writes_eq_canon _ _ _ (cover1_A_3 c i a2 h2 a3 h3 a4 h4 a5 h5 a6 h6 a7 h7 hc x0 x1 x2)]
  unfold kernelRun1_A
  dsimp only
  sl_unfold_words
  rw [View.canon_unit_zero hz2]
  simp only [View.readAt_eq_ld, h2.read_unread, h3.read_unread, h4.read_unread, h6.read_unread, h7.read_unread, View.ld_unit_zero (S := S5000x64) hz2, View.ld_unit_zero (S := S5000x1) hz2, View.ld_unit_zero (S := S1x64) hz2, View.ld_unit_zero (S := S1x1x64) hz3, View.readCov_unit_zero (S := S1x1x64) _ hz3]

/-- At a reset point the sum block is the zero block plus the column sums of the activation block. -/
theorem out_A_4_eq (c : Dev nD) (i : grid1.Coords) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1x64 .f32) (h6 : a6.IsWhole) (a7 : Memref sig .tc .vmem S1x1x64 .f32) (h7 : a7.IsWhole) (hc : cond1_0 i)
    (x0 : Vec F S5000x64 .f32) (x1 : Vec F S5000x1 .f32) (x2 : Vec F S1x64 .f32) :
    out1_A_4 c i a2 h2 a3 h3 a4 h4 a5 h5 a6 h6 a7 h7 hc x0 x1 x2 = k1_pay4 x0 x1 x2 (k1_pay1 (F := F)) := by
  unfold out1_A_4
  rw [View.read_writes_eq_canon _ _ _ (cover1_A_4 c i a2 h2 a3 h3 a4 h4 a5 h5 a6 h6 a7 h7 hc x0 x1 x2)]
  unfold kernelRun1_A
  dsimp only
  sl_unfold_words
  rw [View.canon_cons_unit_zero (S := S1x1x64) hz3]
  simp only [View.readAt_eq_ld, h2.read_unread, h3.read_unread, h4.read_unread, h6.read_unread, h7.read_unread, View.ld_unit_zero (S := S5000x64) hz2, View.ld_unit_zero (S := S5000x1) hz2, View.ld_unit_zero (S := S1x64) hz2, View.ld_unit_zero (S := S1x1x64) hz3, View.readCov_unit_zero (S := S1x1x64) _ hz3]

/-- At a reset point the block of sums of squares is the zero block plus the column sums of the squared activation block. -/
theorem out_A_5_eq (c : Dev nD) (i : grid1.Coords) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1x64 .f32) (h6 : a6.IsWhole) (a7 : Memref sig .tc .vmem S1x1x64 .f32) (h7 : a7.IsWhole) (hc : cond1_0 i)
    (x0 : Vec F S5000x64 .f32) (x1 : Vec F S5000x1 .f32) (x2 : Vec F S1x64 .f32) :
    out1_A_5 c i a2 h2 a3 h3 a4 h4 a5 h5 a6 h6 a7 h7 hc x0 x1 x2 = k1_pay5 x0 x1 x2 (k1_pay2 (F := F)) := by
  unfold out1_A_5
  rw [View.read_writes_eq_canon _ _ _ (cover1_A_5 c i a2 h2 a3 h3 a4 h4 a5 h5 a6 h6 a7 h7 hc x0 x1 x2)]
  unfold kernelRun1_A
  dsimp only
  sl_unfold_words
  rw [View.canon_cons_unit_zero (S := S1x1x64) hz3]
  simp only [View.readAt_eq_ld, h2.read_unread, h3.read_unread, h4.read_unread, h6.read_unread, h7.read_unread, View.ld_unit_zero (S := S5000x64) hz2, View.ld_unit_zero (S := S5000x1) hz2, View.ld_unit_zero (S := S1x64) hz2, View.ld_unit_zero (S := S1x1x64) hz3, View.readCov_unit_zero (S := S1x1x64) _ hz3]

/-- At any other point the activation block is again the activation of the three input blocks. -/
theorem out_B_3_eq (c : Dev nD) (i : grid1.Coords) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1x64 .f32) (h6 : a6.IsWhole) (a7 : Memref sig .tc .vmem S1x1x64 .f32) (h7 : a7.IsWhole) (hc : ¬cond1_0 i)
    (x0 : Vec F S5000x64 .f32) (x1 : Vec F S5000x1 .f32) (x2 : Vec F S1x64 .f32) (xo4 xo5 : Vec F S1x1x64 .f32) :
    out1_B_3 c i a2 h2 a3 h3 a4 h4 a5 h5 a6 h6 a7 h7 hc x0 x1 x2 xo4 xo5 = k1_pay3 x0 x1 x2 := by
  unfold out1_B_3
  rw [View.read_writes_eq_canon _ _ _ (cover1_B_3 c i a2 h2 a3 h3 a4 h4 a5 h5 a6 h6 a7 h7 hc x0 x1 x2 xo4 xo5)]
  unfold kernelRun1_B
  dsimp only
  sl_unfold_words
  rw [View.canon_unit_zero hz2]
  simp only [View.readAt_eq_ld, h2.read_unread, h3.read_unread, h4.read_unread, h6.read_unread, h7.read_unread, View.ld_unit_zero (S := S5000x64) hz2, View.ld_unit_zero (S := S5000x1) hz2, View.ld_unit_zero (S := S1x64) hz2, View.ld_unit_zero (S := S1x1x64) hz3, View.readCov_unit_zero (S := S1x1x64) _ hz3]

/-- At any other point the sum block is what it held plus the column sums of the activation block. -/
theorem out_B_4_eq (c : Dev nD) (i : grid1.Coords) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1x64 .f32) (h6 : a6.IsWhole) (a7 : Memref sig .tc .vmem S1x1x64 .f32) (h7 : a7.IsWhole) (hc : ¬cond1_0 i)
    (x0 : Vec F S5000x64 .f32) (x1 : Vec F S5000x1 .f32) (x2 : Vec F S1x64 .f32) (xo4 xo5 : Vec F S1x1x64 .f32) :
    out1_B_4 c i a2 h2 a3 h3 a4 h4 a5 h5 a6 h6 a7 h7 hc x0 x1 x2 xo4 xo5 = k1_pay4 x0 x1 x2 xo4 := by
  unfold out1_B_4
  rw [View.read_writes_eq_canon _ _ _ (cover1_B_4 c i a2 h2 a3 h3 a4 h4 a5 h5 a6 h6 a7 h7 hc x0 x1 x2 xo4 xo5)]
  unfold kernelRun1_B
  dsimp only
  sl_unfold_words
  rw [View.canon_unit_zero hz3]
  simp only [View.readAt_eq_ld, h2.read_unread, h3.read_unread, h4.read_unread, h6.read_unread, h7.read_unread, View.ld_unit_zero (S := S5000x64) hz2, View.ld_unit_zero (S := S5000x1) hz2, View.ld_unit_zero (S := S1x64) hz2, View.ld_unit_zero (S := S1x1x64) hz3, View.readCov_unit_zero (S := S1x1x64) _ hz3]

/-- At any other point the block of sums of squares is what it held plus the column sums of the squared activation block. -/
theorem out_B_5_eq (c : Dev nD) (i : grid1.Coords) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1x64 .f32) (h6 : a6.IsWhole) (a7 : Memref sig .tc .vmem S1x1x64 .f32) (h7 : a7.IsWhole) (hc : ¬cond1_0 i)
    (x0 : Vec F S5000x64 .f32) (x1 : Vec F S5000x1 .f32) (x2 : Vec F S1x64 .f32) (xo4 xo5 : Vec F S1x1x64 .f32) :
    out1_B_5 c i a2 h2 a3 h3 a4 h4 a5 h5 a6 h6 a7 h7 hc x0 x1 x2 xo4 xo5 = k1_pay5 x0 x1 x2 xo5 := by
  unfold out1_B_5
  rw [View.read_writes_eq_canon _ _ _ (cover1_B_5 c i a2 h2 a3 h3 a4 h4 a5 h5 a6 h6 a7 h7 hc x0 x1 x2 xo4 xo5)]
  unfold kernelRun1_B
  dsimp only
  sl_unfold_words
  rw [View.canon_unit_zero hz3]
  simp only [View.readAt_eq_ld, h2.read_unread, h3.read_unread, h4.read_unread, h6.read_unread, h7.read_unread, View.ld_unit_zero (S := S5000x64) hz2, View.ld_unit_zero (S := S5000x1) hz2, View.ld_unit_zero (S := S1x64) hz2, View.ld_unit_zero (S := S1x1x64) hz3, View.readCov_unit_zero (S := S1x1x64) _ hz3]

end Pieces

/-! ## The payloads read at an entry, over the extended reals -/

/-- The activation block at an entry. -/
theorem pay3_apply (x0 : Vec Ideal S5000x64 .f32) (x1 : Vec Ideal S5000x1 .f32) (x2 : Vec Ideal S1x64 .f32) (p : Fin 5000) (q : Fin 64) :
    k1_pay3 x0 x1 x2 (ix2 p q) = max (x0 (ix2 p q) * x1 (ix2 p 0) + x2 (ix2 0 q)) Cert.Spec.c0 := by
  unfold k1_pay3
  rw [maximumf_apply, addf_apply, mulf_apply, shapeCast_self, shapeCast_self, shapeCast_self, broadcast_apply]
  rw [Cert.Lib.broadcastTo_a1_ab_apply, Cert.Lib.broadcastTo_row_apply]
  rfl

/-- A column sum over the rows of a block, stored as a [1,1,64] block, at an entry. -/
theorem colsum_apply (y : FVec Ideal S5000x64 .f32) (j : Fin 64) :
    shapeCast S1x1x64 (shapeCast S1x64 (multiReduction (F := Ideal) .add [0] S64 y 0x00000000#32 reduces_S5000x64_S64 (.inl rfl) rfl) shapeCasts_S64_S1x64) shapeCasts_S1x64_S1x1x64 (ix3 0 0 j)
      = ∑ r : Fin 5000, y (ix2 r j) := by
  refine (shapeCast_addUnit_apply ![1, 64] _ shapeCasts_S1x64_S1x1x64 (ix3 0 0 j)).trans ?_
  refine (shapeCast_addUnit_apply ![64] _ shapeCasts_S64_S1x64 _).trans ?_
  refine (Ideal.multiReduction_add_single y 0x00000000#32 reduces_S5000x64_S64 (.inl rfl) rfl _).trans ?_
  refine Finset.sum_congr rfl fun r _ => congrArg y ?_
  funext a
  match a with
  | ⟨0, _⟩ => rfl
  | ⟨1, _⟩ => rfl

theorem pay4_apply (x0 : Vec Ideal S5000x64 .f32) (x1 : Vec Ideal S5000x1 .f32) (x2 : Vec Ideal S1x64 .f32) (acc : Vec Ideal S1x1x64 .f32) (j : Fin 64) :
    k1_pay4 x0 x1 x2 acc (ix3 0 0 j) = acc (ix3 0 0 j) + ∑ r : Fin 5000, k1_pay3 x0 x1 x2 (ix2 r j) := by
  unfold k1_pay4
  rw [addf_apply, shapeCast_self]
  exact congrArg (acc (ix3 0 0 j) + ·) (colsum_apply (k1_pay3 x0 x1 x2) j)

theorem pay5_apply (x0 : Vec Ideal S5000x64 .f32) (x1 : Vec Ideal S5000x1 .f32) (x2 : Vec Ideal S1x64 .f32) (acc : Vec Ideal S1x1x64 .f32) (j : Fin 64) :
    k1_pay5 x0 x1 x2 acc (ix3 0 0 j) = acc (ix3 0 0 j) + ∑ r : Fin 5000, k1_pay3 x0 x1 x2 (ix2 r j) * k1_pay3 x0 x1 x2 (ix2 r j) := by
  unfold k1_pay5
  rw [addf_apply, shapeCast_self]
  exact congrArg (acc (ix3 0 0 j) + ·) (colsum_apply (mulf (k1_pay3 x0 x1 x2) (k1_pay3 x0 x1 x2)) j)

theorem pay1_apply (i : S1x1x64.Idx) : (k1_pay1 (F := Ideal)) i = 0 := by
  unfold k1_pay1
  rw [broadcast_apply]
  exact Ideal.ofBits_zero_f32

theorem pay2_apply (i : S1x1x64.Idx) : (k1_pay2 (F := Ideal)) i = 0 := by
  unfold k1_pay2
  rw [broadcast_apply]
  exact Ideal.ofBits_zero_f32

/-! ## The blocks of the entry arrays, and the running sums over the tiles of a core -/

section Values

variable (V : (c : Dev nD) → (b : Ref sig .tc) → Buf (Elt Ideal) ((c : Thread nD τ).loc b))

/-- The three entry arrays: the aggregate, the degree factor, the bias row. -/
abbrev arrA (c : Dev nD) : S100000x64.Idx → EReal := V c (Pipeline.arrRef spec1 0)
abbrev arrD (c : Dev nD) : S100000x1.Idx → EReal := V c (Pipeline.arrRef spec1 1)
abbrev arrB (c : Dev nD) : S1x64.Idx → EReal := V c (Pipeline.arrRef spec1 2)

/-- Their blocks at a point. -/
abbrev blkA (c : Dev nD) (t : Fin cfg1.N) : Vec Ideal S5000x64 .f32 := iblk1 V c 0 t
abbrev blkD (c : Dev nD) (t : Fin cfg1.N) : Vec Ideal S5000x1 .f32 := iblk1 V c 1 t
abbrev blkB (c : Dev nD) (t : Fin cfg1.N) : Vec Ideal S1x64 .f32 := iblk1 V c 2 t

/-- Row `r` of tile `n`, capped so that it is a row for every natural `n`; below twenty tiles it is `5000 n + r`. -/
def rowN (n : ℕ) (r : Fin 5000) : Fin 100000 := ⟨min (n * 5000 + r.val) 99999, by omega⟩

/-- The block index of every window at every point: the row tile is the point, a core's sums sit at the core. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 3) = t.val / 10 ∧ win1_4.index t (1 : Fin 3) = 0 ∧ win1_4.index t (2 : Fin 3) = 0
    ∧ win1_5.index t (0 : Fin 3) = t.val / 10 ∧ win1_5.index t (1 : Fin 3) = 0 ∧ win1_5.index t (2 : Fin 3) = 0 :=
  (by decide +kernel : ∀ t : Fin grid1.N, _)

theorem lt20 (t : Fin cfg1.N) : t.val < 20 := lt_of_lt_of_eq t.isLt (show cfg1.N = 20 from N_1)

/-- The aggregate's block at point `t` holds rows `5000 t …` of the array. -/
theorem blkA_apply (c : Dev nD) (t : Fin cfg1.N) (p : Fin 5000) (q : Fin 64) :
    blkA V c t (ix2 p q) = arrA V c (ix2 (rowN t.val p) q) := by
  obtain ⟨e0, e1, -⟩ := idx_facts t
  have hN := lt20 t
  show ((cfg1.win 0).blk t).view.read (Elt Ideal) (V c (Pipeline.arrRef spec1 0)) (ix2 p q) = _
  rw [View.read_apply]
  show V c (Pipeline.arrRef spec1 0) _ = V c (Pipeline.arrRef spec1 0) _
  congr 1
  funext a; apply Fin.ext
  match a with
  | ⟨0, _⟩ => show win1_0.index t (0 : Fin 2) * 5000 + 1 * p.val = min (t.val * 5000 + p.val) 99999; rw [e0]; omega
  | ⟨1, _⟩ => show win1_0.index t (1 : Fin 2) * 64 + 1 * q.val = q.val; rw [e1]; omega

/-- The factor's block at point `t` holds the same rows of its column. -/
theorem blkD_apply (c : Dev nD) (t : Fin cfg1.N) (p : Fin 5000) :
    blkD V c t (ix2 p (0 : Fin 1)) = arrD V c (ix2 (rowN t.val p) (0 : Fin 1)) := by
  obtain ⟨-, -, e0, e1, -⟩ := idx_facts t
  have hN := lt20 t
  show ((cfg1.win 1).blk t).view.read (Elt Ideal) (V c (Pipeline.arrRef spec1 1)) (ix2 p (0 : Fin 1)) = _
  rw [View.read_apply]
  show V c (Pipeline.arrRef spec1 1) _ = V c (Pipeline.arrRef spec1 1) _
  congr 1
  funext a; apply Fin.ext
  match a with
  | ⟨0, _⟩ => show win1_1.index t (0 : Fin 2) * 5000 + 1 * p.val = min (t.val * 5000 + p.val) 99999; rw [e0]; omega
  | ⟨1, _⟩ => show win1_1.index t (1 : Fin 2) * 1 + 1 * 0 = 0; rw [e1]

/-- The bias row's block is the row at every point. -/
theorem blkB_apply (c : Dev nD) (t : Fin cfg1.N) (q : Fin 64) :
    blkB V c t (ix2 (0 : Fin 1) q) = arrB V c (ix2 (0 : Fin 1) q) := by
  obtain ⟨-, -, -, -, e0, e1, -⟩ := idx_facts t
  show ((cfg1.win 2).blk t).view.read (Elt Ideal) (V c (Pipeline.arrRef spec1 2)) (ix2 (0 : Fin 1) q) = _
  rw [View.read_apply]
  show V c (Pipeline.arrRef spec1 2) _ = V c (Pipeline.arrRef spec1 2) _
  congr 1
  funext a; apply Fin.ext
  match a with
  | ⟨0, _⟩ => show win1_2.index t (0 : Fin 2) * 1 + 1 * 0 = 0; rw [e0]
  | ⟨1, _⟩ => show win1_2.index t (1 : Fin 2) * 64 + 1 * q.val = q.val; rw [e1]; omega

/-- The activation block of tile `t`. -/
abbrev hblk (c : Dev nD) (t : Fin cfg1.N) : Vec Ideal S5000x64 .f32 := k1_pay3 (blkA V c t) (blkD V c t) (blkB V c t)

/-- Its entries are the activation of the entry arrays at the tile's rows. -/
theorem hblk_apply (c : Dev nD) (t : Fin cfg1.N) (p : Fin 5000) (q : Fin 64) :
    hblk V c t (ix2 p q) = hOf (arrA V c) (arrD V c) (arrB V c) (rowN t.val p) q := by
  refine (pay3_apply (blkA V c t) (blkD V c t) (blkB V c t) p q).trans ?_
  rw [blkA_apply V c t p q, blkD_apply V c t p, blkB_apply V c t q]
  rfl

/-- The column sums of the activation, and of its square, over the rows of tile `n`. -/
def tileSum (c : Dev nD) (n : ℕ) (j : Fin 64) : EReal := ∑ r : Fin 5000, hOf (arrA V c) (arrD V c) (arrB V c) (rowN n r) j
def tileSq (c : Dev nD) (n : ℕ) (j : Fin 64) : EReal :=
  ∑ r : Fin 5000, hOf (arrA V c) (arrD V c) (arrB V c) (rowN n r) j * hOf (arrA V c) (arrD V c) (arrB V c) (rowN n r) j

/-- After every point the activation buffer holds the activation block of the point's tile. -/
theorem outs_3 (c : Dev nD) (t : Fin cfg1.N) : (outsAt1 V c t.val t.isLt).1 = hblk V c t := by
  by_cases h0 : t.val % 10 = 0
  · rw [outsAt1_A V c t h0]; dsimp only
    exact out_A_3_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)
  · rw [outsAt1_B V c t h0]; dsimp only
    exact out_B_3_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- At the first point of a core the sum buffer holds the tile's column sums. -/
theorem outs_4_A (c : Dev nD) (t : Fin cfg1.N) (h0 : t.val % 10 = 0) (j : Fin 64) :
    (outsAt1 V c t.val t.isLt).2.1 (ix3 0 0 j) = tileSum V c t.val j := by
  rw [outsAt1_A V c t h0]; dsimp only
  refine (congrFun (out_A_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)) (ix3 0 0 j)).trans ?_
  refine (pay4_apply (blkA V c t) (blkD V c t) (blkB V c t) (k1_pay1 (F := Ideal)) j).trans ?_
  rw [pay1_apply, zero_add]
  exact Finset.sum_congr rfl fun r _ => hblk_apply V c t r j

/-- At a later point it holds what the point before left plus the tile's column sums. -/
theorem outs_4_B (c : Dev nD) (t : Fin cfg1.N) (h0 : ¬t.val % 10 = 0) (j : Fin 64) :
    (outsAt1 V c t.val t.isLt).2.1 (ix3 0 0 j) = (outsAt1 V c (t.val - 1) (Nat.lt_of_le_of_lt (Nat.sub_le _ _) t.isLt)).2.1 (ix3 0 0 j) + tileSum V c t.val j := by
  rw [outsAt1_B V c t h0]; dsimp only
  refine (congrFun (out_B_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) (ix3 0 0 j)).trans ?_
  refine (pay4_apply (blkA V c t) (blkD V c t) (blkB V c t) (outsAt1 V c (t.val - 1) (Nat.lt_of_le_of_lt (Nat.sub_le _ _) t.isLt)).2.1 j).trans ?_
  exact congrArg ((outsAt1 V c (t.val - 1) (Nat.lt_of_le_of_lt (Nat.sub_le _ _) t.isLt)).2.1 (ix3 0 0 j) + ·) (Finset.sum_congr rfl fun r _ => hblk_apply V c t r j)

/-- The same two steps for the sums of squares. -/
theorem outs_5_A (c : Dev nD) (t : Fin cfg1.N) (h0 : t.val % 10 = 0) (j : Fin 64) :
    (outsAt1 V c t.val t.isLt).2.2 (ix3 0 0 j) = tileSq V c t.val j := by
  rw [outsAt1_A V c t h0]; dsimp only
  refine (congrFun (out_A_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)) (ix3 0 0 j)).trans ?_
  refine (pay5_apply (blkA V c t) (blkD V c t) (blkB V c t) (k1_pay2 (F := Ideal)) j).trans ?_
  rw [pay2_apply, zero_add]
  exact Finset.sum_congr rfl fun r _ => congrArg₂ (· * ·) (hblk_apply V c t r j) (hblk_apply V c t r j)

theorem outs_5_B (c : Dev nD) (t : Fin cfg1.N) (h0 : ¬t.val % 10 = 0) (j : Fin 64) :
    (outsAt1 V c t.val t.isLt).2.2 (ix3 0 0 j) = (outsAt1 V c (t.val - 1) (Nat.lt_of_le_of_lt (Nat.sub_le _ _) t.isLt)).2.2 (ix3 0 0 j) + tileSq V c t.val j := by
  rw [outsAt1_B V c t h0]; dsimp only
  refine (congrFun (out_B_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) (ix3 0 0 j)).trans ?_
  refine (pay5_apply (blkA V c t) (blkD V c t) (blkB V c t) (outsAt1 V c (t.val - 1) (Nat.lt_of_le_of_lt (Nat.sub_le _ _) t.isLt)).2.2 j).trans ?_
  exact congrArg ((outsAt1 V c (t.val - 1) (Nat.lt_of_le_of_lt (Nat.sub_le _ _) t.isLt)).2.2 (ix3 0 0 j) + ·) (Finset.sum_congr rfl fun r _ => congrArg₂ (· * ·) (hblk_apply V c t r j) (hblk_apply V c t r j))

/-- A quantity that is `f n` at the first point of a core and adds `f n` to its predecessor at every later point is,
    after point `n`, the sum of `f` over the core's tiles up to `n`. -/
theorem run_sum (g : (n : ℕ) → n < cfg1.N → EReal) (f : ℕ → EReal)
    (hA : ∀ t : Fin cfg1.N, t.val % 10 = 0 → g t.val t.isLt = f t.val)
    (hB : ∀ t : Fin cfg1.N, ¬t.val % 10 = 0 →
      g t.val t.isLt = g (t.val - 1) (Nat.lt_of_le_of_lt (Nat.sub_le _ _) t.isLt) + f t.val) :
    ∀ (n : ℕ) (hn : n < cfg1.N), g n hn = ∑ s ∈ Finset.range (n % 10 + 1), f (10 * (n / 10) + s) := by
  intro n
  induction n with
  | zero =>
    intro hn
    refine (hA ⟨0, hn⟩ rfl).trans ?_
    rw [Finset.sum_range_one]
  | succ n ih =>
    intro hn
    by_cases h0 : (n + 1) % 10 = 0
    · refine (hA ⟨n + 1, hn⟩ h0).trans ?_
      rw [h0, Finset.sum_range_one]
      exact congrArg f (by show n + 1 = 10 * ((n + 1) / 10) + 0; omega)
    · refine (hB ⟨n + 1, hn⟩ h0).trans ?_
      show g n _ + f (n + 1) = _
      rw [ih (Nat.lt_of_succ_lt hn)]
      have e1 : (n + 1) % 10 = n % 10 + 1 := by omega
      have e2 : (n + 1) / 10 = n / 10 := by omega
      rw [e1, e2, Finset.sum_range_succ _ (n % 10 + 1)]
      exact congrArg (_ + f ·) (by omega)

/-- After point `n` the sum buffer holds the column sums of the core's tiles up to `n`. -/
theorem outs_4 (c : Dev nD) (j : Fin 64) (n : ℕ) (hn : n < cfg1.N) :
    (outsAt1 V c n hn).2.1 (ix3 0 0 j) = ∑ s ∈ Finset.range (n % 10 + 1), tileSum V c (10 * (n / 10) + s) j :=
  run_sum (fun n hn => (outsAt1 V c n hn).2.1 (ix3 0 0 j)) (fun n => tileSum V c n j)
    (fun t h0 => outs_4_A V c t h0 j) (fun t h0 => outs_4_B V c t h0 j) n hn

theorem outs_5 (c : Dev nD) (j : Fin 64) (n : ℕ) (hn : n < cfg1.N) :
    (outsAt1 V c n hn).2.2 (ix3 0 0 j) = ∑ s ∈ Finset.range (n % 10 + 1), tileSq V c (10 * (n / 10) + s) j :=
  run_sum (fun n hn => (outsAt1 V c n hn).2.2 (ix3 0 0 j)) (fun n => tileSq V c n j)
    (fun t h0 => outs_5_A V c t h0 j) (fun t h0 => outs_5_B V c t h0 j) n hn

end Values

/-! ## From the blocks written back to the three output arrays -/

section Final

variable (V : (c : Dev nD) → (b : Ref sig .tc) → Buf (Elt Ideal) ((c : Thread nD τ).loc b))

/-- What the three output arrays end holding: the activation; per core, its column sums; per core, the column sums of its square. -/
def G3 (c : Dev nD) : S100000x64.Idx → EReal := fun i => hOf (arrA V c) (arrD V c) (arrB V c) (i 0) (i 1)
def G4 (c : Dev nD) : S2x1x64.Idx → EReal := fun i => Cert.Spec.sumPartK (hOf (arrA V c) (arrD V c) (arrB V c)) (i 0) (i 2)
def G5 (c : Dev nD) : S2x1x64.Idx → EReal := fun i => Cert.Spec.sqPartK (hOf (arrA V c) (arrD V c) (arrB V c)) (i 0) (i 2)

/-- Every point writes back its tile's block of the activation. -/
theorem flushed_3 (c : Dev nD) (t : Fin cfg1.N) :
    (dat1 V c).flushed 3 t = ((cfg1.win 3).blk t).view.read (Elt Ideal) (G3 V c) := by
  obtain ⟨-, -, -, -, -, -, e0, e1, -⟩ := idx_facts t
  have hN := lt20 t
  show (cfg1.win 3).cut (grid1.coords t) ((dat1 V c).after 3 t) = _
  rw [after1_3, outs_3]
  funext y
  obtain ⟨p, q, rfl⟩ : ∃ (p : Fin 5000) (q : Fin 64), y = ix2 p q := ⟨y 0, y 1, eq_ix2 (n0 := 5000) (n1 := 64) y⟩
  rw [View.read_apply]
  show hblk V c t (ix2 p q) = G3 V c (((cfg1.win 3).blk t).view.emb (ix2 p q))
  rw [hblk_apply V c t p q]
  have hemb : ((cfg1.win 3).blk t).view.emb (ix2 p q) = ix2 (rowN t.val p) q := by
    funext a; apply Fin.ext
    match a with
    | ⟨0, _⟩ => show win1_3.index t (0 : Fin 2) * 5000 + 1 * p.val = min (t.val * 5000 + p.val) 99999; rw [e0]; omega
    | ⟨1, _⟩ => show win1_3.index t (1 : Fin 2) * 64 + 1 * q.val = q.val; rw [e1]; omega
  rw [hemb]
  rfl

/-- Every row is in the block of its tile. -/
theorem cover_3 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, e0, e1, -⟩ := idx_facts t
  refine ⟨t, flush1_3 t, ?_⟩
  show i ∈ ((View.whole (Pipeline.arrRef spec1 3)).slice (win1_3.rect t)).set
  rw [View.set_slice_whole, Rect.mem_set_unit]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- So the activation array ends holding `G3`. -/
theorem final_3 (c : Dev nD) : (dat1 V c).arrAt 3 cfg1.N = G3 V c :=
  (dat1 V c).arrAt_eq_of_cover 3 (G3 V c) (fun t _ => flushed_3 V c t) cover_3

/-- At the last point of a core the block written back is the core's block of `G4`. -/
theorem flushed_4 (c : Dev nD) (t : Fin cfg1.N) (hf : (cfg1.win 4).flush t = true) :
    (dat1 V c).flushed 4 t = ((cfg1.win 4).blk t).view.read (Elt Ideal) (G4 V c) := by
  have h9 : t.val % 10 = 9 := (flush1_4 t).mp hf
  have hN := lt20 t
  obtain ⟨-, -, -, -, -, -, -, -, e0, e1, e2, -⟩ := idx_facts t
  show (cfg1.win 4).cut (grid1.coords t) ((dat1 V c).after 4 t) = _
  rw [after1_4]
  funext y
  obtain ⟨a, b, j, rfl⟩ : ∃ (a : Fin 1) (b : Fin 1) (j : Fin 64), y = ix3 a b j :=
    ⟨y 0, y 1, y 2, eq_ix3 (n0 := 1) (n1 := 1) (n2 := 64) y⟩
  obtain rfl : a = 0 := Subsingleton.elim _ _
  obtain rfl : b = 0 := Subsingleton.elim _ _
  rw [View.read_apply]
  show (outsAt1 V c t.val t.isLt).2.1 (ix3 0 0 j) = G4 V c (((cfg1.win 4).blk t).view.emb (ix3 0 0 j))
  rw [outs_4 V c j t.val t.isLt, h9]
  have hemb : ((cfg1.win 4).blk t).view.emb (ix3 (0 : Fin 1) (0 : Fin 1) j) = ix3 (⟨t.val / 10, by omega⟩ : Fin 2) (0 : Fin 1) j := by
    funext a; apply Fin.ext
    match a with
    | ⟨0, _⟩ => show win1_4.index t (0 : Fin 3) * 1 + 1 * 0 = t.val / 10; omega
    | ⟨1, _⟩ => show win1_4.index t (1 : Fin 3) * 1 + 1 * 0 = 0; omega
    | ⟨2, _⟩ => show win1_4.index t (2 : Fin 3) * 64 + 1 * j.val = j.val; omega
  rw [hemb]
  show _ = Cert.Spec.sumPartK (hOf (arrA V c) (arrD V c) (arrB V c)) (⟨t.val / 10, by omega⟩ : Fin 2) j
  unfold Cert.Spec.sumPartK tileSum
  rw [Finset.sum_range]
  refine Finset.sum_congr rfl fun k _ => Finset.sum_congr rfl fun r _ => ?_
  have hrow : rowN (10 * (t.val / 10) + k.val) r = Cert.Spec.rowOf (⟨t.val / 10, by omega⟩ : Fin 2) k r := by
    apply Fin.ext
    show min ((10 * (t.val / 10) + k.val) * 5000 + r.val) 99999 = (t.val / 10 * 10 + k.val) * 5000 + r.val
    have := k.isLt; have := r.isLt; omega
  rw [hrow]

/-- Every entry of the array of per-core sums is in the block some core's last point writes back. -/
theorem cover_4 (i : S2x1x64.Idx) :
    ∃ t : Fin cfg1.N, (cfg1.win 4).flush t = true ∧ i ∈ ((cfg1.win 4).blk t).view.set := by
  have hi0 : (i 0).val < 2 := (i 0).isLt
  have hi1 : (i 1).val < 1 := (i 1).isLt
  have hi2 : (i 2).val < 64 := (i 2).isLt
  have hN : cfg1.N = 20 := N_1
  obtain ⟨t, ht⟩ : ∃ t : Fin cfg1.N, t.val = 10 * (i 0).val + 9 := ⟨⟨10 * (i 0).val + 9, by omega⟩, rfl⟩
  obtain ⟨-, -, -, -, -, -, -, -, e0, e1, e2, -⟩ := idx_facts t
  refine ⟨t, (flush1_4 t).mpr (by omega), ?_⟩
  show i ∈ ((View.whole (Pipeline.arrRef spec1 4)).slice (win1_4.rect t)).set
  rw [View.set_slice_whole, Rect.mem_set_unit]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1 ≤ (i 1).val ∧ (i 1).val < win1_4.index t (1 : Fin 3) * 1 + 1; omega
  | ⟨2, _⟩ => show win1_4.index t (2 : Fin 3) * 64 ≤ (i 2).val ∧ (i 2).val < win1_4.index t (2 : Fin 3) * 64 + 64; omega

/-- So the array ends holding `G4`. -/
theorem final_4 (c : Dev nD) : (dat1 V c).arrAt 4 cfg1.N = G4 V c :=
  (dat1 V c).arrAt_eq_of_cover 4 (G4 V c) (flushed_4 V c) cover_4

/-- At the last point of a core the block written back is the core's block of `G5`. -/
theorem flushed_5 (c : Dev nD) (t : Fin cfg1.N) (hf : (cfg1.win 5).flush t = true) :
    (dat1 V c).flushed 5 t = ((cfg1.win 5).blk t).view.read (Elt Ideal) (G5 V c) := by
  have h9 : t.val % 10 = 9 := (flush1_5 t).mp hf
  have hN := lt20 t
  obtain ⟨-, -, -, -, -, -, -, -, -, -, -, e0, e1, e2⟩ := idx_facts t
  show (cfg1.win 5).cut (grid1.coords t) ((dat1 V c).after 5 t) = _
  rw [after1_5]
  funext y
  obtain ⟨a, b, j, rfl⟩ : ∃ (a : Fin 1) (b : Fin 1) (j : Fin 64), y = ix3 a b j :=
    ⟨y 0, y 1, y 2, eq_ix3 (n0 := 1) (n1 := 1) (n2 := 64) y⟩
  obtain rfl : a = 0 := Subsingleton.elim _ _
  obtain rfl : b = 0 := Subsingleton.elim _ _
  rw [View.read_apply]
  show (outsAt1 V c t.val t.isLt).2.2 (ix3 0 0 j) = G5 V c (((cfg1.win 5).blk t).view.emb (ix3 0 0 j))
  rw [outs_5 V c j t.val t.isLt, h9]
  have hemb : ((cfg1.win 5).blk t).view.emb (ix3 (0 : Fin 1) (0 : Fin 1) j) = ix3 (⟨t.val / 10, by omega⟩ : Fin 2) (0 : Fin 1) j := by
    funext a; apply Fin.ext
    match a with
    | ⟨0, _⟩ => show win1_5.index t (0 : Fin 3) * 1 + 1 * 0 = t.val / 10; omega
    | ⟨1, _⟩ => show win1_5.index t (1 : Fin 3) * 1 + 1 * 0 = 0; omega
    | ⟨2, _⟩ => show win1_5.index t (2 : Fin 3) * 64 + 1 * j.val = j.val; omega
  rw [hemb]
  show _ = Cert.Spec.sqPartK (hOf (arrA V c) (arrD V c) (arrB V c)) (⟨t.val / 10, by omega⟩ : Fin 2) j
  unfold Cert.Spec.sqPartK tileSq
  rw [Finset.sum_range]
  refine Finset.sum_congr rfl fun k _ => Finset.sum_congr rfl fun r _ => ?_
  have hrow : rowN (10 * (t.val / 10) + k.val) r = Cert.Spec.rowOf (⟨t.val / 10, by omega⟩ : Fin 2) k r := by
    apply Fin.ext
    show min ((10 * (t.val / 10) + k.val) * 5000 + r.val) 99999 = (t.val / 10 * 10 + k.val) * 5000 + r.val
    have := k.isLt; have := r.isLt; omega
  rw [hrow]

/-- Every entry of the array of per-core sums is in the block some core's last point writes back. -/
theorem cover_5 (i : S2x1x64.Idx) :
    ∃ t : Fin cfg1.N, (cfg1.win 5).flush t = true ∧ i ∈ ((cfg1.win 5).blk t).view.set := by
  have hi0 : (i 0).val < 2 := (i 0).isLt
  have hi1 : (i 1).val < 1 := (i 1).isLt
  have hi2 : (i 2).val < 64 := (i 2).isLt
  have hN : cfg1.N = 20 := N_1
  obtain ⟨t, ht⟩ : ∃ t : Fin cfg1.N, t.val = 10 * (i 0).val + 9 := ⟨⟨10 * (i 0).val + 9, by omega⟩, rfl⟩
  obtain ⟨-, -, -, -, -, -, -, -, -, -, -, e0, e1, e2⟩ := idx_facts t
  refine ⟨t, (flush1_5 t).mpr (by omega), ?_⟩
  show i ∈ ((View.whole (Pipeline.arrRef spec1 5)).slice (win1_5.rect t)).set
  rw [View.set_slice_whole, Rect.mem_set_unit]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1 ≤ (i 1).val ∧ (i 1).val < win1_5.index t (1 : Fin 3) * 1 + 1; omega
  | ⟨2, _⟩ => show win1_5.index t (2 : Fin 3) * 64 ≤ (i 2).val ∧ (i 2).val < win1_5.index t (2 : Fin 3) * 64 + 64; omega

/-- So the array ends holding `G5`. -/
theorem final_5 (c : Dev nD) : (dat1 V c).arrAt 5 cfg1.N = G5 V c :=
  (dat1 V c).arrAt_eq_of_cover 5 (G5 V c) (flushed_5 V c) cover_5

end Final

end Reg1

variable (V : (c : Dev nD) → (b : Ref sig .tc) → Buf (Elt Ideal) ((c : Thread nD τ).loc b))

/-- The activation array after the region, entry by entry. -/
theorem reg1_h (c : Dev nD) (n : Fin 100000) (j : Fin 64) :
    ((dat1 V c).arrAt 3 cfg1.N : S100000x64.Idx → EReal) (ix2 n j)
      = hOf (V c (Pipeline.arrRef spec1 0) : S100000x64.Idx → EReal) (V c (Pipeline.arrRef spec1 1) : S100000x1.Idx → EReal) (V c (Pipeline.arrRef spec1 2) : S1x64.Idx → EReal) n j :=
  congrFun (Reg1.final_3 V c) (ix2 n j)

/-- The per-core column sums after the region. -/
theorem reg1_sum (c : Dev nD) (q : Fin 2) (j : Fin 64) :
    ((dat1 V c).arrAt 4 cfg1.N : S2x1x64.Idx → EReal) (ix3 q 0 j)
      = Cert.Spec.sumPartK (hOf (V c (Pipeline.arrRef spec1 0) : S100000x64.Idx → EReal) (V c (Pipeline.arrRef spec1 1) : S100000x1.Idx → EReal) (V c (Pipeline.arrRef spec1 2) : S1x64.Idx → EReal)) q j :=
  congrFun (Reg1.final_4 V c) (ix3 q 0 j)

/-- The per-core column sums of squares after the region. -/
theorem reg1_sq (c : Dev nD) (q : Fin 2) (j : Fin 64) :
    ((dat1 V c).arrAt 5 cfg1.N : S2x1x64.Idx → EReal) (ix3 q 0 j)
      = Cert.Spec.sqPartK (hOf (V c (Pipeline.arrRef spec1 0) : S100000x64.Idx → EReal) (V c (Pipeline.arrRef spec1 1) : S100000x1.Idx → EReal) (V c (Pipeline.arrRef spec1 2) : S1x64.Idx → EReal)) q j :=
  congrFun (Reg1.final_5 V c) (ix3 q 0 j)

end Cert.KernelIdeal.KVal

end
-- ==== Proof.KReg2.lean ====
/-
  What the second projection leaves: region 2 normalises each tile of five thousand rows of its input
  (an array of shape [100000, 64]) column by column from a given mean row, variance row, scale row and shift row
  (each of shape [1, 64]), and multiplies the normalised tile into the weight matrix ([64, 64]). Entry (n, j) of
  the output is the sum over k of bn (n, k) * w (k, j), with
  bn (n, k) = (x (n, k) - mean k) * rsqrt (var k + eps) * scale k + shift k.

  The steps: the body's stored value at (p, q) of a tile is the sum along the contracted axis of the normalised
  loaded tile against the loaded weights, each of the four rows read at its column whatever the row of the tile;
  the input block at point t is rows 5000 t … 5000 t + 4999 of the input and the other five blocks are their whole
  arrays; so what point t writes back is tile t of one array, the product; the twenty tiles cover the output.
-/
import proofs.«412438_j20864951124557_2_alg».proof.Proof.Gen.KernelIdeal.Frame
import proofs.«412438_j20864951124557_2_alg».proof.Proof.Spec
import proofs.«412438_j20864951124557_2_alg».proof.Proof.LibPlainMatmul
import proofs.«412438_j20864951124557_2_alg».proof.Proof.LibRowOps
import Idealize.ShloMosaic.Lib.Pipeline.Value
import Idealize.ShloMosaic.Lib.ValueIdx

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Region 2's arrays as the region finds them, at their literal types: the rows, the weights, the mean row, the
    variance row, the scale row, the shift row; and the output after the run. -/
abbrev arr2_x (c : Dev nD) : S100000x64.Idx → EReal := V c (Pipeline.arrRef spec2 0)
abbrev arr2_w (c : Dev nD) : S64x64.Idx → EReal := V c (Pipeline.arrRef spec2 1)
abbrev arr2_mu (c : Dev nD) : S1x64.Idx → EReal := V c (Pipeline.arrRef spec2 2)
abbrev arr2_var (c : Dev nD) : S1x64.Idx → EReal := V c (Pipeline.arrRef spec2 3)
abbrev arr2_ga (c : Dev nD) : S1x64.Idx → EReal := V c (Pipeline.arrRef spec2 4)
abbrev arr2_be (c : Dev nD) : S1x64.Idx → EReal := V c (Pipeline.arrRef spec2 5)
abbrev arr2_out (c : Dev nD) : S100000x64.Idx → EReal := (dat2 V c).arrAt 6 cfg2.N

/-- The normalised rows: entry (n, k) from the mean, variance, scale and shift rows. -/
abbrev bn2 (c : Dev nD) : Fin 100000 → Fin 64 → EReal :=
  Cert.Spec.bn (fun n k => arr2_x V c (ix2 n k)) (fun k => arr2_mu V c (ix2 0 k))
    (fun k => arr2_var V c (ix2 0 k)) (fun k => arr2_ga V c (ix2 0 k)) (fun k => arr2_be V c (ix2 0 k))

/-- The product array: entry (n, j) is the normalised row n against column j of the weights. -/
def prod2 (c : Dev nD) : S100000x64.Idx → EReal :=
  fun i => ∑ k : Fin 64, bn2 V c (i 0) k * arr2_w V c (ix2 k (i 1))

/-- The zero offsets of a whole-block access. -/
theorem off2_zero : (![0, 0] : Fin 2 → Nat) = fun _ => 0 := funext fun a => by fin_cases a <;> rfl

/-- The block indices at point t: the input tile and the output tile are tile t along the rows and the only tile
    along the columns; the weights and the four rows are their one block. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The body's payload at (p, q): each row is normalised column by column from the four rows, the bf16 casts are the
    identity on the extended reals, and the product into the zero accumulator is the sum along the contracted axis. -/
theorem pay2_apply (v0 : FVec Ideal S5000x64 .f32) (v2 v7 v13 v17 : FVec Ideal S1x64 .f32)
    (v22 : FVec Ideal S64x64 .f32) (p : Fin 5000) (q : Fin 64) :
    k2_pay1 v0 v2 v7 v13 v17 v22 (ix2 p q)
      = ∑ k : Fin 64, ((v0 (ix2 p k) - v7 (ix2 0 k)) * Ideal.rsqrt (v2 (ix2 0 k) + Cert.Spec.ceps) * v13 (ix2 0 k)
            + v17 (ix2 0 k)) * v22 (ix2 k q) := by
  unfold k2_pay1
  simp only [shapeCast_self]
  refine (Cert.Lib.matmul_plain_zero_apply 5000 64 64 none _ _ (ix2 p q)).trans ?_
  refine Finset.sum_congr rfl fun k _ => ?_
  show (addf (mulf (mulf (subf v0 (broadcastTo S5000x64 v7 broadcasts_S1x64_S5000x64))
        (broadcastTo S5000x64 (rsqrt (addf v2 (broadcast S1x64 (Scalar.ofBits .f32 0x3727C5AC#32)))) broadcasts_S1x64_S5000x64))
        (broadcastTo S5000x64 v13 broadcasts_S1x64_S5000x64)) (broadcastTo S5000x64 v17 broadcasts_S1x64_S5000x64)) (ix2 p k)
      * v22 (ix2 k q) = _
  rw [addf_apply, mulf_apply, mulf_apply, subf_apply, Cert.Lib.broadcastTo_row_apply, Cert.Lib.broadcastTo_row_apply,
    Cert.Lib.broadcastTo_row_apply, Cert.Lib.broadcastTo_row_apply]
  rfl

/-- The same facts, one at a time. -/
theorem index2_00 (t : Fin cfg2.N) : win2_0.index t (0 : Fin 2) = t.val := (index2 t).1
theorem index2_01 (t : Fin cfg2.N) : win2_0.index t (1 : Fin 2) = 0 := (index2 t).2.1
theorem index2_10 (t : Fin cfg2.N) : win2_1.index t (0 : Fin 2) = 0 := (index2 t).2.2.1
theorem index2_11 (t : Fin cfg2.N) : win2_1.index t (1 : Fin 2) = 0 := (index2 t).2.2.2.1
theorem index2_20 (t : Fin cfg2.N) : win2_2.index t (0 : Fin 2) = 0 := (index2 t).2.2.2.2.1
theorem index2_21 (t : Fin cfg2.N) : win2_2.index t (1 : Fin 2) = 0 := (index2 t).2.2.2.2.2.1
theorem index2_30 (t : Fin cfg2.N) : win2_3.index t (0 : Fin 2) = 0 := (index2 t).2.2.2.2.2.2.1
theorem index2_31 (t : Fin cfg2.N) : win2_3.index t (1 : Fin 2) = 0 := (index2 t).2.2.2.2.2.2.2.1
theorem index2_40 (t : Fin cfg2.N) : win2_4.index t (0 : Fin 2) = 0 := (index2 t).2.2.2.2.2.2.2.2.1
theorem index2_41 (t : Fin cfg2.N) : win2_4.index t (1 : Fin 2) = 0 := (index2 t).2.2.2.2.2.2.2.2.2.1
theorem index2_50 (t : Fin cfg2.N) : win2_5.index t (0 : Fin 2) = 0 := (index2 t).2.2.2.2.2.2.2.2.2.2.1
theorem index2_51 (t : Fin cfg2.N) : win2_5.index t (1 : Fin 2) = 0 := (index2 t).2.2.2.2.2.2.2.2.2.2.2.1
theorem index2_60 (t : Fin cfg2.N) : win2_6.index t (0 : Fin 2) = t.val := (index2 t).2.2.2.2.2.2.2.2.2.2.2.2.1
theorem index2_61 (t : Fin cfg2.N) : win2_6.index t (1 : Fin 2) = 0 := (index2 t).2.2.2.2.2.2.2.2.2.2.2.2.2

/-- The input blocks at point t, at their literal types. -/
abbrev blk2_x (c : Dev nD) (t : Fin cfg2.N) : FVec Ideal S5000x64 .f32 := iblk2 V c 0 t
abbrev blk2_w (c : Dev nD) (t : Fin cfg2.N) : FVec Ideal S64x64 .f32 := iblk2 V c 1 t
abbrev blk2_mu (c : Dev nD) (t : Fin cfg2.N) : FVec Ideal S1x64 .f32 := iblk2 V c 2 t
abbrev blk2_var (c : Dev nD) (t : Fin cfg2.N) : FVec Ideal S1x64 .f32 := iblk2 V c 3 t
abbrev blk2_ga (c : Dev nD) (t : Fin cfg2.N) : FVec Ideal S1x64 .f32 := iblk2 V c 4 t
abbrev blk2_be (c : Dev nD) (t : Fin cfg2.N) : FVec Ideal S1x64 .f32 := iblk2 V c 5 t

/-- Row p of the input tile at point t is row 5000 t + p of the input. -/
theorem blk2_x_apply (c : Dev nD) (t : Fin cfg2.N) (p : Fin 5000) (k : Fin 64) (r : Fin 100000)
    (hr : r.val = t.val * 5000 + p.val) : blk2_x V c t (ix2 p k) = arr2_x V c (ix2 r k) := by
  have e0 := index2_00 t
  have e1 := index2_01 t
  show V c (Pipeline.arrRef spec2 0) (((cfg2.win 0).blk t).view.emb (ix2 p k)) = V c (Pipeline.arrRef spec2 0) (ix2 r k)
  refine congrArg _ ?_
  funext a
  apply Fin.ext
  match a with
  | ⟨0, _⟩ => show win2_0.index t (0 : Fin 2) * 5000 + 1 * p.val = r.val; omega
  | ⟨1, _⟩ => show win2_0.index t (1 : Fin 2) * 64 + 1 * k.val = k.val; omega

/-- The weight block at every point is the whole weight matrix. -/
theorem blk2_w_apply (c : Dev nD) (t : Fin cfg2.N) (k : Fin 64) (q : Fin 64) (s : Fin 64) (hs : s.val = q.val) :
    blk2_w V c t (ix2 k q) = arr2_w V c (ix2 k s) := by
  have e0 := index2_10 t
  have e1 := index2_11 t
  show V c (Pipeline.arrRef spec2 1) (((cfg2.win 1).blk t).view.emb (ix2 k q)) = V c (Pipeline.arrRef spec2 1) (ix2 k s)
  refine congrArg _ ?_
  funext a
  apply Fin.ext
  match a with
  | ⟨0, _⟩ => show win2_1.index t (0 : Fin 2) * 64 + 1 * k.val = k.val; omega
  | ⟨1, _⟩ => show win2_1.index t (1 : Fin 2) * 64 + 1 * q.val = s.val; omega

/-- The mean block at every point is the whole mean row. -/
theorem blk2_mu_apply (c : Dev nD) (t : Fin cfg2.N) (k : Fin 64) :
    blk2_mu V c t (ix2 0 k) = arr2_mu V c (ix2 0 k) := by
  have e0 := index2_20 t
  have e1 := index2_21 t
  show V c (Pipeline.arrRef spec2 2) (((cfg2.win 2).blk t).view.emb (ix2 0 k)) = V c (Pipeline.arrRef spec2 2) (ix2 0 k)
  refine congrArg _ ?_
  funext a
  apply Fin.ext
  match a with
  | ⟨0, _⟩ => show win2_2.index t (0 : Fin 2) * 1 + 1 * 0 = 0; omega
  | ⟨1, _⟩ => show win2_2.index t (1 : Fin 2) * 64 + 1 * k.val = k.val; omega

/-- The variance block at every point is the whole variance row. -/
theorem blk2_var_apply (c : Dev nD) (t : Fin cfg2.N) (k : Fin 64) :
    blk2_var V c t (ix2 0 k) = arr2_var V c (ix2 0 k) := by
  have e0 := index2_30 t
  have e1 := index2_31 t
  show V c (Pipeline.arrRef spec2 3) (((cfg2.win 3).blk t).view.emb (ix2 0 k)) = V c (Pipeline.arrRef spec2 3) (ix2 0 k)
  refine congrArg _ ?_
  funext a
  apply Fin.ext
  match a with
  | ⟨0, _⟩ => show win2_3.index t (0 : Fin 2) * 1 + 1 * 0 = 0; omega
  | ⟨1, _⟩ => show win2_3.index t (1 : Fin 2) * 64 + 1 * k.val = k.val; omega

/-- The scale block at every point is the whole scale row. -/
theorem blk2_ga_apply (c : Dev nD) (t : Fin cfg2.N) (k : Fin 64) :
    blk2_ga V c t (ix2 0 k) = arr2_ga V c (ix2 0 k) := by
  have e0 := index2_40 t
  have e1 := index2_41 t
  show V c (Pipeline.arrRef spec2 4) (((cfg2.win 4).blk t).view.emb (ix2 0 k)) = V c (Pipeline.arrRef spec2 4) (ix2 0 k)
  refine congrArg _ ?_
  funext a
  apply Fin.ext
  match a with
  | ⟨0, _⟩ => show win2_4.index t (0 : Fin 2) * 1 + 1 * 0 = 0; omega
  | ⟨1, _⟩ => show win2_4.index t (1 : Fin 2) * 64 + 1 * k.val = k.val; omega

/-- The shift block at every point is the whole shift row. -/
theorem blk2_be_apply (c : Dev nD) (t : Fin cfg2.N) (k : Fin 64) :
    blk2_be V c t (ix2 0 k) = arr2_be V c (ix2 0 k) := by
  have e0 := index2_50 t
  have e1 := index2_51 t
  show V c (Pipeline.arrRef spec2 5) (((cfg2.win 5).blk t).view.emb (ix2 0 k)) = V c (Pipeline.arrRef spec2 5) (ix2 0 k)
  refine congrArg _ ?_
  funext a
  apply Fin.ext
  match a with
  | ⟨0, _⟩ => show win2_5.index t (0 : Fin 2) * 1 + 1 * 0 = 0; omega
  | ⟨1, _⟩ => show win2_5.index t (1 : Fin 2) * 64 + 1 * k.val = k.val; omega

/-- What point t writes back is tile t of the product array. -/
theorem flushed2_eq (c : Dev nD) (t : Fin cfg2.N) :
    (dat2 V c).flushed 6 t = ((cfg2.win 6).blk t).view.read (Elt Ideal) (prod2 V c) := by
  show (cfg2.win 6).cut (grid2.coords t) ((dat2 V c).after 6 t) = _
  rw [after2_6]
  unfold out2_6
  rw [View.canon_unit_zero off2_zero]
  simp only [View.ld_unit_zero (S := S5000x64) off2_zero, View.ld_unit_zero (S := S1x64) off2_zero,
    View.ld_unit_zero (S := S64x64) off2_zero]
  have e0 := index2_60 t
  have e1 := index2_61 t
  funext y
  obtain ⟨p, q, rfl⟩ : ∃ (p : Fin 5000) (q : Fin 64), y = ix2 p q := ⟨y 0, y 1, eq_ix2 (n0 := 5000) (n1 := 64) y⟩
  show k2_pay1 (F := Ideal) (blk2_x V c t) (blk2_var V c t) (blk2_mu V c t) (blk2_ga V c t) (blk2_be V c t)
      (blk2_w V c t) (ix2 p q) = prod2 V c (((cfg2.win 6).blk t).view.emb (ix2 p q))
  refine (pay2_apply (blk2_x V c t) (blk2_var V c t) (blk2_mu V c t) (blk2_ga V c t) (blk2_be V c t)
    (blk2_w V c t) p q).trans ?_
  refine Finset.sum_congr rfl fun k _ => ?_
  rw [blk2_x_apply V c t p k ((((cfg2.win 6).blk t).view.emb (ix2 p q)) 0)
        (by show win2_6.index t (0 : Fin 2) * 5000 + 1 * p.val = _; omega),
    blk2_w_apply V c t k q ((((cfg2.win 6).blk t).view.emb (ix2 p q)) 1)
        (by show win2_6.index t (1 : Fin 2) * 64 + 1 * q.val = _; omega),
    blk2_mu_apply, blk2_var_apply, blk2_ga_apply, blk2_be_apply]
  rfl

/-- Every row lies in the tile of the point that is its quotient by five thousand. -/
theorem cover2 (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  have e0 := index2_60 t
  have e1 := index2_61 t
  refine ⟨t, flush2_6 t, ?_⟩
  show i ∈ ((View.whole main_v40).slice (win2_6.rect t)).set
  rw [View.set_slice_whole, Rect.mem_set_unit]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 64 ≤ (i 1).val ∧ (i 1).val < win2_6.index t (1 : Fin 2) * 64 + 64
    omega

/-- The output after the run is the product array. -/
theorem final2 (c : Dev nD) : arr2_out V c = prod2 V c :=
  (dat2 V c).arrAt_eq_of_cover 6 (prod2 V c) (fun t _ => flushed2_eq V c t) cover2

/-- Entry (n, j) of the output is the normalised row n against column j of the weights. -/
theorem reg2_value (c : Dev nD) (n : Fin 100000) (j : Fin 64) :
    arr2_out V c (ix2 n j)
      = ∑ k : Fin 64, Cert.Spec.bn (fun n k => arr2_x V c (ix2 n k)) (fun k => arr2_mu V c (ix2 0 k))
            (fun k => arr2_var V c (ix2 0 k)) (fun k => arr2_ga V c (ix2 0 k)) (fun k => arr2_be V c (ix2 0 k)) n k
          * arr2_w V c (ix2 k j) :=
  congrFun (final2 V c) (ix2 n j)

end Cert.KernelIdeal.KVal

end
-- ==== Proof.KReg3.lean ====
import proofs.«412438_j20864951124557_2_alg».proof.Proof.Gen.KernelIdeal.Frame
import proofs.«412438_j20864951124557_2_alg».proof.Proof.Spec
import proofs.«412438_j20864951124557_2_alg».proof.Proof.KReg1
import proofs.«412438_j20864951124557_2_alg».proof.Proof.LibKeepdims
import proofs.«412438_j20864951124557_2_alg».proof.Proof.LibRowOps
import Idealize.ShloMosaic.PureOps.Ideal.Laws
import Idealize.ShloMosaic.Lib.Pipeline.Value
import Idealize.ShloMosaic.Lib.ValueIdx
import Idealize.ShloMosaic.Lib.Tactic

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)

namespace Reg3

/-! ## What each case of the body leaves in the three output blocks, as the payloads of the loaded blocks -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a reset point the activation block is the activation of the three input blocks. -/
theorem out_A_3_eq (c : Dev nD) (i : grid3.Coords) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1x64 .f32) (h6 : a6.IsWhole) (a7 : Memref sig .tc .vmem S1x1x64 .f32) (h7 : a7.IsWhole) (hc : cond3_0 i)
    (x0 : Vec F S5000x64 .f32) (x1 : Vec F S5000x1 .f32) (x2 : Vec F S1x64 .f32) :
    out3_A_3 c i a2 h2 a3 h3 a4 h4 a5 h5 a6 h6 a7 h7 hc x0 x1 x2 = k3_pay3 x0 x1 x2 := by
  unfold out3_A_3
  rw [View.read_writes_eq_canon _ _ _ (cover3_A_3 c i a2 h2 a3 h3 a4 h4 a5 h5 a6 h6 a7 h7 hc x0 x1 x2)]
  unfold kernelRun3_A
  dsimp only
  sl_unfold_words
  rw [View.canon_unit_zero hz2]
  simp only [View.readAt_eq_ld, h2.read_unread, h3.read_unread, h4.read_unread, h6.read_unread, h7.read_unread, View.ld_unit_zero (S := S5000x64) hz2, View.ld_unit_zero (S := S5000x1) hz2, View.ld_unit_zero (S := S1x64) hz2, View.ld_unit_zero (S := S1x1x64) hz3, View.readCov_unit_zero (S := S1x1x64) _ hz3]

/-- At a reset point the sum block is the zero block plus the column sums of the activation block. -/
theorem out_A_4_eq (c : Dev nD) (i : grid3.Coords) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1x64 .f32) (h6 : a6.IsWhole) (a7 : Memref sig .tc .vmem S1x1x64 .f32) (h7 : a7.IsWhole) (hc : cond3_0 i)
    (x0 : Vec F S5000x64 .f32) (x1 : Vec F S5000x1 .f32) (x2 : Vec F S1x64 .f32) :
    out3_A_4 c i a2 h2 a3 h3 a4 h4 a5 h5 a6 h6 a7 h7 hc x0 x1 x2 = k3_pay4 x0 x1 x2 (k3_pay1 (F := F)) := by
  unfold out3_A_4
  rw [View.read_writes_eq_canon _ _ _ (cover3_A_4 c i a2 h2 a3 h3 a4 h4 a5 h5 a6 h6 a7 h7 hc x0 x1 x2)]
  unfold kernelRun3_A
  dsimp only
  sl_unfold_words
  rw [View.canon_cons_unit_zero (S := S1x1x64) hz3]
  simp only [View.readAt_eq_ld, h2.read_unread, h3.read_unread, h4.read_unread, h6.read_unread, h7.read_unread, View.ld_unit_zero (S := S5000x64) hz2, View.ld_unit_zero (S := S5000x1) hz2, View.ld_unit_zero (S := S1x64) hz2, View.ld_unit_zero (S := S1x1x64) hz3, View.readCov_unit_zero (S := S1x1x64) _ hz3]

/-- At a reset point the block of sums of squares is the zero block plus the column sums of the squared activation block. -/
theorem out_A_5_eq (c : Dev nD) (i : grid3.Coords) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1x64 .f32) (h6 : a6.IsWhole) (a7 : Memref sig .tc .vmem S1x1x64 .f32) (h7 : a7.IsWhole) (hc : cond3_0 i)
    (x0 : Vec F S5000x64 .f32) (x1 : Vec F S5000x1 .f32) (x2 : Vec F S1x64 .f32) :
    out3_A_5 c i a2 h2 a3 h3 a4 h4 a5 h5 a6 h6 a7 h7 hc x0 x1 x2 = k3_pay5 x0 x1 x2 (k3_pay2 (F := F)) := by
  unfold out3_A_5
  rw [View.read_writes_eq_canon _ _ _ (cover3_A_5 c i a2 h2 a3 h3 a4 h4 a5 h5 a6 h6 a7 h7 hc x0 x1 x2)]
  unfold kernelRun3_A
  dsimp only
  sl_unfold_words
  rw [View.canon_cons_unit_zero (S := S1x1x64) hz3]
  simp only [View.readAt_eq_ld, h2.read_unread, h3.read_unread, h4.read_unread, h6.read_unread, h7.read_unread, View.ld_unit_zero (S := S5000x64) hz2, View.ld_unit_zero (S := S5000x1) hz2, View.ld_unit_zero (S := S1x64) hz2, View.ld_unit_zero (S := S1x1x64) hz3, View.readCov_unit_zero (S := S1x1x64) _ hz3]

/-- At any other point the activation block is again the activation of the three input blocks. -/
theorem out_B_3_eq (c : Dev nD) (i : grid3.Coords) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1x64 .f32) (h6 : a6.IsWhole) (a7 : Memref sig .tc .vmem S1x1x64 .f32) (h7 : a7.IsWhole) (hc : ¬cond3_0 i)
    (x0 : Vec F S5000x64 .f32) (x1 : Vec F S5000x1 .f32) (x2 : Vec F S1x64 .f32) (xo4 xo5 : Vec F S1x1x64 .f32) :
    out3_B_3 c i a2 h2 a3 h3 a4 h4 a5 h5 a6 h6 a7 h7 hc x0 x1 x2 xo4 xo5 = k3_pay3 x0 x1 x2 := by
  unfold out3_B_3
  rw [View.read_writes_eq_canon _ _ _ (cover3_B_3 c i a2 h2 a3 h3 a4 h4 a5 h5 a6 h6 a7 h7 hc x0 x1 x2 xo4 xo5)]
  unfold kernelRun3_B
  dsimp only
  sl_unfold_words
  rw [View.canon_unit_zero hz2]
  simp only [View.readAt_eq_ld, h2.read_unread, h3.read_unread, h4.read_unread, h6.read_unread, h7.read_unread, View.ld_unit_zero (S := S5000x64) hz2, View.ld_unit_zero (S := S5000x1) hz2, View.ld_unit_zero (S := S1x64) hz2, View.ld_unit_zero (S := S1x1x64) hz3, View.readCov_unit_zero (S := S1x1x64) _ hz3]

/-- At any other point the sum block is what it held plus the column sums of the activation block. -/
theorem out_B_4_eq (c : Dev nD) (i : grid3.Coords) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1x64 .f32) (h6 : a6.IsWhole) (a7 : Memref sig .tc .vmem S1x1x64 .f32) (h7 : a7.IsWhole) (hc : ¬cond3_0 i)
    (x0 : Vec F S5000x64 .f32) (x1 : Vec F S5000x1 .f32) (x2 : Vec F S1x64 .f32) (xo4 xo5 : Vec F S1x1x64 .f32) :
    out3_B_4 c i a2 h2 a3 h3 a4 h4 a5 h5 a6 h6 a7 h7 hc x0 x1 x2 xo4 xo5 = k3_pay4 x0 x1 x2 xo4 := by
  unfold out3_B_4
  rw [View.read_writes_eq_canon _ _ _ (cover3_B_4 c i a2 h2 a3 h3 a4 h4 a5 h5 a6 h6 a7 h7 hc x0 x1 x2 xo4 xo5)]
  unfold kernelRun3_B
  dsimp only
  sl_unfold_words
  rw [View.canon_unit_zero hz3]
  simp only [View.readAt_eq_ld, h2.read_unread, h3.read_unread, h4.read_unread, h6.read_unread, h7.read_unread, View.ld_unit_zero (S := S5000x64) hz2, View.ld_unit_zero (S := S5000x1) hz2, View.ld_unit_zero (S := S1x64) hz2, View.ld_unit_zero (S := S1x1x64) hz3, View.readCov_unit_zero (S := S1x1x64) _ hz3]

/-- At any other point the block of sums of squares is what it held plus the column sums of the squared activation block. -/
theorem out_B_5_eq (c : Dev nD) (i : grid3.Coords) (a2 : Memref sig .tc .vmem S5000x64 .f32) (h2 : a2.IsWhole) (a3 : Memref sig .tc .vmem S5000x1 .f32) (h3 : a3.IsWhole) (a4 : Memref sig .tc .vmem S1x64 .f32) (h4 : a4.IsWhole) (a5 : Memref sig .tc .vmem S5000x64 .f32) (h5 : a5.IsWhole) (a6 : Memref sig .tc .vmem S1x1x64 .f32) (h6 : a6.IsWhole) (a7 : Memref sig .tc .vmem S1x1x64 .f32) (h7 : a7.IsWhole) (hc : ¬cond3_0 i)
    (x0 : Vec F S5000x64 .f32) (x1 : Vec F S5000x1 .f32) (x2 : Vec F S1x64 .f32) (xo4 xo5 : Vec F S1x1x64 .f32) :
    out3_B_5 c i a2 h2 a3 h3 a4 h4 a5 h5 a6 h6 a7 h7 hc x0 x1 x2 xo4 xo5 = k3_pay5 x0 x1 x2 xo5 := by
  unfold out3_B_5
  rw [View.read_writes_eq_canon _ _ _ (cover3_B_5 c i a2 h2 a3 h3 a4 h4 a5 h5 a6 h6 a7 h7 hc x0 x1 x2 xo4 xo5)]
  unfold kernelRun3_B
  dsimp only
  sl_unfold_words
  rw [View.canon_unit_zero hz3]
  simp only [View.readAt_eq_ld, h2.read_unread, h3.read_unread, h4.read_unread, h6.read_unread, h7.read_unread, View.ld_unit_zero (S := S5000x64) hz2, View.ld_unit_zero (S := S5000x1) hz2, View.ld_unit_zero (S := S1x64) hz2, View.ld_unit_zero (S := S1x1x64) hz3, View.readCov_unit_zero (S := S1x1x64) _ hz3]

end Pieces

/-! ## The payloads read at an entry, over the extended reals -/

/-- The activation block at an entry. -/
theorem pay3_apply (x0 : Vec Ideal S5000x64 .f32) (x1 : Vec Ideal S5000x1 .f32) (x2 : Vec Ideal S1x64 .f32) (p : Fin 5000) (q : Fin 64) :
    k3_pay3 x0 x1 x2 (ix2 p q) = max (x0 (ix2 p q) * x1 (ix2 p 0) + x2 (ix2 0 q)) Cert.Spec.c0 := by
  unfold k3_pay3
  rw [maximumf_apply, addf_apply, mulf_apply, shapeCast_self, shapeCast_self, shapeCast_self, broadcast_apply]
  rw [Cert.Lib.broadcastTo_a1_ab_apply, Cert.Lib.broadcastTo_row_apply]
  rfl

/-- A column sum over the rows of a block, stored as a [1,1,64] block, at an entry. -/
theorem colsum_apply (y : FVec Ideal S5000x64 .f32) (j : Fin 64) :
    shapeCast S1x1x64 (shapeCast S1x64 (multiReduction (F := Ideal) .add [0] S64 y 0x00000000#32 reduces_S5000x64_S64 (.inl rfl) rfl) shapeCasts_S64_S1x64) shapeCasts_S1x64_S1x1x64 (ix3 0 0 j)
      = ∑ r : Fin 5000, y (ix2 r j) := by
  refine (shapeCast_addUnit_apply ![1, 64] _ shapeCasts_S1x64_S1x1x64 (ix3 0 0 j)).trans ?_
  refine (shapeCast_addUnit_apply ![64] _ shapeCasts_S64_S1x64 _).trans ?_
  refine (Ideal.multiReduction_add_single y 0x00000000#32 reduces_S5000x64_S64 (.inl rfl) rfl _).trans ?_
  refine Finset.sum_congr rfl fun r _ => congrArg y ?_
  funext a
  match a with
  | ⟨0, _⟩ => rfl
  | ⟨1, _⟩ => rfl

theorem pay4_apply (x0 : Vec Ideal S5000x64 .f32) (x1 : Vec Ideal S5000x1 .f32) (x2 : Vec Ideal S1x64 .f32) (acc : Vec Ideal S1x1x64 .f32) (j : Fin 64) :
    k3_pay4 x0 x1 x2 acc (ix3 0 0 j) = acc (ix3 0 0 j) + ∑ r : Fin 5000, k3_pay3 x0 x1 x2 (ix2 r j) := by
  unfold k3_pay4
  rw [addf_apply, shapeCast_self]
  exact congrArg (acc (ix3 0 0 j) + ·) (colsum_apply (k3_pay3 x0 x1 x2) j)

theorem pay5_apply (x0 : Vec Ideal S5000x64 .f32) (x1 : Vec Ideal S5000x1 .f32) (x2 : Vec Ideal S1x64 .f32) (acc : Vec Ideal S1x1x64 .f32) (j : Fin 64) :
    k3_pay5 x0 x1 x2 acc (ix3 0 0 j) = acc (ix3 0 0 j) + ∑ r : Fin 5000, k3_pay3 x0 x1 x2 (ix2 r j) * k3_pay3 x0 x1 x2 (ix2 r j) := by
  unfold k3_pay5
  rw [addf_apply, shapeCast_self]
  exact congrArg (acc (ix3 0 0 j) + ·) (colsum_apply (mulf (k3_pay3 x0 x1 x2) (k3_pay3 x0 x1 x2)) j)

theorem pay1_apply (i : S1x1x64.Idx) : (k3_pay1 (F := Ideal)) i = 0 := by
  unfold k3_pay1
  rw [broadcast_apply]
  exact Ideal.ofBits_zero_f32

theorem pay2_apply (i : S1x1x64.Idx) : (k3_pay2 (F := Ideal)) i = 0 := by
  unfold k3_pay2
  rw [broadcast_apply]
  exact Ideal.ofBits_zero_f32

/-! ## The blocks of the entry arrays, and the running sums over the tiles of a core -/

section Values

variable (V : (c : Dev nD) → (b : Ref sig .tc) → Buf (Elt Ideal) ((c : Thread nD τ).loc b))

/-- The three entry arrays: the aggregate, the degree factor, the bias row. -/
abbrev arrA (c : Dev nD) : S100000x64.Idx → EReal := V c (Pipeline.arrRef spec3 0)
abbrev arrD (c : Dev nD) : S100000x1.Idx → EReal := V c (Pipeline.arrRef spec3 1)
abbrev arrB (c : Dev nD) : S1x64.Idx → EReal := V c (Pipeline.arrRef spec3 2)

/-- Their blocks at a point. -/
abbrev blkA (c : Dev nD) (t : Fin cfg3.N) : Vec Ideal S5000x64 .f32 := iblk3 V c 0 t
abbrev blkD (c : Dev nD) (t : Fin cfg3.N) : Vec Ideal S5000x1 .f32 := iblk3 V c 1 t
abbrev blkB (c : Dev nD) (t : Fin cfg3.N) : Vec Ideal S1x64 .f32 := iblk3 V c 2 t

/-- Row `r` of tile `n`, capped so that it is a row for every natural `n`; below twenty tiles it is `5000 n + r`. -/
def rowN (n : ℕ) (r : Fin 5000) : Fin 100000 := ⟨min (n * 5000 + r.val) 99999, by omega⟩

/-- The block index of every window at every point: the row tile is the point, a core's sums sit at the core. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 3) = t.val / 10 ∧ win3_4.index t (1 : Fin 3) = 0 ∧ win3_4.index t (2 : Fin 3) = 0
    ∧ win3_5.index t (0 : Fin 3) = t.val / 10 ∧ win3_5.index t (1 : Fin 3) = 0 ∧ win3_5.index t (2 : Fin 3) = 0 :=
  (by decide +kernel : ∀ t : Fin grid3.N, _)

theorem lt20 (t : Fin cfg3.N) : t.val < 20 := lt_of_lt_of_eq t.isLt (show cfg3.N = 20 from N_3)

/-- The aggregate's block at point `t` holds rows `5000 t …` of the array. -/
theorem blkA_apply (c : Dev nD) (t : Fin cfg3.N) (p : Fin 5000) (q : Fin 64) :
    blkA V c t (ix2 p q) = arrA V c (ix2 (rowN t.val p) q) := by
  obtain ⟨e0, e1, -⟩ := idx_facts t
  have hN := lt20 t
  show ((cfg3.win 0).blk t).view.read (Elt Ideal) (V c (Pipeline.arrRef spec3 0)) (ix2 p q) = _
  rw [View.read_apply]
  show V c (Pipeline.arrRef spec3 0) _ = V c (Pipeline.arrRef spec3 0) _
  congr 1
  funext a; apply Fin.ext
  match a with
  | ⟨0, _⟩ => show win3_0.index t (0 : Fin 2) * 5000 + 1 * p.val = min (t.val * 5000 + p.val) 99999; rw [e0]; omega
  | ⟨1, _⟩ => show win3_0.index t (1 : Fin 2) * 64 + 1 * q.val = q.val; rw [e1]; omega

/-- The factor's block at point `t` holds the same rows of its column. -/
theorem blkD_apply (c : Dev nD) (t : Fin cfg3.N) (p : Fin 5000) :
    blkD V c t (ix2 p (0 : Fin 1)) = arrD V c (ix2 (rowN t.val p) (0 : Fin 1)) := by
  obtain ⟨-, -, e0, e1, -⟩ := idx_facts t
  have hN := lt20 t
  show ((cfg3.win 1).blk t).view.read (Elt Ideal) (V c (Pipeline.arrRef spec3 1)) (ix2 p (0 : Fin 1)) = _
  rw [View.read_apply]
  show V c (Pipeline.arrRef spec3 1) _ = V c (Pipeline.arrRef spec3 1) _
  congr 1
  funext a; apply Fin.ext
  match a with
  | ⟨0, _⟩ => show win3_1.index t (0 : Fin 2) * 5000 + 1 * p.val = min (t.val * 5000 + p.val) 99999; rw [e0]; omega
  | ⟨1, _⟩ => show win3_1.index t (1 : Fin 2) * 1 + 1 * 0 = 0; rw [e1]

/-- The bias row's block is the row at every point. -/
theorem blkB_apply (c : Dev nD) (t : Fin cfg3.N) (q : Fin 64) :
    blkB V c t (ix2 (0 : Fin 1) q) = arrB V c (ix2 (0 : Fin 1) q) := by
  obtain ⟨-, -, -, -, e0, e1, -⟩ := idx_facts t
  show ((cfg3.win 2).blk t).view.read (Elt Ideal) (V c (Pipeline.arrRef spec3 2)) (ix2 (0 : Fin 1) q) = _
  rw [View.read_apply]
  show V c (Pipeline.arrRef spec3 2) _ = V c (Pipeline.arrRef spec3 2) _
  congr 1
  funext a; apply Fin.ext
  match a with
  | ⟨0, _⟩ => show win3_2.index t (0 : Fin 2) * 1 + 1 * 0 = 0; rw [e0]
  | ⟨1, _⟩ => show win3_2.index t (1 : Fin 2) * 64 + 1 * q.val = q.val; rw [e1]; omega

/-- The activation block of tile `t`. -/
abbrev hblk (c : Dev nD) (t : Fin cfg3.N) : Vec Ideal S5000x64 .f32 := k3_pay3 (blkA V c t) (blkD V c t) (blkB V c t)

/-- Its entries are the activation of the entry arrays at the tile's rows. -/
theorem hblk_apply (c : Dev nD) (t : Fin cfg3.N) (p : Fin 5000) (q : Fin 64) :
    hblk V c t (ix2 p q) = hOf (arrA V c) (arrD V c) (arrB V c) (rowN t.val p) q := by
  refine (pay3_apply (blkA V c t) (blkD V c t) (blkB V c t) p q).trans ?_
  rw [blkA_apply V c t p q, blkD_apply V c t p, blkB_apply V c t q]
  rfl

/-- The column sums of the activation, and of its square, over the rows of tile `n`. -/
def tileSum (c : Dev nD) (n : ℕ) (j : Fin 64) : EReal := ∑ r : Fin 5000, hOf (arrA V c) (arrD V c) (arrB V c) (rowN n r) j
def tileSq (c : Dev nD) (n : ℕ) (j : Fin 64) : EReal :=
  ∑ r : Fin 5000, hOf (arrA V c) (arrD V c) (arrB V c) (rowN n r) j * hOf (arrA V c) (arrD V c) (arrB V c) (rowN n r) j

/-- After every point the activation buffer holds the activation block of the point's tile. -/
theorem outs_3 (c : Dev nD) (t : Fin cfg3.N) : (outsAt3 V c t.val t.isLt).1 = hblk V c t := by
  by_cases h0 : t.val % 10 = 0
  · rw [outsAt3_A V c t h0]; dsimp only
    exact out_A_3_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t)
  · rw [outsAt3_B V c t h0]; dsimp only
    exact out_B_3_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2

/-- At the first point of a core the sum buffer holds the tile's column sums. -/
theorem outs_4_A (c : Dev nD) (t : Fin cfg3.N) (h0 : t.val % 10 = 0) (j : Fin 64) :
    (outsAt3 V c t.val t.isLt).2.1 (ix3 0 0 j) = tileSum V c t.val j := by
  rw [outsAt3_A V c t h0]; dsimp only
  refine (congrFun (out_A_4_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t)) (ix3 0 0 j)).trans ?_
  refine (pay4_apply (blkA V c t) (blkD V c t) (blkB V c t) (k3_pay1 (F := Ideal)) j).trans ?_
  rw [pay1_apply, zero_add]
  exact Finset.sum_congr rfl fun r _ => hblk_apply V c t r j

/-- At a later point it holds what the point before left plus the tile's column sums. -/
theorem outs_4_B (c : Dev nD) (t : Fin cfg3.N) (h0 : ¬t.val % 10 = 0) (j : Fin 64) :
    (outsAt3 V c t.val t.isLt).2.1 (ix3 0 0 j) = (outsAt3 V c (t.val - 1) (Nat.lt_of_le_of_lt (Nat.sub_le _ _) t.isLt)).2.1 (ix3 0 0 j) + tileSum V c t.val j := by
  rw [outsAt3_B V c t h0]; dsimp only
  refine (congrFun (out_B_4_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2) (ix3 0 0 j)).trans ?_
  refine (pay4_apply (blkA V c t) (blkD V c t) (blkB V c t) (outsAt3 V c (t.val - 1) (Nat.lt_of_le_of_lt (Nat.sub_le _ _) t.isLt)).2.1 j).trans ?_
  exact congrArg ((outsAt3 V c (t.val - 1) (Nat.lt_of_le_of_lt (Nat.sub_le _ _) t.isLt)).2.1 (ix3 0 0 j) + ·) (Finset.sum_congr rfl fun r _ => hblk_apply V c t r j)

/-- The same two steps for the sums of squares. -/
theorem outs_5_A (c : Dev nD) (t : Fin cfg3.N) (h0 : t.val % 10 = 0) (j : Fin 64) :
    (outsAt3 V c t.val t.isLt).2.2 (ix3 0 0 j) = tileSq V c t.val j := by
  rw [outsAt3_A V c t h0]; dsimp only
  refine (congrFun (out_A_5_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t)) (ix3 0 0 j)).trans ?_
  refine (pay5_apply (blkA V c t) (blkD V c t) (blkB V c t) (k3_pay2 (F := Ideal)) j).trans ?_
  rw [pay2_apply, zero_add]
  exact Finset.sum_congr rfl fun r _ => congrArg₂ (· * ·) (hblk_apply V c t r j) (hblk_apply V c t r j)

theorem outs_5_B (c : Dev nD) (t : Fin cfg3.N) (h0 : ¬t.val % 10 = 0) (j : Fin 64) :
    (outsAt3 V c t.val t.isLt).2.2 (ix3 0 0 j) = (outsAt3 V c (t.val - 1) (Nat.lt_of_le_of_lt (Nat.sub_le _ _) t.isLt)).2.2 (ix3 0 0 j) + tileSq V c t.val j := by
  rw [outsAt3_B V c t h0]; dsimp only
  refine (congrFun (out_B_5_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2) (ix3 0 0 j)).trans ?_
  refine (pay5_apply (blkA V c t) (blkD V c t) (blkB V c t) (outsAt3 V c (t.val - 1) (Nat.lt_of_le_of_lt (Nat.sub_le _ _) t.isLt)).2.2 j).trans ?_
  exact congrArg ((outsAt3 V c (t.val - 1) (Nat.lt_of_le_of_lt (Nat.sub_le _ _) t.isLt)).2.2 (ix3 0 0 j) + ·) (Finset.sum_congr rfl fun r _ => congrArg₂ (· * ·) (hblk_apply V c t r j) (hblk_apply V c t r j))

/-- A quantity that is `f n` at the first point of a core and adds `f n` to its predecessor at every later point is,
    after point `n`, the sum of `f` over the core's tiles up to `n`. -/
theorem run_sum (g : (n : ℕ) → n < cfg3.N → EReal) (f : ℕ → EReal)
    (hA : ∀ t : Fin cfg3.N, t.val % 10 = 0 → g t.val t.isLt = f t.val)
    (hB : ∀ t : Fin cfg3.N, ¬t.val % 10 = 0 →
      g t.val t.isLt = g (t.val - 1) (Nat.lt_of_le_of_lt (Nat.sub_le _ _) t.isLt) + f t.val) :
    ∀ (n : ℕ) (hn : n < cfg3.N), g n hn = ∑ s ∈ Finset.range (n % 10 + 1), f (10 * (n / 10) + s) := by
  intro n
  induction n with
  | zero =>
    intro hn
    refine (hA ⟨0, hn⟩ rfl).trans ?_
    rw [Finset.sum_range_one]
  | succ n ih =>
    intro hn
    by_cases h0 : (n + 1) % 10 = 0
    · refine (hA ⟨n + 1, hn⟩ h0).trans ?_
      rw [h0, Finset.sum_range_one]
      exact congrArg f (by show n + 1 = 10 * ((n + 1) / 10) + 0; omega)
    · refine (hB ⟨n + 1, hn⟩ h0).trans ?_
      show g n _ + f (n + 1) = _
      rw [ih (Nat.lt_of_succ_lt hn)]
      have e1 : (n + 1) % 10 = n % 10 + 1 := by omega
      have e2 : (n + 1) / 10 = n / 10 := by omega
      rw [e1, e2, Finset.sum_range_succ _ (n % 10 + 1)]
      exact congrArg (_ + f ·) (by omega)

/-- After point `n` the sum buffer holds the column sums of the core's tiles up to `n`. -/
theorem outs_4 (c : Dev nD) (j : Fin 64) (n : ℕ) (hn : n < cfg3.N) :
    (outsAt3 V c n hn).2.1 (ix3 0 0 j) = ∑ s ∈ Finset.range (n % 10 + 1), tileSum V c (10 * (n / 10) + s) j :=
  run_sum (fun n hn => (outsAt3 V c n hn).2.1 (ix3 0 0 j)) (fun n => tileSum V c n j)
    (fun t h0 => outs_4_A V c t h0 j) (fun t h0 => outs_4_B V c t h0 j) n hn

theorem outs_5 (c : Dev nD) (j : Fin 64) (n : ℕ) (hn : n < cfg3.N) :
    (outsAt3 V c n hn).2.2 (ix3 0 0 j) = ∑ s ∈ Finset.range (n % 10 + 1), tileSq V c (10 * (n / 10) + s) j :=
  run_sum (fun n hn => (outsAt3 V c n hn).2.2 (ix3 0 0 j)) (fun n => tileSq V c n j)
    (fun t h0 => outs_5_A V c t h0 j) (fun t h0 => outs_5_B V c t h0 j) n hn

end Values

/-! ## From the blocks written back to the three output arrays -/

section Final

variable (V : (c : Dev nD) → (b : Ref sig .tc) → Buf (Elt Ideal) ((c : Thread nD τ).loc b))

/-- What the three output arrays end holding: the activation; per core, its column sums; per core, the column sums of its square. -/
def G3 (c : Dev nD) : S100000x64.Idx → EReal := fun i => hOf (arrA V c) (arrD V c) (arrB V c) (i 0) (i 1)
def G4 (c : Dev nD) : S2x1x64.Idx → EReal := fun i => Cert.Spec.sumPartK (hOf (arrA V c) (arrD V c) (arrB V c)) (i 0) (i 2)
def G5 (c : Dev nD) : S2x1x64.Idx → EReal := fun i => Cert.Spec.sqPartK (hOf (arrA V c) (arrD V c) (arrB V c)) (i 0) (i 2)

/-- Every point writes back its tile's block of the activation. -/
theorem flushed_3 (c : Dev nD) (t : Fin cfg3.N) :
    (dat3 V c).flushed 3 t = ((cfg3.win 3).blk t).view.read (Elt Ideal) (G3 V c) := by
  obtain ⟨-, -, -, -, -, -, e0, e1, -⟩ := idx_facts t
  have hN := lt20 t
  show (cfg3.win 3).cut (grid3.coords t) ((dat3 V c).after 3 t) = _
  rw [after3_3, outs_3]
  funext y
  obtain ⟨p, q, rfl⟩ : ∃ (p : Fin 5000) (q : Fin 64), y = ix2 p q := ⟨y 0, y 1, eq_ix2 (n0 := 5000) (n1 := 64) y⟩
  rw [View.read_apply]
  show hblk V c t (ix2 p q) = G3 V c (((cfg3.win 3).blk t).view.emb (ix2 p q))
  rw [hblk_apply V c t p q]
  have hemb : ((cfg3.win 3).blk t).view.emb (ix2 p q) = ix2 (rowN t.val p) q := by
    funext a; apply Fin.ext
    match a with
    | ⟨0, _⟩ => show win3_3.index t (0 : Fin 2) * 5000 + 1 * p.val = min (t.val * 5000 + p.val) 99999; rw [e0]; omega
    | ⟨1, _⟩ => show win3_3.index t (1 : Fin 2) * 64 + 1 * q.val = q.val; rw [e1]; omega
  rw [hemb]
  rfl

/-- Every row is in the block of its tile. -/
theorem cover_3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by omega⟩, rfl⟩
  obtain ⟨-, -, -, -, -, -, e0, e1, -⟩ := idx_facts t
  refine ⟨t, flush3_3 t, ?_⟩
  show i ∈ ((View.whole (Pipeline.arrRef spec3 3)).slice (win3_3.rect t)).set
  rw [View.set_slice_whole, Rect.mem_set_unit]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- So the activation array ends holding `G3`. -/
theorem final_3 (c : Dev nD) : (dat3 V c).arrAt 3 cfg3.N = G3 V c :=
  (dat3 V c).arrAt_eq_of_cover 3 (G3 V c) (fun t _ => flushed_3 V c t) cover_3

/-- At the last point of a core the block written back is the core's block of `G4`. -/
theorem flushed_4 (c : Dev nD) (t : Fin cfg3.N) (hf : (cfg3.win 4).flush t = true) :
    (dat3 V c).flushed 4 t = ((cfg3.win 4).blk t).view.read (Elt Ideal) (G4 V c) := by
  have h9 : t.val % 10 = 9 := (flush3_4 t).mp hf
  have hN := lt20 t
  obtain ⟨-, -, -, -, -, -, -, -, e0, e1, e2, -⟩ := idx_facts t
  show (cfg3.win 4).cut (grid3.coords t) ((dat3 V c).after 4 t) = _
  rw [after3_4]
  funext y
  obtain ⟨a, b, j, rfl⟩ : ∃ (a : Fin 1) (b : Fin 1) (j : Fin 64), y = ix3 a b j :=
    ⟨y 0, y 1, y 2, eq_ix3 (n0 := 1) (n1 := 1) (n2 := 64) y⟩
  obtain rfl : a = 0 := Subsingleton.elim _ _
  obtain rfl : b = 0 := Subsingleton.elim _ _
  rw [View.read_apply]
  show (outsAt3 V c t.val t.isLt).2.1 (ix3 0 0 j) = G4 V c (((cfg3.win 4).blk t).view.emb (ix3 0 0 j))
  rw [outs_4 V c j t.val t.isLt, h9]
  have hemb : ((cfg3.win 4).blk t).view.emb (ix3 (0 : Fin 1) (0 : Fin 1) j) = ix3 (⟨t.val / 10, by omega⟩ : Fin 2) (0 : Fin 1) j := by
    funext a; apply Fin.ext
    match a with
    | ⟨0, _⟩ => show win3_4.index t (0 : Fin 3) * 1 + 1 * 0 = t.val / 10; omega
    | ⟨1, _⟩ => show win3_4.index t (1 : Fin 3) * 1 + 1 * 0 = 0; omega
    | ⟨2, _⟩ => show win3_4.index t (2 : Fin 3) * 64 + 1 * j.val = j.val; omega
  rw [hemb]
  show _ = Cert.Spec.sumPartK (hOf (arrA V c) (arrD V c) (arrB V c)) (⟨t.val / 10, by omega⟩ : Fin 2) j
  unfold Cert.Spec.sumPartK tileSum
  rw [Finset.sum_range]
  refine Finset.sum_congr rfl fun k _ => Finset.sum_congr rfl fun r _ => ?_
  have hrow : rowN (10 * (t.val / 10) + k.val) r = Cert.Spec.rowOf (⟨t.val / 10, by omega⟩ : Fin 2) k r := by
    apply Fin.ext
    show min ((10 * (t.val / 10) + k.val) * 5000 + r.val) 99999 = (t.val / 10 * 10 + k.val) * 5000 + r.val
    have := k.isLt; have := r.isLt; omega
  rw [hrow]

/-- Every entry of the array of per-core sums is in the block some core's last point writes back. -/
theorem cover_4 (i : S2x1x64.Idx) :
    ∃ t : Fin cfg3.N, (cfg3.win 4).flush t = true ∧ i ∈ ((cfg3.win 4).blk t).view.set := by
  have hi0 : (i 0).val < 2 := (i 0).isLt
  have hi1 : (i 1).val < 1 := (i 1).isLt
  have hi2 : (i 2).val < 64 := (i 2).isLt
  have hN : cfg3.N = 20 := N_3
  obtain ⟨t, ht⟩ : ∃ t : Fin cfg3.N, t.val = 10 * (i 0).val + 9 := ⟨⟨10 * (i 0).val + 9, by omega⟩, rfl⟩
  obtain ⟨-, -, -, -, -, -, -, -, e0, e1, e2, -⟩ := idx_facts t
  refine ⟨t, (flush3_4 t).mpr (by omega), ?_⟩
  show i ∈ ((View.whole (Pipeline.arrRef spec3 4)).slice (win3_4.rect t)).set
  rw [View.set_slice_whole, Rect.mem_set_unit]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 1 ≤ (i 1).val ∧ (i 1).val < win3_4.index t (1 : Fin 3) * 1 + 1; omega
  | ⟨2, _⟩ => show win3_4.index t (2 : Fin 3) * 64 ≤ (i 2).val ∧ (i 2).val < win3_4.index t (2 : Fin 3) * 64 + 64; omega

/-- So the array ends holding `G4`. -/
theorem final_4 (c : Dev nD) : (dat3 V c).arrAt 4 cfg3.N = G4 V c :=
  (dat3 V c).arrAt_eq_of_cover 4 (G4 V c) (flushed_4 V c) cover_4

/-- At the last point of a core the block written back is the core's block of `G5`. -/
theorem flushed_5 (c : Dev nD) (t : Fin cfg3.N) (hf : (cfg3.win 5).flush t = true) :
    (dat3 V c).flushed 5 t = ((cfg3.win 5).blk t).view.read (Elt Ideal) (G5 V c) := by
  have h9 : t.val % 10 = 9 := (flush3_5 t).mp hf
  have hN := lt20 t
  obtain ⟨-, -, -, -, -, -, -, -, -, -, -, e0, e1, e2⟩ := idx_facts t
  show (cfg3.win 5).cut (grid3.coords t) ((dat3 V c).after 5 t) = _
  rw [after3_5]
  funext y
  obtain ⟨a, b, j, rfl⟩ : ∃ (a : Fin 1) (b : Fin 1) (j : Fin 64), y = ix3 a b j :=
    ⟨y 0, y 1, y 2, eq_ix3 (n0 := 1) (n1 := 1) (n2 := 64) y⟩
  obtain rfl : a = 0 := Subsingleton.elim _ _
  obtain rfl : b = 0 := Subsingleton.elim _ _
  rw [View.read_apply]
  show (outsAt3 V c t.val t.isLt).2.2 (ix3 0 0 j) = G5 V c (((cfg3.win 5).blk t).view.emb (ix3 0 0 j))
  rw [outs_5 V c j t.val t.isLt, h9]
  have hemb : ((cfg3.win 5).blk t).view.emb (ix3 (0 : Fin 1) (0 : Fin 1) j) = ix3 (⟨t.val / 10, by omega⟩ : Fin 2) (0 : Fin 1) j := by
    funext a; apply Fin.ext
    match a with
    | ⟨0, _⟩ => show win3_5.index t (0 : Fin 3) * 1 + 1 * 0 = t.val / 10; omega
    | ⟨1, _⟩ => show win3_5.index t (1 : Fin 3) * 1 + 1 * 0 = 0; omega
    | ⟨2, _⟩ => show win3_5.index t (2 : Fin 3) * 64 + 1 * j.val = j.val; omega
  rw [hemb]
  show _ = Cert.Spec.sqPartK (hOf (arrA V c) (arrD V c) (arrB V c)) (⟨t.val / 10, by omega⟩ : Fin 2) j
  unfold Cert.Spec.sqPartK tileSq
  rw [Finset.sum_range]
  refine Finset.sum_congr rfl fun k _ => Finset.sum_congr rfl fun r _ => ?_
  have hrow : rowN (10 * (t.val / 10) + k.val) r = Cert.Spec.rowOf (⟨t.val / 10, by omega⟩ : Fin 2) k r := by
    apply Fin.ext
    show min ((10 * (t.val / 10) + k.val) * 5000 + r.val) 99999 = (t.val / 10 * 10 + k.val) * 5000 + r.val
    have := k.isLt; have := r.isLt; omega
  rw [hrow]

/-- Every entry of the array of per-core sums is in the block some core's last point writes back. -/
theorem cover_5 (i : S2x1x64.Idx) :
    ∃ t : Fin cfg3.N, (cfg3.win 5).flush t = true ∧ i ∈ ((cfg3.win 5).blk t).view.set := by
  have hi0 : (i 0).val < 2 := (i 0).isLt
  have hi1 : (i 1).val < 1 := (i 1).isLt
  have hi2 : (i 2).val < 64 := (i 2).isLt
  have hN : cfg3.N = 20 := N_3
  obtain ⟨t, ht⟩ : ∃ t : Fin cfg3.N, t.val = 10 * (i 0).val + 9 := ⟨⟨10 * (i 0).val + 9, by omega⟩, rfl⟩
  obtain ⟨-, -, -, -, -, -, -, -, -, -, -, e0, e1, e2⟩ := idx_facts t
  refine ⟨t, (flush3_5 t).mpr (by omega), ?_⟩
  show i ∈ ((View.whole (Pipeline.arrRef spec3 5)).slice (win3_5.rect t)).set
  rw [View.set_slice_whole, Rect.mem_set_unit]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 1 ≤ (i 1).val ∧ (i 1).val < win3_5.index t (1 : Fin 3) * 1 + 1; omega
  | ⟨2, _⟩ => show win3_5.index t (2 : Fin 3) * 64 ≤ (i 2).val ∧ (i 2).val < win3_5.index t (2 : Fin 3) * 64 + 64; omega

/-- So the array ends holding `G5`. -/
theorem final_5 (c : Dev nD) : (dat3 V c).arrAt 5 cfg3.N = G5 V c :=
  (dat3 V c).arrAt_eq_of_cover 5 (G5 V c) (flushed_5 V c) cover_5

end Final

end Reg3

variable (V : (c : Dev nD) → (b : Ref sig .tc) → Buf (Elt Ideal) ((c : Thread nD τ).loc b))

/-- The activation array after the region, entry by entry. -/
theorem reg3_h (c : Dev nD) (n : Fin 100000) (j : Fin 64) :
    ((dat3 V c).arrAt 3 cfg3.N : S100000x64.Idx → EReal) (ix2 n j)
      = hOf (V c (Pipeline.arrRef spec3 0) : S100000x64.Idx → EReal) (V c (Pipeline.arrRef spec3 1) : S100000x1.Idx → EReal) (V c (Pipeline.arrRef spec3 2) : S1x64.Idx → EReal) n j :=
  congrFun (Reg3.final_3 V c) (ix2 n j)

/-- The per-core column sums after the region. -/
theorem reg3_sum (c : Dev nD) (q : Fin 2) (j : Fin 64) :
    ((dat3 V c).arrAt 4 cfg3.N : S2x1x64.Idx → EReal) (ix3 q 0 j)
      = Cert.Spec.sumPartK (hOf (V c (Pipeline.arrRef spec3 0) : S100000x64.Idx → EReal) (V c (Pipeline.arrRef spec3 1) : S100000x1.Idx → EReal) (V c (Pipeline.arrRef spec3 2) : S1x64.Idx → EReal)) q j :=
  congrFun (Reg3.final_4 V c) (ix3 q 0 j)

/-- The per-core column sums of squares after the region. -/
theorem reg3_sq (c : Dev nD) (q : Fin 2) (j : Fin 64) :
    ((dat3 V c).arrAt 5 cfg3.N : S2x1x64.Idx → EReal) (ix3 q 0 j)
      = Cert.Spec.sqPartK (hOf (V c (Pipeline.arrRef spec3 0) : S100000x64.Idx → EReal) (V c (Pipeline.arrRef spec3 1) : S100000x1.Idx → EReal) (V c (Pipeline.arrRef spec3 2) : S1x64.Idx → EReal)) q j :=
  congrFun (Reg3.final_5 V c) (ix3 q 0 j)

end Cert.KernelIdeal.KVal

end
-- ==== Proof.KReg4.lean ====
import proofs.«412438_j20864951124557_2_alg».proof.Proof.Gen.KernelIdeal.Frame
import proofs.«412438_j20864951124557_2_alg».proof.Proof.Spec
import proofs.«412438_j20864951124557_2_alg».proof.Proof.LibRowOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

/-!
# Region 4: the pooling kernel's output array

The program's fifth kernel region multiplies the transposed one-hot matrix of the graph labels into the batch-normalised rows,
tile by tile: twenty tiles of five thousand rows, ten to a core. At a core's first tile the `[64, 64]` output block
is reset to zero; at every tile the block gains `one-hotᵀ · BN(h)` of the tile's rows, a product contracting the row
axis of both operands; after the core's tenth tile the block is written back as slab `core` of the `[2, 64, 64]` array.
So entry `(q, g, j)` of that array is the sum over core `q`'s ten tiles and their rows `n` of
`onehot[n, g] · ((h[n, j] − μ[j]) · rsqrt(σ²[j] + ε) · γ[j] + β[j])`.
-/

noncomputable section

namespace Cert.KernelIdeal.KVal

open Cert.KernelIdeal Cert.KernelIdeal.Gen Idealize.ShloMosaic Idealize.ShloMosaic.TcCoe Idealize.ShloMosaic.ValueIdx Idealize.SL.Sem
open Idealize.ShloMosaic.Pipeline (Dat)

section Pieces
variable {F : FTy → Type} [FloatOps F]

/-- The zero offsets of a rank-3 and of a rank-2 block. -/
theorem hz3 : (![0, 0, 0] : Fin 3 → Nat) = fun _ => 0 := funext fun a => by fin_cases a <;> rfl
theorem hz2 : (![0, 0] : Fin 2 → Nat) = fun _ => 0 := funext fun a => by fin_cases a <;> rfl

/-- At a point that is not a core's first, the body leaves in the output block, which held `xo`, the update of `xo` by the
    point's input blocks: its one store covers the block. -/
theorem out4_B_eq (c : Dev nD) (i : grid4.Coords) (a2 : Memref sig .tc .vmem S5000x64 .bf16) (h2 : a2.IsWhole)
    (a3 : Memref sig .tc .vmem S5000x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (a7 : Memref sig .tc .vmem S1x64 .f32) (h7 : a7.IsWhole) (a8 : Memref sig .tc .vmem S1x64x64 .f32) (h8 : a8.IsWhole)
    (hc : ¬cond4_0 i) (x0 : Vec F S5000x64 .bf16) (x1 : Vec F S5000x64 .f32) (x2 x3 x4 x5 : Vec F S1x64 .f32)
    (xo : Vec F S1x64x64 .f32) :
    out4_B_6 c i a2 h2 a3 h3 a4 h4 a5 h5 a6 h6 a7 h7 a8 h8 hc x0 x1 x2 x3 x4 x5 xo = k4_pay2 x3 x1 x2 x4 x5 x0 xo := by
  unfold out4_B_6
  rw [View.read_writes_eq_canon _ _ _ (cover4_B_6 c i a2 h2 a3 h3 a4 h4 a5 h5 a6 h6 a7 h7 a8 h8 hc x0 x1 x2 x3 x4 x5 xo)]
  unfold kernelRun4_B
  dsimp only
  sl_unfold_words
  rw [View.canon_unit_zero hz3]
  simp only [View.readAt_eq_ld, h2.read_unread, h3.read_unread, h4.read_unread, h5.read_unread, h6.read_unread, h7.read_unread, h8.read_unread,
    View.ld_unit_zero (S := S1x64x64) hz3, View.ld_unit_zero (S := S1x64) hz2, View.ld_unit_zero (S := S5000x64) hz2]

/-- At a core's first point the body first stores the zero block, reads it back, and leaves the update of the zero block
    by the point's input blocks. -/
theorem out4_A_eq (c : Dev nD) (i : grid4.Coords) (a2 : Memref sig .tc .vmem S5000x64 .bf16) (h2 : a2.IsWhole)
    (a3 : Memref sig .tc .vmem S5000x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (a7 : Memref sig .tc .vmem S1x64 .f32) (h7 : a7.IsWhole) (a8 : Memref sig .tc .vmem S1x64x64 .f32) (h8 : a8.IsWhole)
    (hc : cond4_0 i) (x0 : Vec F S5000x64 .bf16) (x1 : Vec F S5000x64 .f32) (x2 x3 x4 x5 : Vec F S1x64 .f32) :
    out4_A_6 c i a2 h2 a3 h3 a4 h4 a5 h5 a6 h6 a7 h7 a8 h8 hc x0 x1 x2 x3 x4 x5 = k4_pay2 x3 x1 x2 x4 x5 x0 k4_pay1 := by
  unfold out4_A_6
  rw [View.read_writes_eq_canon _ _ _ (cover4_A_6 c i a2 h2 a3 h3 a4 h4 a5 h5 a6 h6 a7 h7 a8 h8 hc x0 x1 x2 x3 x4 x5)]
  unfold kernelRun4_A
  dsimp only
  sl_unfold_words
  rw [View.canon_cons_unit_zero (S := S1x64x64) hz3, View.readCov_unit_zero (S := S1x64x64) _ hz3]
  simp only [View.readAt_eq_ld, h2.read_unread, h3.read_unread, h4.read_unread, h5.read_unread, h6.read_unread, h7.read_unread,
    View.ld_unit_zero (S := S1x64) hz2, View.ld_unit_zero (S := S5000x64) hz2]

end Pieces

section Payload

/-- The pooling product's operand indices at result `(g, j)` and contraction coordinate `k`: the left operand is read at
    `(k, g)`, the right one at `(k, j)`; axis by axis. -/
theorem lhs_pool_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q
theorem lhs_pool_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
theorem rhs_pool_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q
theorem rhs_pool_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

/-- The pooling product into the zero accumulator at `(g, j)`: both operands are contracted along their rows. -/
theorem pool_matmul_apply {φ₁ φ₂ : FTy} (l : FVec Ideal S5000x64 φ₁) (r : FVec Ideal S5000x64 φ₂) (g j : Fin 64) :
    FloatOps.matmul dot_S5000x64_S5000x64_S64x64_0_0_1_1_n_n none l r (constant S64x64 .f32 0x00000000#32) (ix2 g j)
      = ∑ k : Fin 5000, l (ix2 k g) * r (ix2 k j) := by
  rw [Ideal.matmul_constant_zero_apply, ← Equiv.sum_comp (contrEquiv1 dot_S5000x64_S5000x64_S64x64_0_0_1_1_n_n 5000 rfl rfl).symm]
  refine Finset.sum_congr rfl fun k _ => ?_
  have hk := contrEquiv1_symm_val dot_S5000x64_S5000x64_S64x64_0_0_1_1_n_n 5000 rfl rfl k
  have el : dot_S5000x64_S5000x64_S64x64_0_0_1_1_n_n.lhsIdx (ix2 g j) ((contrEquiv1 dot_S5000x64_S5000x64_S64x64_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x64_S5000x64_S64x64_0_0_1_1_n_n.rhsIdx (ix2 g j) ((contrEquiv1 dot_S5000x64_S5000x64_S64x64_0_0_1_1_n_n 5000 rfl rfl).symm k) = ix2 k j := funext fun a => Fin.ext (by
    match a with
    | ⟨0, _⟩ => exact (rhs_pool_0 _ _).trans hk
    | ⟨1, _⟩ => exact rhs_pool_1 _ _)
  rw [el, er]

/-- THE BODY'S UPDATE at entry `(g, j)`: the accumulator's entry plus the sum over the block's rows of the one-hot entry
    times the normalised entry (the narrowing of the normalised block is the identity on extended reals). -/
theorem pool_pay_apply (x3 : Vec Ideal S1x64 .f32) (x1 : Vec Ideal S5000x64 .f32) (x2 x4 x5 : Vec Ideal S1x64 .f32)
    (x0 : Vec Ideal S5000x64 .bf16) (acc : Vec Ideal S1x64x64 .f32) (g j : Fin 64) :
    (k4_pay2 x3 x1 x2 x4 x5 x0 acc : S1x64x64.Idx → EReal) (ix3 (0 : Fin 1) g j)
      = acc (ix3 (0 : Fin 1) g j) + ∑ r : Fin 5000, x0 (ix2 r g) * ((x1 (ix2 r j) - x2 (ix2 (0 : Fin 1) j)) * Ideal.rsqrt (x3 (ix2 (0 : Fin 1) j) + Cert.Spec.ceps) * x4 (ix2 (0 : Fin 1) j) + x5 (ix2 (0 : Fin 1) j)) := by
  unfold k4_pay2
  rw [addf_apply, shapeCast_self]
  refine congrArg (acc (ix3 (0 : Fin 1) g j) + ·) ?_
  rw [shapeCast_apply _ _ (ix3 (0 : Fin 1) g j) (ix2 g j) (by rw [Shape.rowMajor_val_two, Shape.rowMajor_val_three]; show g.val * 64 + j.val = (0 * 64 + g.val) * 64 + j.val; omega)]
  refine (pool_matmul_apply _ _ g j).trans ?_
  refine Finset.sum_congr rfl fun r _ => ?_
  rw [shapeCast_self, truncf_apply, addf_apply, mulf_apply, mulf_apply, subf_apply, shapeCast_self,
    Cert.Lib.broadcastTo_row_apply, Cert.Lib.broadcastTo_row_apply, Cert.Lib.broadcastTo_row_apply, Cert.Lib.broadcastTo_row_apply,
    shapeCast_self, shapeCast_self, shapeCast_self, shapeCast_self]
  rfl

end Payload

variable (V : (c : Dev nD) → (b : Ref sig .tc) → Buf (Elt Ideal) ((c : Thread nD τ).loc b))

/-- The region's input arrays by their roles: the one-hot matrix, the activations, and the four rows (mean, variance,
    scale, shift). -/
abbrev ohArr4 (c : Dev nD) : S100000x64.Idx → EReal := V c (Pipeline.arrRef spec4 0)
abbrev hArr4 (c : Dev nD) : S100000x64.Idx → EReal := V c (Pipeline.arrRef spec4 1)
abbrev muArr4 (c : Dev nD) : S1x64.Idx → EReal := V c (Pipeline.arrRef spec4 2)
abbrev varArr4 (c : Dev nD) : S1x64.Idx → EReal := V c (Pipeline.arrRef spec4 3)
abbrev gaArr4 (c : Dev nD) : S1x64.Idx → EReal := V c (Pipeline.arrRef spec4 4)
abbrev beArr4 (c : Dev nD) : S1x64.Idx → EReal := V c (Pipeline.arrRef spec4 5)

/-- The index maps over the grid's twenty points: the two row-tiled inputs are at tile `t`, the four rows at
    their one block, the output at the block of the point's core. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 3) = t.val / 10 ∧ win4_6.index t (1 : Fin 3) = 0 ∧ win4_6.index t (2 : Fin 3) = 0 :=
  (by decide +kernel : ∀ t : Fin grid4.N, _)

/-- The one-hot block of point `t` = tile `k` of core `q` holds the one-hot rows of that tile. -/
theorem blk0_apply (c : Dev nD) (t : Fin cfg4.N) (q : Fin 2) (k : Fin 10) (ht : t.val = q.val * 10 + k.val) (r : Fin 5000) (g : Fin 64) :
    (iblk4 V c 0 t : S5000x64.Idx → EReal) (ix2 r g) = ohArr4 V c (ix2 (Cert.Spec.rowOf q k r) g) := by
  obtain ⟨e0, e1, -⟩ := idx_facts4 t
  show V c (Pipeline.arrRef spec4 0) (((cfg4.win 0).blk t).view.emb (ix2 r g)) = V c (Pipeline.arrRef spec4 0) (ix2 (Cert.Spec.rowOf q k r) g)
  refine congrArg _ (funext fun a => Fin.ext ?_)
  match a with
  | ⟨0, _⟩ => show win4_0.index t (0 : Fin 2) * 5000 + 1 * r.val = (q.val * 10 + k.val) * 5000 + r.val; rw [e0, ht]; omega
  | ⟨1, _⟩ => show win4_0.index t (1 : Fin 2) * 64 + 1 * g.val = g.val; rw [e1]; omega

/-- The activation block of that point holds the activation rows of the tile. -/
theorem blk1_apply (c : Dev nD) (t : Fin cfg4.N) (q : Fin 2) (k : Fin 10) (ht : t.val = q.val * 10 + k.val) (r : Fin 5000) (j : Fin 64) :
    (iblk4 V c 1 t : S5000x64.Idx → EReal) (ix2 r j) = hArr4 V c (ix2 (Cert.Spec.rowOf q k r) j) := by
  obtain ⟨-, -, e0, e1, -⟩ := idx_facts4 t
  show V c (Pipeline.arrRef spec4 1) (((cfg4.win 1).blk t).view.emb (ix2 r j)) = V c (Pipeline.arrRef spec4 1) (ix2 (Cert.Spec.rowOf q k r) j)
  refine congrArg _ (funext fun a => Fin.ext ?_)
  match a with
  | ⟨0, _⟩ => show win4_1.index t (0 : Fin 2) * 5000 + 1 * r.val = (q.val * 10 + k.val) * 5000 + r.val; rw [e0, ht]; omega
  | ⟨1, _⟩ => show win4_1.index t (1 : Fin 2) * 64 + 1 * j.val = j.val; rw [e1]; omega

/-- The four row windows have one block, the whole row: at every point the block's entry `j` is the row's. -/
theorem blk2_apply (c : Dev nD) (t : Fin cfg4.N) (j : Fin 64) :
    (iblk4 V c 2 t : S1x64.Idx → EReal) (ix2 (0 : Fin 1) j) = muArr4 V c (ix2 (0 : Fin 1) j) := by
  obtain ⟨-, -, -, -, e0, e1, -⟩ := idx_facts4 t
  show V c (Pipeline.arrRef spec4 2) (((cfg4.win 2).blk t).view.emb (ix2 (0 : Fin 1) j)) = V c (Pipeline.arrRef spec4 2) (ix2 (0 : Fin 1) j)
  refine congrArg _ (funext fun a => Fin.ext ?_)
  match a with
  | ⟨0, _⟩ => show win4_2.index t (0 : Fin 2) * 1 + 1 * 0 = 0; rw [e0]
  | ⟨1, _⟩ => show win4_2.index t (1 : Fin 2) * 64 + 1 * j.val = j.val; rw [e1]; omega

theorem blk3_apply (c : Dev nD) (t : Fin cfg4.N) (j : Fin 64) :
    (iblk4 V c 3 t : S1x64.Idx → EReal) (ix2 (0 : Fin 1) j) = varArr4 V c (ix2 (0 : Fin 1) j) := by
  obtain ⟨-, -, -, -, -, -, e0, e1, -⟩ := idx_facts4 t
  show V c (Pipeline.arrRef spec4 3) (((cfg4.win 3).blk t).view.emb (ix2 (0 : Fin 1) j)) = V c (Pipeline.arrRef spec4 3) (ix2 (0 : Fin 1) j)
  refine congrArg _ (funext fun a => Fin.ext ?_)
  match a with
  | ⟨0, _⟩ => show win4_3.index t (0 : Fin 2) * 1 + 1 * 0 = 0; rw [e0]
  | ⟨1, _⟩ => show win4_3.index t (1 : Fin 2) * 64 + 1 * j.val = j.val; rw [e1]; omega

theorem blk4_apply (c : Dev nD) (t : Fin cfg4.N) (j : Fin 64) :
    (iblk4 V c 4 t : S1x64.Idx → EReal) (ix2 (0 : Fin 1) j) = gaArr4 V c (ix2 (0 : Fin 1) j) := by
  obtain ⟨-, -, -, -, -, -, -, -, e0, e1, -⟩ := idx_facts4 t
  show V c (Pipeline.arrRef spec4 4) (((cfg4.win 4).blk t).view.emb (ix2 (0 : Fin 1) j)) = V c (Pipeline.arrRef spec4 4) (ix2 (0 : Fin 1) j)
  refine congrArg _ (funext fun a => Fin.ext ?_)
  match a with
  | ⟨0, _⟩ => show win4_4.index t (0 : Fin 2) * 1 + 1 * 0 = 0; rw [e0]
  | ⟨1, _⟩ => show win4_4.index t (1 : Fin 2) * 64 + 1 * j.val = j.val; rw [e1]; omega

theorem blk5_apply (c : Dev nD) (t : Fin cfg4.N) (j : Fin 64) :
    (iblk4 V c 5 t : S1x64.Idx → EReal) (ix2 (0 : Fin 1) j) = beArr4 V c (ix2 (0 : Fin 1) j) := by
  obtain ⟨-, -, -, -, -, -, -, -, -, -, e0, e1, -⟩ := idx_facts4 t
  show V c (Pipeline.arrRef spec4 5) (((cfg4.win 5).blk t).view.emb (ix2 (0 : Fin 1) j)) = V c (Pipeline.arrRef spec4 5) (ix2 (0 : Fin 1) j)
  refine congrArg _ (funext fun a => Fin.ext ?_)
  match a with
  | ⟨0, _⟩ => show win4_5.index t (0 : Fin 2) * 1 + 1 * 0 = 0; rw [e0]
  | ⟨1, _⟩ => show win4_5.index t (1 : Fin 2) * 64 + 1 * j.val = j.val; rw [e1]; omega

/-- The normalised rows the pooling multiplies the one-hot matrix into. -/
abbrev bnArr4 (c : Dev nD) : Fin Cert.Spec.NN → Fin 64 → EReal :=
  Cert.Spec.bn (fun n j => hArr4 V c (ix2 n j)) (fun j => muArr4 V c (ix2 (0 : Fin 1) j)) (fun j => varArr4 V c (ix2 (0 : Fin 1) j))
    (fun j => gaArr4 V c (ix2 (0 : Fin 1) j)) (fun j => beArr4 V c (ix2 (0 : Fin 1) j))

/-- What tile `k` of core `q` adds to the pooled entry `(g, j)`: its five thousand rows' one-hot entries for graph
    `g` against the normalised column `j`. -/
def tileTerm (c : Dev nD) (q : Fin 2) (k : Fin 10) (g j : Fin 64) : EReal :=
  ∑ r : Fin 5000, ohArr4 V c (ix2 (Cert.Spec.rowOf q k r) g) * bnArr4 V c (Cert.Spec.rowOf q k r) j

/-- One product of the pooling sum depends on six entries only. -/
theorem term_congr {a a' b b' m m' v v' ga ga' be be' : EReal} (h0 : a = a') (h1 : b = b') (h2 : m = m') (h3 : v = v')
    (h4 : ga = ga') (h5 : be = be') :
    a * ((b - m) * Ideal.rsqrt (v + Cert.Spec.ceps) * ga + be) = a' * ((b' - m') * Ideal.rsqrt (v' + Cert.Spec.ceps) * ga' + be') := by
  subst h0 h1 h2 h3 h4 h5; rfl

/-- The body's update at the point of tile `k` of core `q`: the accumulator's entry plus that tile's term. -/
theorem point_apply (c : Dev nD) (t : Fin cfg4.N) (q : Fin 2) (k : Fin 10) (ht : t.val = q.val * 10 + k.val)
    (acc : Vec Ideal S1x64x64 .f32) (g j : Fin 64) :
    (k4_pay2 (iblk4 V c 3 t) (iblk4 V c 1 t) (iblk4 V c 2 t) (iblk4 V c 4 t) (iblk4 V c 5 t) (iblk4 V c 0 t) acc : S1x64x64.Idx → EReal) (ix3 (0 : Fin 1) g j)
      = acc (ix3 (0 : Fin 1) g j) + tileTerm V c q k g j := by
  refine (pool_pay_apply (iblk4 V c 3 t) (iblk4 V c 1 t) (iblk4 V c 2 t) (iblk4 V c 4 t) (iblk4 V c 5 t) (iblk4 V c 0 t) acc g j).trans ?_
  refine congrArg (acc (ix3 (0 : Fin 1) g j) + ·) (Finset.sum_congr rfl fun r _ => ?_)
  exact term_congr (blk0_apply V c t q k ht r g) (blk1_apply V c t q k ht r j) (blk2_apply V c t j) (blk3_apply V c t j)
    (blk4_apply V c t j) (blk5_apply V c t j)

/-- THE RUNNING SUM. After the point of tile `k` of core `q` the output block's entry `(g, j)` is the sum of the terms
    of tiles `0 … k` of that core: the core's first point resets the block to zero and adds its tile's term, every later
    point adds its own to what the point before left. By induction on the tile. -/
theorem outsAt4_eq (c : Dev nD) (q : Fin 2) (g j : Fin 64) : ∀ (k : ℕ) (hk : k < 10) (t : Fin cfg4.N) (ht : t.val = q.val * 10 + k),
    (outsAt4 V c t.val t.isLt : S1x64x64.Idx → EReal) (ix3 (0 : Fin 1) g j)
      = ∑ k' : Fin (k + 1), tileTerm V c q ⟨k'.val, Nat.lt_of_lt_of_le k'.isLt hk⟩ g j
  | 0, hk, t, ht => by
    have h0 : t.val % 10 = 0 := by omega
    refine (congrFun (outsAt4_A V c t h0) (ix3 (0 : Fin 1) g j)).trans ?_
    refine (congrFun (out4_A_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t) (iblk4 V c 4 t) (iblk4 V c 5 t)) (ix3 (0 : Fin 1) g j)).trans ?_
    refine (point_apply V c t q ⟨0, hk⟩ ht (k4_pay1 (F := Ideal)) g j).trans ?_
    rw [Fin.sum_univ_one]
    show Ideal.ofBits .f32 0x00000000#32 + tileTerm V c q ⟨0, hk⟩ g j = tileTerm V c q ⟨0, _⟩ g j
    rw [Ideal.ofBits_zero_f32, zero_add]
  | k + 1, hk, t, ht => by
    have hN : t.val < 20 := lt_of_lt_of_eq t.isLt (show cfg4.N = 20 from N_4)
    have h0 : ¬t.val % 10 = 0 := by omega
    have hp : t.val - 1 < cfg4.N := Nat.lt_of_le_of_lt (Nat.sub_le _ _) t.isLt
    refine (congrFun (outsAt4_B V c t h0) (ix3 (0 : Fin 1) g j)).trans ?_
    refine (congrFun (out4_B_eq c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (iblk4 V c 4 t) (iblk4 V c 5 t) (outsAt4 V c (t.val - 1) hp)) (ix3 (0 : Fin 1) g j)).trans ?_
    refine (point_apply V c t q ⟨k + 1, hk⟩ ht (outsAt4 V c (t.val - 1) hp) g j).trans ?_
    rw [Fin.sum_univ_castSucc]
    refine congr (congrArg HAdd.hAdd ?_) rfl
    exact outsAt4_eq c q g j k (Nat.lt_of_succ_lt hk) ⟨t.val - 1, hp⟩ (by show t.val - 1 = q.val * 10 + k; omega)

/-- The pooled sums of the two cores, entry by entry: what the region leaves in its output array. -/
def poolG (c : Dev nD) : S2x64x64.Idx → EReal := fun i => ∑ k : Fin 10, tileTerm V c (i 0) k (i 1) (i 2)

/-- A core's last point writes back its block of the pooled sums: the running sum over all ten tiles. -/
theorem flushed4_eq (c : Dev nD) (t : Fin cfg4.N) (hf : (cfg4.win 6).flush t = true) :
    (dat4 V c).flushed 6 t = ((cfg4.win 6).blk t).view.read (Elt Ideal) (poolG V c) := by
  have hN : t.val < 20 := lt_of_lt_of_eq t.isLt (show cfg4.N = 20 from N_4)
  have h9 : t.val % 10 = 9 := (flush4_6 t).mp hf
  obtain ⟨-, -, -, -, -, -, -, -, -, -, -, -, e0, e1, e2⟩ := idx_facts4 t
  show (cfg4.win 6).cut (grid4.coords t) ((dat4 V c).after 6 t) = _
  rw [after4_6]
  funext y
  obtain ⟨a, g, j, rfl⟩ : ∃ (a : Fin 1) (g j : Fin 64), y = (ix3 a g j : S1x64x64.Idx) :=
    ⟨y 0, y 1, y 2, eq_ix3 (n0 := 1) (n1 := 64) (n2 := 64) y⟩
  obtain rfl : a = 0 := Subsingleton.elim _ _
  have hq : t.val / 10 < 2 := by omega
  have hemb : ((cfg4.win 6).blk t).view.emb (ix3 (0 : Fin 1) g j) = (ix3 (⟨t.val / 10, hq⟩ : Fin 2) g j : S2x64x64.Idx) := by
    funext a; apply Fin.ext
    match a with
    | ⟨0, _⟩ => show win4_6.index t (0 : Fin 3) * 1 + 1 * 0 = t.val / 10; rw [e0]; omega
    | ⟨1, _⟩ => show win4_6.index t (1 : Fin 3) * 64 + 1 * g.val = g.val; rw [e1]; omega
    | ⟨2, _⟩ => show win4_6.index t (2 : Fin 3) * 64 + 1 * j.val = j.val; rw [e2]; omega
  show (outsAt4 V c t.val t.isLt : S1x64x64.Idx → EReal) (ix3 (0 : Fin 1) g j) = poolG V c (((cfg4.win 6).blk t).view.emb (ix3 (0 : Fin 1) g j))
  rw [hemb]
  exact outsAt4_eq V c ⟨t.val / 10, hq⟩ g j 9 (by omega) t (by show t.val = t.val / 10 * 10 + 9; omega)

/-- An index of the output array is in point `t`'s block iff each coordinate is in the block's range on its axis. -/
theorem mem_blk4 (t : Fin cfg4.N) (i : S2x64x64.Idx) :
    i ∈ ((cfg4.win 6).blk t).view.set ↔ ∀ a : Fin 3, win4_6.index t a * S1x64x64.size a ≤ (i a).val ∧ (i a).val < win4_6.index t a * S1x64x64.size a + S1x64x64.size a := by
  show i ∈ ((View.whole main_v73).slice (win4_6.rect t)).set ↔ _
  rw [View.set_slice_whole, Rect.mem_set_unit]
  exact Iff.rfl

/-- Every entry of the output array is in the block some core's last point writes back. -/
theorem cover4 (i : S2x64x64.Idx) : ∃ t : Fin cfg4.N, (cfg4.win 6).flush t = true ∧ i ∈ ((cfg4.win 6).blk t).view.set := by
  have hN : cfg4.N = 20 := N_4
  have h0 : (i 0).val < 2 := (i 0).isLt
  have h1 : (i 1).val < 64 := (i 1).isLt
  have h2 : (i 2).val < 64 := (i 2).isLt
  have ht : (i 0).val * 10 + 9 < cfg4.N := by rw [hN]; omega
  obtain ⟨-, -, -, -, -, -, -, -, -, -, -, -, e0, e1, e2⟩ := idx_facts4 ⟨(i 0).val * 10 + 9, ht⟩
  have e0' : win4_6.index ⟨(i 0).val * 10 + 9, ht⟩ (0 : Fin 3) = ((i 0).val * 10 + 9) / 10 := e0
  refine ⟨⟨(i 0).val * 10 + 9, ht⟩, (flush4_6 _).mpr (by show ((i 0).val * 10 + 9) % 10 = 9; omega), ?_⟩
  rw [mem_blk4]
  intro a
  match a with
  | ⟨0, _⟩ =>
    show win4_6.index ⟨(i 0).val * 10 + 9, ht⟩ (0 : Fin 3) * 1 ≤ (i 0).val ∧ (i 0).val < win4_6.index ⟨(i 0).val * 10 + 9, ht⟩ (0 : Fin 3) * 1 + 1
    rw [e0']; omega
  | ⟨1, _⟩ =>
    show win4_6.index ⟨(i 0).val * 10 + 9, ht⟩ (1 : Fin 3) * 64 ≤ (i 1).val ∧ (i 1).val < win4_6.index ⟨(i 0).val * 10 + 9, ht⟩ (1 : Fin 3) * 64 + 64
    rw [e1]; omega
  | ⟨2, _⟩ =>
    show win4_6.index ⟨(i 0).val * 10 + 9, ht⟩ (2 : Fin 3) * 64 ≤ (i 2).val ∧ (i 2).val < win4_6.index ⟨(i 0).val * 10 + 9, ht⟩ (2 : Fin 3) * 64 + 64
    rw [e2]; omega

/-- THE REGION'S OUTPUT. The pooled array's entry `(q, g, j)` is core `q`'s sum over its ten tiles and their five
    thousand rows of the one-hot entry for graph `g` times the normalised entry of column `j`. -/
theorem reg4_value (c : Dev nD) (q : Fin 2) (g j : Fin 64) :
    ((dat4 V c).arrAt 6 cfg4.N : S2x64x64.Idx → EReal) (ix3 q g j)
      = ∑ k : Fin 10, ∑ r : Fin 5000, ohArr4 V c (ix2 (Cert.Spec.rowOf q k r) g) * bnArr4 V c (Cert.Spec.rowOf q k r) j := by
  have hfin : (dat4 V c).arrAt 6 cfg4.N = poolG V c :=
    (dat4 V c).arrAt_eq_of_cover 6 (poolG V c) (flushed4_eq V c) cover4
  exact congrFun hfin (ix3 q g j)

end Cert.KernelIdeal.KVal

end
-- ==== Proof.KChain.lean ====
import proofs.«412438_j20864951124557_2_alg».proof.Proof.Gen.KernelIdeal.Frame
import proofs.«412438_j20864951124557_2_alg».proof.Proof.Spec
import proofs.«412438_j20864951124557_2_alg».proof.Proof.KArgs
import proofs.«412438_j20864951124557_2_alg».proof.Proof.KKeep
import proofs.«412438_j20864951124557_2_alg».proof.Proof.KHostA0
import proofs.«412438_j20864951124557_2_alg».proof.Proof.KHostA
import proofs.«412438_j20864951124557_2_alg».proof.Proof.KHostB4
import proofs.«412438_j20864951124557_2_alg».proof.Proof.KHostB
import proofs.«412438_j20864951124557_2_alg».proof.Proof.KHostC
import proofs.«412438_j20864951124557_2_alg».proof.Proof.KReg0
import proofs.«412438_j20864951124557_2_alg».proof.Proof.KReg1
import proofs.«412438_j20864951124557_2_alg».proof.Proof.KReg2
import proofs.«412438_j20864951124557_2_alg».proof.Proof.KReg3
import proofs.«412438_j20864951124557_2_alg».proof.Proof.KReg4

/-!
# The tiled program's buffers, boundary by boundary

Following the run from the launch memory: after each stretch of host operations and after each pallas_call, the
buffers that later segments read hold the tiled form's intermediate arrays of the arguments (the degree factors, the
projected rows, the aggregates, the activations, their column statistics, the one-hot matrix and the counts), and the
result buffer ends at the tiled form's output.
-/

set_option maxRecDepth 16384

noncomputable section

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

variable (m : (ℓ : Loc nD τ sig) → Buf (Elt Ideal) ℓ) (ρ : Dev nD → PrngReg) (c : Dev nD)

/-! ## The buffers read along the way, each at its literal type -/

abbrev x1_v11 : S100000x1.Idx → EReal := W1 m ρ c (Proc.devRef .tc main_v11)
abbrev x1_v1 : S1600000.Idx → BitVec 32 := W1 m ρ c (Proc.devRef .tc main_v1)
abbrev x1_v3 : S1600000.Idx → BitVec 32 := W1 m ρ c (Proc.devRef .tc main_v3)
abbrev x2_v12 : S100000x64.Idx → EReal := W2 m ρ c (Proc.devRef .tc main_v12)
abbrev x3_v25 : S100000x64.Idx → EReal := W3 m ρ c (Proc.devRef .tc main_v25)
abbrev x3_v26 : S1x64.Idx → EReal := W3 m ρ c (Proc.devRef .tc main_v26)
abbrev x3_v11 : S100000x1.Idx → EReal := W3 m ρ c (Proc.devRef .tc main_v11)
abbrev x4_v27_0 : S100000x64.Idx → EReal := W4 m ρ c (Proc.devRef .tc main_v27_0)
abbrev x4_v27_1 : S2x1x64.Idx → EReal := W4 m ρ c (Proc.devRef .tc main_v27_1)
abbrev x4_v27_2 : S2x1x64.Idx → EReal := W4 m ρ c (Proc.devRef .tc main_v27_2)
abbrev x5_v27_0 : S100000x64.Idx → EReal := W5 m ρ c (Proc.devRef .tc main_v27_0)
abbrev x5_v31 : S1x64.Idx → EReal := W5 m ρ c (Proc.devRef .tc main_v31)
abbrev x5_v37 : S1x64.Idx → EReal := W5 m ρ c (Proc.devRef .tc main_v37)
abbrev x5_v38 : S1x64.Idx → EReal := W5 m ρ c (Proc.devRef .tc main_v38)
abbrev x5_v39 : S1x64.Idx → EReal := W5 m ρ c (Proc.devRef .tc main_v39)
abbrev x5_arg5 : S64x64.Idx → EReal := W5 m ρ c (Proc.devRef .tc main_arg5)
abbrev x6_v40 : S100000x64.Idx → EReal := W6 m ρ c (Proc.devRef .tc main_v40)
abbrev x7_v53 : S100000x64.Idx → EReal := W7 m ρ c (Proc.devRef .tc main_v53)
abbrev x7_v54 : S1x64.Idx → EReal := W7 m ρ c (Proc.devRef .tc main_v54)
abbrev x7_v11 : S100000x1.Idx → EReal := W7 m ρ c (Proc.devRef .tc main_v11)
abbrev x8_v55_0 : S100000x64.Idx → EReal := W8 m ρ c (Proc.devRef .tc main_v55_0)
abbrev x8_v55_1 : S2x1x64.Idx → EReal := W8 m ρ c (Proc.devRef .tc main_v55_1)
abbrev x8_v55_2 : S2x1x64.Idx → EReal := W8 m ρ c (Proc.devRef .tc main_v55_2)
abbrev x11_v55_0 : S100000x64.Idx → EReal := W11 m ρ c (Proc.devRef .tc main_v55_0)
abbrev x11_v59 : S1x64.Idx → EReal := W11 m ρ c (Proc.devRef .tc main_v59)
abbrev x11_v65 : S1x64.Idx → EReal := W11 m ρ c (Proc.devRef .tc main_v65)
abbrev x11_v66 : S100000x64.Idx → EReal := W11 m ρ c (Proc.devRef .tc main_v66)
abbrev x11_v70 : S64.Idx → EReal := W11 m ρ c (Proc.devRef .tc main_v70)
abbrev x11_v71 : S1x64.Idx → EReal := W11 m ρ c (Proc.devRef .tc main_v71)
abbrev x11_v72 : S1x64.Idx → EReal := W11 m ρ c (Proc.devRef .tc main_v72)
abbrev x12_v73 : S2x64x64.Idx → EReal := W12 m ρ c (Proc.devRef .tc main_v73)
abbrev x12_v70 : S64.Idx → EReal := W12 m ρ c (Proc.devRef .tc main_v70)

/-! ## After the first stretch: the edge lists and the degree factors -/

theorem v11_1 (i : Fin 100000) : x1_v11 m ρ c (ix2 i (0 : Fin 1)) = dinvK (argsK m c) i :=
  s0_dinv (W0 m ρ c) i

theorem v1_1 (e : Fin 1600000) : x1_v1 m ρ c (ix1 e) = (argsK m c).src e := s0_src (W0 m ρ c) e

theorem v3_1 (e : Fin 1600000) : x1_v3 m ρ c (ix1 e) = (argsK m c).dst e := s0_dst (W0 m ρ c) e

/-! ## After the first pallas_call: the projected rows -/

theorem v12_2 (n : Fin 100000) (j : Fin 64) :
    x2_v12 m ρ c (ix2 n j) = proj (argsK m c).x (argsK m c).W1 n j := by
  have e2 : x2_v12 m ρ c = arr0_out (V1 m ρ) c := W2_arr m ρ c 2
  have ex : arr0_x (V1 m ρ) c = m ((c : Thread nD τ).loc main_arg0) := W1_arg0 m ρ c
  have ew : arr0_w (V1 m ρ) c = m ((c : Thread nD τ).loc main_arg3) := W1_arg3 m ρ c
  rw [e2, reg0_value, ex, ew]
  rfl

/-! ## One layer's aggregate after a stretch, from the projected rows before it -/

theorem v25_3 (i : Fin 100000) (j : Fin 64) :
    x3_v25 m ρ c (ix2 i j) = aggK (argsK m c) (proj (argsK m c).x (argsK m c).W1) i j := by
  refine (s1_agg (W2 m ρ c) i j).trans ?_
  have h3 : ∀ e, bV3 (W2 m ρ c) (ix1 e) = (argsK m c).dst e :=
    fun e => (congrFun (W2_v3 m ρ c) (ix1 e)).trans (v3_1 m ρ c e)
  have h1 : ∀ e, bV1 (W2 m ρ c) (ix1 e) = (argsK m c).src e :=
    fun e => (congrFun (W2_v1 m ρ c) (ix1 e)).trans (v1_1 m ρ c e)
  have h11 : ∀ i, bV11 (W2 m ρ c) (ix2 i (0 : Fin 1)) = dinvK (argsK m c) i :=
    fun i => (congrFun (W2_v11 m ρ c) (ix2 i (0 : Fin 1))).trans (v11_1 m ρ c i)
  have h12 : ∀ n j, bV12 (W2 m ρ c) (ix2 n j) = proj (argsK m c).x (argsK m c).W1 n j := v12_2 m ρ c
  simp only [h3, h1, h11, h12]
  rfl

theorem v26_3 (j : Fin 64) : x3_v26 m ρ c (ix2 (0 : Fin 1) j) = (argsK m c).b1 j :=
  (s1_bias (W2 m ρ c) j).trans (congrFun (W2_arg4 m ρ c) (ix1 j))

theorem v11_3 (i : Fin 100000) : x3_v11 m ρ c (ix2 i (0 : Fin 1)) = dinvK (argsK m c) i :=
  (congrFun (W3_v11 m ρ c) (ix2 i (0 : Fin 1))).trans (v11_1 m ρ c i)

/-! ## After the second pallas_call: the first activation and its column sums -/

theorem hOf_1 : hOf (V3 m ρ c (Pipeline.arrRef spec1 0) : S100000x64.Idx → EReal)
      (V3 m ρ c (Pipeline.arrRef spec1 1) : S100000x1.Idx → EReal) (V3 m ρ c (Pipeline.arrRef spec1 2) : S1x64.Idx → EReal)
    = h1K (argsK m c) := by
  funext n j
  show max (x3_v25 m ρ c (ix2 n j) * x3_v11 m ρ c (ix2 n (0 : Fin 1)) + x3_v26 m ρ c (ix2 (0 : Fin 1) j)) c0 = _
  rw [v25_3, v11_3, v26_3]
  rfl

theorem v27_0_4 (n : Fin 100000) (j : Fin 64) : x4_v27_0 m ρ c (ix2 n j) = h1K (argsK m c) n j := by
  have e : x4_v27_0 m ρ c = ((dat1 (V3 m ρ) c).arrAt 3 cfg1.N : S100000x64.Idx → EReal) := W4_arr m ρ c 3
  rw [e, reg1_h (V3 m ρ) c n j, hOf_1]

theorem v27_1_4 (q : Fin 2) (j : Fin 64) : x4_v27_1 m ρ c (ix3 q (0 : Fin 1) j) = sumPartK (h1K (argsK m c)) q j := by
  have e : x4_v27_1 m ρ c = ((dat1 (V3 m ρ) c).arrAt 4 cfg1.N : S2x1x64.Idx → EReal) := W4_arr m ρ c 4
  rw [e, reg1_sum (V3 m ρ) c q j, hOf_1]

theorem v27_2_4 (q : Fin 2) (j : Fin 64) : x4_v27_2 m ρ c (ix3 q (0 : Fin 1) j) = sqPartK (h1K (argsK m c)) q j := by
  have e : x4_v27_2 m ρ c = ((dat1 (V3 m ρ) c).arrAt 5 cfg1.N : S2x1x64.Idx → EReal) := W4_arr m ρ c 5
  rw [e, reg1_sq (V3 m ρ) c q j, hOf_1]

/-! ## After the third stretch: the first layer's mean, variance, scale and shift rows -/

theorem v31_5 (j : Fin 64) : x5_v31 m ρ c (ix2 (0 : Fin 1) j) = muK (h1K (argsK m c)) j := by
  refine (s2_mu (W4 m ρ c) j).trans ?_
  have h : ∀ q j, (W4 m ρ c (Proc.devRef .tc main_v27_1) : S2x1x64.Idx → EReal) (ix3 q (0 : Fin 1) j)
      = sumPartK (h1K (argsK m c)) q j := v27_1_4 m ρ c
  simp only [h]
  rfl

theorem v37_5 (j : Fin 64) : x5_v37 m ρ c (ix2 (0 : Fin 1) j) = varK (h1K (argsK m c)) j := by
  refine (s2_var (W4 m ρ c) j).trans ?_
  have h : ∀ q j, (W4 m ρ c (Proc.devRef .tc main_v27_1) : S2x1x64.Idx → EReal) (ix3 q (0 : Fin 1) j)
      = sumPartK (h1K (argsK m c)) q j := v27_1_4 m ρ c
  have h' : ∀ q j, (W4 m ρ c (Proc.devRef .tc main_v27_2) : S2x1x64.Idx → EReal) (ix3 q (0 : Fin 1) j)
      = sqPartK (h1K (argsK m c)) q j := v27_2_4 m ρ c
  simp only [h, h']
  rfl

theorem v38_5 (j : Fin 64) : x5_v38 m ρ c (ix2 (0 : Fin 1) j) = (argsK m c).gamma1 j :=
  (s2_gamma (W4 m ρ c) j).trans (congrFun (W4_arg7 m ρ c) (ix1 j))

theorem v39_5 (j : Fin 64) : x5_v39 m ρ c (ix2 (0 : Fin 1) j) = (argsK m c).beta1 j :=
  (s2_beta (W4 m ρ c) j).trans (congrFun (W4_arg8 m ρ c) (ix1 j))

theorem v27_0_5 (n : Fin 100000) (j : Fin 64) : x5_v27_0 m ρ c (ix2 n j) = h1K (argsK m c) n j :=
  (congrFun (W5_v27_0 m ρ c) (ix2 n j)).trans (v27_0_4 m ρ c n j)

/-! ## After the third pallas_call: the second layer's projected rows -/

theorem v40_6 (n : Fin 100000) (j : Fin 64) : x6_v40 m ρ c (ix2 n j) = p2K (argsK m c) n j := by
  have e : x6_v40 m ρ c = arr2_out (V5 m ρ) c := W6_arr m ρ c 6
  have hx : ∀ n k, arr2_x (V5 m ρ) c (ix2 n k) = h1K (argsK m c) n k := v27_0_5 m ρ c
  have hmu : ∀ k, arr2_mu (V5 m ρ) c (ix2 (0 : Fin 1) k) = muK (h1K (argsK m c)) k := v31_5 m ρ c
  have hvar : ∀ k, arr2_var (V5 m ρ) c (ix2 (0 : Fin 1) k) = varK (h1K (argsK m c)) k := v37_5 m ρ c
  have hga : ∀ k, arr2_ga (V5 m ρ) c (ix2 (0 : Fin 1) k) = (argsK m c).gamma1 k := v38_5 m ρ c
  have hbe : ∀ k, arr2_be (V5 m ρ) c (ix2 (0 : Fin 1) k) = (argsK m c).beta1 k := v39_5 m ρ c
  have hw : ∀ k j, arr2_w (V5 m ρ) c (ix2 k j) = (argsK m c).W2 k j :=
    fun k j => congrFun (W5_arg5 m ρ c) (ix2 k j)
  rw [e, reg2_value]
  simp only [hx, hmu, hvar, hga, hbe, hw]
  rfl

/-! ## The second layer: aggregate, activation, statistics -/

theorem v11_6 (i : Fin 100000) : bV11 (W6 m ρ c) (ix2 i (0 : Fin 1)) = dinvK (argsK m c) i :=
  (congrFun (W6_v11 m ρ c) (ix2 i (0 : Fin 1))).trans (v11_1 m ρ c i)

theorem v53_7 (i : Fin 100000) (j : Fin 64) : x7_v53 m ρ c (ix2 i j) = aggK (argsK m c) (p2K (argsK m c)) i j := by
  refine (s3_agg (W6 m ρ c) i j).trans ?_
  have h3 : ∀ e, bV3 (W6 m ρ c) (ix1 e) = (argsK m c).dst e :=
    fun e => (congrFun (W6_v3 m ρ c) (ix1 e)).trans (v3_1 m ρ c e)
  have h1 : ∀ e, bV1 (W6 m ρ c) (ix1 e) = (argsK m c).src e :=
    fun e => (congrFun (W6_v1 m ρ c) (ix1 e)).trans (v1_1 m ρ c e)
  have h11 : ∀ i, bV11 (W6 m ρ c) (ix2 i (0 : Fin 1)) = dinvK (argsK m c) i := v11_6 m ρ c
  have h40 : ∀ n j, bV40 (W6 m ρ c) (ix2 n j) = p2K (argsK m c) n j := v40_6 m ρ c
  simp only [h3, h1, h11, h40]
  rfl

theorem v54_7 (j : Fin 64) : x7_v54 m ρ c (ix2 (0 : Fin 1) j) = (argsK m c).b2 j :=
  (s3_bias (W6 m ρ c) j).trans (congrFun (W6_arg6 m ρ c) (ix1 j))

theorem v11_7 (i : Fin 100000) : x7_v11 m ρ c (ix2 i (0 : Fin 1)) = dinvK (argsK m c) i :=
  (congrFun (W7_v11 m ρ c) (ix2 i (0 : Fin 1))).trans (v11_1 m ρ c i)

theorem hOf_3 : hOf (V7 m ρ c (Pipeline.arrRef spec3 0) : S100000x64.Idx → EReal)
      (V7 m ρ c (Pipeline.arrRef spec3 1) : S100000x1.Idx → EReal) (V7 m ρ c (Pipeline.arrRef spec3 2) : S1x64.Idx → EReal)
    = h2K (argsK m c) := by
  funext n j
  show max (x7_v53 m ρ c (ix2 n j) * x7_v11 m ρ c (ix2 n (0 : Fin 1)) + x7_v54 m ρ c (ix2 (0 : Fin 1) j)) c0 = _
  rw [v53_7, v11_7, v54_7]
  rfl

theorem v55_0_8 (n : Fin 100000) (j : Fin 64) : x8_v55_0 m ρ c (ix2 n j) = h2K (argsK m c) n j := by
  have e : x8_v55_0 m ρ c = ((dat3 (V7 m ρ) c).arrAt 3 cfg3.N : S100000x64.Idx → EReal) := W8_arr m ρ c 3
  rw [e, reg3_h (V7 m ρ) c n j, hOf_3]

theorem v55_1_8 (q : Fin 2) (j : Fin 64) : x8_v55_1 m ρ c (ix3 q (0 : Fin 1) j) = sumPartK (h2K (argsK m c)) q j := by
  have e : x8_v55_1 m ρ c = ((dat3 (V7 m ρ) c).arrAt 4 cfg3.N : S2x1x64.Idx → EReal) := W8_arr m ρ c 4
  rw [e, reg3_sum (V7 m ρ) c q j, hOf_3]

theorem v55_2_8 (q : Fin 2) (j : Fin 64) : x8_v55_2 m ρ c (ix3 q (0 : Fin 1) j) = sqPartK (h2K (argsK m c)) q j := by
  have e : x8_v55_2 m ρ c = ((dat3 (V7 m ρ) c).arrAt 5 cfg3.N : S2x1x64.Idx → EReal) := W8_arr m ρ c 5
  rw [e, reg3_sq (V7 m ρ) c q j, hOf_3]

/-! ## Before the pooling: the second layer's statistics, the one-hot matrix, the counts -/

theorem v59_11 (j : Fin 64) : x11_v59 m ρ c (ix2 (0 : Fin 1) j) = muK (h2K (argsK m c)) j := by
  refine (s4_mu (W8 m ρ c) j).trans ?_
  have h : ∀ q j, (W8 m ρ c (Proc.devRef .tc main_v55_1) : S2x1x64.Idx → EReal) (ix3 q (0 : Fin 1) j)
      = sumPartK (h2K (argsK m c)) q j := v55_1_8 m ρ c
  simp only [h]
  rfl

theorem v65_11 (j : Fin 64) : x11_v65 m ρ c (ix2 (0 : Fin 1) j) = varK (h2K (argsK m c)) j := by
  refine (s4_var (W8 m ρ c) j).trans ?_
  have h : ∀ q j, (W8 m ρ c (Proc.devRef .tc main_v55_1) : S2x1x64.Idx → EReal) (ix3 q (0 : Fin 1) j)
      = sumPartK (h2K (argsK m c)) q j := v55_1_8 m ρ c
  have h' : ∀ q j, (W8 m ρ c (Proc.devRef .tc main_v55_2) : S2x1x64.Idx → EReal) (ix3 q (0 : Fin 1) j)
      = sqPartK (h2K (argsK m c)) q j := v55_2_8 m ρ c
  simp only [h, h']
  rfl

theorem v66_11 (n : Fin 100000) (g : Fin 64) : x11_v66 m ρ c (ix2 n g) = ohS (argsK m c) n g := by
  refine (s4_onehot (W8 m ρ c) n g).trans ?_
  rw [W8_arg2 m ρ c]
  rfl

theorem v70_11 (g : Fin 64) : x11_v70 m ρ c (ix1 g) = cntS (argsK m c) g := by
  refine (s4_cnt (W8 m ρ c) g).trans ?_
  rw [W8_arg2 m ρ c]
  rfl

theorem v71_11 (j : Fin 64) : x11_v71 m ρ c (ix2 (0 : Fin 1) j) = (argsK m c).gamma2 j :=
  (s4_gamma (W8 m ρ c) j).trans (congrFun (W8_arg9 m ρ c) (ix1 j))

theorem v72_11 (j : Fin 64) : x11_v72 m ρ c (ix2 (0 : Fin 1) j) = (argsK m c).beta2 j :=
  (s4_beta (W8 m ρ c) j).trans (congrFun (W8_arg10 m ρ c) (ix1 j))

theorem v55_0_11 (n : Fin 100000) (j : Fin 64) : x11_v55_0 m ρ c (ix2 n j) = h2K (argsK m c) n j :=
  (congrFun (s4_keep_h (W8 m ρ c)) (ix2 n j)).trans (v55_0_8 m ρ c n j)

/-! ## After the last pallas_call: the pooled partial sums -/

theorem v73_12 (q : Fin 2) (g j : Fin 64) : x12_v73 m ρ c (ix3 q g j) = poolPartK (argsK m c) q g j := by
  have e : x12_v73 m ρ c = ((dat4 (V11 m ρ) c).arrAt 6 cfg4.N : S2x64x64.Idx → EReal) := W12_arr m ρ c 6
  have hoh : ∀ n g, ohArr4 (V11 m ρ) c (ix2 n g) = ohS (argsK m c) n g := v66_11 m ρ c
  have hbn : bnArr4 (V11 m ρ) c = bn2K (argsK m c) := by
    funext n j
    have hh : ∀ n j, hArr4 (V11 m ρ) c (ix2 n j) = h2K (argsK m c) n j := v55_0_11 m ρ c
    have hmu : ∀ j, muArr4 (V11 m ρ) c (ix2 (0 : Fin 1) j) = muK (h2K (argsK m c)) j := v59_11 m ρ c
    have hvar : ∀ j, varArr4 (V11 m ρ) c (ix2 (0 : Fin 1) j) = varK (h2K (argsK m c)) j := v65_11 m ρ c
    have hga : ∀ j, gaArr4 (V11 m ρ) c (ix2 (0 : Fin 1) j) = (argsK m c).gamma2 j := v71_11 m ρ c
    have hbe : ∀ j, beArr4 (V11 m ρ) c (ix2 (0 : Fin 1) j) = (argsK m c).beta2 j := v72_11 m ρ c
    simp only [bnArr4, hh, hmu, hvar, hga, hbe]
    rfl
  rw [e, reg4_value, hbn]
  simp only [hoh]
  rfl

theorem v70_12 (g : Fin 64) : x12_v70 m ρ c (ix1 g) = cntS (argsK m c) g :=
  (congrFun (W12_v70 m ρ c) (ix1 g)).trans (v70_11 m ρ c g)

/-! ## The result -/

/-- THE TILED PROGRAM'S RESULT: the result buffer ends at the tiled form's output of the arguments. -/
theorem kernel_value (g : Fin 64) :
    (W21 m ρ c (Proc.devRef .tc main_v103) : S64x1.Idx → EReal) (ix2 g (0 : Fin 1)) = KSpec (argsK m c) g := by
  refine (s5_tail (W12 m ρ c) g).trans ?_
  have h11 : ∀ k j, (W12 m ρ c (Proc.devRef .tc main_arg11) : S64x128.Idx → EReal) (ix2 k j) = (argsK m c).fW1 k j :=
    fun k j => congrFun (W12_arg11 m ρ c) (ix2 k j)
  have h12 : ∀ j, (W12 m ρ c (Proc.devRef .tc main_arg12) : S128.Idx → EReal) (ix1 j) = (argsK m c).fb1 j :=
    fun j => congrFun (W12_arg12 m ρ c) (ix1 j)
  have h13 : ∀ k j, (W12 m ρ c (Proc.devRef .tc main_arg13) : S128x64.Idx → EReal) (ix2 k j) = (argsK m c).fW2 k j :=
    fun k j => congrFun (W12_arg13 m ρ c) (ix2 k j)
  have h14 : ∀ j, (W12 m ρ c (Proc.devRef .tc main_arg14) : S64.Idx → EReal) (ix1 j) = (argsK m c).fb2 j :=
    fun j => congrFun (W12_arg14 m ρ c) (ix1 j)
  have h15 : ∀ k j, (W12 m ρ c (Proc.devRef .tc main_arg15) : S64x32.Idx → EReal) (ix2 k j) = (argsK m c).fW3 k j :=
    fun k j => congrFun (W12_arg15 m ρ c) (ix2 k j)
  have h16 : ∀ j, (W12 m ρ c (Proc.devRef .tc main_arg16) : S32.Idx → EReal) (ix1 j) = (argsK m c).fb3 j :=
    fun j => congrFun (W12_arg16 m ρ c) (ix1 j)
  have h17 : ∀ k j, (W12 m ρ c (Proc.devRef .tc main_arg17) : S32x16.Idx → EReal) (ix2 k j) = (argsK m c).fW4 k j :=
    fun k j => congrFun (W12_arg17 m ρ c) (ix2 k j)
  have h18 : ∀ j, (W12 m ρ c (Proc.devRef .tc main_arg18) : S16.Idx → EReal) (ix1 j) = (argsK m c).fb4 j :=
    fun j => congrFun (W12_arg18 m ρ c) (ix1 j)
  have h19 : ∀ k j, (W12 m ρ c (Proc.devRef .tc main_arg19) : S16x1.Idx → EReal) (ix2 k j) = (argsK m c).oW k j :=
    fun k j => congrFun (W12_arg19 m ρ c) (ix2 k j)
  have h20 : ∀ j, (W12 m ρ c (Proc.devRef .tc main_arg20) : S1.Idx → EReal) (ix1 j) = (argsK m c).ob j :=
    fun j => congrFun (W12_arg20 m ρ c) (ix1 j)
  have h73 : ∀ q g k, (W12 m ρ c (Proc.devRef .tc main_v73) : S2x64x64.Idx → EReal) (ix3 q g k)
      = poolPartK (argsK m c) q g k := v73_12 m ρ c
  have h70 : ∀ g, (W12 m ρ c (Proc.devRef .tc main_v70) : S64.Idx → EReal) (ix1 g) = cntS (argsK m c) g := v70_12 m ρ c
  simp only [h11, h12, h13, h14, h15, h16, h17, h18, h19, h20, h73, h70]
  rfl

end Cert.KernelIdeal.KVal

end
-- ==== Proof.PreFinite.lean ====
import proofs.«412438_j20864951124557_2_alg».proof.Defs
import proofs.«412438_j20864951124557_2_alg».proof.Proof.Gen.Pre_finite_inputs
import proofs.«412438_j20864951124557_2_alg».proof.Proof.KArgs
import proofs.«412438_j20864951124557_2_alg».proof.Proof.Spec
import Idealize.ShloMosaic.Lib.ReduceAll

/-! The precondition read back: every entry of the float arguments the layers use is a real number. -/

noncomputable section

namespace Cert.KernelIdeal.KVal

open Idealize.ShloMosaic Idealize.ShloMosaic.TcCoe Idealize.ShloMosaic.ValueIdx Idealize.SL.Sem

/-- The scalar shape has one index. -/
instance : Subsingleton Cert.Pre_finite_inputs.S_.Idx := ⟨fun a b => funext fun d => d.elim0⟩

/-- The word of positive infinity denotes the top element. -/
theorem inf_word : Ideal.ofBits .f32 0x7F800000#32 = (⊤ : EReal) := by
  simp [Ideal.ofBits, Ideal.ieee]

/-- An extended real whose absolute value lies below the top element is a real number. -/
theorem isR_of_abs_lt_top (x : EReal) (h : max x (-x) < ⊤) : Cert.Spec.IsR x := by
  induction x using EReal.rec with
  | bot => simp at h
  | coe r => exact ⟨r, rfl⟩
  | top => simp at h

/-- If all entries of an array pass the test that the absolute value is below infinity, every entry is real. -/
theorem isR_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (v : FVec Ideal s .f32)
    (e : Host.reduce IntOp.andi
        (cmpf .olt (Host.absf v) (broadcastInDim s ![] hb (constant Cert.Pre_finite_inputs.S_ .f32 0x7F800000#32)))
        (constantI Cert.Pre_finite_inputs.S_ 1 1#1) hr hu ix0 = 1#1)
    (i : s.Idx) : Cert.Spec.IsR (v i) := by
  have h1 := Host.reduce_andi_all _ _ hr hu ix0 e i
  have h2 : Ideal.cmp .olt (max (v i) (-(v i))) (Ideal.ofBits .f32 0x7F800000#32) = 1#1 := h1
  rw [inf_word] at h2
  apply isR_of_abs_lt_top
  by_contra hn
  simp [Ideal.cmp, hn] at h2

/-- The conjunction of two one-bit arrays, read at an index. -/
theorem andi_apply {s : Shape} {w : Nat} (x y : IVec s w) (i : s.Idx) : andi x y i = IntOp.andi (x i) (y i) := rfl

/-- The precondition gives the finiteness of the nine arguments the two layers and their normalisations read. -/
theorem finite_of_pre [Cert.Pre_finite_inputs.Facts] (m : (ℓ : Loc nD τ sig) → Buf (Elt Ideal) ℓ)
    (h : Cert.Pre_KernelIdeal m) (c : Dev nD) : (Cert.KernelIdeal.argsK m c).Finite := by
  have h0 := congrFun (h c) ix0
  simp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    andi_apply, IntOp.andi_eq_one] at h0
  obtain ⟨⟨⟨⟨⟨⟨⟨⟨⟨⟨⟨⟨⟨⟨⟨⟨⟨⟨e0, e3⟩, e4⟩, e5⟩, e6⟩, e7⟩, e8⟩, e9⟩, e10⟩, _⟩, _⟩, _⟩, _⟩, _⟩, _⟩, _⟩, _⟩, _⟩, _⟩ := h0
  exact
    { x := fun n k => isR_of_all _ _ _ _ e0 (ix2 n k)
      W1 := fun k j => isR_of_all _ _ _ _ e3 (ix2 k j)
      b1 := fun j => isR_of_all _ _ _ _ e4 (ix1 j)
      W2 := fun k j => isR_of_all _ _ _ _ e5 (ix2 k j)
      b2 := fun j => isR_of_all _ _ _ _ e6 (ix1 j)
      gamma1 := fun j => isR_of_all _ _ _ _ e7 (ix1 j)
      beta1 := fun j => isR_of_all _ _ _ _ e8 (ix1 j)
      gamma2 := fun j => isR_of_all _ _ _ _ e9 (ix1 j)
      beta2 := fun j => isR_of_all _ _ _ _ e10 (ix1 j) }

end Cert.KernelIdeal.KVal

end
-- ==== Proof.Tiles.lean ====
import proofs.«412438_j20864951124557_2_alg».proof.Proof.Spec

/-!
# Twenty tiles of five thousand rows are the hundred thousand rows

A sum over the two cores, the ten tiles of each and the five thousand rows of a tile is the sum over all rows.
-/

noncomputable section

namespace Cert.Spec

/-- The row index as core, tile and row inside the tile: `(c, k, r) ↦ (10 c + k) · 5000 + r`, with inverse
    `n ↦ (n / 50000, (n / 5000) mod 10, n mod 5000)`. -/
def tileEquiv : Fin 2 × Fin 10 × Fin 5000 ≃ Fin NN where
  toFun x := rowOf x.1 x.2.1 x.2.2
  invFun n :=
    (⟨n.val / 50000, by have h : n.val < 100000 := n.isLt; omega⟩,
     ⟨(n.val / 5000) % 10, by omega⟩,
     ⟨n.val % 5000, by omega⟩)
  left_inv := by
    rintro ⟨c, k, r⟩
    have hc := c.isLt; have hk := k.isLt; have hr := r.isLt
    refine Prod.ext (Fin.ext ?_) (Prod.ext (Fin.ext ?_) (Fin.ext ?_))
    · show ((c.val * 10 + k.val) * 5000 + r.val) / 50000 = c.val
      omega
    · show (((c.val * 10 + k.val) * 5000 + r.val) / 5000) % 10 = k.val
      omega
    · show ((c.val * 10 + k.val) * 5000 + r.val) % 5000 = r.val
      omega
  right_inv := by
    intro n
    have h : n.val < 100000 := n.isLt
    refine Fin.ext ?_
    show (n.val / 50000 * 10 + (n.val / 5000) % 10) * 5000 + n.val % 5000 = n.val
    omega

/-- Summing over core, tile and row inside the tile visits every row once. -/
theorem sum_tiles {M : Type} [AddCommMonoid M] (f : Fin NN → M) :
    ∑ c : Fin 2, ∑ k : Fin 10, ∑ r : Fin 5000, f (rowOf c k r) = ∑ n : Fin NN, f n := by
  rw [← Equiv.sum_comp tileEquiv f, Fintype.sum_prod_type]
  refine Finset.sum_congr rfl fun c _ => ?_
  rw [Fintype.sum_prod_type]
  rfl

end Cert.Spec

end
-- ==== Proof.LibScaleSum.lean ====
/-
  A nonnegative real factor and a finite sum on the extended reals.

  The extended reals' product does not distribute over the sum in general (the sum of `⊤` and `⊥` is `⊥`), but it
  does for a factor that is a nonnegative real. So such a factor moves out of a finite sum, and a sum of products
  whose left factors were all scaled by it is the sum of the unscaled products, scaled.
-/
import Mathlib.Data.EReal.Operations
import Mathlib.Data.EReal.Inv
import Mathlib.Algebra.BigOperators.Group.Finset.Basic
import Mathlib.Data.Fintype.Basic
import Mathlib.Data.Fintype.BigOperators

namespace Cert.Lib

open scoped BigOperators

/-- A factor `s` with `0 ≤ s` and `s ≠ ⊤` moves out of a finite sum of extended reals: by induction on the index
    set, each step by the distributive law that holds for such a factor. -/
theorem sum_mul_of_nonneg_of_ne_top {ι : Type} (t : Finset ι) (f : ι → EReal) {s : EReal} (h0 : 0 ≤ s) (ht : s ≠ ⊤) :
    (∑ k ∈ t, f k) * s = ∑ k ∈ t, f k * s := by
  classical
  induction t using Finset.induction_on with
  | empty => simp
  | insert a t ha ih =>
    rw [Finset.sum_insert ha, Finset.sum_insert ha, EReal.right_distrib_of_nonneg_of_ne_top h0 ht, ih]

/-- Scaling every left factor of a sum of products over `Fin K` by a nonnegative real `s` scales the sum:
    `(a k * s) * w k = (a k * w k) * s` termwise, and `s` moves out of the sum. -/
theorem sum_scaled_mul_eq {K : ℕ} (a w : Fin K → EReal) {s : EReal} (h0 : 0 ≤ s) (ht : s ≠ ⊤) :
    ∑ k : Fin K, (a k * s) * w k = (∑ k : Fin K, a k * w k) * s := by
  rw [sum_mul_of_nonneg_of_ne_top Finset.univ _ h0 ht]
  exact Finset.sum_congr rfl fun k _ => mul_right_comm (a k) s (w k)

end Cert.Lib
-- ==== Proof.Math1.lean ====
import proofs.«412438_j20864951124557_2_alg».proof.Proof.Spec
import proofs.«412438_j20864951124557_2_alg».proof.Proof.Tiles
import proofs.«412438_j20864951124557_2_alg».proof.Proof.LibScaleSum
import Idealize.ShloMosaic.Lib.Affine

/-!
# The graph convolution and the pooling: the tiled form is the plain form

No finiteness is needed here: the degree factors are positive reals, and a nonnegative real factor moves out of a
finite sum of extended reals.
-/

noncomputable section

namespace Cert.Spec

open Idealize.ShloMosaic

/-- The float words for zero and one. -/
theorem c0_eq : c0 = 0 := by
  simp [c0, Ideal.ofBits, Ideal.ieee]
theorem c1_eq : c1 = 1 := by
  simp [c1, Ideal.ofBits, Ideal.ieee, -EReal.coe_mul]; norm_num

/-! ## Index words -/

/-- A number below `2 ^ 31`, as a 32-bit word read signed, is itself. -/
theorem toInt_ofNat32 {k : ℕ} (hk : k < 2 ^ 31) : (BitVec.ofNat 32 k).toInt = (k : Int) := by
  have hn : (BitVec.ofNat 32 k).toNat = k := by
    rw [BitVec.toNat_ofNat]; exact Nat.mod_eq_of_lt (by omega)
  rw [BitVec.toInt_eq_toNat_cond, hn]
  split <;> omega

theorem toInt_ofNat_node (k : Fin NN) : (BitVec.ofNat 32 k.val).toInt = (k.val : Int) :=
  toInt_ofNat32 (by have hi : k.val < 100000 := k.isLt; omega)

/-- A word that is not negative, read signed, is left alone by the normalisation: the signed comparison with zero
    fails, so the second branch is taken. -/
theorem nrm_of_nonneg {b : BitVec 32} (h : 0 ≤ b.toInt) : nrm b = b := by
  have hc : ¬ IntOp.cmpi .slt b 0#32 = 1#1 := by
    rw [IntOp.cmpi_slt, BitVec.toInt_zero]; omega
  exact if_neg hc

/-- A word whose signed reading is the node `i` gathers row `i`: it is not negative, and it is below the number of
    nodes, so the clamp does nothing. -/
theorem gix_eq {b : BitVec 32} {i : Fin NN} (h : b.toInt = (i.val : Int)) : gix b = i := by
  have h0 : 0 ≤ b.toInt := by rw [h]; exact Int.natCast_nonneg _
  apply Fin.ext
  show min (nrm b).toInt.toNat (NN - 1) = i.val
  rw [nrm_of_nonneg h0, h, Int.toNat_natCast]
  have hi : i.val < 100000 := i.isLt
  exact Nat.min_eq_left (by show i.val ≤ 100000 - 1; omega)

theorem gix_ofNat (k : Fin NN) : gix (BitVec.ofNat 32 k.val) = k :=
  gix_eq (toInt_ofNat_node k)

/-! ## The extended edge list: the first `EE` entries are the edges, the last `NN` the loops -/

theorem dR_castAdd (a : Args) (e : Fin EE) : dR a (Fin.castAdd NN e) = a.dst e := by
  unfold dR
  rw [dif_pos (show (Fin.castAdd NN e).val < EE from e.isLt)]
  rfl
theorem sR_castAdd (a : Args) (e : Fin EE) : sR a (Fin.castAdd NN e) = a.src e := by
  unfold sR
  rw [dif_pos (show (Fin.castAdd NN e).val < EE from e.isLt)]
  rfl
theorem dR_natAdd (a : Args) (k : Fin NN) : dR a (Fin.natAdd EE k) = BitVec.ofNat 32 k.val := by
  unfold dR
  rw [dif_neg (show ¬ (Fin.natAdd EE k).val < EE from Nat.not_lt.mpr (Nat.le_add_right EE k.val))]
  show BitVec.ofNat 32 (EE + k.val - EE) = _
  rw [Nat.add_sub_cancel_left]
theorem sR_natAdd (a : Args) (k : Fin NN) : sR a (Fin.natAdd EE k) = BitVec.ofNat 32 k.val := by
  unfold sR
  rw [dif_neg (show ¬ (Fin.natAdd EE k).val < EE from Nat.not_lt.mpr (Nat.le_add_right EE k.val))]
  show BitVec.ofNat 32 (EE + k.val - EE) = _
  rw [Nat.add_sub_cancel_left]

/-- Among the loops, the one that ends at node `i` is the loop of `i`. -/
theorem loop_cond (i k : Fin NN) : ((BitVec.ofNat 32 k.val).toInt = (i.val : Int)) = (k = i) := by
  rw [toInt_ofNat_node]
  exact propext ⟨fun h => Fin.ext (by exact_mod_cast h), fun h => by rw [h]⟩

/-! ## The degrees -/

/-- Appending the self loops adds one to every node's in-degree. -/
theorem deg_eq (a : Args) (i : Fin NN) : degK a i = degR a i := by
  unfold degK degR
  rw [Fin.sum_univ_add]
  simp only [dR_castAdd, dR_natAdd, loop_cond]
  rw [Finset.sum_ite_eq' Finset.univ i (fun _ => c1), if_pos (Finset.mem_univ i), add_assoc]

theorem dinv_eq (a : Args) (i : Fin NN) : dinvK a i = dinvR a i := by
  unfold dinvK dinvR
  rw [deg_eq]

/-- A finite sum of nonnegative reals is a nonnegative real. -/
theorem sum_nonneg_real {ι : Type} (t : Finset ι) (f : ι → EReal)
    (h : ∀ k ∈ t, ∃ r : ℝ, 0 ≤ r ∧ f k = (r : EReal)) : ∃ r : ℝ, 0 ≤ r ∧ ∑ k ∈ t, f k = (r : EReal) := by
  classical
  induction t using Finset.induction_on with
  | empty => exact ⟨0, le_refl _, by simp⟩
  | insert x t hx ih =>
    obtain ⟨r, hr, hfr⟩ := h x (Finset.mem_insert_self x t)
    obtain ⟨q, hq, hfq⟩ := ih (fun k hk => h k (Finset.mem_insert_of_mem hk))
    exact ⟨r + q, add_nonneg hr hq, by rw [Finset.sum_insert hx, hfr, hfq, EReal.coe_add]⟩

/-- The degree is a real number, at least one: every summand is one or zero, and the loop adds one. -/
theorem degK_real (a : Args) (i : Fin NN) : ∃ r : ℝ, 1 ≤ r ∧ degK a i = (r : EReal) := by
  obtain ⟨q, hq, hs⟩ := sum_nonneg_real Finset.univ
    (fun e : Fin EE => if (a.dst e).toInt = (i.val : Int) then c1 else (0 : EReal))
    (fun e _ => by
      by_cases h : (a.dst e).toInt = (i.val : Int)
      · exact ⟨1, zero_le_one, by rw [if_pos h, c1_eq, EReal.coe_one]⟩
      · exact ⟨0, le_refl _, by rw [if_neg h, EReal.coe_zero]⟩)
  have hs' : (∑ e : Fin EE, if (a.dst e).toInt = (i.val : Int) then c1 else (0 : EReal)) = (q : EReal) := hs
  refine ⟨q + 1, by linarith, ?_⟩
  unfold degK
  rw [hs', c0_eq, c1_eq, zero_add, EReal.coe_add, EReal.coe_one]

/-- The degree factor is a nonnegative real: the inverse square root of a real that is at least one. -/
theorem dinvK_real (a : Args) (i : Fin NN) : ∃ d : ℝ, 0 ≤ d ∧ dinvK a i = (d : EReal) := by
  obtain ⟨r, hr, hd⟩ := degK_real a i
  refine ⟨(Real.sqrt r)⁻¹, inv_nonneg.mpr (Real.sqrt_nonneg r), ?_⟩
  unfold dinvK
  rw [hd, Ideal.rsqrt_coe, if_neg (not_lt.mpr (by linarith : (0 : ℝ) ≤ r)),
    if_neg (ne_of_gt (by linarith : (0 : ℝ) < r))]

/-- The degree factor is a positive real: the degree is at least one. -/
theorem dinvK_nonneg (a : Args) (i : Fin NN) : 0 ≤ dinvK a i := by
  obtain ⟨d, hd, h⟩ := dinvK_real a i
  rw [h]; exact EReal.coe_nonneg.mpr hd
theorem dinvK_ne_top (a : Args) (i : Fin NN) : dinvK a i ≠ ⊤ := by
  obtain ⟨d, _, h⟩ := dinvK_real a i
  rw [h]; exact EReal.coe_ne_top d
theorem dinvK_isR (a : Args) (i : Fin NN) : IsR (dinvK a i) := by
  obtain ⟨d, _, h⟩ := dinvK_real a i
  exact ⟨d, h⟩

/-! ## One layer -/

/-- One layer: scaling by the source's factor before the gather and by the destination's after the sum, with the
    self loop as a separate term, is the sum over the extended edge list of the messages scaled by both factors.

    The sum over the extended list splits into the edges and the loops. The loops that end at `i` are the one loop
    of `i`, whose message is `P i · (d i · d i)`. An edge that ends at `i` carries `P s · (d s · d i)`, which is
    `(P s · d s) · d i`; the factor `d i`, a nonnegative real, moves out of the sum over the edges and distributes
    over the sum with the loop's term. -/
theorem act_eq (a : Args) (P : Fin NN → Fin 64 → EReal) (b : Fin 64 → EReal) (i : Fin NN) (j : Fin 64) :
    actK a P b i j = actR a P b i j := by
  have hd0 := dinvK_nonneg a i
  have hdt := dinvK_ne_top a i
  unfold actK actR aggK
  refine congrArg (fun t => max (t + b j) c0) ?_
  rw [Fin.sum_univ_add]
  simp only [dR_castAdd, sR_castAdd, dR_natAdd, sR_natAdd, loop_cond, gix_ofNat, ← dinv_eq]
  rw [Finset.sum_ite_eq' Finset.univ i (fun k => P k j * (dinvK a k * dinvK a k)), if_pos (Finset.mem_univ i)]
  have hedge : ∀ e : Fin EE,
      (if (a.dst e).toInt = (i.val : Int)
        then P (gix (a.src e)) j * (dinvK a (gix (a.src e)) * dinvK a (gix (a.dst e))) else 0)
      = (if (a.dst e).toInt = (i.val : Int) then P (gix (a.src e)) j * dinvK a (gix (a.src e)) else 0)
          * dinvK a i := by
    intro e
    by_cases h : (a.dst e).toInt = (i.val : Int)
    · rw [if_pos h, if_pos h, gix_eq h, mul_assoc]
    · rw [if_neg h, if_neg h, zero_mul]
  rw [Finset.sum_congr rfl (fun e _ => hedge e), ← Cert.Lib.sum_mul_of_nonneg_of_ne_top Finset.univ _ hd0 hdt]
  rw [c0_eq, zero_add, zero_add, EReal.right_distrib_of_nonneg_of_ne_top hd0 hdt, mul_assoc]

/-! ## The pooling -/

/-- The pooling: the one-hot product summed tile by tile is the scatter sum over the rows of each graph.

    The tiles cover every row once; a one-hot entry times a value is the value where the label is the graph and zero
    elsewhere; and a label word is the word of `g < 64` exactly when its signed reading is `g`. -/
theorem pool_eq (a : Args) (B : Fin NN → Fin 64 → EReal) (g j : Fin 64) :
    (c0 + ∑ c : Fin 2, ∑ k : Fin 10, ∑ r : Fin 5000, ohS a (rowOf c k r) g * B (rowOf c k r) j)
      = c0 + ∑ n : Fin NN, if (a.batch n).toInt = (g.val : Int) then B n j else 0 := by
  rw [show (∑ c : Fin 2, ∑ k : Fin 10, ∑ r : Fin 5000, ohS a (rowOf c k r) g * B (rowOf c k r) j)
      = ∑ n : Fin NN, ohS a n g * B n j from sum_tiles (fun n => ohS a n g * B n j)]
  refine congrArg (fun t => c0 + t) ?_
  refine Finset.sum_congr rfl fun n _ => ?_
  unfold ohS
  have hg : (BitVec.ofNat 32 g.val).toInt = (g.val : Int) :=
    toInt_ofNat32 (by have hlt := g.isLt; omega)
  by_cases h : a.batch n = BitVec.ofNat 32 g.val
  · rw [if_pos h, if_pos (by rw [h, hg]), one_mul]
  · rw [if_neg h, if_neg (fun h' => h (BitVec.toInt_inj.mp (by rw [h', hg]))), zero_mul]

end Cert.Spec

end
-- ==== Proof.Math2.lean ====
import proofs.«412438_j20864951124557_2_alg».proof.Proof.Spec
import proofs.«412438_j20864951124557_2_alg».proof.Proof.Tiles
import proofs.«412438_j20864951124557_2_alg».proof.Proof.Math1

/-!
# Batch normalisation's statistics, finiteness, and the two forms' equality

On real columns the mean of squares less the squared mean is the mean of the squared deviations, which is not
negative, so capping it below at zero changes nothing. Every activation is a real number when the float arguments are.
-/

noncomputable section

namespace Cert.Spec

open Idealize.ShloMosaic

/-- The float words: the number of nodes, and a positive real epsilon. -/
theorem cN_eq : cN = ((100000 : ℝ) : EReal) := by
  simp [Ideal.ofBits, Ideal.ieee, -EReal.coe_mul]; norm_num
theorem ceps_pos : ∃ r : ℝ, 0 < r ∧ ceps = (r : EReal) := by
  refine ⟨(2 ^ 23 + 2606508 : ℕ) * (2 : ℝ) ^ (-40 : ℤ), by positivity, ?_⟩
  simp [Ideal.ofBits, Ideal.ieee, -EReal.coe_mul]

/-- The column mean taken tile by tile is the column mean. -/
theorem mu_eq (h : Fin NN → Fin 64 → EReal) (j : Fin 64) : muK h j = muR h j := by
  unfold muK muR sumPartK
  rw [sum_tiles (fun n => h n j)]

/-! ## Real numbers inside the extended reals -/

namespace Math2

/-- A finite sum of real numbers, read in the extended reals, is the sum of the readings. -/
theorem coe_sum {ι : Type} (s : Finset ι) (f : ι → ℝ) :
    ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- The larger of two real numbers, read in the extended reals, is the larger of the readings. -/
theorem coe_max (x y : ℝ) : ((max x y : ℝ) : EReal) = max (x : EReal) (y : EReal) :=
  EReal.coe_strictMono.monotone.map_max

/-- The real numbers are closed under the operations the two forms use. -/
theorem isR_coe (r : ℝ) : IsR (r : EReal) := ⟨r, rfl⟩
theorem isR_zero : IsR 0 := ⟨0, rfl⟩
theorem isR_c0 : IsR c0 := by rw [c0_eq]; exact isR_zero
theorem isR_c1 : IsR c1 := by rw [c1_eq]; exact ⟨1, rfl⟩
theorem isR_add {u v : EReal} (hu : IsR u) (hv : IsR v) : IsR (u + v) := by
  obtain ⟨x, rfl⟩ := hu; obtain ⟨y, rfl⟩ := hv; exact ⟨x + y, (EReal.coe_add x y).symm⟩
theorem isR_mul {u v : EReal} (hu : IsR u) (hv : IsR v) : IsR (u * v) := by
  obtain ⟨x, rfl⟩ := hu; obtain ⟨y, rfl⟩ := hv; exact ⟨x * y, (EReal.coe_mul x y).symm⟩
theorem isR_sub {u v : EReal} (hu : IsR u) (hv : IsR v) : IsR (u - v) := by
  obtain ⟨x, rfl⟩ := hu; obtain ⟨y, rfl⟩ := hv; exact ⟨x - y, (EReal.coe_sub x y).symm⟩
theorem isR_max {u v : EReal} (hu : IsR u) (hv : IsR v) : IsR (max u v) := by
  obtain ⟨x, rfl⟩ := hu; obtain ⟨y, rfl⟩ := hv; exact ⟨max x y, (coe_max x y).symm⟩
theorem isR_sum {ι : Type} (s : Finset ι) (f : ι → EReal) (hf : ∀ i, IsR (f i)) : IsR (∑ i ∈ s, f i) := by
  choose x hx using hf
  exact ⟨∑ i ∈ s, x i, by rw [coe_sum]; exact Finset.sum_congr rfl fun i _ => hx i⟩
theorem isR_ite {p : Prop} [Decidable p] {u v : EReal} (hu : IsR u) (hv : IsR v) : IsR (if p then u else v) := by
  split <;> assumption

/-- Division by the number of nodes is the product with its reciprocal. -/
theorem div_cN (u : EReal) : Ideal.div u cN = u * ((1 / 100000 : ℝ) : EReal) := by
  rw [cN_eq, Ideal.div_coe (by norm_num)]

theorem isR_div_cN {u : EReal} (hu : IsR u) : IsR (Ideal.div u cN) := by
  rw [div_cN]; exact isR_mul hu (isR_coe _)

/-- The reciprocal square root of a positive real is real. -/
theorem isR_rsqrt_pos {r : ℝ} (hr : 0 < r) : IsR (Ideal.rsqrt (r : EReal)) := by
  rw [Ideal.rsqrt_coe, if_neg (not_lt.mpr hr.le), if_neg hr.ne']
  exact isR_coe _

/-! ## The variance -/

/-- Over the reals, with `c` the reciprocal of the number of terms: the mean of the squares less the squared mean
    is the mean of the squared deviations from the mean. Expanding the square under the sum gives
    `∑ x² - 2 m ∑ x + (card) m²` with `m = c ∑ x`, and `card * c = 1`. -/
theorem var_real {ι : Type} [Fintype ι] (x : ι → ℝ) (c : ℝ) (hc : (Fintype.card ι : ℝ) * c = 1) :
    (∑ n, x n * x n) * c - ((∑ n, x n) * c) * ((∑ n, x n) * c)
      = (∑ n, (x n - (∑ n, x n) * c) * (x n - (∑ n, x n) * c)) * c := by
  generalize hS : (∑ n, x n) = S
  have e : ∀ n, (x n - S * c) * (x n - S * c) = x n * x n - 2 * (S * c) * x n + (S * c) * (S * c) := fun n => by ring
  simp_rw [e]
  rw [Finset.sum_add_distrib, Finset.sum_sub_distrib, ← Finset.mul_sum, Finset.sum_const, Finset.card_univ,
    nsmul_eq_mul, hS]
  linear_combination (-(S * c) * (S * c)) * hc

/-- The same on the extended reals, for a column of real numbers: every term is the reading of a real number, the
    two-pass form is not negative, so the cap below at zero leaves the one-pass form as it is. -/
theorem var_ereal {ι : Type} [Fintype ι] (x : ι → ℝ) (c : ℝ) (hc0 : 0 ≤ c) (hc : (Fintype.card ι : ℝ) * c = 1) :
    max ((∑ n, (x n : EReal) * (x n : EReal)) * (c : EReal)
        - ((∑ n, (x n : EReal)) * (c : EReal)) * ((∑ n, (x n : EReal)) * (c : EReal))) 0
      = (∑ n, ((x n : EReal) - (∑ n, (x n : EReal)) * (c : EReal))
          * ((x n : EReal) - (∑ n, (x n : EReal)) * (c : EReal))) * (c : EReal) := by
  have h1 : (∑ n, (x n : EReal)) = ((∑ n, x n : ℝ) : EReal) := (coe_sum _ _).symm
  have h2 : (∑ n, (x n : EReal) * (x n : EReal)) = ((∑ n, x n * x n : ℝ) : EReal) := by
    rw [coe_sum]; exact Finset.sum_congr rfl fun n _ => (EReal.coe_mul _ _).symm
  rw [h1, h2]
  have h3 : ∀ S : ℝ, (∑ n, ((x n : EReal) - (S : EReal) * (c : EReal)) * ((x n : EReal) - (S : EReal) * (c : EReal)))
      = ((∑ n, (x n - S * c) * (x n - S * c) : ℝ) : EReal) := by
    intro S
    rw [coe_sum]; exact Finset.sum_congr rfl fun n _ => by rw [EReal.coe_mul, EReal.coe_sub, EReal.coe_mul]
  rw [h3, ← EReal.coe_mul, ← EReal.coe_mul, ← EReal.coe_mul, ← EReal.coe_mul, ← EReal.coe_sub, var_real x c hc]
  exact max_eq_left (EReal.coe_nonneg.mpr
    (mul_nonneg (Finset.sum_nonneg fun n _ => mul_self_nonneg _) hc0))

/-- The number of nodes times its reciprocal is one. -/
theorem card_mul_inv : (Fintype.card (Fin NN) : ℝ) * (1 / 100000) = 1 := by
  rw [Fintype.card_fin]; norm_num

/-- The squares summed tile by tile are the squares summed over all rows. -/
theorem sq_tiles (h : Fin NN → Fin 64 → EReal) (j : Fin 64) :
    (∑ c : Fin 2, sqPartK h c j) = ∑ n : Fin NN, h n j * h n j := by
  unfold sqPartK
  exact sum_tiles (fun n => h n j * h n j)

end Math2

open Math2

/-- On a real column the capped one-pass variance is the two-pass variance. -/
theorem var_eq (h : Fin NN → Fin 64 → EReal) (hh : ∀ n j, IsR (h n j)) (j : Fin 64) : varK h j = varR h j := by
  choose x hx using fun n => hh n j
  unfold varK varR
  rw [mu_eq, sq_tiles]
  unfold muR
  simp only [hx, div_cN, c0_eq, zero_add]
  exact var_ereal x (1 / 100000) (by norm_num) card_mul_inv

/-- Finiteness through one layer and through the normalisation. -/
theorem isR_proj {K M : ℕ} (X : Fin NN → Fin K → EReal) (W : Fin K → Fin M → EReal) (hX : ∀ n k, IsR (X n k))
    (hW : ∀ k j, IsR (W k j)) (n : Fin NN) (j : Fin M) : IsR (proj X W n j) :=
  isR_sum _ _ fun k => isR_mul (hX n k) (hW k j)
theorem isR_actK (a : Args) (P : Fin NN → Fin 64 → EReal) (b : Fin 64 → EReal) (hP : ∀ n j, IsR (P n j))
    (hb : ∀ j, IsR (b j)) (i : Fin NN) (j : Fin 64) : IsR (actK a P b i j) := by
  unfold actK aggK
  exact isR_max (isR_add (isR_mul (isR_add (isR_add isR_c0 (isR_sum _ _ fun e =>
    isR_ite (isR_mul (hP _ j) (dinvK_isR a _)) isR_zero)) (isR_mul (hP i j) (dinvK_isR a i))) (dinvK_isR a i)) (hb j))
    isR_c0

namespace Math2

/-- The tiled mean of a real column is real. -/
theorem isR_muK (h : Fin NN → Fin 64 → EReal) (hh : ∀ n j, IsR (h n j)) (j : Fin 64) : IsR (muK h j) := by
  rw [mu_eq]
  exact isR_div_cN (isR_add isR_c0 (isR_sum _ _ fun n => hh n j))

/-- The tiled variance of a real column is a real number that is not negative: it is the larger of a real number
    and zero. -/
theorem varK_nonneg_real (h : Fin NN → Fin 64 → EReal) (hh : ∀ n j, IsR (h n j)) (j : Fin 64) :
    ∃ r : ℝ, 0 ≤ r ∧ varK h j = (r : EReal) := by
  obtain ⟨t, ht⟩ : IsR (Ideal.div (c0 + ∑ c : Fin 2, sqPartK h c j) cN - muK h j * muK h j) := by
    rw [sq_tiles]
    exact isR_sub (isR_div_cN (isR_add isR_c0 (isR_sum _ _ fun n => isR_mul (hh n j) (hh n j))))
      (isR_mul (isR_muK h hh j) (isR_muK h hh j))
  refine ⟨max t 0, le_max_right _ _, ?_⟩
  unfold varK
  rw [ht, c0_eq, coe_max, EReal.coe_zero]

end Math2

theorem isR_bnK (h : Fin NN → Fin 64 → EReal) (gamma beta : Fin 64 → EReal) (hh : ∀ n j, IsR (h n j))
    (hg : ∀ j, IsR (gamma j)) (hb : ∀ j, IsR (beta j)) (n : Fin NN) (j : Fin 64) :
    IsR (bn h (muK h) (varK h) gamma beta n j) := by
  obtain ⟨v, hv0, hv⟩ := varK_nonneg_real h hh j
  obtain ⟨ε, hε0, hε⟩ := ceps_pos
  unfold bn
  rw [hv, hε, ← EReal.coe_add]
  exact isR_add (isR_mul (isR_mul (isR_sub (hh n j) (isR_muK h hh j)) (isR_rsqrt_pos (by positivity))) (hg j)) (hb j)

/-! ## The two forms agree, layer by layer -/

namespace Math2

/-- The first activation. -/
theorem h1_eq (a : Args) : h1K a = h1R a := by
  funext i j; exact act_eq a _ _ i j

theorem isR_h1K (a : Args) (ha : a.Finite) (n : Fin NN) (j : Fin 64) : IsR (h1K a n j) :=
  isR_actK a _ _ (isR_proj _ _ ha.x ha.W1) ha.b1 n j

/-- Normalising equal real activations with the tiled statistics or with the plain ones gives the same rows. -/
theorem bn_eq (hK hR : Fin NN → Fin 64 → EReal) (gamma beta : Fin 64 → EReal) (e : hK = hR)
    (hh : ∀ n j, IsR (hK n j)) :
    bn hK (muK hK) (varK hK) gamma beta = bn hR (muR hR) (varR hR) gamma beta := by
  subst e
  have hmu : muK hK = muR hK := funext fun j => mu_eq hK j
  have hvar : varK hK = varR hK := funext fun j => var_eq hK hh j
  rw [hmu, hvar]

theorem bn1_eq (a : Args) (ha : a.Finite) : bn1K a = bn1R a :=
  bn_eq _ _ _ _ (h1_eq a) (isR_h1K a ha)

theorem isR_bn1K (a : Args) (ha : a.Finite) (n : Fin NN) (j : Fin 64) : IsR (bn1K a n j) :=
  isR_bnK _ _ _ (isR_h1K a ha) ha.gamma1 ha.beta1 n j

/-- The second projection and activation. -/
theorem p2_eq (a : Args) (ha : a.Finite) : p2K a = p2R a := by
  unfold p2K p2R; rw [bn1_eq a ha]

theorem h2_eq (a : Args) (ha : a.Finite) : h2K a = h2R a := by
  funext i j
  unfold h2K h2R
  rw [p2_eq a ha]
  exact act_eq a _ _ i j

theorem isR_h2K (a : Args) (ha : a.Finite) (n : Fin NN) (j : Fin 64) : IsR (h2K a n j) :=
  isR_actK a _ _ (isR_proj _ _ (isR_bn1K a ha) ha.W2) ha.b2 n j

theorem bn2_eq (a : Args) (ha : a.Finite) : bn2K a = bn2R a :=
  bn_eq _ _ _ _ (h2_eq a ha) (isR_h2K a ha)

/-- The pooled sums: the one-hot product tile by tile is the scatter sum, over equal rows. -/
theorem pool_spec_eq (a : Args) (ha : a.Finite) : poolK a = poolR a := by
  funext g j
  unfold poolK poolR poolPartK
  rw [pool_eq a (bn2K a) g j, bn2_eq a ha]

end Math2

/-- THE TWO FORMS AGREE on finite float arguments. -/
theorem spec_eq (a : Args) (ha : a.Finite) (g : Fin 64) : KSpec a g = RSpec a g := by
  unfold KSpec RSpec
  rw [pool_spec_eq a ha]

end Cert.Spec

end
-- ==== Proof.RArgs.lean ====
import proofs.«412438_j20864951124557_2_alg».proof.ReferenceIdeal
import proofs.«412438_j20864951124557_2_alg».proof.Proof.Spec

/-! The arguments of the program's run, read off the launch memory coordinate by coordinate. -/

noncomputable section

namespace Cert.ReferenceIdeal

open Idealize.ShloMosaic Idealize.ShloMosaic.TcCoe Idealize.ShloMosaic.ValueIdx Idealize.SL.Sem

/-- The argument arrays on core `c` as functions of their coordinates. -/
def argsR (m : (ℓ : Loc nD τ sig) → Buf (Elt Ideal) ℓ) (c : Dev nD) : Cert.Spec.Args where
  x := fun n k => (m ((c.tc : Thread nD τ).loc main_arg0) : S100000x128.Idx → EReal) (ix2 n k)
  src := fun e => (m ((c.tc : Thread nD τ).loc main_arg1) : S2x1600000.Idx → BitVec 32) (ix2 (0 : Fin 2) e)
  dst := fun e => (m ((c.tc : Thread nD τ).loc main_arg1) : S2x1600000.Idx → BitVec 32) (ix2 (1 : Fin 2) e)
  batch := fun n => (m ((c.tc : Thread nD τ).loc main_arg2) : S100000.Idx → BitVec 32) (ix1 n)
  W1 := fun k j => (m ((c.tc : Thread nD τ).loc main_arg3) : S128x64.Idx → EReal) (ix2 k j)
  b1 := fun j => (m ((c.tc : Thread nD τ).loc main_arg4) : S64.Idx → EReal) (ix1 j)
  W2 := fun k j => (m ((c.tc : Thread nD τ).loc main_arg5) : S64x64.Idx → EReal) (ix2 k j)
  b2 := fun j => (m ((c.tc : Thread nD τ).loc main_arg6) : S64.Idx → EReal) (ix1 j)
  gamma1 := fun j => (m ((c.tc : Thread nD τ).loc main_arg7) : S64.Idx → EReal) (ix1 j)
  beta1 := fun j => (m ((c.tc : Thread nD τ).loc main_arg8) : S64.Idx → EReal) (ix1 j)
  gamma2 := fun j => (m ((c.tc : Thread nD τ).loc main_arg9) : S64.Idx → EReal) (ix1 j)
  beta2 := fun j => (m ((c.tc : Thread nD τ).loc main_arg10) : S64.Idx → EReal) (ix1 j)
  fW1 := fun k j => (m ((c.tc : Thread nD τ).loc main_arg11) : S64x128.Idx → EReal) (ix2 k j)
  fb1 := fun j => (m ((c.tc : Thread nD τ).loc main_arg12) : S128.Idx → EReal) (ix1 j)
  fW2 := fun k j => (m ((c.tc : Thread nD τ).loc main_arg13) : S128x64.Idx → EReal) (ix2 k j)
  fb2 := fun j => (m ((c.tc : Thread nD τ).loc main_arg14) : S64.Idx → EReal) (ix1 j)
  fW3 := fun k j => (m ((c.tc : Thread nD τ).loc main_arg15) : S64x32.Idx → EReal) (ix2 k j)
  fb3 := fun j => (m ((c.tc : Thread nD τ).loc main_arg16) : S32.Idx → EReal) (ix1 j)
  fW4 := fun k j => (m ((c.tc : Thread nD τ).loc main_arg17) : S32x16.Idx → EReal) (ix2 k j)
  fb4 := fun j => (m ((c.tc : Thread nD τ).loc main_arg18) : S16.Idx → EReal) (ix1 j)
  oW := fun k j => (m ((c.tc : Thread nD τ).loc main_arg19) : S16x1.Idx → EReal) (ix2 k j)
  ob := fun j => (m ((c.tc : Thread nD τ).loc main_arg20) : S1.Idx → EReal) (ix1 j)

end Cert.ReferenceIdeal

end
-- ==== Proof.RValA.lean ====
import proofs.«412438_j20864951124557_2_alg».proof.Proof.Gen.ReferenceIdeal.Read
import proofs.«412438_j20864951124557_2_alg».proof.Proof.Spec
import proofs.«412438_j20864951124557_2_alg».proof.Proof.RArgs
import proofs.«412438_j20864951124557_2_alg».proof.Proof.LibGather2
import proofs.«412438_j20864951124557_2_alg».proof.Proof.LibScatterRows
import proofs.«412438_j20864951124557_2_alg».proof.Proof.LibScatterHost
import Idealize.ShloMosaic.Lib.Pipeline.Value
import Idealize.ShloMosaic.Lib.ValueIdx
import Idealize.ShloMosaic.PureOps.Ideal.Laws

/-!
# The two graph-convolution layers of the plain program, read at an index

Each layer projects the rows, appends one self loop per node to the edge list, counts the entries of the extended
list arriving at each node, takes the reciprocal square root of that count, and sums at each destination the
projected row of the source scaled by the two factors of the entry's ends; the bias is added and the positive part
taken. Both layers are the same function of the projected rows, the edge list and the bias.
-/

noncomputable section

namespace Cert.ReferenceIdeal.RVal

open Cert.ReferenceIdeal Cert.ReferenceIdeal.Read Idealize.ShloMosaic Idealize.ShloMosaic.TcCoe Idealize.ShloMosaic.ValueIdx Idealize.SL.Sem Idealize.ShloMosaic.StableHlo

/-! ## A vector gathered at a column of start indices -/

/-- Entries of an [N] table at a column [P, 1] of start indices: result `p` is the table at the start index read
    signed and clamped into the table. -/
theorem gather_vec_apply {α : Type} {N P w : Nat} (hN : 0 < N)
    (d : GatherDims ⟨1, ![N]⟩ ⟨2, ![P, 1]⟩ ⟨1, ![P]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![P, 1]⟩ w) (p : Fin P) :
    Host.gather d x idx (ix1 p)
      = x (ix1 (⟨min (idx (ix2 p (0 : Fin 1))).toInt.toNat (N - 1), by omega⟩ : Fin N)) := by
  unfold Host.gather
  congr 1
  funext a
  apply Fin.ext
  have hb : ∀ a : Fin 1, a ∉ d.operandBatchingDims := fun a => by rw [hob]; exact List.not_mem_nil
  match a with
  | ⟨0, _⟩ =>
    -- the one axis: collapsed (offset coordinate 0), start-indexed, slice size 1
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show d.start (ix1 p) idx 0 + d.batchCoord (ix1 p) 0 + d.offCoord (ix1 p) 0 = min _ (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix2 p (0 : Fin 1))).toInt.toNat (N - 1)
    rw [hsl]
    -- the start index is read at (p, 0)
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 1, X ∈ d.batchDims → ((ix1 p : (⟨1, ![P]⟩ : Shape).Idx) X).val = p.val := fun X _ => by
        match X with
        | ⟨0, _⟩ => rfl
      exact e _ (List.getElem_mem _)
    | ⟨1, _⟩ =>
      unfold GatherDims.siIdx
      rw [dif_pos (by rw [hivd])]
      apply Fin.ext
      show List.idxOf (0 : Fin 1) d.startIndexMap = 0
      rw [hsim]; simp

/-! ## The edge list with the self loops appended -/

section Edges

variable (a : Cert.Spec.Args) (x1 : (⟨S2x1600000, .i32⟩ : BufTy).Contents (Elt Ideal))

theorem idx_src (e : Fin 1600000) : idx_main_v0 (idx_main_v1 (ix1 e)) = ix2 (0 : Fin 2) e :=
  funext fun b => Fin.ext (by
    match b with
    | ⟨0, _⟩ => rfl
    | ⟨1, _⟩ => exact Nat.mod_eq_of_lt e.isLt)

theorem idx_dst (e : Fin 1600000) : idx_main_v2 (idx_main_v3 (ix1 e)) = ix2 (1 : Fin 2) e :=
  funext fun b => Fin.ext (by
    match b with
    | ⟨0, _⟩ => rfl
    | ⟨1, _⟩ => exact Nat.mod_eq_of_lt e.isLt)

/-- The concatenated sources: an edge's source below 1,600,000, then the node's own number. -/
theorem v6_apply (hs : ∀ e : Fin 1600000, a.src e = x1 (ix2 (0 : Fin 2) e)) (e : Fin 1700000) :
    (val_main_v6 (F := Ideal) x1 : S1700000.Idx → BitVec 32) (ix1 e) = Cert.Spec.sR a e := by
  unfold Cert.Spec.sR val_main_v6
  split
  · rename_i h
    rw [concatenate_pair_apply_left (t := S1700000) (s₁ := S1600000) (s₂ := S100000) (0 : Fin 1) _ _ _ (ix1 e) rfl (ix1 (⟨e.val, h⟩ : Fin 1600000))
      (fun b => by match b with | ⟨0, _⟩ => rfl)]
    rw [val_main_v1_apply, val_main_v0_apply, idx_src, hs]
  · rename_i h
    have h2 : e.val - 1600000 < 100000 := by have := e.isLt; omega
    rw [concatenate_pair_apply_right (t := S1700000) (s₁ := S1600000) (s₂ := S100000) (0 : Fin 1) _ _ _ (ix1 e) rfl rfl (ix1 (⟨e.val - 1600000, h2⟩ : Fin 100000))
      (fun b hb => absurd (Fin.ext (by have hb1 : b.val < 1 := b.isLt; show b.val = 0; omega)) hb)
      (by show e.val - 1600000 + 1600000 = e.val; have : ¬ e.val < 1600000 := h; omega)]
    rfl

/-- The concatenated destinations. -/
theorem v7_apply (hd : ∀ e : Fin 1600000, a.dst e = x1 (ix2 (1 : Fin 2) e)) (e : Fin 1700000) :
    (val_main_v7 (F := Ideal) x1 : S1700000.Idx → BitVec 32) (ix1 e) = Cert.Spec.dR a e := by
  unfold Cert.Spec.dR val_main_v7
  split
  · rename_i h
    rw [concatenate_pair_apply_left (t := S1700000) (s₁ := S1600000) (s₂ := S100000) (0 : Fin 1) _ _ _ (ix1 e) rfl (ix1 (⟨e.val, h⟩ : Fin 1600000))
      (fun b => by match b with | ⟨0, _⟩ => rfl)]
    rw [val_main_v3_apply, val_main_v2_apply, idx_dst, hd]
  · rename_i h
    have h2 : e.val - 1600000 < 100000 := by have := e.isLt; omega
    rw [concatenate_pair_apply_right (t := S1700000) (s₁ := S1600000) (s₂ := S100000) (0 : Fin 1) _ _ _ (ix1 e) rfl rfl (ix1 (⟨e.val - 1600000, h2⟩ : Fin 100000))
      (fun b hb => absurd (Fin.ext (by have hb1 : b.val < 1 := b.isLt; show b.val = 0; omega)) hb)
      (by show e.val - 1600000 + 1600000 = e.val; have : ¬ e.val < 1600000 := h; omega)]
    rfl

/-- The normalised sources, as each of the two gathers that use them spells them. -/
theorem v17_apply (i : S1700000.Idx) :
    (val_main_v17 (F := Ideal) x1 : S1700000.Idx → BitVec 32) i = Cert.Spec.nrm (val_main_v6 (F := Ideal) x1 i) := by
  rw [val_main_v17_apply, val_main_v14_apply, val_main_v16_apply, val_main_v13_apply, val_main_v15_apply,
    val_main_c_apply, val_main_c_1_apply]
  rfl

theorem v32_apply (i : S1700000.Idx) :
    (val_main_v32 (F := Ideal) x1 : S1700000.Idx → BitVec 32) i = Cert.Spec.nrm (val_main_v6 (F := Ideal) x1 i) := by
  rw [val_main_v32_apply, val_main_v29_apply, val_main_v31_apply, val_main_v28_apply, val_main_v30_apply,
    val_main_c_4_apply, val_main_c_5_apply]
  rfl

/-- The normalised destinations. -/
theorem v24_apply (i : S1700000.Idx) :
    (val_main_v24 (F := Ideal) x1 : S1700000.Idx → BitVec 32) i = Cert.Spec.nrm (val_main_v7 (F := Ideal) x1 i) := by
  rw [val_main_v24_apply, val_main_v21_apply, val_main_v23_apply, val_main_v20_apply, val_main_v22_apply,
    val_main_c_2_apply, val_main_c_3_apply]
  rfl

end Edges

/-! ## The program's gathers and scatters at an index -/

/-- The scatter sum of entries as the program spells it, at an index. -/
theorem vscat_apply (x : (⟨S100000, .f32⟩ : BufTy).Contents (Elt Ideal)) (idx : (⟨S1700000x1, .i32⟩ : BufTy).Contents (Elt Ideal))
    (upd : (⟨S1700000, .f32⟩ : BufTy).Contents (Elt Ideal)) (i : Fin 100000) :
    (Host.scatterAdd (F := Ideal) (φ := .f32) scatter_S100000_S1700000x1_S1700000_n_0_0_1 x idx upd : S100000.Idx → EReal) (ix1 i)
      = (x : S100000.Idx → EReal) (ix1 i) + ∑ e : Fin 1700000, if ((idx : S1700000x1.Idx → BitVec 32) (ix2 e (0 : Fin 1))).toInt = (i.val : Int) then (upd : S1700000.Idx → EReal) (ix1 e) else 0 :=
  ScatterRows.vscatterAdd_apply Facts₀.scatter_S100000_S1700000x1_S1700000_n_0_0_1_wf x idx upd i

/-- The scatter sum of rows as the program spells it, at an index. -/
theorem scat_apply (z : (⟨S100000x64, .f32⟩ : BufTy).Contents (Elt Ideal)) (idx : (⟨S1700000x1, .i32⟩ : BufTy).Contents (Elt Ideal))
    (upd : (⟨S1700000x64, .f32⟩ : BufTy).Contents (Elt Ideal)) (r : Fin 100000) (c : Fin 64) :
    (Host.scatterAdd (F := Ideal) (φ := .f32) scatter_S100000x64_S1700000x1_S1700000x64_1_0_0_1 z idx upd : S100000x64.Idx → EReal) (ix2 r c)
      = (z : S100000x64.Idx → EReal) (ix2 r c)
        + ∑ e : Fin 1700000, if ((idx : S1700000x1.Idx → BitVec 32) (ix2 e (0 : Fin 1))).toInt = (r.val : Int) then (upd : S1700000x64.Idx → EReal) (ix2 e c) else 0 :=
  ScatterRows.host_scatterAdd_apply Facts₀.scatter_S100000x64_S1700000x1_S1700000x64_1_0_0_1_wf z idx upd r c

/-- The gather of entries as the program spells it: the table at the start index read signed and clamped. -/
theorem vgath_apply (x : (⟨S100000, .f32⟩ : BufTy).Contents (Elt Ideal)) (idx : (⟨S1700000x1, .i32⟩ : BufTy).Contents (Elt Ideal))
    (e : Fin 1700000) :
    (Host.gather gather_S100000_S1700000x1_S1700000_n_0_n_n_0_1_1 x idx : S1700000.Idx → EReal) (ix1 e)
      = (x : S100000.Idx → EReal) (ix1 (⟨min ((idx : S1700000x1.Idx → BitVec 32) (ix2 e (0 : Fin 1))).toInt.toNat (100000 - 1), by omega⟩ : Fin 100000)) :=
  gather_vec_apply (N := 100000) (P := 1700000) (by decide) gather_S100000_S1700000x1_S1700000_n_0_n_n_0_1_1 rfl rfl rfl rfl x idx e

/-- The gather of rows as the program spells it. -/
theorem gath_apply (x : (⟨S100000x64, .f32⟩ : BufTy).Contents (Elt Ideal)) (idx : (⟨S1700000x1, .i32⟩ : BufTy).Contents (Elt Ideal))
    (e : Fin 1700000) (j : Fin 64) :
    (Host.gather gather_S100000x64_S1700000x1_S1700000x64_1_0_n_n_0_1_164 x idx : S1700000x64.Idx → EReal) (ix2 e j)
      = (x : S100000x64.Idx → EReal) (ix2 (⟨min ((idx : S1700000x1.Idx → BitVec 32) (ix2 e (0 : Fin 1))).toInt.toNat (100000 - 1), by omega⟩ : Fin 100000) j) :=
  Cert.LibGather2.gather_rows_apply (N := 100000) (C := 64) (P := 1700000) (by decide) gather_S100000x64_S1700000x1_S1700000x64_1_0_n_n_0_1_164
    rfl rfl rfl rfl rfl rfl rfl x idx e j

/-- The row the gathers read for an index word. -/
theorem gix_mk (b : BitVec 32) (h : min (Cert.Spec.nrm b).toInt.toNat (100000 - 1) < 100000) :
    (⟨min (Cert.Spec.nrm b).toInt.toNat (100000 - 1), h⟩ : Fin 100000) = Cert.Spec.gix b := rfl

/-! ## One layer, stage by stage -/

section Layer

variable (a : Cert.Spec.Args) (x1 : (⟨S2x1600000, .i32⟩ : BufTy).Contents (Elt Ideal))
  (hs : ∀ e : Fin 1600000, a.src e = x1 (ix2 (0 : Fin 2) e)) (hd : ∀ e : Fin 1600000, a.dst e = x1 (ix2 (1 : Fin 2) e))

theorem idx_col (e : Fin 1700000) : idx_main_v10 (ix2 e (0 : Fin 1)) = ix1 e :=
  funext fun b => Fin.ext (by match b with | ⟨0, _⟩ => rfl)

theorem idx_col2 (e : Fin 1700000) (j : Fin 64) : idx_main_v35 (idx_main_v36 (ix2 e j)) = ix1 e :=
  funext fun b => Fin.ext (by match b with | ⟨0, _⟩ => rfl)

theorem idx_bias (n : Fin 100000) (j : Fin 64) : idx_main_v41 (idx_main_v42 (ix2 n j)) = ix1 j :=
  funext fun b => Fin.ext (by match b with | ⟨0, _⟩ => rfl)

include hs in
theorem v18_at (e : Fin 1700000) :
    (val_main_v18 (F := Ideal) x1 : S1700000x1.Idx → BitVec 32) (ix2 e (0 : Fin 1)) = Cert.Spec.nrm (Cert.Spec.sR a e) := by
  rw [val_main_v18_apply, show idx_main_v18 (ix2 e (0 : Fin 1)) = ix1 e from idx_col e, v17_apply, v6_apply a x1 hs]

include hs in
theorem v33_at (e : Fin 1700000) :
    (val_main_v33 (F := Ideal) x1 : S1700000x1.Idx → BitVec 32) (ix2 e (0 : Fin 1)) = Cert.Spec.nrm (Cert.Spec.sR a e) := by
  rw [val_main_v33_apply, show idx_main_v33 (ix2 e (0 : Fin 1)) = ix1 e from idx_col e, v32_apply, v6_apply a x1 hs]

include hd in
theorem v25_at (e : Fin 1700000) :
    (val_main_v25 (F := Ideal) x1 : S1700000x1.Idx → BitVec 32) (ix2 e (0 : Fin 1)) = Cert.Spec.nrm (Cert.Spec.dR a e) := by
  rw [val_main_v25_apply, show idx_main_v25 (ix2 e (0 : Fin 1)) = ix1 e from idx_col e, v24_apply, v7_apply a x1 hd]

include hd in
theorem v10_at (e : Fin 1700000) :
    (val_main_v10 (F := Ideal) x1 : S1700000x1.Idx → BitVec 32) (ix2 e (0 : Fin 1)) = Cert.Spec.dR a e := by
  rw [val_main_v10_apply, idx_col, v7_apply a x1 hd]

include hd in
theorem v39_at (e : Fin 1700000) :
    (val_main_v39 (F := Ideal) x1 : S1700000x1.Idx → BitVec 32) (ix2 e (0 : Fin 1)) = Cert.Spec.dR a e := by
  rw [val_main_v39_apply, show idx_main_v39 (ix2 e (0 : Fin 1)) = ix1 e from idx_col e, v7_apply a x1 hd]

theorem v8_at (e : Fin 1700000) : (val_main_v8 (F := Ideal) : S1700000.Idx → EReal) (ix1 e) = Cert.Spec.c1 := by
  rw [val_main_v8_apply, val_main_cst_apply]; rfl

include hd in
/-- The count of the entries of the extended list that arrive at node `i`. -/
theorem v11_apply (i : Fin 100000) :
    (val_main_v11 (F := Ideal) x1 : S100000.Idx → EReal) (ix1 i) = Cert.Spec.degR a i := by
  unfold val_main_v11
  rw [vscat_apply, val_main_v9_apply, val_main_cst_0_apply]
  simp only [v10_at a x1 hd, v8_at]
  rfl

include hd in
/-- Its reciprocal square root. -/
theorem v12_apply (i : Fin 100000) :
    (val_main_v12 (F := Ideal) x1 : S100000.Idx → EReal) (ix1 i) = Cert.Spec.dinvR a i := by
  rw [val_main_v12_apply, v11_apply a x1 hd, Ideal.hostUnary_rsqrt_def]
  rfl

include hs hd in
/-- The factor of an entry's source. -/
theorem v19_apply (e : Fin 1700000) :
    (val_main_v19 (F := Ideal) x1 : S1700000.Idx → EReal) (ix1 e) = Cert.Spec.dinvR a (Cert.Spec.gix (Cert.Spec.sR a e)) := by
  unfold val_main_v19
  rw [vgath_apply]
  simp only [v18_at a x1 hs, gix_mk]
  exact v12_apply a x1 hd _

include hd in
/-- The factor of an entry's destination. -/
theorem v26_apply (e : Fin 1700000) :
    (val_main_v26 (F := Ideal) x1 : S1700000.Idx → EReal) (ix1 e) = Cert.Spec.dinvR a (Cert.Spec.gix (Cert.Spec.dR a e)) := by
  unfold val_main_v26
  rw [vgath_apply]
  simp only [v25_at a x1 hd, gix_mk]
  exact v12_apply a x1 hd _

include hs hd in
/-- The product of the two factors, spread along the row. -/
theorem v36_apply (e : Fin 1700000) (j : Fin 64) :
    (val_main_v36 (F := Ideal) x1 : S1700000x64.Idx → EReal) (ix2 e j)
      = Cert.Spec.dinvR a (Cert.Spec.gix (Cert.Spec.sR a e)) * Cert.Spec.dinvR a (Cert.Spec.gix (Cert.Spec.dR a e)) := by
  rw [val_main_v36_apply, val_main_v35_apply, idx_col2, val_main_v27_apply, v19_apply a x1 hs hd, v26_apply a x1 hd,
    Ideal.mulf_def]

include hs in
/-- The projected row of an entry's source. -/
theorem rows_apply (P : (⟨S100000x64, .f32⟩ : BufTy).Contents (Elt Ideal)) (e : Fin 1700000) (j : Fin 64) :
    (Host.gather gather_S100000x64_S1700000x1_S1700000x64_1_0_n_n_0_1_164 P (val_main_v33 (F := Ideal) x1) : S1700000x64.Idx → EReal) (ix2 e j)
      = (P : S100000x64.Idx → EReal) (ix2 (Cert.Spec.gix (Cert.Spec.sR a e)) j) := by
  rw [gath_apply]
  simp only [v33_at a x1 hs, gix_mk]

end Layer

/-- One graph-convolution layer as the plain program spells it, over the projected rows `P`, the edge list `x1` and the bias `b`. -/
def layerV (P : (⟨S100000x64, .f32⟩ : BufTy).Contents (Elt Ideal)) (x1 : (⟨S2x1600000, .i32⟩ : BufTy).Contents (Elt Ideal))
    (b : (⟨S64, .f32⟩ : BufTy).Contents (Elt Ideal)) : (⟨S100000x64, .f32⟩ : BufTy).Contents (Elt Ideal) :=
  maximumf (F := Ideal) (φ := .f32)
    (addf (F := Ideal) (φ := .f32)
      (Host.scatterAdd (F := Ideal) (φ := .f32) scatter_S100000x64_S1700000x1_S1700000x64_1_0_0_1 (val_main_v38 (F := Ideal)) (val_main_v39 (F := Ideal) x1)
        (mulf (F := Ideal) (φ := .f32)
          (Host.gather gather_S100000x64_S1700000x1_S1700000x64_1_0_n_n_0_1_164 P (val_main_v33 (F := Ideal) x1))
          (val_main_v36 (F := Ideal) x1)))
      (val_main_v42 (F := Ideal) b))
    (val_main_call0_v0 (F := Ideal))

theorem v44_eq_layerV (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal)) :
    val_main_v44 (F := Ideal) x0 x1 x3 x4 = layerV (val_main_v4 (F := Ideal) x0 x3) x1 x4 := rfl

theorem v110_eq_layerV (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 x7 x8 : (⟨S64, .f32⟩ : BufTy).Contents (Elt Ideal)) :
    val_main_v110 (F := Ideal) x0 x1 x3 x4 x5 x6 x7 x8 = layerV (val_main_v70 (F := Ideal) x0 x1 x3 x4 x5 x7 x8) x1 x6 := rfl

/-! ## The layer at an index -/

/-- THE LAYER AT AN INDEX: the plain form of the specification over the rows `P` and the bias `b`. -/
theorem layerV_apply (a : Cert.Spec.Args) (x1 : (⟨S2x1600000, .i32⟩ : BufTy).Contents (Elt Ideal))
    (hs : ∀ e : Fin 1600000, a.src e = x1 (ix2 (0 : Fin 2) e)) (hd : ∀ e : Fin 1600000, a.dst e = x1 (ix2 (1 : Fin 2) e))
    (P : (⟨S100000x64, .f32⟩ : BufTy).Contents (Elt Ideal)) (b : (⟨S64, .f32⟩ : BufTy).Contents (Elt Ideal))
    (n : Fin 100000) (j : Fin 64) :
    (layerV P x1 b : S100000x64.Idx → EReal) (ix2 n j)
      = Cert.Spec.actR a (fun n k => (P : S100000x64.Idx → EReal) (ix2 n k)) (fun j => (b : S64.Idx → EReal) (ix1 j)) n j := by
  unfold layerV Cert.Spec.actR
  rw [maximumf_apply, addf_apply, scat_apply, val_main_v38_apply, val_main_cst_6_apply, val_main_v42_apply,
    val_main_v41_apply, idx_bias, val_main_call0_v0_apply, val_main_call0_cst_apply]
  simp only [v39_at a x1 hd, mulf_apply, rows_apply a x1 hs, v36_apply a x1 hs hd, Ideal.ofBits_def]
  rfl

/-! ## The two layers -/

/-- The first projection: rows of the features against the columns of the first weight. -/
theorem proj1_apply (x0 : (⟨S100000x128, .f32⟩ : BufTy).Contents (Elt Ideal)) (x3 : (⟨S128x64, .f32⟩ : BufTy).Contents (Elt Ideal))
    (n : Fin 100000) (k : Fin 64) :
    (val_main_v4 (F := Ideal) x0 x3 : S100000x64.Idx → EReal) (ix2 n k)
      = Cert.Spec.proj (fun n q => (x0 : S100000x128.Idx → EReal) (ix2 n q)) (fun q k => (x3 : S128x64.Idx → EReal) (ix2 q k)) n k := by
  rw [val_main_v4_apply]
  unfold Cert.Spec.proj
  refine Finset.sum_congr rfl fun q _ => ?_
  rw [show lidx_main_v4 (ix2 n k) q = ix2 n q from
      funext fun b => Fin.ext (by match b with | ⟨0, _⟩ => rfl | ⟨1, _⟩ => rfl),
    show ridx_main_v4 (ix2 n k) q = ix2 q k from
      funext fun b => Fin.ext (by match b with | ⟨0, _⟩ => rfl | ⟨1, _⟩ => rfl)]

/-- The second projection: rows of the normalised first layer against the columns of the second weight. -/
theorem proj2_apply (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x7 x8 : (⟨S64, .f32⟩ : BufTy).Contents (Elt Ideal))
    (n : Fin 100000) (k : Fin 64) :
    (val_main_v70 (F := Ideal) x0 x1 x3 x4 x5 x7 x8 : S100000x64.Idx → EReal) (ix2 n k)
      = Cert.Spec.proj (fun n q => (val_main_v69 (F := Ideal) x0 x1 x3 x4 x7 x8 : S100000x64.Idx → EReal) (ix2 n q))
          (fun q k => (x5 : S64x64.Idx → EReal) (ix2 q k)) n k := by
  rw [val_main_v70_apply]
  unfold Cert.Spec.proj
  refine Finset.sum_congr rfl fun q _ => ?_
  rw [show lidx_main_v70 (ix2 n k) q = ix2 n q from
      funext fun b => Fin.ext (by match b with | ⟨0, _⟩ => rfl | ⟨1, _⟩ => rfl),
    show ridx_main_v70 (ix2 n k) q = ix2 q k from
      funext fun b => Fin.ext (by match b with | ⟨0, _⟩ => rfl | ⟨1, _⟩ => rfl)]

/-- The first layer of the plain program is the specification's. -/
theorem ref_h1 (m : (ℓ : Loc nD τ sig) → Buf (Elt Ideal) ℓ) (c : Dev nD) (n : Fin 100000) (j : Fin 64) :
    (val_main_v44 (F := Ideal) (m ((c.tc : Thread nD τ).loc main_arg0)) (m ((c.tc : Thread nD τ).loc main_arg1))
        (m ((c.tc : Thread nD τ).loc main_arg3)) (m ((c.tc : Thread nD τ).loc main_arg4)) : S100000x64.Idx → EReal) (ix2 n j)
      = Cert.Spec.h1R (argsR m c) n j := by
  rw [v44_eq_layerV, layerV_apply (argsR m c) _ (fun _ => rfl) (fun _ => rfl)]
  unfold Cert.Spec.h1R
  refine congrArg (fun Q : Fin 100000 → Fin 64 → EReal => Cert.Spec.actR (argsR m c) Q (argsR m c).b1 n j) ?_
  funext n k
  exact proj1_apply _ _ n k

/-- The second layer of the plain program is the specification's layer over the projected normalised first layer. -/
theorem ref_h2 (m : (ℓ : Loc nD τ sig) → Buf (Elt Ideal) ℓ) (c : Dev nD) (n : Fin 100000) (j : Fin 64) :
    (val_main_v110 (F := Ideal) (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        : S100000x64.Idx → EReal) (ix2 n j)
      = Cert.Spec.actR (argsR m c)
          (Cert.Spec.proj (fun n k => (val_main_v69 (F := Ideal) (m ((c.tc : Thread nD τ).loc main_arg0)) (m ((c.tc : Thread nD τ).loc main_arg1))
            (m ((c.tc : Thread nD τ).loc main_arg3)) (m ((c.tc : Thread nD τ).loc main_arg4)) (m ((c.tc : Thread nD τ).loc main_arg7))
            (m ((c.tc : Thread nD τ).loc main_arg8)) : S100000x64.Idx → EReal) (ix2 n k)) (argsR m c).W2) (argsR m c).b2 n j := by
  rw [v110_eq_layerV, layerV_apply (argsR m c) _ (fun _ => rfl) (fun _ => rfl)]
  refine congrArg (fun Q : Fin 100000 → Fin 64 → EReal => Cert.Spec.actR (argsR m c) Q (argsR m c).b2 n j) ?_
  funext n k
  exact proj2_apply _ _ _ _ _ _ _ n k

end Cert.ReferenceIdeal.RVal

end
-- ==== Proof.RValC.lean ====
import proofs.«412438_j20864951124557_2_alg».proof.Proof.Gen.ReferenceIdeal.Read
import proofs.«412438_j20864951124557_2_alg».proof.Proof.Spec
import proofs.«412438_j20864951124557_2_alg».proof.Proof.RArgs
import proofs.«412438_j20864951124557_2_alg».proof.Proof.LibScatterHost
import proofs.«412438_j20864951124557_2_alg».proof.Proof.LibScatterRows
import proofs.«412438_j20864951124557_2_alg».proof.Proof.LibRowOps

/-!
# The plain program's pooling and dense tail

The rows are summed per graph by a scatter sum at the graph labels, the counts likewise from ones, the sums divided by
the counts capped below at one; then four dense layers with positive part and one output column.
-/

noncomputable section

namespace Cert.ReferenceIdeal.RVal

open Cert.ReferenceIdeal Cert.ReferenceIdeal.Gen Cert.ReferenceIdeal.Read Idealize.ShloMosaic Idealize.ShloMosaic.TcCoe
  Idealize.ShloMosaic.ValueIdx Idealize.SL.Sem Idealize.ShloMosaic.StableHlo

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 x7 x8 x9 x10 : (⟨S64, .f32⟩ : BufTy).Contents (Elt Ideal))
  (x11 : (⟨S64x128, .f32⟩ : BufTy).Contents (Elt Ideal)) (x12 : (⟨S128, .f32⟩ : BufTy).Contents (Elt Ideal))
  (x13 : (⟨S128x64, .f32⟩ : BufTy).Contents (Elt Ideal)) (x14 : (⟨S64, .f32⟩ : BufTy).Contents (Elt Ideal))
  (x15 : (⟨S64x32, .f32⟩ : BufTy).Contents (Elt Ideal)) (x16 : (⟨S32, .f32⟩ : BufTy).Contents (Elt Ideal))
  (x17 : (⟨S32x16, .f32⟩ : BufTy).Contents (Elt Ideal)) (x18 : (⟨S16, .f32⟩ : BufTy).Contents (Elt Ideal))
  (x19 : (⟨S16x1, .f32⟩ : BufTy).Contents (Elt Ideal)) (x20 : (⟨S1, .f32⟩ : BufTy).Contents (Elt Ideal))

/-- A rank-2 index with the given coordinates. -/
theorem idx2_eq {n0 n1 : Nat} (f : (⟨2, ![n0, n1]⟩ : Shape).Idx) (a : Fin n0) (b : Fin n1)
    (h0 : (f 0).val = a.val) (h1 : (f 1).val = b.val) : f = ix2 a b := by
  funext d
  match d with
  | ⟨0, _⟩ => exact Fin.ext h0
  | ⟨1, _⟩ => exact Fin.ext h1

/-- A rank-1 index with the given coordinate. -/
theorem idx1_eq {n : Nat} (f : (⟨1, ![n]⟩ : Shape).Idx) (a : Fin n) (h0 : (f 0).val = a.val) : f = ix1 a := by
  funext d
  match d with
  | ⟨0, _⟩ => exact Fin.ext h0

/-- The pooled sums: the zero array plus, at graph g, the rows whose label is g. -/
theorem pool_read (g j : Fin 64) :
    (val_main_v138 (F := Ideal) x0 x1 x2 x3 x4 x5 x6 x7 x8 x9 x10 : S64x64.Idx → EReal) (ix2 g j)
      = Cert.Spec.c0 + ∑ n : Fin 100000, if ((x2 : S100000.Idx → BitVec 32) (ix1 n)).toInt = (g.val : Int)
          then (val_main_v135 (F := Ideal) x0 x1 x3 x4 x5 x6 x7 x8 x9 x10 : S100000x64.Idx → EReal) (ix2 n j) else 0 := by
  unfold val_main_v138
  refine (ScatterRows.host_scatterAdd_apply scatter_S64x64_S100000x1_S100000x64_1_0_0_1_wf _ _ _ g j).trans ?_
  rw [val_main_v136_apply, val_main_cst_26_apply]
  simp only [val_main_v137_apply]
  have hi : ∀ n : Fin 100000, idx_main_v137 (ix2 n (0 : Fin 1)) = ix1 n := fun n => idx1_eq _ _ rfl
  simp only [hi]
  rfl

/-- The counts: zero plus one for every row whose label is g. -/
theorem cnt_read (g : Fin 64) :
    (val_main_v142 (F := Ideal) x2 : S64.Idx → EReal) (ix1 g)
      = Cert.Spec.c0 + ∑ n : Fin 100000, if ((x2 : S100000.Idx → BitVec 32) (ix1 n)).toInt = (g.val : Int) then Cert.Spec.c1 else 0 := by
  unfold val_main_v142
  refine (ScatterRows.vscatterAdd_apply scatter_S64_S100000x1_S100000_n_0_0_1_wf _ _ _ g).trans ?_
  rw [val_main_v140_apply, val_main_cst_28_apply]
  simp only [val_main_v141_apply, val_main_v139_apply, val_main_cst_27_apply]
  have hi : ∀ n : Fin 100000, idx_main_v141 (ix2 n (0 : Fin 1)) = ix1 n := fun n => idx1_eq _ _ rfl
  simp only [hi]
  rfl

/-- The mean over each graph: the pooled sum over the count capped below at one. -/
theorem t0_read (g k : Fin 64) :
    (val_main_v147 (F := Ideal) x0 x1 x2 x3 x4 x5 x6 x7 x8 x9 x10 : S64x64.Idx → EReal) (ix2 g k)
      = Cert.Spec.t0F (fun g j => (val_main_v138 (F := Ideal) x0 x1 x2 x3 x4 x5 x6 x7 x8 x9 x10 : S64x64.Idx → EReal) (ix2 g j))
          (fun g => (val_main_v142 (F := Ideal) x2 : S64.Idx → EReal) (ix1 g)) g k := by
  rw [val_main_v147_apply, val_main_v146_apply, val_main_v145_apply, val_main_v144_apply, val_main_v143_apply,
    val_main_cst_29_apply]
  have hi : idx_main_v145 (idx_main_v146 (ix2 g k)) = ix1 g := idx1_eq _ _ rfl
  rw [hi]
  rfl

/-- The first dense layer with positive part. -/
theorem layer1_read (g : Fin 64) (c : Fin 128) :
    (val_main_v152 (F := Ideal) x0 x1 x2 x3 x4 x5 x6 x7 x8 x9 x10 x11 x12 : S64x128.Idx → EReal) (ix2 g c)
      = Cert.Spec.layer (fun g k => (val_main_v147 (F := Ideal) x0 x1 x2 x3 x4 x5 x6 x7 x8 x9 x10 : S64x64.Idx → EReal) (ix2 g k))
          (fun k j => (x11 : S64x128.Idx → EReal) (ix2 k j)) (fun j => (x12 : S128.Idx → EReal) (ix1 j)) g c := by
  rw [val_main_v152_apply, val_main_v151_apply, val_main_v148_apply, val_main_v150_apply, val_main_v149_apply,
    val_main_call2_v0_apply, val_main_call2_cst_apply]
  have hl : ∀ k : Fin 64, lidx_main_v148 (ix2 g c) k = ix2 g k := fun k => idx2_eq _ _ _ rfl rfl
  have hr : ∀ k : Fin 64, ridx_main_v148 (ix2 g c) k = ix2 k c := fun k => idx2_eq _ _ _ rfl rfl
  have hb : idx_main_v149 (idx_main_v150 (ix2 g c)) = ix1 c := idx1_eq _ _ rfl
  simp only [hl, hr, hb]
  rfl

/-- The second dense layer with positive part. -/
theorem layer2_read (g : Fin 64) (c : Fin 64) :
    (val_main_v157 (F := Ideal) x0 x1 x2 x3 x4 x5 x6 x7 x8 x9 x10 x11 x12 x13 x14 : S64x64.Idx → EReal) (ix2 g c)
      = Cert.Spec.layer (fun g k => (val_main_v152 (F := Ideal) x0 x1 x2 x3 x4 x5 x6 x7 x8 x9 x10 x11 x12 : S64x128.Idx → EReal) (ix2 g k))
          (fun k j => (x13 : S128x64.Idx → EReal) (ix2 k j)) (fun j => (x14 : S64.Idx → EReal) (ix1 j)) g c := by
  rw [val_main_v157_apply, val_main_v156_apply, val_main_v153_apply, val_main_v155_apply, val_main_v154_apply,
    val_main_call3_v0_apply, val_main_call3_cst_apply]
  have hl : ∀ k : Fin 128, lidx_main_v153 (ix2 g c) k = ix2 g k := fun k => idx2_eq _ _ _ rfl rfl
  have hr : ∀ k : Fin 128, ridx_main_v153 (ix2 g c) k = ix2 k c := fun k => idx2_eq _ _ _ rfl rfl
  have hb : idx_main_v154 (idx_main_v155 (ix2 g c)) = ix1 c := idx1_eq _ _ rfl
  simp only [hl, hr, hb]
  rfl

/-- The third dense layer with positive part. -/
theorem layer3_read (g : Fin 64) (c : Fin 32) :
    (val_main_v162 (F := Ideal) x0 x1 x2 x3 x4 x5 x6 x7 x8 x9 x10 x11 x12 x13 x14 x15 x16 : S64x32.Idx → EReal) (ix2 g c)
      = Cert.Spec.layer (fun g k => (val_main_v157 (F := Ideal) x0 x1 x2 x3 x4 x5 x6 x7 x8 x9 x10 x11 x12 x13 x14 : S64x64.Idx → EReal) (ix2 g k))
          (fun k j => (x15 : S64x32.Idx → EReal) (ix2 k j)) (fun j => (x16 : S32.Idx → EReal) (ix1 j)) g c := by
  rw [val_main_v162_apply, val_main_v161_apply, val_main_v158_apply, val_main_v160_apply, val_main_v159_apply,
    val_main_call4_v0_apply, val_main_call4_cst_apply]
  have hl : ∀ k : Fin 64, lidx_main_v158 (ix2 g c) k = ix2 g k := fun k => idx2_eq _ _ _ rfl rfl
  have hr : ∀ k : Fin 64, ridx_main_v158 (ix2 g c) k = ix2 k c := fun k => idx2_eq _ _ _ rfl rfl
  have hb : idx_main_v159 (idx_main_v160 (ix2 g c)) = ix1 c := idx1_eq _ _ rfl
  simp only [hl, hr, hb]
  rfl

/-- The fourth dense layer with positive part. -/
theorem layer4_read (g : Fin 64) (c : Fin 16) :
    (val_main_v167 (F := Ideal) x0 x1 x2 x3 x4 x5 x6 x7 x8 x9 x10 x11 x12 x13 x14 x15 x16 x17 x18 : S64x16.Idx → EReal) (ix2 g c)
      = Cert.Spec.layer (fun g k => (val_main_v162 (F := Ideal) x0 x1 x2 x3 x4 x5 x6 x7 x8 x9 x10 x11 x12 x13 x14 x15 x16 : S64x32.Idx → EReal) (ix2 g k))
          (fun k j => (x17 : S32x16.Idx → EReal) (ix2 k j)) (fun j => (x18 : S16.Idx → EReal) (ix1 j)) g c := by
  rw [val_main_v167_apply, val_main_v166_apply, val_main_v163_apply, val_main_v165_apply, val_main_v164_apply,
    val_main_call5_v0_apply, val_main_call5_cst_apply]
  have hl : ∀ k : Fin 32, lidx_main_v163 (ix2 g c) k = ix2 g k := fun k => idx2_eq _ _ _ rfl rfl
  have hr : ∀ k : Fin 32, ridx_main_v163 (ix2 g c) k = ix2 k c := fun k => idx2_eq _ _ _ rfl rfl
  have hb : idx_main_v164 (idx_main_v165 (ix2 g c)) = ix1 c := idx1_eq _ _ rfl
  simp only [hl, hr, hb]
  rfl

/-- The output column: the last layer's rows against the output weights, plus the output bias. -/
theorem out_read (g : Fin 64) (c : Fin 1) :
    (val_main_v171 (F := Ideal) x0 x1 x2 x3 x4 x5 x6 x7 x8 x9 x10 x11 x12 x13 x14 x15 x16 x17 x18 x19 x20 : S64x1.Idx → EReal) (ix2 g c)
      = Cert.Spec.dense (fun g k => (val_main_v167 (F := Ideal) x0 x1 x2 x3 x4 x5 x6 x7 x8 x9 x10 x11 x12 x13 x14 x15 x16 x17 x18 : S64x16.Idx → EReal) (ix2 g k))
          (fun k j => (x19 : S16x1.Idx → EReal) (ix2 k j)) (fun j => (x20 : S1.Idx → EReal) (ix1 j)) g c := by
  rw [val_main_v171_apply, val_main_v168_apply, val_main_v170_apply, val_main_v169_apply]
  have hl : ∀ k : Fin 16, lidx_main_v168 (ix2 g c) k = ix2 g k := fun k => idx2_eq _ _ _ rfl rfl
  have hr : ∀ k : Fin 16, ridx_main_v168 (ix2 g c) k = ix2 k c := fun k => idx2_eq _ _ _ rfl rfl
  have hb : idx_main_v169 (idx_main_v170 (ix2 g c)) = ix1 c := idx1_eq _ _ (by have := c.isLt; show 0 = c.val; omega)
  simp only [hl, hr, hb]
  rfl
theorem ref_tail (g : Fin 64) :
    (val_main_v171 (F := Ideal) x0 x1 x2 x3 x4 x5 x6 x7 x8 x9 x10 x11 x12 x13 x14 x15 x16 x17 x18 x19 x20 : S64x1.Idx → EReal) (ix2 g (0 : Fin 1))
      = Cert.Spec.tailF (fun k j => (x11 : S64x128.Idx → EReal) (ix2 k j)) (fun j => (x12 : S128.Idx → EReal) (ix1 j))
          (fun k j => (x13 : S128x64.Idx → EReal) (ix2 k j)) (fun j => (x14 : S64.Idx → EReal) (ix1 j))
          (fun k j => (x15 : S64x32.Idx → EReal) (ix2 k j)) (fun j => (x16 : S32.Idx → EReal) (ix1 j))
          (fun k j => (x17 : S32x16.Idx → EReal) (ix2 k j)) (fun j => (x18 : S16.Idx → EReal) (ix1 j))
          (fun k j => (x19 : S16x1.Idx → EReal) (ix2 k j)) (fun j => (x20 : S1.Idx → EReal) (ix1 j))
          (fun g j => Cert.Spec.c0 + ∑ n : Fin 100000, if ((x2 : S100000.Idx → BitVec 32) (ix1 n)).toInt = (g.val : Int)
              then (val_main_v135 (F := Ideal) x0 x1 x3 x4 x5 x6 x7 x8 x9 x10 : S100000x64.Idx → EReal) (ix2 n j) else 0)
          (fun g => Cert.Spec.c0 + ∑ n : Fin 100000, if ((x2 : S100000.Idx → BitVec 32) (ix1 n)).toInt = (g.val : Int) then Cert.Spec.c1 else 0)
          g := by
  have e0 : (fun g k => (val_main_v147 (F := Ideal) x0 x1 x2 x3 x4 x5 x6 x7 x8 x9 x10 : S64x64.Idx → EReal) (ix2 g k))
      = Cert.Spec.t0F
          (fun g j => Cert.Spec.c0 + ∑ n : Fin 100000, if ((x2 : S100000.Idx → BitVec 32) (ix1 n)).toInt = (g.val : Int)
              then (val_main_v135 (F := Ideal) x0 x1 x3 x4 x5 x6 x7 x8 x9 x10 : S100000x64.Idx → EReal) (ix2 n j) else 0)
          (fun g => Cert.Spec.c0 + ∑ n : Fin 100000, if ((x2 : S100000.Idx → BitVec 32) (ix1 n)).toInt = (g.val : Int) then Cert.Spec.c1 else 0) := by
    funext g k
    rw [t0_read]
    simp only [pool_read, cnt_read]
  have e1 := fun g c => layer1_read x0 x1 x2 x3 x4 x5 x6 x7 x8 x9 x10 x11 x12 g c
  have e2 := fun g c => layer2_read x0 x1 x2 x3 x4 x5 x6 x7 x8 x9 x10 x11 x12 x13 x14 g c
  have e3 := fun g c => layer3_read x0 x1 x2 x3 x4 x5 x6 x7 x8 x9 x10 x11 x12 x13 x14 x15 x16 g c
  have e4 := fun g c => layer4_read x0 x1 x2 x3 x4 x5 x6 x7 x8 x9 x10 x11 x12 x13 x14 x15 x16 x17 x18 g c
  rw [out_read, funext fun g => funext fun c => e4 g c, funext fun g => funext fun c => e3 g c,
    funext fun g => funext fun c => e2 g c, funext fun g => funext fun c => e1 g c, e0]
  rfl

end Cert.ReferenceIdeal.RVal

end
-- ==== Proof.RValB.lean ====
import proofs.«412438_j20864951124557_2_alg».proof.Proof.Gen.ReferenceIdeal.Read
import proofs.«412438_j20864951124557_2_alg».proof.Proof.Spec
import proofs.«412438_j20864951124557_2_alg».proof.Proof.RArgs
import proofs.«412438_j20864951124557_2_alg».proof.Proof.RValA
import proofs.«412438_j20864951124557_2_alg».proof.Proof.RValC

/-!
# The plain program outside its two graph-convolution layers

Three stretches of the plain program, each read at an index as a formula of the specification.

Batch normalisation (twice): the column mean is the sum over all rows divided by the number of rows, the variance the
sum of the squared deviations from that mean divided by the same number, and each entry less the mean is scaled by the
reciprocal square root of the variance plus epsilon, by the column's gain, and shifted by the column's offset.

Pooling and the dense tail: the rows are summed per graph by a scatter sum at the graph labels, the counts likewise
from rows of ones, the sums divided by the counts capped below at one; then four dense layers with positive part and
one output column.

The whole result: with the two layers' activations read elsewhere, these stretches compose to the specification of the
plain form.
-/

noncomputable section

namespace Cert.ReferenceIdeal.RVal

open Cert.ReferenceIdeal Cert.ReferenceIdeal.Gen Cert.ReferenceIdeal.Read Idealize.ShloMosaic Idealize.ShloMosaic.TcCoe
  Idealize.ShloMosaic.ValueIdx Idealize.SL.Sem Idealize.ShloMosaic.StableHlo

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 x7 x8 x9 x10 : (⟨S64, .f32⟩ : BufTy).Contents (Elt Ideal))
  (x11 : (⟨S64x128, .f32⟩ : BufTy).Contents (Elt Ideal)) (x12 : (⟨S128, .f32⟩ : BufTy).Contents (Elt Ideal))
  (x13 : (⟨S128x64, .f32⟩ : BufTy).Contents (Elt Ideal)) (x14 : (⟨S64, .f32⟩ : BufTy).Contents (Elt Ideal))
  (x15 : (⟨S64x32, .f32⟩ : BufTy).Contents (Elt Ideal)) (x16 : (⟨S32, .f32⟩ : BufTy).Contents (Elt Ideal))
  (x17 : (⟨S32x16, .f32⟩ : BufTy).Contents (Elt Ideal)) (x18 : (⟨S16, .f32⟩ : BufTy).Contents (Elt Ideal))
  (x19 : (⟨S16x1, .f32⟩ : BufTy).Contents (Elt Ideal)) (x20 : (⟨S1, .f32⟩ : BufTy).Contents (Elt Ideal))

/-! ## The index functions of the first normalisation, at coordinates -/

theorem i45 (j : Fin 64) (k : Fin 100000) : idx_main_v45 (ix1 j) k = ix2 k j :=
  funext fun a => Fin.ext (by match a with | ⟨0, _⟩ => rfl | ⟨1, _⟩ => rfl)
theorem i48 (u : Fin 1) (j : Fin 64) : idx_main_v48 (ix2 u j) = ix1 j :=
  funext fun a => Fin.ext (by match a with | ⟨0, _⟩ => rfl)
theorem i49 (n : Fin 100000) (j : Fin 64) : idx_main_v49 (ix2 n j) = ix2 (0 : Fin 1) j :=
  funext fun a => Fin.ext (by match a with | ⟨0, _⟩ => rfl | ⟨1, _⟩ => rfl)
theorem i52 (j : Fin 64) (k : Fin 100000) : idx_main_v52 (ix1 j) k = ix2 k j :=
  funext fun a => Fin.ext (by match a with | ⟨0, _⟩ => rfl | ⟨1, _⟩ => rfl)
theorem i55 (u : Fin 1) (j : Fin 64) : idx_main_v55 (ix2 u j) = ix1 j :=
  funext fun a => Fin.ext (by match a with | ⟨0, _⟩ => rfl)
theorem i56 (n : Fin 100000) (j : Fin 64) : idx_main_v56 (ix2 n j) = ix2 (0 : Fin 1) j :=
  funext fun a => Fin.ext (by match a with | ⟨0, _⟩ => rfl | ⟨1, _⟩ => rfl)
theorem i61 (u : Fin 1) (j : Fin 64) : idx_main_v61 (ix2 u j) = ix1 j :=
  funext fun a => Fin.ext (by match a with | ⟨0, _⟩ => rfl)
theorem i62 (n : Fin 100000) (j : Fin 64) : idx_main_v62 (ix2 n j) = ix2 (0 : Fin 1) j :=
  funext fun a => Fin.ext (by match a with | ⟨0, _⟩ => rfl | ⟨1, _⟩ => rfl)
theorem i64 (u : Fin 1) (j : Fin 64) : idx_main_v64 (ix2 u j) = ix1 j :=
  funext fun a => Fin.ext (by match a with | ⟨0, _⟩ => rfl)
theorem i65 (n : Fin 100000) (j : Fin 64) : idx_main_v65 (ix2 n j) = ix2 (0 : Fin 1) j :=
  funext fun a => Fin.ext (by match a with | ⟨0, _⟩ => rfl | ⟨1, _⟩ => rfl)
theorem i67 (u : Fin 1) (j : Fin 64) : idx_main_v67 (ix2 u j) = ix1 j :=
  funext fun a => Fin.ext (by match a with | ⟨0, _⟩ => rfl)
theorem i68 (n : Fin 100000) (j : Fin 64) : idx_main_v68 (ix2 n j) = ix2 (0 : Fin 1) j :=
  funext fun a => Fin.ext (by match a with | ⟨0, _⟩ => rfl | ⟨1, _⟩ => rfl)

/-! ## The first normalisation, stage by stage -/

/-- The column mean: the sum over the rows divided by the number of rows. -/
theorem mean1 (j : Fin 64) :
    (val_main_v47 (F := Ideal) x0 x1 x3 x4 : S64.Idx → EReal) (ix1 j)
      = Cert.Spec.muR (fun n j => (val_main_v44 (F := Ideal) x0 x1 x3 x4 : S100000x64.Idx → EReal) (ix2 n j)) j := by
  rw [val_main_v47_apply, val_main_v45_apply, val_main_v46_apply, val_main_cst_7_apply, val_main_cst_8_apply]
  generalize val_main_v44 (F := Ideal) x0 x1 x3 x4 = H
  rw [Finset.sum_congr rfl (fun k _ => congrArg H (i45 j k))]
  rfl

/-- The deviation from the mean that the variance squares. -/
theorem dev1 (n : Fin 100000) (j : Fin 64) :
    (val_main_v50 (F := Ideal) x0 x1 x3 x4 : S100000x64.Idx → EReal) (ix2 n j)
      = (val_main_v44 (F := Ideal) x0 x1 x3 x4 : S100000x64.Idx → EReal) (ix2 n j)
        - Cert.Spec.muR (fun n j => (val_main_v44 (F := Ideal) x0 x1 x3 x4 : S100000x64.Idx → EReal) (ix2 n j)) j := by
  rw [val_main_v50_apply, val_main_v49_apply, val_main_v48_apply, i49, i48, mean1]
  generalize val_main_v44 (F := Ideal) x0 x1 x3 x4 = H
  rfl

/-- A squared deviation, at the row the variance's sum reads. -/
theorem sq1 (j : Fin 64) (k : Fin 100000) :
    (val_main_v51 (F := Ideal) x0 x1 x3 x4 : S100000x64.Idx → EReal) (idx_main_v52 (ix1 j) k)
      = ((val_main_v44 (F := Ideal) x0 x1 x3 x4 : S100000x64.Idx → EReal) (ix2 k j)
          - Cert.Spec.muR (fun n j => (val_main_v44 (F := Ideal) x0 x1 x3 x4 : S100000x64.Idx → EReal) (ix2 n j)) j)
        * ((val_main_v44 (F := Ideal) x0 x1 x3 x4 : S100000x64.Idx → EReal) (ix2 k j)
          - Cert.Spec.muR (fun n j => (val_main_v44 (F := Ideal) x0 x1 x3 x4 : S100000x64.Idx → EReal) (ix2 n j)) j) := by
  rw [i52, val_main_v51_apply, dev1]
  generalize val_main_v44 (F := Ideal) x0 x1 x3 x4 = H
  rfl

/-- The column variance: the sum of the squared deviations divided by the number of rows. -/
theorem var1 (j : Fin 64) :
    (val_main_v54 (F := Ideal) x0 x1 x3 x4 : S64.Idx → EReal) (ix1 j)
      = Cert.Spec.varR (fun n j => (val_main_v44 (F := Ideal) x0 x1 x3 x4 : S100000x64.Idx → EReal) (ix2 n j)) j := by
  rw [val_main_v54_apply, val_main_v52_apply, val_main_v53_apply, val_main_cst_9_apply, val_main_cst_10_apply,
    Finset.sum_congr rfl (fun k _ => sq1 x0 x1 x3 x4 j k)]
  generalize val_main_v44 (F := Ideal) x0 x1 x3 x4 = H
  rfl

/-- The deviation from the mean that is normalised (the program computes it a second time). -/
theorem dev1' (n : Fin 100000) (j : Fin 64) :
    (val_main_v57 (F := Ideal) x0 x1 x3 x4 : S100000x64.Idx → EReal) (ix2 n j)
      = (val_main_v44 (F := Ideal) x0 x1 x3 x4 : S100000x64.Idx → EReal) (ix2 n j)
        - Cert.Spec.muR (fun n j => (val_main_v44 (F := Ideal) x0 x1 x3 x4 : S100000x64.Idx → EReal) (ix2 n j)) j := by
  rw [val_main_v57_apply, val_main_v56_apply, val_main_v55_apply, i56, i55, mean1]
  generalize val_main_v44 (F := Ideal) x0 x1 x3 x4 = H
  rfl

/-- The reciprocal square root of the variance plus epsilon, broadcast down the rows. -/
theorem rstd1 (n : Fin 100000) (j : Fin 64) :
    (val_main_v62 (F := Ideal) x0 x1 x3 x4 : S100000x64.Idx → EReal) (ix2 n j)
      = Ideal.rsqrt (Cert.Spec.varR (fun n j => (val_main_v44 (F := Ideal) x0 x1 x3 x4 : S100000x64.Idx → EReal) (ix2 n j)) j
          + Cert.Spec.ceps) := by
  rw [val_main_v62_apply, val_main_v61_apply, i62, i61, val_main_v60_apply, val_main_v59_apply, var1, val_main_v58_apply,
    val_main_cst_11_apply]
  generalize val_main_v44 (F := Ideal) x0 x1 x3 x4 = H
  rfl

/-- The gain, broadcast down the rows. -/
theorem gain1 (n : Fin 100000) (j : Fin 64) :
    (val_main_v65 (F := Ideal) x7 : S100000x64.Idx → EReal) (ix2 n j) = (x7 : S64.Idx → EReal) (ix1 j) := by
  rw [val_main_v65_apply, val_main_v64_apply, i65, i64]

/-- The offset, broadcast down the rows. -/
theorem offs1 (n : Fin 100000) (j : Fin 64) :
    (val_main_v68 (F := Ideal) x8 : S100000x64.Idx → EReal) (ix2 n j) = (x8 : S64.Idx → EReal) (ix1 j) := by
  rw [val_main_v68_apply, val_main_v67_apply, i68, i67]

/-- BATCH NORMALISATION 1 at an index: the normalised, scaled and shifted entry of the specification. -/
theorem ref_bn1 (n : Fin 100000) (j : Fin 64) :
    (val_main_v69 (F := Ideal) x0 x1 x3 x4 x7 x8 : S100000x64.Idx → EReal) (ix2 n j)
      = Cert.Spec.bn (fun n j => (val_main_v44 (F := Ideal) x0 x1 x3 x4 : S100000x64.Idx → EReal) (ix2 n j))
          (Cert.Spec.muR (fun n j => (val_main_v44 (F := Ideal) x0 x1 x3 x4 : S100000x64.Idx → EReal) (ix2 n j)))
          (Cert.Spec.varR (fun n j => (val_main_v44 (F := Ideal) x0 x1 x3 x4 : S100000x64.Idx → EReal) (ix2 n j)))
          (fun j => (x7 : S64.Idx → EReal) (ix1 j)) (fun j => (x8 : S64.Idx → EReal) (ix1 j)) n j := by
  rw [val_main_v69_apply, val_main_v66_apply, val_main_v63_apply, dev1', rstd1, gain1, offs1]
  generalize val_main_v44 (F := Ideal) x0 x1 x3 x4 = H
  rfl

/-! ## The index functions of the second normalisation, at coordinates -/

theorem i111 (j : Fin 64) (k : Fin 100000) : idx_main_v111 (ix1 j) k = ix2 k j :=
  funext fun a => Fin.ext (by match a with | ⟨0, _⟩ => rfl | ⟨1, _⟩ => rfl)
theorem i114 (u : Fin 1) (j : Fin 64) : idx_main_v114 (ix2 u j) = ix1 j :=
  funext fun a => Fin.ext (by match a with | ⟨0, _⟩ => rfl)
theorem i115 (n : Fin 100000) (j : Fin 64) : idx_main_v115 (ix2 n j) = ix2 (0 : Fin 1) j :=
  funext fun a => Fin.ext (by match a with | ⟨0, _⟩ => rfl | ⟨1, _⟩ => rfl)
theorem i118 (j : Fin 64) (k : Fin 100000) : idx_main_v118 (ix1 j) k = ix2 k j :=
  funext fun a => Fin.ext (by match a with | ⟨0, _⟩ => rfl | ⟨1, _⟩ => rfl)
theorem i121 (u : Fin 1) (j : Fin 64) : idx_main_v121 (ix2 u j) = ix1 j :=
  funext fun a => Fin.ext (by match a with | ⟨0, _⟩ => rfl)
theorem i122 (n : Fin 100000) (j : Fin 64) : idx_main_v122 (ix2 n j) = ix2 (0 : Fin 1) j :=
  funext fun a => Fin.ext (by match a with | ⟨0, _⟩ => rfl | ⟨1, _⟩ => rfl)
theorem i127 (u : Fin 1) (j : Fin 64) : idx_main_v127 (ix2 u j) = ix1 j :=
  funext fun a => Fin.ext (by match a with | ⟨0, _⟩ => rfl)
theorem i128 (n : Fin 100000) (j : Fin 64) : idx_main_v128 (ix2 n j) = ix2 (0 : Fin 1) j :=
  funext fun a => Fin.ext (by match a with | ⟨0, _⟩ => rfl | ⟨1, _⟩ => rfl)
theorem i130 (u : Fin 1) (j : Fin 64) : idx_main_v130 (ix2 u j) = ix1 j :=
  funext fun a => Fin.ext (by match a with | ⟨0, _⟩ => rfl)
theorem i131 (n : Fin 100000) (j : Fin 64) : idx_main_v131 (ix2 n j) = ix2 (0 : Fin 1) j :=
  funext fun a => Fin.ext (by match a with | ⟨0, _⟩ => rfl | ⟨1, _⟩ => rfl)
theorem i133 (u : Fin 1) (j : Fin 64) : idx_main_v133 (ix2 u j) = ix1 j :=
  funext fun a => Fin.ext (by match a with | ⟨0, _⟩ => rfl)
theorem i134 (n : Fin 100000) (j : Fin 64) : idx_main_v134 (ix2 n j) = ix2 (0 : Fin 1) j :=
  funext fun a => Fin.ext (by match a with | ⟨0, _⟩ => rfl | ⟨1, _⟩ => rfl)

/-! ## The second normalisation, stage by stage -/

/-- The column mean of the second layer's activations. -/
theorem mean2 (j : Fin 64) :
    (val_main_v113 (F := Ideal) x0 x1 x3 x4 x5 x6 x7 x8 : S64.Idx → EReal) (ix1 j)
      = Cert.Spec.muR (fun n j => (val_main_v110 (F := Ideal) x0 x1 x3 x4 x5 x6 x7 x8 : S100000x64.Idx → EReal) (ix2 n j)) j := by
  rw [val_main_v113_apply, val_main_v111_apply, val_main_v112_apply, val_main_cst_21_apply, val_main_cst_22_apply]
  generalize val_main_v110 (F := Ideal) x0 x1 x3 x4 x5 x6 x7 x8 = H
  rw [Finset.sum_congr rfl (fun k _ => congrArg H (i111 j k))]
  rfl

/-- The deviation from the mean that the variance squares. -/
theorem dev2 (n : Fin 100000) (j : Fin 64) :
    (val_main_v116 (F := Ideal) x0 x1 x3 x4 x5 x6 x7 x8 : S100000x64.Idx → EReal) (ix2 n j)
      = (val_main_v110 (F := Ideal) x0 x1 x3 x4 x5 x6 x7 x8 : S100000x64.Idx → EReal) (ix2 n j)
        - Cert.Spec.muR (fun n j => (val_main_v110 (F := Ideal) x0 x1 x3 x4 x5 x6 x7 x8 : S100000x64.Idx → EReal) (ix2 n j)) j := by
  rw [val_main_v116_apply, val_main_v115_apply, val_main_v114_apply, i115, i114, mean2]
  generalize val_main_v110 (F := Ideal) x0 x1 x3 x4 x5 x6 x7 x8 = H
  rfl

/-- A squared deviation, at the row the variance's sum reads. -/
theorem sq2 (j : Fin 64) (k : Fin 100000) :
    (val_main_v117 (F := Ideal) x0 x1 x3 x4 x5 x6 x7 x8 : S100000x64.Idx → EReal) (idx_main_v118 (ix1 j) k)
      = ((val_main_v110 (F := Ideal) x0 x1 x3 x4 x5 x6 x7 x8 : S100000x64.Idx → EReal) (ix2 k j)
          - Cert.Spec.muR (fun n j => (val_main_v110 (F := Ideal) x0 x1 x3 x4 x5 x6 x7 x8 : S100000x64.Idx → EReal) (ix2 n j)) j)
        * ((val_main_v110 (F := Ideal) x0 x1 x3 x4 x5 x6 x7 x8 : S100000x64.Idx → EReal) (ix2 k j)
          - Cert.Spec.muR (fun n j => (val_main_v110 (F := Ideal) x0 x1 x3 x4 x5 x6 x7 x8 : S100000x64.Idx → EReal) (ix2 n j)) j) := by
  rw [i118, val_main_v117_apply, dev2]
  generalize val_main_v110 (F := Ideal) x0 x1 x3 x4 x5 x6 x7 x8 = H
  rfl

/-- The column variance of the second layer's activations. -/
theorem var2 (j : Fin 64) :
    (val_main_v120 (F := Ideal) x0 x1 x3 x4 x5 x6 x7 x8 : S64.Idx → EReal) (ix1 j)
      = Cert.Spec.varR (fun n j => (val_main_v110 (F := Ideal) x0 x1 x3 x4 x5 x6 x7 x8 : S100000x64.Idx → EReal) (ix2 n j)) j := by
  rw [val_main_v120_apply, val_main_v118_apply, val_main_v119_apply, val_main_cst_23_apply, val_main_cst_24_apply,
    Finset.sum_congr rfl (fun k _ => sq2 x0 x1 x3 x4 x5 x6 x7 x8 j k)]
  generalize val_main_v110 (F := Ideal) x0 x1 x3 x4 x5 x6 x7 x8 = H
  rfl

/-- The deviation from the mean that is normalised. -/
theorem dev2' (n : Fin 100000) (j : Fin 64) :
    (val_main_v123 (F := Ideal) x0 x1 x3 x4 x5 x6 x7 x8 : S100000x64.Idx → EReal) (ix2 n j)
      = (val_main_v110 (F := Ideal) x0 x1 x3 x4 x5 x6 x7 x8 : S100000x64.Idx → EReal) (ix2 n j)
        - Cert.Spec.muR (fun n j => (val_main_v110 (F := Ideal) x0 x1 x3 x4 x5 x6 x7 x8 : S100000x64.Idx → EReal) (ix2 n j)) j := by
  rw [val_main_v123_apply, val_main_v122_apply, val_main_v121_apply, i122, i121, mean2]
  generalize val_main_v110 (F := Ideal) x0 x1 x3 x4 x5 x6 x7 x8 = H
  rfl

/-- The reciprocal square root of the variance plus epsilon, broadcast down the rows. -/
theorem rstd2 (n : Fin 100000) (j : Fin 64) :
    (val_main_v128 (F := Ideal) x0 x1 x3 x4 x5 x6 x7 x8 : S100000x64.Idx → EReal) (ix2 n j)
      = Ideal.rsqrt (Cert.Spec.varR (fun n j => (val_main_v110 (F := Ideal) x0 x1 x3 x4 x5 x6 x7 x8 : S100000x64.Idx → EReal) (ix2 n j)) j
          + Cert.Spec.ceps) := by
  rw [val_main_v128_apply, val_main_v127_apply, i128, i127, val_main_v126_apply, val_main_v125_apply, var2, val_main_v124_apply,
    val_main_cst_25_apply]
  generalize val_main_v110 (F := Ideal) x0 x1 x3 x4 x5 x6 x7 x8 = H
  rfl

/-- The gain, broadcast down the rows. -/
theorem gain2 (n : Fin 100000) (j : Fin 64) :
    (val_main_v131 (F := Ideal) x9 : S100000x64.Idx → EReal) (ix2 n j) = (x9 : S64.Idx → EReal) (ix1 j) := by
  rw [val_main_v131_apply, val_main_v130_apply, i131, i130]

/-- The offset, broadcast down the rows. -/
theorem offs2 (n : Fin 100000) (j : Fin 64) :
    (val_main_v134 (F := Ideal) x10 : S100000x64.Idx → EReal) (ix2 n j) = (x10 : S64.Idx → EReal) (ix1 j) := by
  rw [val_main_v134_apply, val_main_v133_apply, i134, i133]

/-- BATCH NORMALISATION 2 at an index. -/
theorem ref_bn2 (n : Fin 100000) (j : Fin 64) :
    (val_main_v135 (F := Ideal) x0 x1 x3 x4 x5 x6 x7 x8 x9 x10 : S100000x64.Idx → EReal) (ix2 n j)
      = Cert.Spec.bn (fun n j => (val_main_v110 (F := Ideal) x0 x1 x3 x4 x5 x6 x7 x8 : S100000x64.Idx → EReal) (ix2 n j))
          (Cert.Spec.muR (fun n j => (val_main_v110 (F := Ideal) x0 x1 x3 x4 x5 x6 x7 x8 : S100000x64.Idx → EReal) (ix2 n j)))
          (Cert.Spec.varR (fun n j => (val_main_v110 (F := Ideal) x0 x1 x3 x4 x5 x6 x7 x8 : S100000x64.Idx → EReal) (ix2 n j)))
          (fun j => (x9 : S64.Idx → EReal) (ix1 j)) (fun j => (x10 : S64.Idx → EReal) (ix1 j)) n j := by
  rw [val_main_v135_apply, val_main_v132_apply, val_main_v129_apply, dev2', rstd2, gain2, offs2]
  generalize val_main_v110 (F := Ideal) x0 x1 x3 x4 x5 x6 x7 x8 = H
  rfl

/-! ## The whole result -/

/-- THE PLAIN PROGRAM'S RESULT from its two layers' activations: the first normalisation turns the first layer into the
    specification's normalised first layer, the second layer then is the specification's second layer, its normalisation
    the specification's, and the pooled sums and the tail are those of the specification. -/
theorem ref_value_of (m : (ℓ : Loc nD τ sig) → Buf (Elt Ideal) ℓ) (c : Dev nD)
    (h1 : ∀ (n : Fin 100000) (j : Fin 64), (val_main_v44 (F := Ideal) (m ((c.tc : Thread nD τ).loc main_arg0)) (m ((c.tc : Thread nD τ).loc main_arg1)) (m ((c.tc : Thread nD τ).loc main_arg3)) (m ((c.tc : Thread nD τ).loc main_arg4)) : S100000x64.Idx → EReal) (ix2 n j) = Cert.Spec.h1R (argsR m c) n j)
    (h2 : ∀ (n : Fin 100000) (j : Fin 64), (val_main_v110 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) : S100000x64.Idx → EReal) (ix2 n j)
        = Cert.Spec.actR (argsR m c) (Cert.Spec.proj (fun n k => (val_main_v69 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) : S100000x64.Idx → EReal) (ix2 n k)) (argsR m c).W2) (argsR m c).b2 n j)
    (g : Fin 64) :
    (Cert.ReferenceIdeal.Value.res_main_v171 (F := Ideal) m c : S64x1.Idx → EReal) (ix2 g (0 : Fin 1)) = Cert.Spec.RSpec (argsR m c) g := by
  have e1 : (fun (n : Fin 100000) (j : Fin 64) => (val_main_v44 (F := Ideal) _ _ _ _ : S100000x64.Idx → EReal) (ix2 n j))
      = Cert.Spec.h1R (argsR m c) := funext fun n => funext fun j => h1 n j
  have e69 : (fun (n : Fin 100000) (k : Fin 64) => (val_main_v69 (F := Ideal) _ _ _ _ _ _ : S100000x64.Idx → EReal) (ix2 n k))
      = Cert.Spec.bn1R (argsR m c) :=
    funext fun n => funext fun k => (ref_bn1 _ _ _ _ _ _ n k).trans (by rw [e1]; rfl)
  have e2 : (fun (n : Fin 100000) (j : Fin 64) => (val_main_v110 (F := Ideal) _ _ _ _ _ _ _ _ : S100000x64.Idx → EReal) (ix2 n j))
      = Cert.Spec.h2R (argsR m c) :=
    funext fun n => funext fun j => (h2 n j).trans (by rw [e69]; rfl)
  have e135 : ∀ (n : Fin 100000) (j : Fin 64),
      (val_main_v135 (F := Ideal) _ _ _ _ _ _ _ _ _ _ : S100000x64.Idx → EReal) (ix2 n j) = Cert.Spec.bn2R (argsR m c) n j :=
    fun n j => (ref_bn2 _ _ _ _ _ _ _ _ _ _ n j).trans (by rw [e2]; rfl)
  rw [Read.val_main_v171_eq]
  refine (ref_tail _ _ _ _ _ _ _ _ _ _ _ _ _ _ _ _ _ _ _ _ _ g).trans ?_
  show Cert.Spec.tail (argsR m c) _ g = Cert.Spec.tail (argsR m c) (Cert.Spec.poolR (argsR m c)) g
  refine congrArg (fun P => Cert.Spec.tail (argsR m c) P g) (funext fun g' => funext fun j => ?_)
  refine congrArg (fun s => Cert.Spec.c0 + s) (Finset.sum_congr rfl fun n _ => ?_)
  rw [e135 n j]
  rfl

/-- THE PLAIN PROGRAM'S RESULT IS THE SPECIFICATION'S PLAIN FORM. -/
theorem ref_value (m : (ℓ : Loc nD τ sig) → Buf (Elt Ideal) ℓ) (c : Dev nD) (g : Fin 64) :
    (Cert.ReferenceIdeal.Value.res_main_v171 (F := Ideal) m c : S64x1.Idx → EReal) (ix2 g (0 : Fin 1)) = Cert.Spec.RSpec (argsR m c) g :=
  ref_value_of m c (ref_h1 m c) (ref_h2 m c) g

end Cert.ReferenceIdeal.RVal

end
-- ==== Proof.lean ====
/-
  The kernel and its reference compute one function of their arguments over the extended reals.

  The kernel: a two-layer graph convolution network in five tiled pallas_calls (a row-tiled projection; the degree
  scaling, bias, positive part and per-core column sums and sums of squares; batch normalisation fused into the next
  projection; the same again; batch normalisation fused into a one-hot pooling product accumulated per core) among
  stretches of host operations (the degrees, the edge gather and scatter sum, the column statistics, the dense tail).
  The reference: the same network written plainly, the self loops appended to the edge list, each message scaled by
  both degree factors, the variance as the mean of squared deviations, the pooling as a scatter sum.

  Both results are read as functions of the arguments (the tiled form and the plain form of the specification); the
  two forms agree because a nonnegative real factor moves out of a finite sum of extended reals, because on real
  columns the mean of squares less the squared mean is the mean of the squared deviations and is not negative, and
  because summing tile by tile visits every row once. Finiteness of the float arguments is used for the variance only.
-/
import proofs.«412438_j20864951124557_2_alg».proof.Defs
import proofs.«412438_j20864951124557_2_alg».proof.Proof.Gen.Kernel
import proofs.«412438_j20864951124557_2_alg».proof.Proof.Gen.Kernel.Skeleton
import proofs.«412438_j20864951124557_2_alg».proof.Proof.Gen.Kernel.Launch
import proofs.«412438_j20864951124557_2_alg».proof.Proof.Gen.Kernel.Points
import proofs.«412438_j20864951124557_2_alg».proof.Proof.Gen.Kernel.Frame
import proofs.«412438_j20864951124557_2_alg».proof.Proof.Gen.KernelIdeal
import proofs.«412438_j20864951124557_2_alg».proof.Proof.Gen.KernelIdeal.Skeleton
import proofs.«412438_j20864951124557_2_alg».proof.Proof.Gen.KernelIdeal.Launch
import proofs.«412438_j20864951124557_2_alg».proof.Proof.Gen.KernelIdeal.Points
import proofs.«412438_j20864951124557_2_alg».proof.Proof.Gen.KernelIdeal.Frame
import proofs.«412438_j20864951124557_2_alg».proof.Proof.Gen.ReferenceIdeal
import proofs.«412438_j20864951124557_2_alg».proof.Proof.Gen.ReferenceIdeal.Run
import proofs.«412438_j20864951124557_2_alg».proof.Proof.Gen.Pre_finite_inputs
import proofs.«412438_j20864951124557_2_alg».proof.Proof.KRun
import proofs.«412438_j20864951124557_2_alg».proof.Proof.KChain
import proofs.«412438_j20864951124557_2_alg».proof.Proof.PreFinite
import proofs.«412438_j20864951124557_2_alg».proof.Proof.Math2
import proofs.«412438_j20864951124557_2_alg».proof.Proof.RValB
import Idealize.ShloMosaic.Adequacy
import Idealize.ShloMosaic.Init

noncomputable section

namespace Cert.Proof

open Idealize.ShloMosaic Idealize.ShloMosaic.TcCoe Idealize.ShloMosaic.ValueIdx Idealize.SL.Sem

/-- An index of a one-column array is its row and the one column. -/
theorem idx_col (i : (⟨2, ![64, 1]⟩ : Shape).Idx) : ∃ g : Fin 64, i = ix2 g (0 : Fin 1) :=
  ⟨i 0, (eq_ix2 i).trans (congrArg (ix2 (i 0)) (Fin.ext (by
    show (i 1).val = 0
    have h : (i 1).val < 1 := (i 1).isLt
    omega)))⟩

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- At the ideal values the kernel's result buffer ends at the tiled form of the arguments and the reference's at the
    plain form of arguments that agree; on finite float arguments the two forms are equal. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Gen.W21 m ρ c (Proc.devRef .tc Cert.KernelIdeal.main_v103),
    Cert.KernelIdeal.KRun.run_result m ρ, ?_⟩
  refine (θ_run Cert.ReferenceIdeal.defs _ _).mono (fun _ h c => ⟨(h c).1.trans ?_, (h c).2⟩)
    (Cert.ReferenceIdeal.Value.run (F := Ideal) m' ρ')
  have ha : Cert.ReferenceIdeal.argsR m' c = Cert.KernelIdeal.argsK m c := by
    obtain ⟨h0, h1, h2, h3, h4, h5, h6, h7, h8, h9, h10, h11, h12, h13, h14, h15, h16, h17, h18, h19, h20⟩ := hagree c
    unfold Cert.ReferenceIdeal.argsR Cert.KernelIdeal.argsK
    rw [h0, h1, h2, h3, h4, h5, h6, h7, h8, h9, h10, h11, h12, h13, h14, h15, h16, h17, h18, h19, h20]
  show (Cert.ReferenceIdeal.Value.res_main_v171 (F := Ideal) m' c : (⟨2, ![64, 1]⟩ : Shape).Idx → EReal)
    = (Cert.KernelIdeal.Gen.W21 m ρ c (Proc.devRef .tc Cert.KernelIdeal.main_v103) : (⟨2, ![64, 1]⟩ : Shape).Idx → EReal)
  funext i
  obtain ⟨g, rfl⟩ := idx_col i
  exact (Cert.ReferenceIdeal.RVal.ref_value m' c g).trans
    ((congrArg (fun a => Cert.Spec.RSpec a g) ha).trans
      ((Cert.Spec.spec_eq _ (Cert.KernelIdeal.KVal.finite_of_pre m hpre c) g).symm.trans
        (Cert.KernelIdeal.KVal.kernel_value m ρ c g).symm))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
